-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩
abbrev S1x1600000 : Shape := ⟨2, ![1, 1600000]⟩
abbrev S1600000 : Shape := ⟨1, ![1600000]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg1 : IVec S2x1600000 32) (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : IVec S1x1600000 32 := (extractStridedSlice S1x1600000 ![0, 0] · slices_S2x1600000_S1x1600000_0_0) main_arg1
  let main_v25 : IVec S1600000 32 := shapeCast S1600000 main_v24 shapeCasts_S1x1600000_S1600000
  let main_c_8 : IVec S_ 32 := constantI S_ 32 0#32
  let main_v26 : IVec S1600000 32 := broadcastInDim S1600000 ![] bcast_S_S1600000 main_c_8
  let main_v27 : IVec S1600000 1 := cmpi .sge main_v25 main_v26
  let main_v28 : IVec S1x1600000 32 := (extractStridedSlice S1x1600000 ![0, 0] · slices_S2x1600000_S1x1600000_0_0) main_arg1
  let main_v29 : IVec S1600000 32 := shapeCast S1600000 main_v28 shapeCasts_S1x1600000_S1600000
  let main_c_9 : IVec S_ 32 := constantI S_ 32 100000#32
  let main_v30 : IVec S1600000 32 := broadcastInDim S1600000 ![] bcast_S_S1600000 main_c_9
  let main_v31 : IVec S1600000 1 := cmpi .slt main_v29 main_v30
  let main_v32 : IVec S1600000 1 := andi main_v27 main_v31
  let main_c_10 : IVec S_ 1 := constantI S_ 1 1#1
  let main_v33 : IVec S_ 1 := (fun x v => Host.reduce IntOp.andi x v reducesTo_S1600000_S_d0 h_S_) main_v32 main_c_10
  let main_v34 : IVec S_ 1 := andi main_v23 main_v33
  main_v34

def fn {F : FTy → Type} [FloatOps F] (main_arg0 : FVec F S100000x256 .f32) (main_arg1 : IVec S2x1600000 32) (main_arg2 : FVec F S256x128 .f32) (main_arg3 : FVec F S128 .f32) (main_arg4 : FVec F S128x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1888 : Shape := ⟨1, ![1888]⟩
abbrev S1701888 : Shape := ⟨1, ![1701888]⟩
abbrev S1701888x1 : Shape := ⟨2, ![1701888, 1]⟩
abbrev S1x1701888 : Shape := ⟨2, ![1, 1701888]⟩
abbrev S100000x128 : Shape := ⟨2, ![100000, 128]⟩
abbrev S2000x256 : Shape := ⟨2, ![2000, 256]⟩
abbrev S2000x128 : Shape := ⟨2, ![2000, 128]⟩
abbrev S1701888x128 : Shape := ⟨2, ![1701888, 128]⟩
abbrev S2048x1 : Shape := ⟨2, ![2048, 1]⟩
abbrev S2048x128 : Shape := ⟨2, ![2048, 128]⟩
abbrev S1x2000 : Shape := ⟨2, ![1, 2000]⟩
abbrev S2048x2000 : Shape := ⟨2, ![2048, 2000]⟩
abbrev S1x128 : Shape := ⟨2, ![1, 128]⟩
abbrev S1x2048 : Shape := ⟨2, ![1, 2048]⟩
abbrev S2000x1 : Shape := ⟨2, ![2000, 1]⟩
abbrev S2000x2048 : Shape := ⟨2, ![2000, 2048]⟩
abbrev S100000x64 : Shape := ⟨2, ![100000, 64]⟩
abbrev S2000x64 : Shape := ⟨2, ![2000, 64]⟩
abbrev S1701888x64 : Shape := ⟨2, ![1701888, 64]⟩
abbrev S2048x64 : Shape := ⟨2, ![2048, 64]⟩
abbrev S1x64 : Shape := ⟨2, ![1, 64]⟩

abbrev nBuf : Space → Nat
  | .hbm => 66
  | .vmem => 44
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S_, .i32⟩
  | .hbm, ⟨47, _⟩ => ⟨S1888, .i32⟩
  | .hbm, ⟨48, _⟩ => ⟨S1701888, .i32⟩
  | .hbm, ⟨49, _⟩ => ⟨S_, .i32⟩
  | .hbm, ⟨50, _⟩ => ⟨S1888, .i32⟩
  | .hbm, ⟨51, _⟩ => ⟨S1701888, .i32⟩
  | .hbm, ⟨52, _⟩ => ⟨S_, .f32⟩
  | .hbm, ⟨53, _⟩ => ⟨S1888, .f32⟩
  | .hbm, ⟨54, _⟩ => ⟨S1701888, .f32⟩
  | .hbm, ⟨55, _⟩ => ⟨S1701888x1, .i32⟩
  | .hbm, ⟨56, _⟩ => ⟨S1x1701888, .i32⟩
  | .hbm, ⟨57, _⟩ => ⟨S1701888x1, .f32⟩
  | .hbm, ⟨58, _⟩ => ⟨S100000x128, .f32⟩
  | .hbm, ⟨59, _⟩ => ⟨S1701888x128, .f32⟩
  | .hbm, ⟨60, _⟩ => ⟨S1x128, .f32⟩
  | .hbm, ⟨61, _⟩ => ⟨S100000x128, .f32⟩
  | .hbm, ⟨62, _⟩ => ⟨S100000x64, .f32⟩
  | .hbm, ⟨63, _⟩ => ⟨S1701888x64, .f32⟩
  | .hbm, ⟨64, _⟩ => ⟨S1x64, .f32⟩
  | .hbm, ⟨65, _⟩ => ⟨S100000x64, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2048x1, .i32⟩
  | .local _ .vmem, ⟨6, _⟩ => ⟨S2048x1, .i32⟩
  | .local _ .vmem, ⟨7, _⟩ => ⟨S2048x1, .f32⟩
  | .local _ .vmem, ⟨8, _⟩ => ⟨S2048x1, .f32⟩
  | .local _ .vmem, ⟨9, _⟩ => ⟨S2000x128, .f32⟩
  | .local _ .vmem, ⟨10, _⟩ => ⟨S2000x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S1x2048, .i32⟩
  | .local _ .vmem, ⟨15, _⟩ => ⟨S1x2048, .i32⟩
  | .local _ .vmem, ⟨16, _⟩ => ⟨S2048x128, .f32⟩
  | .local _ .vmem, ⟨17, _⟩ => ⟨S2048x128, .f32⟩
  | .local _ .vmem, ⟨18, _⟩ => ⟨S1x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x64, .f32⟩
  | .local _ .vmem, ⟨25, _⟩ => ⟨S2000x64, .f32⟩
  | .local _ .vmem, ⟨26, _⟩ => ⟨S2000x64, .f32⟩
  | .local _ .vmem, ⟨27, _⟩ => ⟨S2048x1, .i32⟩
  | .local _ .vmem, ⟨28, _⟩ => ⟨S2048x1, .i32⟩
  | .local _ .vmem, ⟨29, _⟩ => ⟨S2048x1, .f32⟩
  | .local _ .vmem, ⟨30, _⟩ => ⟨S2048x1, .f32⟩
  | .local _ .vmem, ⟨31, _⟩ => ⟨S2000x64, .f32⟩
  | .local _ .vmem, ⟨32, _⟩ => ⟨S2000x64, .f32⟩
  | .local _ .vmem, ⟨33, _⟩ => ⟨S2048x64, .f32⟩
  | .local _ .vmem, ⟨34, _⟩ => ⟨S2048x64, .f32⟩
  | .local _ .vmem, ⟨35, _⟩ => ⟨S2048x64, .f32⟩
  | .local _ .vmem, ⟨36, _⟩ => ⟨S1x2048, .i32⟩
  | .local _ .vmem, ⟨37, _⟩ => ⟨S1x2048, .i32⟩
  | .local _ .vmem, ⟨38, _⟩ => ⟨S2048x64, .f32⟩
  | .local _ .vmem, ⟨39, _⟩ => ⟨S2048x64, .f32⟩
  | .local _ .vmem, ⟨40, _⟩ => ⟨S1x64, .f32⟩
  | .local _ .vmem, ⟨41, _⟩ => ⟨S2000x64, .f32⟩
  | .local _ .vmem, ⟨42, _⟩ => ⟨S2000x64, .f32⟩
  | .local _ .vmem, ⟨43, _⟩ => ⟨S2000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc4_scratch0 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg3_1 : Ref sig .tc := ⟨.vmem, 42, rfl⟩
abbrev cc5_scratch0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc4_sem3_0 : DmaSem sig := 31
abbrev cc4_sem3_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem3_0 : DmaSem sig := 38
abbrev cc5_sem3_1 : DmaSem sig := 39

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![831, 50], ![false, false]⟩

def k1_cond2 (i : grid1.Coords) : BitVec 1 :=
  let arg1 : BitVec 32 := BitVec.ofNat 32 (i 1).val
  let c49_i32 : BitVec 32 := 49#32
  let v25 : BitVec 1 := Scalar.cmpi .eq arg1 c49_i32
  let v26 : BitVec 32 := Scalar.extui v25
  let c0_i32_10 : BitVec 32 := 0#32
  let v27 : BitVec 1 := Scalar.cmpi .ne v26 c0_i32_10
  v27

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![50, 831], ![false, false]⟩

def k2_cond2 (i : grid2.Coords) : BitVec 1 :=
  let arg1 : BitVec 32 := BitVec.ofNat 32 (i 1).val
  let c830_i32 : BitVec 32 := 830#32
  let v25 : BitVec 1 := Scalar.cmpi .eq arg1 c830_i32
  let v26 : BitVec 32 := Scalar.extui v25
  let c0_i32_10 : BitVec 32 := 0#32
  let v27 : BitVec 1 := Scalar.cmpi .ne v26 c0_i32_10
  v27

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x2048 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![831, 50], ![false, false]⟩

def k4_cond2 (i : grid4.Coords) : BitVec 1 :=
  let arg1 : BitVec 32 := BitVec.ofNat 32 (i 1).val
  let c49_i32 : BitVec 32 := 49#32
  let v25 : BitVec 1 := Scalar.cmpi .eq arg1 c49_i32
  let v26 : BitVec 32 := Scalar.extui v25
  let c0_i32_10 : BitVec 32 := 0#32
  let v27 : BitVec 1 := Scalar.cmpi .ne v26 c0_i32_10
  v27

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S2048x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S2048x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![50, 831], ![false, false]⟩

def k5_cond2 (i : grid5.Coords) : BitVec 1 :=
  let arg1 : BitVec 32 := BitVec.ofNat 32 (i 1).val
  let c830_i32 : BitVec 32 := 830#32
  let v25 : BitVec 1 := Scalar.cmpi .eq arg1 c830_i32
  let v26 : BitVec 32 := Scalar.extui v25
  let c0_i32_10 : BitVec 32 := 0#32
  let v27 : BitVec 1 := Scalar.cmpi .ne v26 c0_i32_10
  v27

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1x2048 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S2048x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S2000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1888 : S_.BroadcastsInDim S1888 (![] : Fin 0 → Fin S1888.rank)
  concatenates_S1700000_S1888_S1701888_d0 : Shape.Concatenates [S1700000, S1888] S1701888 0
  shapeCasts_S1701888_S1701888x1 : S1701888.ShapeCasts S1701888x1
  shapeCasts_S1701888_S1x1701888 : S1701888.ShapeCasts S1x1701888
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  iota_S1x2000_d1_w32 : S1x2000.Iotas .tc 32 [1]
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x2000 : S2048x1.Broadcasts S2048x2000
  broadcasts_S1x2000_S2048x2000 : S1x2000.Broadcasts S2048x2000
  shapeCasts_S2000x128_S2000x128 : S2000x128.ShapeCasts S2000x128
  broadcasts_S2048x1_S2048x128 : S2048x1.Broadcasts S2048x128
  shapeCasts_S128_S1x128 : S128.ShapeCasts S1x128
  iota_S2000x1_d0_w32 : S2000x1.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S2000x1_S2000x2048 : S2000x1.Broadcasts S2000x2048
  broadcasts_S1x2048_S2000x2048 : S1x2048.Broadcasts S2000x2048
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  shapeCasts_S2000x64_S2000x64 : S2000x64.ShapeCasts S2000x64
  broadcasts_S2048x1_S2048x64 : S2048x1.Broadcasts S2048x64
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x256_S256x128_S2000x128_1_0_0_1_n_n_wf : DotDims.WF S2000x256 S256x128 S2000x128 [1] [0] [0] [1] [] []
  dot_S2048x2000_S2000x128_S2048x128_1_0_0_1_n_n_wf : DotDims.WF S2048x2000 S2000x128 S2048x128 [1] [0] [0] [1] [] []
  dot_S2000x2048_S2048x128_S2000x128_1_0_0_1_n_n_wf : DotDims.WF S2000x2048 S2048x128 S2000x128 [1] [0] [0] [1] [] []
  dot_S2000x128_S128x64_S2000x64_1_0_0_1_n_n_wf : DotDims.WF S2000x128 S128x64 S2000x64 [1] [0] [0] [1] [] []
  dot_S2048x2000_S2000x64_S2048x64_1_0_0_1_n_n_wf : DotDims.WF S2048x2000 S2000x64 S2048x64 [1] [0] [0] [1] [] []
  dot_S2000x2048_S2048x64_S2000x64_1_0_0_1_n_n_wf : DotDims.WF S2000x2048 S2048x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1.size a ≤ S1701888x1.size a
  hwx1_0 : ∀ i : grid1.Coords, EltTy.bits .i32 = 32 ∨ (Rect.block (s := S1701888x1) S2048x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S1701888x1.size a
  hwx1_1 : ∀ i : grid1.Coords, EltTy.bits .f32 = 32 ∨ (Rect.block (s := S1701888x1) S2048x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S1701888x128.size a
  hwx1_3 : ∀ i : grid1.Coords, EltTy.bits .f32 = 32 ∨ (Rect.block (s := S1701888x128) S2048x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048.size a ≤ S1x1701888.size a
  hwx2_0 : ∀ i : grid2.Coords, EltTy.bits .i32 = 32 ∨ (Rect.block (s := S1x1701888) S1x2048.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S1701888x128.size a
  hwx2_1 : ∀ i : grid2.Coords, EltTy.bits .f32 = 32 ∨ (Rect.block (s := S1701888x128) S2048x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x1.size a ≤ S1701888x1.size a
  hwx4_0 : ∀ i : grid4.Coords, EltTy.bits .i32 = 32 ∨ (Rect.block (s := S1701888x1) S2048x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x1.size a ≤ S1701888x1.size a
  hwx4_1 : ∀ i : grid4.Coords, EltTy.bits .f32 = 32 ∨ (Rect.block (s := S1701888x1) S2048x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S100000x64.size a
  hwx4_2 : ∀ i : grid4.Coords, EltTy.bits .f32 = 32 ∨ (Rect.block (s := S100000x64) S2000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x64.size a ≤ S1701888x64.size a
  hwx4_3 : ∀ i : grid4.Coords, EltTy.bits .f32 = 32 ∨ (Rect.block (s := S1701888x64) S2048x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x2048.size a ≤ S1x1701888.size a
  hwx5_0 : ∀ i : grid5.Coords, EltTy.bits .i32 = 32 ∨ (Rect.block (s := S1x1701888) S1x2048.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x64.size a ≤ S1701888x64.size a
  hwx5_1 : ∀ i : grid5.Coords, EltTy.bits .f32 = 32 ∨ (Rect.block (s := S1701888x64) S2048x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x64.size a ≤ S100000x64.size a
  hwx5_3 : ∀ i : grid5.Coords, EltTy.bits .f32 = 32 ∨ (Rect.block (s := S100000x64) S2000x64.size (cc5_transform_3 i) (hinb5_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2048x2000_S2000x128_S2048x128_1_0_0_1_n_n : DotDims S2048x2000 S2000x128 S2048x128 where
  lhsContracting := [1]
  rhsContracting := [0]
  lhsNonContracting := [0]
  rhsNonContracting := [1]
  lhsBatch := []
  rhsBatch := []
  wf := dot_S2048x2000_S2000x128_S2048x128_1_0_0_1_n_n_wf
def dot_S2000x2048_S2048x128_S2000x128_1_0_0_1_n_n : DotDims S2000x2048 S2048x128 S2000x128 where
  lhsContracting := [1]
  rhsContracting := [0]
  lhsNonContracting := [0]
  rhsNonContracting := [1]
  lhsBatch := []
  rhsBatch := []
  wf := dot_S2000x2048_S2048x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2048x2000_S2000x64_S2048x64_1_0_0_1_n_n : DotDims S2048x2000 S2000x64 S2048x64 where
  lhsContracting := [1]
  rhsContracting := [0]
  lhsNonContracting := [0]
  rhsNonContracting := [1]
  lhsBatch := []
  rhsBatch := []
  wf := dot_S2048x2000_S2000x64_S2048x64_1_0_0_1_n_n_wf
def dot_S2000x2048_S2048x64_S2000x64_1_0_0_1_n_n : DotDims S2000x2048 S2048x64 S2000x64 where
  lhsContracting := [1]
  rhsContracting := [0]
  lhsNonContracting := [0]
  rhsNonContracting := [1]
  lhsBatch := []
  rhsBatch := []
  wf := dot_S2000x2048_S2048x64_S2000x64_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v36) S2048x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v37) S1x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v42) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v36) S2048x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v38) S2048x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v43) S2000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v44) S2048x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v37) S1x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v44) S2048x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v45) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v46) S2000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S1700000x1, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x64, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KB.Sched0.lean ====
import proofs.«158984_j43568148250937_1_alg».proof.Proof.Gen.Kernel.Launch
import Idealize.ShloMosaic.Lib.Pipeline.Kit

noncomputable section

namespace Cert.Kernel.Gen

open Idealize.ShloMosaic Idealize.ShloMosaic.TcCoe
open Idealize.SL Idealize.SL.Sem

variable {F : FTy → Type} [FloatOps F]

/-! # Region 0's schedule: a grid of 50 points, one block of 2000 rows each. Windows 0 (the rows) and 2 (the output) sit at block `t`;
    window 1 (the weights) is the one whole block. The output's block index changes at every point, so every point writes it back. -/

theorem coord0_0 (t : Fin grid0.N) : ((grid0.coords t) 0).val = t.val := by
  show t.val / grid0.stride 0 % grid0.bound 0 = _
  have h1 : grid0.stride 0 = 1 := by decide
  have h2 : grid0.bound 0 = 50 := rfl
  have hN : grid0.N = 50 := N_0
  have := t.isLt
  rw [h1, h2, Nat.div_one, Nat.mod_eq_of_lt (by omega)]

theorem index0_0 (t : Fin grid0.N) : win0_0.index t = ![t.val, 0] := by
  unfold Pipeline.Window.index
  show cc0_transform_0 (grid0.coords t) = _
  unfold cc0_transform_0
  simp only [coord0_0, BitVec.toNat_ofNat]
  have hN : grid0.N = 50 := N_0
  have := t.isLt
  rw [Nat.mod_eq_of_lt (by omega : t.val < 2 ^ 32)]

theorem index0_1 (t : Fin grid0.N) : win0_1.index t = ![0, 0] := by
  unfold Pipeline.Window.index
  show cc0_transform_1 (grid0.coords t) = _
  unfold cc0_transform_1
  rfl

theorem index0_2 (t : Fin grid0.N) : win0_2.index t = ![t.val, 0] := by
  unfold Pipeline.Window.index
  show cc0_transform_2 (grid0.coords t) = _
  unfold cc0_transform_2
  simp only [coord0_0, BitVec.toNat_ofNat]
  have hN : grid0.N = 50 := N_0
  have := t.isLt
  rw [Nat.mod_eq_of_lt (by omega : t.val < 2 ^ 32)]

/-- Window 2 (the output) is written back at every point. -/
theorem flush0_2 : ∀ t : Fin cfg0.N, (cfg0.win 2).flush t = true := by
  intro t
  show win0_2.flush t = true
  have hN : grid0.N = 50 := N_0
  have ht : t.val < grid0.N := t.isLt
  unfold Pipeline.Window.flush
  have hout : win0_2.isOut = true := rfl
  simp only [hout, Bool.true_and, Bool.or_eq_true, decide_eq_true_eq]
  by_cases hl : t.val + 1 = grid0.N
  · exact Or.inl hl
  · refine Or.inr ⟨by omega, ?_⟩
    rw [index0_2, index0_2]
    intro he
    have e0 := congrFun he 0
    have e1 : t.val + 1 = t.val := e0
    omega

/-- The current staging memref of each window at point `t`: which of its buffers it is on. -/
abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)

/-- The kernel body at point `t`, on what the pipeline calls it with. -/
abbrev bodyAt0 (t : Fin cfg0.N) : Prog (TpuEff nD τ sig (Elt F) Λ₀ .tc) PUnit :=
  cc0__linear_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))

end Cert.Kernel.Gen

end
-- ==== Proof.KB.Sched1.lean ====
import proofs.«158984_j43568148250937_1_alg».proof.Proof.Gen.Kernel.Launch
import Idealize.ShloMosaic.Lib.Pipeline.Kit

noncomputable section

namespace Cert.Kernel.Gen

open Idealize.ShloMosaic Idealize.ShloMosaic.TcCoe
open Idealize.SL Idealize.SL.Sem

variable {F : FTy → Type} [FloatOps F]

/-! # Region 1's schedule: the grid is (831 edge blocks, 50 node blocks), row-major, so point `t` is edge block `t / 50`, node block `t % 50`.
    Windows 0, 1 (the edges' indices and weights) and 3 (the output) sit at the edge block; window 2 (the table) at the node block. The output's block
    index changes exactly after a point with node block 49, which is where it is written back. All of it arithmetic in `t`. -/

theorem coord1_0 (t : Fin grid1.N) : ((grid1.coords t) 0).val = t.val / 50 % 831 := by
  show t.val / grid1.stride 0 % grid1.bound 0 = _
  have h1 : grid1.stride 0 = 50 := by decide
  have h2 : grid1.bound 0 = 831 := rfl
  rw [h1, h2]

theorem coord1_1 (t : Fin grid1.N) : ((grid1.coords t) 1).val = t.val % 50 := by
  show t.val / grid1.stride 1 % grid1.bound 1 = _
  have h1 : grid1.stride 1 = 1 := by decide
  have h2 : grid1.bound 1 = 50 := rfl
  rw [h1, h2, Nat.div_one]

/-- The edge block of a point, as a number below 831. -/
theorem eblk1_lt (t : Fin grid1.N) : t.val / 50 < 831 := by
  have hN : grid1.N = 41550 := N_1
  have := t.isLt
  omega

theorem index1_0 (t : Fin grid1.N) : win1_0.index t = ![t.val / 50, 0] := by
  unfold Pipeline.Window.index
  show cc1_transform_0 (grid1.coords t) = _
  unfold cc1_transform_0
  simp only [coord1_0, BitVec.toNat_ofNat]
  have h := eblk1_lt t
  rw [Nat.mod_eq_of_lt h, Nat.mod_eq_of_lt (by omega : t.val / 50 < 2 ^ 32)]

theorem index1_1 (t : Fin grid1.N) : win1_1.index t = ![t.val / 50, 0] := by
  unfold Pipeline.Window.index
  show cc1_transform_1 (grid1.coords t) = _
  unfold cc1_transform_1
  simp only [coord1_0, BitVec.toNat_ofNat]
  have h := eblk1_lt t
  rw [Nat.mod_eq_of_lt h, Nat.mod_eq_of_lt (by omega : t.val / 50 < 2 ^ 32)]

theorem index1_2 (t : Fin grid1.N) : win1_2.index t = ![t.val % 50, 0] := by
  unfold Pipeline.Window.index
  show cc1_transform_2 (grid1.coords t) = _
  unfold cc1_transform_2
  simp only [coord1_1, BitVec.toNat_ofNat]
  rw [Nat.mod_eq_of_lt (by omega : t.val % 50 < 2 ^ 32)]

theorem index1_3 (t : Fin grid1.N) : win1_3.index t = ![t.val / 50, 0] := by
  unfold Pipeline.Window.index
  show cc1_transform_3 (grid1.coords t) = _
  unfold cc1_transform_3
  simp only [coord1_0, BitVec.toNat_ofNat]
  have h := eblk1_lt t
  rw [Nat.mod_eq_of_lt h, Nat.mod_eq_of_lt (by omega : t.val / 50 < 2 ^ 32)]

/-- Window 3 (the output) is written back at the points with node block 49. -/
theorem flush1_3 : ∀ t : Fin cfg1.N, (cfg1.win 3).flush t = true ↔ t.val % 50 = 49 := by
  intro t
  show win1_3.flush t = true ↔ _
  have hN : grid1.N = 41550 := N_1
  have ht : t.val < grid1.N := t.isLt
  unfold Pipeline.Window.flush
  have hout : win1_3.isOut = true := rfl
  simp only [hout, Bool.true_and, Bool.or_eq_true, decide_eq_true_eq]
  constructor
  · rintro (h | ⟨h, hne⟩)
    · omega
    · by_contra hc
      apply hne
      rw [index1_3, index1_3]
      have e : (t.val + 1) / 50 = t.val / 50 := by omega
      show ![(t.val + 1) / 50, 0] = _
      rw [e]
  · intro h
    by_cases hl : t.val + 1 = grid1.N
    · exact Or.inl hl
    · refine Or.inr ⟨by omega, ?_⟩
      rw [index1_3, index1_3]
      intro he
      have e0 := congrFun he 0
      have e1 : (t.val + 1) / 50 = t.val / 50 := e0
      omega

/-- The current staging memref of each window at point `t`: which of its buffers it is on. -/
abbrev st1_0 (t : Fin cfg1.N) := (cfg1.win 0).stage (cfg1.slots t 0)
abbrev st1_1 (t : Fin cfg1.N) := (cfg1.win 1).stage (cfg1.slots t 1)
abbrev st1_2 (t : Fin cfg1.N) := (cfg1.win 2).stage (cfg1.slots t 2)
abbrev st1_3 (t : Fin cfg1.N) := (cfg1.win 3).stage (cfg1.slots t 3)

/-- The kernel body at point `t`, on what the pipeline calls it with. -/
abbrev bodyAt1 (t : Fin cfg1.N) : Prog (TpuEff nD τ sig (Elt F) Λ₀ .tc) PUnit :=
  cc1_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _)

end Cert.Kernel.Gen

end
-- ==== Proof.KB.Sched2.lean ====
import proofs.«158984_j43568148250937_1_alg».proof.Proof.Gen.Kernel.Launch
import Idealize.ShloMosaic.Lib.Pipeline.Kit

noncomputable section

namespace Cert.Kernel.Gen

open Idealize.ShloMosaic Idealize.ShloMosaic.TcCoe
open Idealize.SL Idealize.SL.Sem

variable {F : FTy → Type} [FloatOps F]

/-! # Region 2's schedule: the grid is (50 node blocks, 831 edge blocks), row-major, so point `t` is node block `t / 831`, edge block `t % 831`.
    Windows 0 and 1 (the edges' target words and their rows) sit at the edge block; window 2 (the bias) is the one whole block; window 3 (the output) at
    the node block. The output's block index changes exactly after a point with edge block 830, which is where it is written back. -/

theorem coord2_0 (t : Fin grid2.N) : ((grid2.coords t) 0).val = t.val / 831 % 50 := by
  show t.val / grid2.stride 0 % grid2.bound 0 = _
  have h1 : grid2.stride 0 = 831 := by decide
  have h2 : grid2.bound 0 = 50 := rfl
  rw [h1, h2]

theorem coord2_1 (t : Fin grid2.N) : ((grid2.coords t) 1).val = t.val % 831 := by
  show t.val / grid2.stride 1 % grid2.bound 1 = _
  have h1 : grid2.stride 1 = 1 := by decide
  have h2 : grid2.bound 1 = 831 := rfl
  rw [h1, h2, Nat.div_one]

/-- The node block of a point, as a number below 50. -/
theorem nblk2_lt (t : Fin grid2.N) : t.val / 831 < 50 := by
  have hN : grid2.N = 41550 := N_2
  have := t.isLt
  omega

theorem index2_0 (t : Fin grid2.N) : win2_0.index t = ![0, t.val % 831] := by
  unfold Pipeline.Window.index
  show cc2_transform_0 (grid2.coords t) = _
  unfold cc2_transform_0
  simp only [coord2_1, BitVec.toNat_ofNat]
  rw [Nat.mod_eq_of_lt (by omega : t.val % 831 < 2 ^ 32)]

theorem index2_1 (t : Fin grid2.N) : win2_1.index t = ![t.val % 831, 0] := by
  unfold Pipeline.Window.index
  show cc2_transform_1 (grid2.coords t) = _
  unfold cc2_transform_1
  simp only [coord2_1, BitVec.toNat_ofNat]
  rw [Nat.mod_eq_of_lt (by omega : t.val % 831 < 2 ^ 32)]

theorem index2_2 (t : Fin grid2.N) : win2_2.index t = ![0, 0] := by
  unfold Pipeline.Window.index
  show cc2_transform_2 (grid2.coords t) = _
  unfold cc2_transform_2
  rfl

theorem index2_3 (t : Fin grid2.N) : win2_3.index t = ![t.val / 831, 0] := by
  unfold Pipeline.Window.index
  show cc2_transform_3 (grid2.coords t) = _
  unfold cc2_transform_3
  simp only [coord2_0, BitVec.toNat_ofNat]
  have h := nblk2_lt t
  rw [Nat.mod_eq_of_lt h, Nat.mod_eq_of_lt (by omega : t.val / 831 < 2 ^ 32)]

/-- Window 3 (the output) is written back at the points with edge block 830. -/
theorem flush2_3 : ∀ t : Fin cfg2.N, (cfg2.win 3).flush t = true ↔ t.val % 831 = 830 := by
  intro t
  show win2_3.flush t = true ↔ _
  have hN : grid2.N = 41550 := N_2
  have ht : t.val < grid2.N := t.isLt
  unfold Pipeline.Window.flush
  have hout : win2_3.isOut = true := rfl
  simp only [hout, Bool.true_and, Bool.or_eq_true, decide_eq_true_eq]
  constructor
  · rintro (h | ⟨h, hne⟩)
    · omega
    · by_contra hc
      apply hne
      rw [index2_3, index2_3]
      have e : (t.val + 1) / 831 = t.val / 831 := by omega
      show ![(t.val + 1) / 831, 0] = _
      rw [e]
  · intro h
    by_cases hl : t.val + 1 = grid2.N
    · exact Or.inl hl
    · refine Or.inr ⟨by omega, ?_⟩
      rw [index2_3, index2_3]
      intro he
      have e0 := congrFun he 0
      have e1 : (t.val + 1) / 831 = t.val / 831 := e0
      omega

/-- The current staging memref of each window at point `t`: which of its buffers it is on. -/
abbrev st2_0 (t : Fin cfg2.N) := (cfg2.win 0).stage (cfg2.slots t 0)
abbrev st2_1 (t : Fin cfg2.N) := (cfg2.win 1).stage (cfg2.slots t 1)
abbrev st2_2 (t : Fin cfg2.N) := (cfg2.win 2).stage (cfg2.slots t 2)
abbrev st2_3 (t : Fin cfg2.N) := (cfg2.win 3).stage (cfg2.slots t 3)

/-- The kernel body at point `t`, on what the pipeline calls it with. -/
abbrev bodyAt2 (t : Fin cfg2.N) : Prog (TpuEff nD τ sig (Elt F) Λ₀ .tc) PUnit :=
  cc2_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (Memref.whole cc2_scratch0) (Memref.isWhole_whole _)

end Cert.Kernel.Gen

end
-- ==== Proof.KB.Sched3.lean ====
import proofs.«158984_j43568148250937_1_alg».proof.Proof.Gen.Kernel.Launch
import Idealize.ShloMosaic.Lib.Pipeline.Kit

noncomputable section

namespace Cert.Kernel.Gen

open Idealize.ShloMosaic Idealize.ShloMosaic.TcCoe
open Idealize.SL Idealize.SL.Sem

variable {F : FTy → Type} [FloatOps F]

/-! # Region 3's schedule: a grid of 50 points, one block of 2000 rows each. Windows 0 (the rows) and 2 (the output) sit at block `t`;
    window 1 (the weights) is the one whole block. The output's block index changes at every point, so every point writes it back. -/

theorem coord3_0 (t : Fin grid3.N) : ((grid3.coords t) 0).val = t.val := by
  show t.val / grid3.stride 0 % grid3.bound 0 = _
  have h1 : grid3.stride 0 = 1 := by decide
  have h2 : grid3.bound 0 = 50 := rfl
  have hN : grid3.N = 50 := N_3
  have := t.isLt
  rw [h1, h2, Nat.div_one, Nat.mod_eq_of_lt (by omega)]

theorem index3_0 (t : Fin grid3.N) : win3_0.index t = ![t.val, 0] := by
  unfold Pipeline.Window.index
  show cc3_transform_0 (grid3.coords t) = _
  unfold cc3_transform_0
  simp only [coord3_0, BitVec.toNat_ofNat]
  have hN : grid3.N = 50 := N_3
  have := t.isLt
  rw [Nat.mod_eq_of_lt (by omega : t.val < 2 ^ 32)]

theorem index3_1 (t : Fin grid3.N) : win3_1.index t = ![0, 0] := by
  unfold Pipeline.Window.index
  show cc3_transform_1 (grid3.coords t) = _
  unfold cc3_transform_1
  rfl

theorem index3_2 (t : Fin grid3.N) : win3_2.index t = ![t.val, 0] := by
  unfold Pipeline.Window.index
  show cc3_transform_2 (grid3.coords t) = _
  unfold cc3_transform_2
  simp only [coord3_0, BitVec.toNat_ofNat]
  have hN : grid3.N = 50 := N_3
  have := t.isLt
  rw [Nat.mod_eq_of_lt (by omega : t.val < 2 ^ 32)]

/-- Window 2 (the output) is written back at every point. -/
theorem flush3_2 : ∀ t : Fin cfg3.N, (cfg3.win 2).flush t = true := by
  intro t
  show win3_2.flush t = true
  have hN : grid3.N = 50 := N_3
  have ht : t.val < grid3.N := t.isLt
  unfold Pipeline.Window.flush
  have hout : win3_2.isOut = true := rfl
  simp only [hout, Bool.true_and, Bool.or_eq_true, decide_eq_true_eq]
  by_cases hl : t.val + 1 = grid3.N
  · exact Or.inl hl
  · refine Or.inr ⟨by omega, ?_⟩
    rw [index3_2, index3_2]
    intro he
    have e0 := congrFun he 0
    have e1 : t.val + 1 = t.val := e0
    omega

/-- The current staging memref of each window at point `t`: which of its buffers it is on. -/
abbrev st3_0 (t : Fin cfg3.N) := (cfg3.win 0).stage (cfg3.slots t 0)
abbrev st3_1 (t : Fin cfg3.N) := (cfg3.win 1).stage (cfg3.slots t 1)
abbrev st3_2 (t : Fin cfg3.N) := (cfg3.win 2).stage (cfg3.slots t 2)

/-- The kernel body at point `t`, on what the pipeline calls it with. -/
abbrev bodyAt3 (t : Fin cfg3.N) : Prog (TpuEff nD τ sig (Elt F) Λ₀ .tc) PUnit :=
  cc3__linear_kernel (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2))

end Cert.Kernel.Gen

end
-- ==== Proof.KB.Sched4.lean ====
import proofs.«158984_j43568148250937_1_alg».proof.Proof.Gen.Kernel.Launch
import Idealize.ShloMosaic.Lib.Pipeline.Kit

noncomputable section

namespace Cert.Kernel.Gen

open Idealize.ShloMosaic Idealize.ShloMosaic.TcCoe
open Idealize.SL Idealize.SL.Sem

variable {F : FTy → Type} [FloatOps F]

/-! # Region 4's schedule: the grid is (831 edge blocks, 50 node blocks), row-major, so point `t` is edge block `t / 50`, node block `t % 50`.
    Windows 0, 1 (the edges' indices and weights) and 3 (the output) sit at the edge block; window 2 (the table) at the node block. The output's block
    index changes exactly after a point with node block 49, which is where it is written back. All of it arithmetic in `t`. -/

theorem coord4_0 (t : Fin grid4.N) : ((grid4.coords t) 0).val = t.val / 50 % 831 := by
  show t.val / grid4.stride 0 % grid4.bound 0 = _
  have h1 : grid4.stride 0 = 50 := by decide
  have h2 : grid4.bound 0 = 831 := rfl
  rw [h1, h2]

theorem coord4_1 (t : Fin grid4.N) : ((grid4.coords t) 1).val = t.val % 50 := by
  show t.val / grid4.stride 1 % grid4.bound 1 = _
  have h1 : grid4.stride 1 = 1 := by decide
  have h2 : grid4.bound 1 = 50 := rfl
  rw [h1, h2, Nat.div_one]

/-- The edge block of a point, as a number below 831. -/
theorem eblk4_lt (t : Fin grid4.N) : t.val / 50 < 831 := by
  have hN : grid4.N = 41550 := N_4
  have := t.isLt
  omega

theorem index4_0 (t : Fin grid4.N) : win4_0.index t = ![t.val / 50, 0] := by
  unfold Pipeline.Window.index
  show cc4_transform_0 (grid4.coords t) = _
  unfold cc4_transform_0
  simp only [coord4_0, BitVec.toNat_ofNat]
  have h := eblk4_lt t
  rw [Nat.mod_eq_of_lt h, Nat.mod_eq_of_lt (by omega : t.val / 50 < 2 ^ 32)]

theorem index4_1 (t : Fin grid4.N) : win4_1.index t = ![t.val / 50, 0] := by
  unfold Pipeline.Window.index
  show cc4_transform_1 (grid4.coords t) = _
  unfold cc4_transform_1
  simp only [coord4_0, BitVec.toNat_ofNat]
  have h := eblk4_lt t
  rw [Nat.mod_eq_of_lt h, Nat.mod_eq_of_lt (by omega : t.val / 50 < 2 ^ 32)]

theorem index4_2 (t : Fin grid4.N) : win4_2.index t = ![t.val % 50, 0] := by
  unfold Pipeline.Window.index
  show cc4_transform_2 (grid4.coords t) = _
  unfold cc4_transform_2
  simp only [coord4_1, BitVec.toNat_ofNat]
  rw [Nat.mod_eq_of_lt (by omega : t.val % 50 < 2 ^ 32)]

theorem index4_3 (t : Fin grid4.N) : win4_3.index t = ![t.val / 50, 0] := by
  unfold Pipeline.Window.index
  show cc4_transform_3 (grid4.coords t) = _
  unfold cc4_transform_3
  simp only [coord4_0, BitVec.toNat_ofNat]
  have h := eblk4_lt t
  rw [Nat.mod_eq_of_lt h, Nat.mod_eq_of_lt (by omega : t.val / 50 < 2 ^ 32)]

/-- Window 3 (the output) is written back at the points with node block 49. -/
theorem flush4_3 : ∀ t : Fin cfg4.N, (cfg4.win 3).flush t = true ↔ t.val % 50 = 49 := by
  intro t
  show win4_3.flush t = true ↔ _
  have hN : grid4.N = 41550 := N_4
  have ht : t.val < grid4.N := t.isLt
  unfold Pipeline.Window.flush
  have hout : win4_3.isOut = true := rfl
  simp only [hout, Bool.true_and, Bool.or_eq_true, decide_eq_true_eq]
  constructor
  · rintro (h | ⟨h, hne⟩)
    · omega
    · by_contra hc
      apply hne
      rw [index4_3, index4_3]
      have e : (t.val + 1) / 50 = t.val / 50 := by omega
      show ![(t.val + 1) / 50, 0] = _
      rw [e]
  · intro h
    by_cases hl : t.val + 1 = grid4.N
    · exact Or.inl hl
    · refine Or.inr ⟨by omega, ?_⟩
      rw [index4_3, index4_3]
      intro he
      have e0 := congrFun he 0
      have e1 : (t.val + 1) / 50 = t.val / 50 := e0
      omega

/-- The current staging memref of each window at point `t`: which of its buffers it is on. -/
abbrev st4_0 (t : Fin cfg4.N) := (cfg4.win 0).stage (cfg4.slots t 0)
abbrev st4_1 (t : Fin cfg4.N) := (cfg4.win 1).stage (cfg4.slots t 1)
abbrev st4_2 (t : Fin cfg4.N) := (cfg4.win 2).stage (cfg4.slots t 2)
abbrev st4_3 (t : Fin cfg4.N) := (cfg4.win 3).stage (cfg4.slots t 3)

/-- The kernel body at point `t`, on what the pipeline calls it with. -/
abbrev bodyAt4 (t : Fin cfg4.N) : Prog (TpuEff nD τ sig (Elt F) Λ₀ .tc) PUnit :=
  cc4_kernel (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (Memref.whole cc4_scratch0) (Memref.isWhole_whole _)

end Cert.Kernel.Gen

end
-- ==== Proof.KB.Sched5.lean ====
import proofs.«158984_j43568148250937_1_alg».proof.Proof.Gen.Kernel.Launch
import Idealize.ShloMosaic.Lib.Pipeline.Kit

noncomputable section

namespace Cert.Kernel.Gen

open Idealize.ShloMosaic Idealize.ShloMosaic.TcCoe
open Idealize.SL Idealize.SL.Sem

variable {F : FTy → Type} [FloatOps F]

/-! # Region 5's schedule: the grid is (50 node blocks, 831 edge blocks), row-major, so point `t` is node block `t / 831`, edge block `t % 831`.
    Windows 0 and 1 (the edges' target words and their rows) sit at the edge block; window 2 (the bias) is the one whole block; window 3 (the output) at
    the node block. The output's block index changes exactly after a point with edge block 830, which is where it is written back. -/

theorem coord5_0 (t : Fin grid5.N) : ((grid5.coords t) 0).val = t.val / 831 % 50 := by
  show t.val / grid5.stride 0 % grid5.bound 0 = _
  have h1 : grid5.stride 0 = 831 := by decide
  have h2 : grid5.bound 0 = 50 := rfl
  rw [h1, h2]

theorem coord5_1 (t : Fin grid5.N) : ((grid5.coords t) 1).val = t.val % 831 := by
  show t.val / grid5.stride 1 % grid5.bound 1 = _
  have h1 : grid5.stride 1 = 1 := by decide
  have h2 : grid5.bound 1 = 831 := rfl
  rw [h1, h2, Nat.div_one]

/-- The node block of a point, as a number below 50. -/
theorem nblk5_lt (t : Fin grid5.N) : t.val / 831 < 50 := by
  have hN : grid5.N = 41550 := N_5
  have := t.isLt
  omega

theorem index5_0 (t : Fin grid5.N) : win5_0.index t = ![0, t.val % 831] := by
  unfold Pipeline.Window.index
  show cc5_transform_0 (grid5.coords t) = _
  unfold cc5_transform_0
  simp only [coord5_1, BitVec.toNat_ofNat]
  rw [Nat.mod_eq_of_lt (by omega : t.val % 831 < 2 ^ 32)]

theorem index5_1 (t : Fin grid5.N) : win5_1.index t = ![t.val % 831, 0] := by
  unfold Pipeline.Window.index
  show cc5_transform_1 (grid5.coords t) = _
  unfold cc5_transform_1
  simp only [coord5_1, BitVec.toNat_ofNat]
  rw [Nat.mod_eq_of_lt (by omega : t.val % 831 < 2 ^ 32)]

theorem index5_2 (t : Fin grid5.N) : win5_2.index t = ![0, 0] := by
  unfold Pipeline.Window.index
  show cc5_transform_2 (grid5.coords t) = _
  unfold cc5_transform_2
  rfl

theorem index5_3 (t : Fin grid5.N) : win5_3.index t = ![t.val / 831, 0] := by
  unfold Pipeline.Window.index
  show cc5_transform_3 (grid5.coords t) = _
  unfold cc5_transform_3
  simp only [coord5_0, BitVec.toNat_ofNat]
  have h := nblk5_lt t
  rw [Nat.mod_eq_of_lt h, Nat.mod_eq_of_lt (by omega : t.val / 831 < 2 ^ 32)]

/-- Window 3 (the output) is written back at the points with edge block 830. -/
theorem flush5_3 : ∀ t : Fin cfg5.N, (cfg5.win 3).flush t = true ↔ t.val % 831 = 830 := by
  intro t
  show win5_3.flush t = true ↔ _
  have hN : grid5.N = 41550 := N_5
  have ht : t.val < grid5.N := t.isLt
  unfold Pipeline.Window.flush
  have hout : win5_3.isOut = true := rfl
  simp only [hout, Bool.true_and, Bool.or_eq_true, decide_eq_true_eq]
  constructor
  · rintro (h | ⟨h, hne⟩)
    · omega
    · by_contra hc
      apply hne
      rw [index5_3, index5_3]
      have e : (t.val + 1) / 831 = t.val / 831 := by omega
      show ![(t.val + 1) / 831, 0] = _
      rw [e]
  · intro h
    by_cases hl : t.val + 1 = grid5.N
    · exact Or.inl hl
    · refine Or.inr ⟨by omega, ?_⟩
      rw [index5_3, index5_3]
      intro he
      have e0 := congrFun he 0
      have e1 : (t.val + 1) / 831 = t.val / 831 := e0
      omega

/-- The current staging memref of each window at point `t`: which of its buffers it is on. -/
abbrev st5_0 (t : Fin cfg5.N) := (cfg5.win 0).stage (cfg5.slots t 0)
abbrev st5_1 (t : Fin cfg5.N) := (cfg5.win 1).stage (cfg5.slots t 1)
abbrev st5_2 (t : Fin cfg5.N) := (cfg5.win 2).stage (cfg5.slots t 2)
abbrev st5_3 (t : Fin cfg5.N) := (cfg5.win 3).stage (cfg5.slots t 3)

/-- The kernel body at point `t`, on what the pipeline calls it with. -/
abbrev bodyAt5 (t : Fin cfg5.N) : Prog (TpuEff nD τ sig (Elt F) Λ₀ .tc) PUnit :=
  cc5_kernel (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3)) (Memref.whole cc5_scratch0) (Memref.isWhole_whole _)

end Cert.Kernel.Gen

end
-- ==== Proof.KB.Sched.lean ====
import proofs.«158984_j43568148250937_1_alg».proof.Proof.KB.Sched0
import proofs.«158984_j43568148250937_1_alg».proof.Proof.KB.Sched1
import proofs.«158984_j43568148250937_1_alg».proof.Proof.KB.Sched2
import proofs.«158984_j43568148250937_1_alg».proof.Proof.KB.Sched3
import proofs.«158984_j43568148250937_1_alg».proof.Proof.KB.Sched4
import proofs.«158984_j43568148250937_1_alg».proof.Proof.KB.Sched5

/-! The six regions' schedules (each grid point's coordinates, each window's block index there, the points that write an output back), proved arithmetically. -/
-- ==== Proof.KB.Lin0.lean ====
import proofs.«158984_j43568148250937_1_alg».proof.Proof.Gen.Kernel.Launch
import proofs.«158984_j43568148250937_1_alg».proof.Proof.Gen.Kernel.Skeleton
import proofs.«158984_j43568148250937_1_alg».proof.Proof.KB.Sched
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the first dense layer, one block of 2000 rows per grid point -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of region 0 on core `c`: the arrays as the region finds them; after the body each input's buffer at its block,
    the output's at the product of the two input blocks; the invariant the scoped rest and the generator register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = k0_pay1 (iblk0 V c 0 t) (iblk0 V c 1 t) := by
  dsimp only [dat0]

/-! ## The input blocks stay in their buffers -/

/-- Both offsets of a whole-block access are zero. -/
theorem zero_off0 : (![0, 0] : Fin 2 → Nat) = fun _ => 0 := funext fun a => by fin_cases a <;> rfl

/-- The rows' staging buffer holds its block at every point (it is fetched at each). -/
theorem before0_0 (c : Dev nD) (t : Fin cfg0.N) (d) : (dat0 V c).before 0 t d = iblk0 V c 0 t :=
  ((dat0 V c).before_in_eq_fetched 0 rfl (fun _ => rfl) (fun _ _ _ => rfl)
      (fun t => by show (cfg0.win 0).cut (cfg0.grid.coords t) (iblk0 V c 0 t) = _; unfold Dat.blockOf iblk0; rw [A_eq0]; try rfl) t d).trans
    (by unfold Dat.fetched Dat.blockOf iblk0; rw [A_eq0]; try rfl)

/-- The weight's staging buffer holds the whole weight at every point: fetched at the first, and its index never moves. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by show (cfg0.win 1).cut (cfg0.grid.coords t) (iblk0 V c 1 t) = _; unfold Dat.blockOf iblk0; rw [A_eq0]; try rfl) t d).trans
    (by unfold Dat.fetched Dat.blockOf iblk0; rw [A_eq0]; try rfl)

/-! ## The body's triple -/

/-- The one whole-block store covers the output's buffer. -/
theorem cover0_2 (p0 : Vec F S2000x128 .f32) (y : S2000x128.Idx) :
    ∃ pc ∈ ([⟨Rect.unit (s := S2000x128) ![0, 0] S2000x128.size inb_S2000x128_S2000x128_0_0, p0⟩] : List (View.Piece (Elt F) S2000x128 .f32)), y ∈ pc.1.set :=
  ⟨_, List.mem_singleton_self _, View.mem_set_unit_zero zero_off0 inb_S2000x128_S2000x128_0_0 y⟩

set_option maxHeartbeats 1000000 in
/-- The dense layer's body on whole staging memrefs, the inputs' at contents `x0`, `x1` and the output's at anything, runs to
    the continuation holding the inputs' as they were and the output's at the product payload of the two. -/
theorem sound_kernel0 (c : Dev nD) (E : Set ℕ) (i : grid0.Coords)
    (arg1 : Memref sig .tc .vmem S2000x256 .f32) (harg1 : arg1.IsWhole) (arg2 : Memref sig .tc .vmem S256x128 .f32) (harg2 : arg2.IsWhole)
    (arg3 : Memref sig .tc .vmem S2000x128 .f32) (harg3 : arg3.IsWhole)
    (x0 : Vec F S2000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover0_2 _), View.canon_unit_zero zero_off0]
  simp only [View.readAt_eq_ld, View.ld_unit_zero (S := S2000x256) zero_off0, View.ld_unit_zero (S := S256x128) zero_off0]

/-! ## The body obligation, at a generic point -/

/-- What the body leaves in the inputs' buffers: their blocks, untouched. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]

/-- What the body is called with at point `t`: the invariant, what the core owes, the two inputs' buffers at their blocks
    and the output's buffer at whatever it held, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: the inputs' as they were, the output's at the product of the two blocks. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- Entering: the invariant before the first point is the region's own. -/
theorem phi_in0 (c : Dev nD) : (Pipeline.ΦA spec0 c : sProp 𝕄) ⊢ (dat0 V c).Φ 0 :=
  BI.Entails.refl _

/-- Leaving: so is the invariant after the last point. -/
theorem phi_out0 (c : Dev nD) : (dat0 V c).Φ (Fin.last cfg0.N) ⊢ (Pipeline.ΦA spec0 c : sProp 𝕄) :=
  BI.Entails.refl _

end Cert.Kernel.Hand

end
-- ==== Proof.KB.Gat1.lean ====
import proofs.«158984_j43568148250937_1_alg».proof.Proof.Gen.Kernel.Launch
import proofs.«158984_j43568148250937_1_alg».proof.Proof.Gen.Kernel.Skeleton
import proofs.«158984_j43568148250937_1_alg».proof.Proof.KB.Sched
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: the first gather. Grid (831 edge blocks, 50 node blocks), row-major: position n is edge block n / 50, node block n % 50 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after the body at grid position `n`: zeroed at node block 0, then this point's one-hot product
    (the edge block's indices against the node block's numbers, times the node block of the table) added. -/
def acc1 (c : Dev nD) : (n : ℕ) → n < cfg1.N → Vec F S2048x128 .f32
  | 0, h => k1_pay2 (grid1.coords ⟨0, h⟩) (iblk1 V c 0 ⟨0, h⟩) (iblk1 V c 2 ⟨0, h⟩) (k1_pay1 (F := F))
  | n + 1, h => k1_pay2 (grid1.coords ⟨n + 1, h⟩) (iblk1 V c 0 ⟨n + 1, h⟩) (iblk1 V c 2 ⟨n + 1, h⟩)
      (if (n + 1) % 50 = 0 then k1_pay1 (F := F) else acc1 c n (Nat.lt_of_succ_lt h))

/-- The region invariant before position `n`: before the first point the scoped rest and the generator register; afterwards the
    accumulator at what the point before left, the rest of the scoped buffers at anything, the generator register at some state. -/
def Phi1 (c : Dev nD) : (n : ℕ) → n ≤ cfg1.N → sProp 𝕄
  | 0, _ => Pipeline.ΦA spec1 c
  | n + 1, hn => iprop(owns (c : Thread nD τ) (Memref.whole cc1_scratch0 : Memref sig .tc .vmem S2048x128 .f32) fullShare (acc1 V c n hn)
      ∗ Pipeline.scopedRestBut (Ix := Unit) (Name := ℕ) (U := UR sig nD τ) (Lvl := ℕ) (Val := Elt F) spec1 c [cc1_scratch0] ∗ (∃ r, prngReg c r))

/-- The proof data of region 1 on core `c`. The output block is stored only at node block 49, from the accumulator and the edge weights. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 1 t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) : (dat1 V c).after 3 t = k1_pay3 (acc1 V c t.val t.isLt) (iblk1 V c 1 t) := by
  dsimp only [dat1]

/-- The offsets of a whole-buffer access, however spelt, are zero. -/
theorem rect1_zero : (![0, 0] : Fin 2 → Nat) = fun _ => 0 := funext fun a => by fin_cases a <;> rfl

/-! ## The body's two conditions, over the grid coordinates -/

/-- The first conditional's test (the accumulator is zeroed): the node block is block 0. -/
abbrev cond1_0 (i : grid1.Coords) : Prop := (Scalar.cmpi .ne (Scalar.extui (Scalar.cmpi .eq (BitVec.ofNat 32 (i 1).val) 0#32)) 0#32) = 1#1
/-- The second conditional's test (the output block is stored): the node block is block 49. -/
abbrev cond1_1 (i : grid1.Coords) : Prop := k1_cond2 i = 1#1

/-! ## The body's triple, per case of its two conditions

Every access is of a whole buffer, so a load reads the contents and a store leaves its payload. -/

set_option maxHeartbeats 1000000 in
/-- A point of node block 0: the accumulator, at anything, is zeroed and then holds this point's product alone;
    the output buffer is not touched. -/
theorem sound_kernel1_reset (c : Dev nD) (E : Set ℕ) (i : grid1.Coords)
    (arg2 : Memref sig .tc .vmem S2048x1 .i32) (harg2 : arg2.IsWhole) (arg3 : Memref sig .tc .vmem S2048x1 .f32) (harg3 : arg3.IsWhole)
    (arg4 : Memref sig .tc .vmem S2000x128 .f32) (harg4 : arg4.IsWhole) (arg5 : Memref sig .tc .vmem S2048x128 .f32) (harg5 : arg5.IsWhole)
    (arg6 : Memref sig .tc .vmem S2048x128 .f32) (harg6 : arg6.IsWhole)
    (hc0 : cond1_0 i) (hc1 : ¬cond1_1 i)
    (x0 : Vec F S2048x1 .i32) (x2 : Vec F S2000x128 .f32) (K : PUnit → sProp 𝕄) :
    iprop(owns (c : Thread nD τ) arg2 fullShare x0 ∗ owns (c : Thread nD τ) arg4 fullShare x2 ∗ (∃ d, owns (c : Thread nD τ) arg6 fullShare d)
        ∗ (iprop(owns (c : Thread nD τ) arg2 fullShare x0 ∗ owns (c : Thread nD τ) arg4 fullShare x2
            ∗ owns (c : Thread nD τ) arg6 fullShare (k1_pay2 i x0 x2 (k1_pay1 (F := F)))) -∗ K ⟨⟩))
      ⊢ wp frame (wpE (defs₀ (F := F)) Variants.none c none) E (cc1_kernel i arg2 harg2 arg3 harg3 arg4 harg4 arg5 harg5 arg6 harg6) K := by
  simp only [cc1_kernel_eq_skeleton]; unfold cc1_kernel_skel
  unfold owns
  iintro ⟨⟨%f0, %hf0, H0⟩, ⟨%f2, %hf2, H2⟩, ⟨%d6, %f6, -, H6⟩, Hk⟩
  subst hf0; subst hf2
  sl_exec (disch := first | exact hc0 | exact hc1)
  sl_step
  iapply Hk
  isplitl [H0]
  · iexists f0; isplitr; · ipureintro; rfl
    iexact H0
  isplitl [H2]
  · iexists f2; isplitr; · ipureintro; rfl
    iexact H2
  iexists _; isplitr
  swap; · iexact H6
  ipureintro
  sl_unfold_words
  rw [View.read_writes_eq_canon _ _ _ (fun y => ⟨_, List.mem_cons.mpr (Or.inl rfl), View.mem_set_unit_zero rect1_zero inb_S2048x128_S2048x128_0_0 y⟩),
    View.canon_cons_unit_zero (S := S2048x128) rect1_zero, View.readCov_unit_zero (S := S2048x128) _ rect1_zero]
  simp only [View.readAt_eq_ld, View.ld_unit_zero (S := S2048x1) rect1_zero, View.ld_unit_zero (S := S2000x128) rect1_zero]

set_option maxHeartbeats 1000000 in
/-- A point of a node block that is neither the first nor the last: this point's product is added to the accumulator;
    the output buffer is not touched. -/
theorem sound_kernel1_mid (c : Dev nD) (E : Set ℕ) (i : grid1.Coords)
    (arg2 : Memref sig .tc .vmem S2048x1 .i32) (harg2 : arg2.IsWhole) (arg3 : Memref sig .tc .vmem S2048x1 .f32) (harg3 : arg3.IsWhole)
    (arg4 : Memref sig .tc .vmem S2000x128 .f32) (harg4 : arg4.IsWhole) (arg5 : Memref sig .tc .vmem S2048x128 .f32) (harg5 : arg5.IsWhole)
    (arg6 : Memref sig .tc .vmem S2048x128 .f32) (harg6 : arg6.IsWhole)
    (hc0 : ¬cond1_0 i) (hc1 : ¬cond1_1 i)
    (x0 : Vec F S2048x1 .i32) (x2 : Vec F S2000x128 .f32) (a : Vec F S2048x128 .f32) (K : PUnit → sProp 𝕄) :
    iprop(owns (c : Thread nD τ) arg2 fullShare x0 ∗ owns (c : Thread nD τ) arg4 fullShare x2 ∗ owns (c : Thread nD τ) arg6 fullShare a
        ∗ (iprop(owns (c : Thread nD τ) arg2 fullShare x0 ∗ owns (c : Thread nD τ) arg4 fullShare x2
            ∗ owns (c : Thread nD τ) arg6 fullShare (k1_pay2 i x0 x2 a)) -∗ K ⟨⟩))
      ⊢ wp frame (wpE (defs₀ (F := F)) Variants.none c none) E (cc1_kernel i arg2 harg2 arg3 harg3 arg4 harg4 arg5 harg5 arg6 harg6) K := by
  simp only [cc1_kernel_eq_skeleton]; unfold cc1_kernel_skel
  unfold owns
  iintro ⟨⟨%f0, %hf0, H0⟩, ⟨%f2, %hf2, H2⟩, ⟨%f6, %hf6, H6⟩, Hk⟩
  subst hf0; subst hf2; subst hf6
  sl_exec (disch := first | exact hc0 | exact hc1)
  sl_step
  iapply Hk
  isplitl [H0]
  · iexists f0; isplitr; · ipureintro; rfl
    iexact H0
  isplitl [H2]
  · iexists f2; isplitr; · ipureintro; rfl
    iexact H2
  iexists _; isplitr
  swap; · iexact H6
  ipureintro
  rw [View.read_writes_eq_canon _ _ _ (fun y => ⟨_, List.mem_cons.mpr (Or.inl rfl), View.mem_set_unit_zero rect1_zero inb_S2048x128_S2048x128_0_0 y⟩),
    View.canon_unit_zero (S := S2048x128) rect1_zero]
  simp only [View.readAt_eq_ld, View.ld_unit_zero (S := S2048x1) rect1_zero, View.ld_unit_zero (S := S2000x128) rect1_zero,
    View.ld_unit_zero (S := S2048x128) rect1_zero]

set_option maxHeartbeats 1000000 in
/-- A point of node block 49: this point's product is added to the accumulator, and the output buffer, at anything, is
    stored whole with the accumulator times the edge weights. -/
theorem sound_kernel1_last (c : Dev nD) (E : Set ℕ) (i : grid1.Coords)
    (arg2 : Memref sig .tc .vmem S2048x1 .i32) (harg2 : arg2.IsWhole) (arg3 : Memref sig .tc .vmem S2048x1 .f32) (harg3 : arg3.IsWhole)
    (arg4 : Memref sig .tc .vmem S2000x128 .f32) (harg4 : arg4.IsWhole) (arg5 : Memref sig .tc .vmem S2048x128 .f32) (harg5 : arg5.IsWhole)
    (arg6 : Memref sig .tc .vmem S2048x128 .f32) (harg6 : arg6.IsWhole)
    (hc0 : ¬cond1_0 i) (hc1 : cond1_1 i)
    (x0 : Vec F S2048x1 .i32) (x1 : Vec F S2048x1 .f32) (x2 : Vec F S2000x128 .f32) (a : Vec F S2048x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 i x0 x2 a) x1)
            ∗ owns (c : Thread nD τ) arg6 fullShare (k1_pay2 i x0 x2 a)) -∗ K ⟨⟩))
      ⊢ wp frame (wpE (defs₀ (F := F)) Variants.none c none) E (cc1_kernel i arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  subst hf0; subst hf1; subst hf2; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_words
    rw [View.read_writes_eq_canon _ _ _ (fun y => ⟨_, List.mem_cons.mpr (Or.inl rfl), View.mem_set_unit_zero rect1_zero inb_S2048x128_S2048x128_0_0 y⟩),
      View.canon_unit_zero (S := S2048x128) rect1_zero, View.readCov_unit_zero (S := S2048x128) _ rect1_zero]
    simp only [View.readAt_eq_ld, View.ld_unit_zero (S := S2048x1) rect1_zero, View.ld_unit_zero (S := S2000x128) rect1_zero,
      View.ld_unit_zero (S := S2048x128) rect1_zero]
  iexists _; isplitr
  swap; · iexact H6
  ipureintro
  sl_unfold_words
  rw [View.read_writes_eq_canon _ _ _ (fun y => ⟨_, List.mem_cons.mpr (Or.inl rfl), View.mem_set_unit_zero rect1_zero inb_S2048x128_S2048x128_0_0 y⟩),
    View.canon_unit_zero (S := S2048x128) rect1_zero]
  simp only [View.readAt_eq_ld, View.ld_unit_zero (S := S2048x1) rect1_zero, View.ld_unit_zero (S := S2000x128) rect1_zero,
    View.ld_unit_zero (S := S2048x128) rect1_zero]

/-! ## Where the two conditions hold

Both read the node block alone, which at position `t` of the row-major grid is `t % 50`: each is decided on the 50 node blocks. -/

/-- Position `t` is in node block `t % 50`. -/
theorem pt1_node (t : Fin cfg1.N) : ((grid1.coords t) 1).val = t.val % 50 := by
  show t.val / grid1.stride 1 % grid1.bound 1 = t.val % 50
  rw [show grid1.stride 1 = 1 from by decide, show grid1.bound 1 = 50 from rfl, Nat.div_one]

theorem cond1_0_node : ∀ j : Fin 50, (Scalar.cmpi .ne (Scalar.extui (Scalar.cmpi .eq (BitVec.ofNat 32 j.val) 0#32)) 0#32) = 1#1 ↔ j.val = 0 := by decide
theorem cond1_1_node : ∀ j : Fin 50, (Scalar.cmpi .ne (Scalar.extui (Scalar.cmpi .eq (BitVec.ofNat 32 j.val) 49#32)) 0#32) = 1#1 ↔ j.val = 49 := by decide

/-- The accumulator is zeroed at the positions ≡ 0 (mod 50), -/
theorem hcond1_0 (t : Fin cfg1.N) : cond1_0 (grid1.coords t) ↔ t.val % 50 = 0 :=
  (cond1_0_node ((grid1.coords t) 1)).trans (by rw [pt1_node t])
/-- and the output block is stored at the positions ≡ 49 (mod 50). -/
theorem hcond1_1 (t : Fin cfg1.N) : cond1_1 (grid1.coords t) ↔ t.val % 50 = 49 :=
  (cond1_1_node ((grid1.coords t) 1)).trans (by rw [pt1_node t])

/-- Where the output block is not stored the program states window 3 idle, -/
theorem idle1_3_off (i : grid1.Coords) (h : ¬cond1_1 i) : cfg1.idle 3 i = true := by
  show (!(k1_cond2 i == 1#1)) = true
  simpa using h
/-- and where it is stored, live. -/
theorem idle1_3_on (i : grid1.Coords) (h : cond1_1 i) : cfg1.idle 3 i = false := by
  show (!(k1_cond2 i == 1#1)) = false
  simpa using h

/-! ## The accumulator, position by position -/

/-- At a position of node block 0 the accumulator holds that point's product alone. -/
theorem acc1_reset (c : Dev nD) (t : Fin cfg1.N) (h : t.val % 50 = 0) :
    acc1 V c t.val t.isLt = k1_pay2 (grid1.coords t) (iblk1 V c 0 t) (iblk1 V c 2 t) (k1_pay1 (F := F)) := by
  obtain ⟨n, hn⟩ := t
  cases n with
  | zero => rfl
  | succ n => exact congrArg (k1_pay2 (grid1.coords ⟨n + 1, hn⟩) (iblk1 V c 0 ⟨n + 1, hn⟩) (iblk1 V c 2 ⟨n + 1, hn⟩)) (if_pos h)

/-- At any other position it holds what the position before left plus this point's product. -/
theorem acc1_step (c : Dev nD) (t : Fin cfg1.N) (h : ¬t.val % 50 = 0) :
    acc1 V c t.val t.isLt = k1_pay2 (grid1.coords t) (iblk1 V c 0 t) (iblk1 V c 2 t)
      (acc1 V c (t.val - 1) (Nat.lt_of_le_of_lt (Nat.sub_le _ _) t.isLt)) := by
  obtain ⟨n, hn⟩ := t
  cases n with
  | zero => exact absurd (Nat.zero_mod _) h
  | succ n => exact congrArg (k1_pay2 (grid1.coords ⟨n + 1, hn⟩) (iblk1 V c 0 ⟨n + 1, hn⟩) (iblk1 V c 2 ⟨n + 1, hn⟩)) (if_neg h)

/-! ## The invariant, position by position -/

theorem Phi1_zero (c : Dev nD) (n : ℕ) (h : n ≤ cfg1.N) (hz : n = 0) : Phi1 V c n h = Pipeline.ΦA spec1 c := by
  subst hz; rfl

/-- After position `n`: the accumulator at that position's contents. -/
theorem Phi1_succ (c : Dev nD) (n : ℕ) (hn : n < cfg1.N) :
    Phi1 V c (n + 1) hn = iprop(owns (c : Thread nD τ) (Memref.whole cc1_scratch0 : Memref sig .tc .vmem S2048x128 .f32) fullShare (acc1 V c n hn)
      ∗ Pipeline.scopedRestBut (Ix := Unit) (Name := ℕ) (U := UR sig nD τ) (Lvl := ℕ) (Val := Elt F) spec1 c [cc1_scratch0] ∗ (∃ r, prngReg c r)) := rfl

/-- Before a position that is not the first: the accumulator at what the position before left. -/
theorem Phi1_pos (c : Dev nD) (n : ℕ) (h : n ≤ cfg1.N) (hz : n ≠ 0) :
    Phi1 V c n h = iprop(owns (c : Thread nD τ) (Memref.whole cc1_scratch0 : Memref sig .tc .vmem S2048x128 .f32) fullShare (acc1 V c (n - 1) (by omega))
      ∗ Pipeline.scopedRestBut (Ix := Unit) (Name := ℕ) (U := UR sig nD τ) (Lvl := ℕ) (Val := Elt F) spec1 c [cc1_scratch0] ∗ (∃ r, prngReg c r)) := by
  cases n with
  | zero => exact absurd rfl hz
  | succ n => rfl

/-- What the launch hands the region, with the accumulator's buffer split out of the scoped buffers and owned at some contents. -/
theorem Phi1_launch (c : Dev nD) :
    (Pipeline.ΦA spec1 c : sProp 𝕄)
      = iprop(iprop((∃ d, owns (c : Thread nD τ) (Memref.whole cc1_scratch0 : Memref sig .tc .vmem S2048x128 .f32) fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [owns_whole]; try rfl

/-- The invariant at a point's start, restated at the point's position. -/
theorem Phi1_castSucc (c : Dev nD) (t : Fin cfg1.N) :
    (dat1 V c).Φ t.castSucc = Phi1 V c t.val (Nat.le_of_lt t.isLt) := by
  dsimp only [dat1]; simp only [Fin.coe_castSucc]

/-! ## What the body finds in the inputs' buffers -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]

/-- The edge block's indices: fetched at node block 0 only, and the block index does not move within an edge block,
    so the buffer holds the block at every position. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The edge block's weights: likewise. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- The node block of the table: fetched at every position. -/
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-- An input's buffer is handed back at its block (no input window is ever idle). -/
theorem blk1_0_back (c : Dev nD) (t : Fin cfg1.N) :
    (dat1 V c).leavesExact 0 t = owns (c : Thread nD τ) (st1_0 t) fullShare (iblk1 V c 0 t) := by
  unfold Dat.leavesExact; rw [show cfg1.idle 0 (cfg1.grid.coords t) = false from rfl, after1_0]
theorem blk1_1_back (c : Dev nD) (t : Fin cfg1.N) :
    (dat1 V c).leavesExact 1 t = owns (c : Thread nD τ) (st1_1 t) fullShare (iblk1 V c 1 t) := by
  unfold Dat.leavesExact; rw [show cfg1.idle 1 (cfg1.grid.coords t) = false from rfl, after1_1]
theorem blk1_2_back (c : Dev nD) (t : Fin cfg1.N) :
    (dat1 V c).leavesExact 2 t = owns (c : Thread nD τ) (st1_2 t) fullShare (iblk1 V c 2 t) := by
  unfold Dat.leavesExact; rw [show cfg1.idle 2 (cfg1.grid.coords t) = false from rfl, after1_2]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point. The inputs' buffers hold their blocks; the position's node block says which case the point is in.
    At node block 0 the accumulator is taken at anything (at the first position out of the scoped buffers the launch hands over)
    and left at this point's product; elsewhere it is taken at what the position before left and this point's product is added.
    The output buffer is handed back as found except at node block 49, where it is left at the accumulator times the weights. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ, Phi1_castSucc]
  rw [blk1_0_back, blk1_1_back, blk1_2_back]
  by_cases h0 : t.val % 50 = 0
  · have h1 : ¬t.val % 50 = 49 := by omega
    have hc0 : cond1_0 (grid1.coords t) := (hcond1_0 t).mpr h0
    have hc1 : ¬cond1_1 (grid1.coords t) := fun h => h1 ((hcond1_1 t).mp h)
    rw [Dat.leavesExact_idle (dat1 V c) 3 t (idle1_3_off _ hc1) (Bool.eq_false_iff.mpr (mt (flush1_3 t).mp h1))]
    rw [acc1_reset V c t h0]
    by_cases hz : t.val = 0
    · rw [Phi1_zero V c _ _ hz, Phi1_launch]
      iintro ⟨⟨⟨HS, HR⟩, Hg⟩, Ho, ⟨%d0, H0⟩, ⟨%d1, H1⟩, ⟨%d2, H2⟩, H3⟩
      iapply (sound_kernel1_reset c Set.univ (grid1.coords t) _ _ _ _ _ _ _ _ _ _ hc0 hc1 (iblk1 V c 0 t) (iblk1 V c 2 t) _)
      isplitl [H0]; · iexact H0
      isplitl [H2]; · iexact H2
      isplitl [HS]; · iexact HS
      iintro ⟨H0, H2, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [Phi1_pos V c _ _ hz]
      iintro ⟨⟨HS, HR, Hg⟩, Ho, ⟨%d0, H0⟩, ⟨%d1, H1⟩, ⟨%d2, H2⟩, H3⟩
      iapply (sound_kernel1_reset c Set.univ (grid1.coords t) _ _ _ _ _ _ _ _ _ _ hc0 hc1 (iblk1 V c 0 t) (iblk1 V c 2 t) _)
      isplitl [H0]; · iexact H0
      isplitl [H2]; · iexact H2
      isplitl [HS]; · iexists _; iexact HS
      iintro ⟨H0, H2, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
  · have hz : t.val ≠ 0 := fun e => h0 (by rw [e])
    have hc0 : ¬cond1_0 (grid1.coords t) := fun h => h0 ((hcond1_0 t).mp h)
    rw [acc1_step V c t h0, Phi1_pos V c _ _ hz]
    by_cases h1 : t.val % 50 = 49
    · have hc1 : cond1_1 (grid1.coords t) := (hcond1_1 t).mpr h1
      rw [show (dat1 V c).leavesExact 3 t = owns (c : Thread nD τ) (st1_3 t) fullShare ((dat1 V c).after 3 t) from by
        unfold Dat.leavesExact; rw [idle1_3_on _ hc1], after1_3, acc1_step V c t h0]
      iintro ⟨⟨HS, HR, Hg⟩, Ho, ⟨%d0, H0⟩, ⟨%d1, H1⟩, ⟨%d2, H2⟩, ⟨%d3, H3⟩⟩
      iapply (sound_kernel1_last c Set.univ (grid1.coords t) _ _ _ _ _ _ _ _ _ _ hc0 hc1 (iblk1 V c 0 t) (iblk1 V c 1 t) (iblk1 V c 2 t)
        (acc1 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idle1_3_off _ hc1) (Bool.eq_false_iff.mpr (mt (flush1_3 t).mp h1))]
      iintro ⟨⟨HS, HR, Hg⟩, Ho, ⟨%d0, H0⟩, ⟨%d1, H1⟩, ⟨%d2, H2⟩, H3⟩
      iapply (sound_kernel1_mid c Set.univ (grid1.coords t) _ _ _ _ _ _ _ _ _ _ hc0 hc1 (iblk1 V c 0 t) (iblk1 V c 2 t)
        (acc1 V c (t.val - 1) (Nat.lt_of_le_of_lt (Nat.sub_le _ _) t.isLt)) _)
      isplitl [H0]; · iexact H0
      isplitl [H2]; · iexact H2
      isplitl [HS]; · iexact HS
      iintro ⟨H0, H2, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first position. -/
theorem phi_in1 (c : Dev nD) : (Pipeline.ΦA spec1 c : sProp 𝕄) ⊢ (dat1 V c).Φ 0 := by
  rw [show (dat1 V c).Φ 0 = Phi1 V c 0 (Nat.zero_le _) from rfl, Phi1_zero V c 0 _ rfl]
  try exact Idealize.SL.BI.Entails.refl _

/-- After the last position the invariant gives it back: the accumulator's contents are forgotten, and its buffer joins the
    other scoped buffers again. -/
theorem phi_out1 (c : Dev nD) : (dat1 V c).Φ (Fin.last cfg1.N) ⊢ (Pipeline.ΦA spec1 c : sProp 𝕄) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 41550 := N_1; omega), Phi1_launch]
  iintro ⟨HS, HR, Hg⟩
  isplitl [HS HR]
  · isplitl [HS]; · iexists _; iexact HS
    iexact HR
  iexact Hg

end Cert.Kernel.Hand

end
-- ==== Proof.KB.Sca2.lean ====
import proofs.«158984_j43568148250937_1_alg».proof.Proof.Gen.Kernel.Launch
import proofs.«158984_j43568148250937_1_alg».proof.Proof.Gen.Kernel.Skeleton
import proofs.«158984_j43568148250937_1_alg».proof.Proof.KB.Sched
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: the first scatter. Grid (50 node blocks, 831 edge blocks), row-major: position n is node block n / 831, edge block n % 831 -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after the body at grid position `n`: zeroed at edge block 0, then this point's one-hot product
    (the node block's numbers against the edge block's indices, times the edge block of the values) added. -/
def acc2 (c : Dev nD) : (n : ℕ) → n < cfg2.N → Vec F S2000x128 .f32
  | 0, h => k2_pay2 (grid2.coords ⟨0, h⟩) (iblk2 V c 0 ⟨0, h⟩) (iblk2 V c 1 ⟨0, h⟩) (k2_pay1 (F := F))
  | n + 1, h => k2_pay2 (grid2.coords ⟨n + 1, h⟩) (iblk2 V c 0 ⟨n + 1, h⟩) (iblk2 V c 1 ⟨n + 1, h⟩)
      (if (n + 1) % 831 = 0 then k2_pay1 (F := F) else acc2 c n (Nat.lt_of_succ_lt h))

/-- The region invariant before position `n`: before the first point the scoped rest and the generator register; afterwards the
    accumulator at what the point before left, the rest of the scoped buffers at anything, the generator register at some state. -/
def Phi2 (c : Dev nD) : (n : ℕ) → n ≤ cfg2.N → sProp 𝕄
  | 0, _ => Pipeline.ΦA spec2 c
  | n + 1, hn => iprop(owns (c : Thread nD τ) (Memref.whole cc2_scratch0 : Memref sig .tc .vmem S2000x128 .f32) fullShare (acc2 V c n hn)
      ∗ Pipeline.scopedRestBut (Ix := Unit) (Name := ℕ) (U := UR sig nD τ) (Lvl := ℕ) (Val := Elt F) spec2 c [cc2_scratch0] ∗ (∃ r, prngReg c r))

/-- The proof data of region 2 on core `c`. The output block is stored only at edge block 830, from the accumulator and the bias. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt) (iblk2 V c 2 t)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_3 (c : Dev nD) (t : Fin cfg2.N) : (dat2 V c).after 3 t = k2_pay3 (acc2 V c t.val t.isLt) (iblk2 V c 2 t) := by
  dsimp only [dat2]

/-! ## Where the body's two conditions hold, and where the output window is idle -/

/-- The zero offsets of a whole-buffer access. -/
theorem hz2 : (![0, 0] : Fin 2 → ℕ) = fun _ => 0 := funext fun a => by fin_cases a <;> rfl

/-- The body zeroes the accumulator first where this holds: the edge block is 0. -/
abbrev resets2 (i : grid2.Coords) : Prop :=
  (Scalar.cmpi .ne (Scalar.extui (Scalar.cmpi .eq (BitVec.ofNat 32 (i 1).val) 0#32)) 0#32) = 1#1
/-- A fact about the one coordinate it reads, decided over the 831 edge blocks. -/
theorem resets_edge2 : ∀ e : Fin 831,
    ((Scalar.cmpi .ne (Scalar.extui (Scalar.cmpi .eq (BitVec.ofNat 32 e.val) 0#32)) 0#32) = 1#1) ↔ e.val = 0 := by decide +kernel
theorem hresets2 (t : Fin cfg2.N) : resets2 (grid2.coords t) ↔ t.val % 831 = 0 :=
  (resets_edge2 (grid2.coords t 1)).trans (by rw [coord2_1])

/-- The body stores the output block where this holds: the edge block is 830, the last. -/
abbrev stores2 (i : grid2.Coords) : Prop := k2_cond2 i = 1#1
theorem stores_edge2 : ∀ e : Fin 831,
    ((Scalar.cmpi .ne (Scalar.extui (Scalar.cmpi .eq (BitVec.ofNat 32 e.val) 830#32)) 0#32) = 1#1) ↔ e.val = 830 := by decide +kernel
theorem hstores2 (t : Fin cfg2.N) : stores2 (grid2.coords t) ↔ t.val % 831 = 830 :=
  (stores_edge2 (grid2.coords t 1)).trans (by rw [coord2_1])

/-- Where the body does not store the output block the printed program calls its window idle, -/
theorem idleAt2 (t : Fin cfg2.N) (h : ¬stores2 (grid2.coords t)) : cfg2.idle 3 (grid2.coords t) = true := by
  show (!(k2_cond2 (grid2.coords t) == 1#1)) = true
  rw [beq_eq_false_iff_ne.mpr h]; rfl
/-- where it does, live; -/
theorem liveAt2 (t : Fin cfg2.N) (h : stores2 (grid2.coords t)) : cfg2.idle 3 (grid2.coords t) = false := by
  show (!(k2_cond2 (grid2.coords t) == 1#1)) = false
  rw [beq_iff_eq.mpr h]; rfl
/-- and the block is written back at the last edge block only. -/
theorem noFlush2 (t : Fin cfg2.N) (h : ¬t.val % 831 = 830) : (cfg2.win 3).flush t = false :=
  Bool.eq_false_iff.mpr fun hf => h ((flush2_3 t).mp hf)

set_option maxHeartbeats 1000000 in
/-- The body at a point of edge block 0 that is not of the last edge block: the accumulator, whatever it held, is zeroed and this point's
    one-hot product added to it; the output block's buffer is handed back as found. -/
theorem run_reset2 (c : Dev nD) (E : Set ℕ) (i : grid2.Coords)
    (arg2 : Memref sig .tc .vmem S1x2048 .i32) (harg2 : arg2.IsWhole) (arg3 : Memref sig .tc .vmem S2048x128 .f32) (harg3 : arg3.IsWhole)
    (arg4 : Memref sig .tc .vmem S1x128 .f32) (harg4 : arg4.IsWhole) (arg5 : Memref sig .tc .vmem S2000x128 .f32) (harg5 : arg5.IsWhole)
    (arg6 : Memref sig .tc .vmem S2000x128 .f32) (harg6 : arg6.IsWhole)
    (hc0 : resets2 i) (hc1 : ¬stores2 i)
    (x0 : Vec F S1x2048 .i32) (x1 : Vec F S2048x128 .f32) (x2 : Vec F S1x128 .f32) (xi3 : Vec F S2000x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k2_pay2 i x0 x1 (k2_pay1 (F := F)))) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [View.read_writes_eq_canon _ _ _ (fun y => ⟨_, List.mem_cons_self, View.mem_set_unit_zero hz2 inb_S2000x128_S2000x128_0_0 y⟩)]
  sl_unfold_words
  rw [View.canon_cons_unit_zero (S := S2000x128) hz2]
  simp only [View.readAt_eq_ld, View.readCov_unit_zero (S := S2000x128) _ hz2, View.ld_unit_zero (S := S1x2048) hz2, View.ld_unit_zero (S := S2048x128) hz2]

set_option maxHeartbeats 1000000 in
/-- The body at a point that is neither of edge block 0 nor of the last edge block: this point's one-hot product is added to the
    accumulator; the output block's buffer is handed back as found. -/
theorem run_mid2 (c : Dev nD) (E : Set ℕ) (i : grid2.Coords)
    (arg2 : Memref sig .tc .vmem S1x2048 .i32) (harg2 : arg2.IsWhole) (arg3 : Memref sig .tc .vmem S2048x128 .f32) (harg3 : arg3.IsWhole)
    (arg4 : Memref sig .tc .vmem S1x128 .f32) (harg4 : arg4.IsWhole) (arg5 : Memref sig .tc .vmem S2000x128 .f32) (harg5 : arg5.IsWhole)
    (arg6 : Memref sig .tc .vmem S2000x128 .f32) (harg6 : arg6.IsWhole)
    (hc0 : ¬resets2 i) (hc1 : ¬stores2 i)
    (x0 : Vec F S1x2048 .i32) (x1 : Vec F S2048x128 .f32) (x2 : Vec F S1x128 .f32) (xi3 : Vec F S2000x128 .f32) (xs : Vec F S2000x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k2_pay2 i x0 x1 xs)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [View.read_writes_eq_canon _ _ _ (fun y => ⟨_, List.mem_cons_self, View.mem_set_unit_zero hz2 inb_S2000x128_S2000x128_0_0 y⟩)]
  sl_unfold_words
  rw [View.canon_cons_unit_zero (S := S2000x128) hz2]
  simp only [View.readAt_eq_ld, View.ld_unit_zero (S := S2000x128) hz2, View.ld_unit_zero (S := S1x2048) hz2, View.ld_unit_zero (S := S2048x128) hz2]

set_option maxHeartbeats 1000000 in
/-- The body at a point of the last edge block (which is not edge block 0): this point's one-hot product is added to the accumulator,
    and the output block is stored whole from the accumulator and the bias, whatever its buffer held. -/
theorem run_last2 (c : Dev nD) (E : Set ℕ) (i : grid2.Coords)
    (arg2 : Memref sig .tc .vmem S1x2048 .i32) (harg2 : arg2.IsWhole) (arg3 : Memref sig .tc .vmem S2048x128 .f32) (harg3 : arg3.IsWhole)
    (arg4 : Memref sig .tc .vmem S1x128 .f32) (harg4 : arg4.IsWhole) (arg5 : Memref sig .tc .vmem S2000x128 .f32) (harg5 : arg5.IsWhole)
    (arg6 : Memref sig .tc .vmem S2000x128 .f32) (harg6 : arg6.IsWhole)
    (hc0 : ¬resets2 i) (hc1 : stores2 i)
    (x0 : Vec F S1x2048 .i32) (x1 : Vec F S2048x128 .f32) (x2 : Vec F S1x128 .f32) (xs : Vec F S2000x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k2_pay3 (k2_pay2 i x0 x1 xs) x2) ∗ owns (c : Thread nD τ) arg6 fullShare (k2_pay2 i x0 x1 xs)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_cons_self, View.mem_set_unit_zero hz2 inb_S2000x128_S2000x128_0_0 y⟩)]
    sl_unfold_words
    rw [View.canon_cons_unit_zero (S := S2000x128) hz2]
    simp only [View.readAt_eq_ld, View.readCov_unit_zero (S := S2000x128) _ hz2, View.ld_unit_zero (S := S2000x128) hz2, View.ld_unit_zero (S := S1x2048) hz2, View.ld_unit_zero (S := S2048x128) hz2, View.ld_unit_zero (S := S1x128) hz2]
  iexists _; isplitr
  swap; · iexact HS
  ipureintro
  sl_unfold_words
  rw [View.read_writes_eq_canon _ _ _ (fun y => ⟨_, List.mem_cons_self, View.mem_set_unit_zero hz2 inb_S2000x128_S2000x128_0_0 y⟩)]
  rw [View.canon_cons_unit_zero (S := S2000x128) hz2]
  simp only [View.readAt_eq_ld, View.ld_unit_zero (S := S2000x128) hz2, View.ld_unit_zero (S := S1x2048) hz2, View.ld_unit_zero (S := S2048x128) hz2]

/-! ## What the windows hold when the body is called -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]

/-- Each input window's current buffer holds its block at every point, fetched there or not (unfetched, its block index has not
    moved: the bias is fetched at the first point only). -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-! ## The accumulator and the invariant, position by position -/

/-- At a position of edge block 0 the accumulator restarts from zero. -/
theorem acc_reset2 (c : Dev nD) (t : Fin cfg2.N) (h0 : t.val % 831 = 0) :
    acc2 V c t.val t.isLt = k2_pay2 (grid2.coords t) (iblk2 V c 0 t) (iblk2 V c 1 t) (k2_pay1 (F := F)) := by
  obtain ⟨n, hn⟩ := t
  cases n with
  | zero => rfl
  | succ n => exact congrArg (k2_pay2 (grid2.coords ⟨n + 1, hn⟩) (iblk2 V c 0 ⟨n + 1, hn⟩) (iblk2 V c 1 ⟨n + 1, hn⟩)) (if_pos h0)

/-- At any other position it continues from what the position before left. -/
theorem acc_step2 (c : Dev nD) (t : Fin cfg2.N) (h0 : ¬t.val % 831 = 0) :
    acc2 V c t.val t.isLt = k2_pay2 (grid2.coords t) (iblk2 V c 0 t) (iblk2 V c 1 t)
      (acc2 V c (t.val - 1) (Nat.lt_of_le_of_lt (Nat.sub_le _ _) t.isLt)) := by
  obtain ⟨n, hn⟩ := t
  cases n with
  | zero => exact absurd (Nat.zero_mod _) h0
  | succ n => exact congrArg (k2_pay2 (grid2.coords ⟨n + 1, hn⟩) (iblk2 V c 0 ⟨n + 1, hn⟩) (iblk2 V c 1 ⟨n + 1, hn⟩)) (if_neg h0)

theorem Phi_zero2 (c : Dev nD) (n : ℕ) (h : n ≤ cfg2.N) (hz : n = 0) : Phi2 V c n h = Pipeline.ΦA spec2 c := by
  subst hz; rfl

/-- After position `n`: the accumulator at that position's contents. -/
theorem Phi_succ2 (c : Dev nD) (n : ℕ) (hn : n < cfg2.N) :
    Phi2 V c (n + 1) hn = iprop(owns (c : Thread nD τ) (Memref.whole cc2_scratch0 : Memref sig .tc .vmem S2000x128 .f32) fullShare (acc2 V c n hn)
      ∗ Pipeline.scopedRestBut (Ix := Unit) (Name := ℕ) (U := UR sig nD τ) (Lvl := ℕ) (Val := Elt F) spec2 c [cc2_scratch0] ∗ (∃ r, prngReg c r)) := rfl

/-- Before a position that is not the first: the accumulator at what the position before left. -/
theorem Phi_pos2 (c : Dev nD) (n : ℕ) (h : n ≤ cfg2.N) (hz : n ≠ 0) :
    Phi2 V c n h = iprop(owns (c : Thread nD τ) (Memref.whole cc2_scratch0 : Memref sig .tc .vmem S2000x128 .f32) fullShare (acc2 V c (n - 1) (by omega))
      ∗ Pipeline.scopedRestBut (Ix := Unit) (Name := ℕ) (U := UR sig nD τ) (Lvl := ℕ) (Val := Elt F) spec2 c [cc2_scratch0] ∗ (∃ r, prngReg c r)) := by
  cases n with
  | zero => exact absurd rfl hz
  | succ n => rfl

/-- The invariant at a point's start, restated at the point's position. -/
theorem Phi_castSucc2 (c : Dev nD) (t : Fin cfg2.N) : (dat2 V c).Φ t.castSucc = Phi2 V c t.val (Nat.le_of_lt t.isLt) := by
  first | rfl | (dsimp only [dat2]; simp only [Fin.coe_castSucc])

/-- What the launch hands the region, with the accumulator's buffer split out of the scoped rest. -/
theorem PhiA_eq2 (c : Dev nD) :
    (Pipeline.ΦA spec2 c : sProp 𝕄)
      = iprop(iprop(iprop(∃ d, owns (c : Thread nD τ) (Memref.whole cc2_scratch0 : Memref sig .tc .vmem S2000x128 .f32) fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [owns_whole]; try rfl

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the input windows hold their blocks; the position's edge block says which of the three cases the point is in;
    the invariant hands the body the accumulator at what the position before left (at anything before the first point, where the body
    zeroes it), keeps the other scoped buffers and the generator register, and takes the accumulator back at this position's contents;
    the output block's buffer comes back as found except at the last edge block, where it holds the accumulator plus the bias. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Phi2 V c (t.val + 1) t.isLt from rfl, Phi_succ2]
  rw [show (dat2 V c).leavesExact 0 t = owns (c : Thread nD τ) (st2_0 t) fullShare ((dat2 V c).after 0 t) from rfl,
    show (dat2 V c).leavesExact 1 t = owns (c : Thread nD τ) (st2_1 t) fullShare ((dat2 V c).after 1 t) from rfl,
    show (dat2 V c).leavesExact 2 t = owns (c : Thread nD τ) (st2_2 t) fullShare ((dat2 V c).after 2 t) from rfl,
    after2_0, after2_1, after2_2]
  by_cases h0 : t.val % 831 = 0
  · have h1 : ¬t.val % 831 = 830 := by omega
    rw [Dat.leavesExact_idle (dat2 V c) 3 t (idleAt2 t (fun h => h1 ((hstores2 t).mp h))) (noFlush2 t h1)]
    rw [acc_reset2 V c t h0]
    by_cases hz : t.val = 0
    · rw [Phi_castSucc2 V c t, Phi_zero2 V c _ _ hz, PhiA_eq2]
      iintro ⟨⟨⟨HS, HR⟩, Hg⟩, Ho, ⟨%d0, H0⟩, ⟨%d1, H1⟩, ⟨%d2, H2⟩, ⟨%d3, H3⟩⟩
      iapply (run_reset2 c Set.univ (grid2.coords t) _ _ _ _ _ _ _ _ _ _ ((hresets2 t).mpr h0) (fun h => h1 ((hstores2 t).mp h))
        (iblk2 V c 0 t) (iblk2 V c 1 t) (iblk2 V c 2 t) ((dat2 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [Phi_castSucc2 V c t, Phi_pos2 V c _ _ hz]
      iintro ⟨⟨HS, HR, Hg⟩, Ho, ⟨%d0, H0⟩, ⟨%d1, H1⟩, ⟨%d2, H2⟩, ⟨%d3, H3⟩⟩
      iapply (run_reset2 c Set.univ (grid2.coords t) _ _ _ _ _ _ _ _ _ _ ((hresets2 t).mpr h0) (fun h => h1 ((hstores2 t).mp h))
        (iblk2 V c 0 t) (iblk2 V c 1 t) (iblk2 V c 2 t) ((dat2 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := by omega
    rw [Phi_castSucc2 V c t, Phi_pos2 V c _ _ hz]
    rw [acc_step2 V c t h0]
    by_cases h1 : t.val % 831 = 830
    · rw [show (dat2 V c).leavesExact 3 t = owns (c : Thread nD τ) (st2_3 t) fullShare ((dat2 V c).after 3 t) from by
        unfold Dat.leavesExact; rw [liveAt2 t ((hstores2 t).mpr h1)], after2_3]
      rw [acc_step2 V c t h0]
      iintro ⟨⟨HS, HR, Hg⟩, Ho, ⟨%d0, H0⟩, ⟨%d1, H1⟩, ⟨%d2, H2⟩, ⟨%d3, H3⟩⟩
      iapply (run_last2 c Set.univ (grid2.coords t) _ _ _ _ _ _ _ _ _ _ (fun h => h0 ((hresets2 t).mp h)) ((hstores2 t).mpr h1)
        (iblk2 V c 0 t) (iblk2 V c 1 t) (iblk2 V c 2 t) (acc2 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [Dat.leavesExact_idle (dat2 V c) 3 t (idleAt2 t (fun h => h1 ((hstores2 t).mp h))) (noFlush2 t h1)]
      iintro ⟨⟨HS, HR, Hg⟩, Ho, ⟨%d0, H0⟩, ⟨%d1, H1⟩, ⟨%d2, H2⟩, ⟨%d3, H3⟩⟩
      iapply (run_mid2 c Set.univ (grid2.coords t) _ _ _ _ _ _ _ _ _ _ (fun h => h0 ((hresets2 t).mp h)) (fun h => h1 ((hstores2 t).mp h))
        (iblk2 V c 0 t) (iblk2 V c 1 t) (iblk2 V c 2 t) ((dat2 V c).before 3 t d3) (acc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem phi_in2 (c : Dev nD) : (Pipeline.ΦA spec2 c : sProp 𝕄) ⊢ (dat2 V c).Φ 0 := by
  rw [show (dat2 V c).Φ 0 = Phi2 V c 0 (Nat.zero_le _) from rfl, Phi_zero2 V c 0 _ rfl]

/-- After the last point the invariant gives it back: the accumulator's named contents are forgotten. -/
theorem phi_out2 (c : Dev nD) : (dat2 V c).Φ (Fin.last cfg2.N) ⊢ (Pipeline.ΦA spec2 c : sProp 𝕄) := by
  rw [show (dat2 V c).Φ (Fin.last cfg2.N) = Phi2 V c cfg2.N (Nat.le_refl _) from rfl,
    Phi_pos2 V c cfg2.N (Nat.le_refl _) (by have : cfg2.N = 41550 := N_2; omega), PhiA_eq2]
  iintro ⟨HS, HR, Hg⟩
  isplitl [HS HR]
  · isplitl [HS]; · iexists _; iexact HS
    iexact HR
  iexact Hg

end Cert.Kernel.Hand

end
-- ==== Proof.KB.Lin3.lean ====
import proofs.«158984_j43568148250937_1_alg».proof.Proof.Gen.Kernel.Launch
import proofs.«158984_j43568148250937_1_alg».proof.Proof.Gen.Kernel.Skeleton
import proofs.«158984_j43568148250937_1_alg».proof.Proof.KB.Sched
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 3: the second dense layer, one block of 2000 rows per grid point -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The proof data of region 3 on core `c`: the arrays as the region finds them; after the body each input's buffer at its block,
    the output's at the product of the two input blocks; the invariant the scoped rest and the generator register, untouched. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay1 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_2 (c : Dev nD) (t : Fin cfg3.N) : (dat3 V c).after 2 t = k3_pay1 (iblk3 V c 0 t) (iblk3 V c 1 t) := by
  dsimp only [dat3]

/-! ## The input blocks stay in their buffers -/

/-- Both offsets of a whole-block access are zero. -/
theorem zero_off3 : (![0, 0] : Fin 2 → Nat) = fun _ => 0 := funext fun a => by fin_cases a <;> rfl

/-- The rows' staging buffer holds its block at every point (it is fetched at each). -/
theorem before3_0 (c : Dev nD) (t : Fin cfg3.N) (d) : (dat3 V c).before 0 t d = iblk3 V c 0 t :=
  ((dat3 V c).before_in_eq_fetched 0 rfl (fun _ => rfl) (fun _ _ _ => rfl)
      (fun t => by show (cfg3.win 0).cut (cfg3.grid.coords t) (iblk3 V c 0 t) = _; unfold Dat.blockOf iblk3; rw [A_eq3]; try rfl) t d).trans
    (by unfold Dat.fetched Dat.blockOf iblk3; rw [A_eq3]; try rfl)

/-- The weight's staging buffer holds the whole weight at every point: fetched at the first, and its index never moves. -/
theorem before3_1 (c : Dev nD) (t : Fin cfg3.N) (d) : (dat3 V c).before 1 t d = iblk3 V c 1 t :=
  ((dat3 V c).before_in_eq_fetched 1 rfl (fun _ => rfl) (fun _ _ _ => rfl)
      (fun t => by show (cfg3.win 1).cut (cfg3.grid.coords t) (iblk3 V c 1 t) = _; unfold Dat.blockOf iblk3; rw [A_eq3]; try rfl) t d).trans
    (by unfold Dat.fetched Dat.blockOf iblk3; rw [A_eq3]; try rfl)

/-! ## The body's triple -/

/-- The one whole-block store covers the output's buffer. -/
theorem cover3_2 (p0 : Vec F S2000x64 .f32) (y : S2000x64.Idx) :
    ∃ pc ∈ ([⟨Rect.unit (s := S2000x64) ![0, 0] S2000x64.size inb_S2000x64_S2000x64_0_0, p0⟩] : List (View.Piece (Elt F) S2000x64 .f32)), y ∈ pc.1.set :=
  ⟨_, List.mem_singleton_self _, View.mem_set_unit_zero zero_off3 inb_S2000x64_S2000x64_0_0 y⟩

set_option maxHeartbeats 1000000 in
/-- The dense layer's body on whole staging memrefs, the inputs' at contents `x0`, `x1` and the output's at anything, runs to
    the continuation holding the inputs' as they were and the output's at the product payload of the two. -/
theorem sound_kernel3 (c : Dev nD) (E : Set ℕ) (i : grid3.Coords)
    (arg1 : Memref sig .tc .vmem S2000x128 .f32) (harg1 : arg1.IsWhole) (arg2 : Memref sig .tc .vmem S128x64 .f32) (harg2 : arg2.IsWhole)
    (arg3 : Memref sig .tc .vmem S2000x64 .f32) (harg3 : arg3.IsWhole)
    (x0 : Vec F S2000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k3_pay1 x0 x1)) -∗ K ⟨⟩))
      ⊢ wp frame (wpE (defs₀ (F := F)) Variants.none c none) E (cc3__linear_kernel i arg1 harg1 arg2 harg2 arg3 harg3) K := by
  simp only [cc3__linear_kernel_eq_skeleton]; unfold cc3__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover3_2 _), View.canon_unit_zero zero_off3]
  simp only [View.readAt_eq_ld, View.ld_unit_zero (S := S2000x128) zero_off3, View.ld_unit_zero (S := S128x64) zero_off3]

/-! ## The body obligation, at a generic point -/

/-- What the body leaves in the inputs' buffers: their blocks, untouched. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]

/-- What the body is called with at point `t`: the invariant, what the core owes, the two inputs' buffers at their blocks
    and the output's buffer at whatever it held, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns: the inputs' as they were, the output's at the product of the two blocks. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's two ends -/

/-- Entering: the invariant before the first point is the region's own. -/
theorem phi_in3 (c : Dev nD) : (Pipeline.ΦA spec3 c : sProp 𝕄) ⊢ (dat3 V c).Φ 0 :=
  BI.Entails.refl _

/-- Leaving: so is the invariant after the last point. -/
theorem phi_out3 (c : Dev nD) : (dat3 V c).Φ (Fin.last cfg3.N) ⊢ (Pipeline.ΦA spec3 c : sProp 𝕄) :=
  BI.Entails.refl _

end Cert.Kernel.Hand

end
-- ==== Proof.KB.Gat4.lean ====
import proofs.«158984_j43568148250937_1_alg».proof.Proof.Gen.Kernel.Launch
import proofs.«158984_j43568148250937_1_alg».proof.Proof.Gen.Kernel.Skeleton
import proofs.«158984_j43568148250937_1_alg».proof.Proof.KB.Sched
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 4: the second gather. Grid (831 edge blocks, 50 node blocks), row-major: position n is edge block n / 50, node block n % 50 -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The accumulator after the body at grid position `n`: zeroed at node block 0, then this point's one-hot product
    (the edge block's indices against the node block's numbers, times the node block of the table) added. -/
def acc4 (c : Dev nD) : (n : ℕ) → n < cfg4.N → Vec F S2048x64 .f32
  | 0, h => k4_pay2 (grid4.coords ⟨0, h⟩) (iblk4 V c 0 ⟨0, h⟩) (iblk4 V c 2 ⟨0, h⟩) (k4_pay1 (F := F))
  | n + 1, h => k4_pay2 (grid4.coords ⟨n + 1, h⟩) (iblk4 V c 0 ⟨n + 1, h⟩) (iblk4 V c 2 ⟨n + 1, h⟩)
      (if (n + 1) % 50 = 0 then k4_pay1 (F := F) else acc4 c n (Nat.lt_of_succ_lt h))

/-- The region invariant before position `n`: before the first point the scoped rest and the generator register; afterwards the
    accumulator at what the point before left, the rest of the scoped buffers at anything, the generator register at some state. -/
def Phi4 (c : Dev nD) : (n : ℕ) → n ≤ cfg4.N → sProp 𝕄
  | 0, _ => Pipeline.ΦA spec4 c
  | n + 1, hn => iprop(owns (c : Thread nD τ) (Memref.whole cc4_scratch0 : Memref sig .tc .vmem S2048x64 .f32) fullShare (acc4 V c n hn)
      ∗ Pipeline.scopedRestBut (Ix := Unit) (Name := ℕ) (U := UR sig nD τ) (Lvl := ℕ) (Val := Elt F) spec4 c [cc4_scratch0] ∗ (∃ r, prngReg c r))

/-- The proof data of region 4 on core `c`. The output block is stored only at node block 49, from the accumulator and the edge weights. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (acc4 V c t.val t.isLt) (iblk4 V c 1 t)
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_3 (c : Dev nD) (t : Fin cfg4.N) : (dat4 V c).after 3 t = k4_pay3 (acc4 V c t.val t.isLt) (iblk4 V c 1 t) := by
  dsimp only [dat4]

/-- The offsets of a whole-buffer access, however spelt, are zero. -/
theorem rect4_zero : (![0, 0] : Fin 2 → Nat) = fun _ => 0 := funext fun a => by fin_cases a <;> rfl

/-! ## The body's two conditions, over the grid coordinates -/

/-- The first conditional's test (the accumulator is zeroed): the node block is block 0. -/
abbrev cond4_0 (i : grid4.Coords) : Prop := (Scalar.cmpi .ne (Scalar.extui (Scalar.cmpi .eq (BitVec.ofNat 32 (i 1).val) 0#32)) 0#32) = 1#1
/-- The second conditional's test (the output block is stored): the node block is block 49. -/
abbrev cond4_1 (i : grid4.Coords) : Prop := k4_cond2 i = 1#1

/-! ## The body's triple, per case of its two conditions

Every access is of a whole buffer, so a load reads the contents and a store leaves its payload. -/

set_option maxHeartbeats 1000000 in
/-- A point of node block 0: the accumulator, at anything, is zeroed and then holds this point's product alone;
    the output buffer is not touched. -/
theorem sound_kernel4_reset (c : Dev nD) (E : Set ℕ) (i : grid4.Coords)
    (arg2 : Memref sig .tc .vmem S2048x1 .i32) (harg2 : arg2.IsWhole) (arg3 : Memref sig .tc .vmem S2048x1 .f32) (harg3 : arg3.IsWhole)
    (arg4 : Memref sig .tc .vmem S2000x64 .f32) (harg4 : arg4.IsWhole) (arg5 : Memref sig .tc .vmem S2048x64 .f32) (harg5 : arg5.IsWhole)
    (arg6 : Memref sig .tc .vmem S2048x64 .f32) (harg6 : arg6.IsWhole)
    (hc0 : cond4_0 i) (hc1 : ¬cond4_1 i)
    (x0 : Vec F S2048x1 .i32) (x2 : Vec F S2000x64 .f32) (K : PUnit → sProp 𝕄) :
    iprop(owns (c : Thread nD τ) arg2 fullShare x0 ∗ owns (c : Thread nD τ) arg4 fullShare x2 ∗ (∃ d, owns (c : Thread nD τ) arg6 fullShare d)
        ∗ (iprop(owns (c : Thread nD τ) arg2 fullShare x0 ∗ owns (c : Thread nD τ) arg4 fullShare x2
            ∗ owns (c : Thread nD τ) arg6 fullShare (k4_pay2 i x0 x2 (k4_pay1 (F := F)))) -∗ K ⟨⟩))
      ⊢ wp frame (wpE (defs₀ (F := F)) Variants.none c none) E (cc4_kernel i arg2 harg2 arg3 harg3 arg4 harg4 arg5 harg5 arg6 harg6) K := by
  simp only [cc4_kernel_eq_skeleton]; unfold cc4_kernel_skel
  unfold owns
  iintro ⟨⟨%f0, %hf0, H0⟩, ⟨%f2, %hf2, H2⟩, ⟨%d6, %f6, -, H6⟩, Hk⟩
  subst hf0; subst hf2
  sl_exec (disch := first | exact hc0 | exact hc1)
  sl_step
  iapply Hk
  isplitl [H0]
  · iexists f0; isplitr; · ipureintro; rfl
    iexact H0
  isplitl [H2]
  · iexists f2; isplitr; · ipureintro; rfl
    iexact H2
  iexists _; isplitr
  swap; · iexact H6
  ipureintro
  sl_unfold_words
  rw [View.read_writes_eq_canon _ _ _ (fun y => ⟨_, List.mem_cons.mpr (Or.inl rfl), View.mem_set_unit_zero rect4_zero inb_S2048x64_S2048x64_0_0 y⟩),
    View.canon_cons_unit_zero (S := S2048x64) rect4_zero, View.readCov_unit_zero (S := S2048x64) _ rect4_zero]
  simp only [View.readAt_eq_ld, View.ld_unit_zero (S := S2048x1) rect4_zero, View.ld_unit_zero (S := S2000x64) rect4_zero]

set_option maxHeartbeats 1000000 in
/-- A point of a node block that is neither the first nor the last: this point's product is added to the accumulator;
    the output buffer is not touched. -/
theorem sound_kernel4_mid (c : Dev nD) (E : Set ℕ) (i : grid4.Coords)
    (arg2 : Memref sig .tc .vmem S2048x1 .i32) (harg2 : arg2.IsWhole) (arg3 : Memref sig .tc .vmem S2048x1 .f32) (harg3 : arg3.IsWhole)
    (arg4 : Memref sig .tc .vmem S2000x64 .f32) (harg4 : arg4.IsWhole) (arg5 : Memref sig .tc .vmem S2048x64 .f32) (harg5 : arg5.IsWhole)
    (arg6 : Memref sig .tc .vmem S2048x64 .f32) (harg6 : arg6.IsWhole)
    (hc0 : ¬cond4_0 i) (hc1 : ¬cond4_1 i)
    (x0 : Vec F S2048x1 .i32) (x2 : Vec F S2000x64 .f32) (a : Vec F S2048x64 .f32) (K : PUnit → sProp 𝕄) :
    iprop(owns (c : Thread nD τ) arg2 fullShare x0 ∗ owns (c : Thread nD τ) arg4 fullShare x2 ∗ owns (c : Thread nD τ) arg6 fullShare a
        ∗ (iprop(owns (c : Thread nD τ) arg2 fullShare x0 ∗ owns (c : Thread nD τ) arg4 fullShare x2
            ∗ owns (c : Thread nD τ) arg6 fullShare (k4_pay2 i x0 x2 a)) -∗ K ⟨⟩))
      ⊢ wp frame (wpE (defs₀ (F := F)) Variants.none c none) E (cc4_kernel i arg2 harg2 arg3 harg3 arg4 harg4 arg5 harg5 arg6 harg6) K := by
  simp only [cc4_kernel_eq_skeleton]; unfold cc4_kernel_skel
  unfold owns
  iintro ⟨⟨%f0, %hf0, H0⟩, ⟨%f2, %hf2, H2⟩, ⟨%f6, %hf6, H6⟩, Hk⟩
  subst hf0; subst hf2; subst hf6
  sl_exec (disch := first | exact hc0 | exact hc1)
  sl_step
  iapply Hk
  isplitl [H0]
  · iexists f0; isplitr; · ipureintro; rfl
    iexact H0
  isplitl [H2]
  · iexists f2; isplitr; · ipureintro; rfl
    iexact H2
  iexists _; isplitr
  swap; · iexact H6
  ipureintro
  rw [View.read_writes_eq_canon _ _ _ (fun y => ⟨_, List.mem_cons.mpr (Or.inl rfl), View.mem_set_unit_zero rect4_zero inb_S2048x64_S2048x64_0_0 y⟩),
    View.canon_unit_zero (S := S2048x64) rect4_zero]
  simp only [View.readAt_eq_ld, View.ld_unit_zero (S := S2048x1) rect4_zero, View.ld_unit_zero (S := S2000x64) rect4_zero,
    View.ld_unit_zero (S := S2048x64) rect4_zero]

set_option maxHeartbeats 1000000 in
/-- A point of node block 49: this point's product is added to the accumulator, and the output buffer, at anything, is
    stored whole with the accumulator times the edge weights. -/
theorem sound_kernel4_last (c : Dev nD) (E : Set ℕ) (i : grid4.Coords)
    (arg2 : Memref sig .tc .vmem S2048x1 .i32) (harg2 : arg2.IsWhole) (arg3 : Memref sig .tc .vmem S2048x1 .f32) (harg3 : arg3.IsWhole)
    (arg4 : Memref sig .tc .vmem S2000x64 .f32) (harg4 : arg4.IsWhole) (arg5 : Memref sig .tc .vmem S2048x64 .f32) (harg5 : arg5.IsWhole)
    (arg6 : Memref sig .tc .vmem S2048x64 .f32) (harg6 : arg6.IsWhole)
    (hc0 : ¬cond4_0 i) (hc1 : cond4_1 i)
    (x0 : Vec F S2048x1 .i32) (x1 : Vec F S2048x1 .f32) (x2 : Vec F S2000x64 .f32) (a : Vec F S2048x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (k4_pay3 (k4_pay2 i x0 x2 a) x1)
            ∗ owns (c : Thread nD τ) arg6 fullShare (k4_pay2 i x0 x2 a)) -∗ K ⟨⟩))
      ⊢ wp frame (wpE (defs₀ (F := F)) Variants.none c none) E (cc4_kernel i arg2 harg2 arg3 harg3 arg4 harg4 arg5 harg5 arg6 harg6) K := by
  simp only [cc4_kernel_eq_skeleton]; unfold cc4_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  subst hf0; subst hf1; subst hf2; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_words
    rw [View.read_writes_eq_canon _ _ _ (fun y => ⟨_, List.mem_cons.mpr (Or.inl rfl), View.mem_set_unit_zero rect4_zero inb_S2048x64_S2048x64_0_0 y⟩),
      View.canon_unit_zero (S := S2048x64) rect4_zero, View.readCov_unit_zero (S := S2048x64) _ rect4_zero]
    simp only [View.readAt_eq_ld, View.ld_unit_zero (S := S2048x1) rect4_zero, View.ld_unit_zero (S := S2000x64) rect4_zero,
      View.ld_unit_zero (S := S2048x64) rect4_zero]
  iexists _; isplitr
  swap; · iexact H6
  ipureintro
  sl_unfold_words
  rw [View.read_writes_eq_canon _ _ _ (fun y => ⟨_, List.mem_cons.mpr (Or.inl rfl), View.mem_set_unit_zero rect4_zero inb_S2048x64_S2048x64_0_0 y⟩),
    View.canon_unit_zero (S := S2048x64) rect4_zero]
  simp only [View.readAt_eq_ld, View.ld_unit_zero (S := S2048x1) rect4_zero, View.ld_unit_zero (S := S2000x64) rect4_zero,
    View.ld_unit_zero (S := S2048x64) rect4_zero]

/-! ## Where the two conditions hold

Both read the node block alone, which at position `t` of the row-major grid is `t % 50`: each is decided on the 50 node blocks. -/

/-- Position `t` is in node block `t % 50`. -/
theorem pt4_node (t : Fin cfg4.N) : ((grid4.coords t) 1).val = t.val % 50 := by
  show t.val / grid4.stride 1 % grid4.bound 1 = t.val % 50
  rw [show grid4.stride 1 = 1 from by decide, show grid4.bound 1 = 50 from rfl, Nat.div_one]

theorem cond4_0_node : ∀ j : Fin 50, (Scalar.cmpi .ne (Scalar.extui (Scalar.cmpi .eq (BitVec.ofNat 32 j.val) 0#32)) 0#32) = 1#1 ↔ j.val = 0 := by decide
theorem cond4_1_node : ∀ j : Fin 50, (Scalar.cmpi .ne (Scalar.extui (Scalar.cmpi .eq (BitVec.ofNat 32 j.val) 49#32)) 0#32) = 1#1 ↔ j.val = 49 := by decide

/-- The accumulator is zeroed at the positions ≡ 0 (mod 50), -/
theorem hcond4_0 (t : Fin cfg4.N) : cond4_0 (grid4.coords t) ↔ t.val % 50 = 0 :=
  (cond4_0_node ((grid4.coords t) 1)).trans (by rw [pt4_node t])
/-- and the output block is stored at the positions ≡ 49 (mod 50). -/
theorem hcond4_1 (t : Fin cfg4.N) : cond4_1 (grid4.coords t) ↔ t.val % 50 = 49 :=
  (cond4_1_node ((grid4.coords t) 1)).trans (by rw [pt4_node t])

/-- Where the output block is not stored the program states window 3 idle, -/
theorem idle4_3_off (i : grid4.Coords) (h : ¬cond4_1 i) : cfg4.idle 3 i = true := by
  show (!(k4_cond2 i == 1#1)) = true
  simpa using h
/-- and where it is stored, live. -/
theorem idle4_3_on (i : grid4.Coords) (h : cond4_1 i) : cfg4.idle 3 i = false := by
  show (!(k4_cond2 i == 1#1)) = false
  simpa using h

/-! ## The accumulator, position by position -/

/-- At a position of node block 0 the accumulator holds that point's product alone. -/
theorem acc4_reset (c : Dev nD) (t : Fin cfg4.N) (h : t.val % 50 = 0) :
    acc4 V c t.val t.isLt = k4_pay2 (grid4.coords t) (iblk4 V c 0 t) (iblk4 V c 2 t) (k4_pay1 (F := F)) := by
  obtain ⟨n, hn⟩ := t
  cases n with
  | zero => rfl
  | succ n => exact congrArg (k4_pay2 (grid4.coords ⟨n + 1, hn⟩) (iblk4 V c 0 ⟨n + 1, hn⟩) (iblk4 V c 2 ⟨n + 1, hn⟩)) (if_pos h)

/-- At any other position it holds what the position before left plus this point's product. -/
theorem acc4_step (c : Dev nD) (t : Fin cfg4.N) (h : ¬t.val % 50 = 0) :
    acc4 V c t.val t.isLt = k4_pay2 (grid4.coords t) (iblk4 V c 0 t) (iblk4 V c 2 t)
      (acc4 V c (t.val - 1) (Nat.lt_of_le_of_lt (Nat.sub_le _ _) t.isLt)) := by
  obtain ⟨n, hn⟩ := t
  cases n with
  | zero => exact absurd (Nat.zero_mod _) h
  | succ n => exact congrArg (k4_pay2 (grid4.coords ⟨n + 1, hn⟩) (iblk4 V c 0 ⟨n + 1, hn⟩) (iblk4 V c 2 ⟨n + 1, hn⟩)) (if_neg h)

/-! ## The invariant, position by position -/

theorem Phi4_zero (c : Dev nD) (n : ℕ) (h : n ≤ cfg4.N) (hz : n = 0) : Phi4 V c n h = Pipeline.ΦA spec4 c := by
  subst hz; rfl

/-- After position `n`: the accumulator at that position's contents. -/
theorem Phi4_succ (c : Dev nD) (n : ℕ) (hn : n < cfg4.N) :
    Phi4 V c (n + 1) hn = iprop(owns (c : Thread nD τ) (Memref.whole cc4_scratch0 : Memref sig .tc .vmem S2048x64 .f32) fullShare (acc4 V c n hn)
      ∗ Pipeline.scopedRestBut (Ix := Unit) (Name := ℕ) (U := UR sig nD τ) (Lvl := ℕ) (Val := Elt F) spec4 c [cc4_scratch0] ∗ (∃ r, prngReg c r)) := rfl

/-- Before a position that is not the first: the accumulator at what the position before left. -/
theorem Phi4_pos (c : Dev nD) (n : ℕ) (h : n ≤ cfg4.N) (hz : n ≠ 0) :
    Phi4 V c n h = iprop(owns (c : Thread nD τ) (Memref.whole cc4_scratch0 : Memref sig .tc .vmem S2048x64 .f32) fullShare (acc4 V c (n - 1) (by omega))
      ∗ Pipeline.scopedRestBut (Ix := Unit) (Name := ℕ) (U := UR sig nD τ) (Lvl := ℕ) (Val := Elt F) spec4 c [cc4_scratch0] ∗ (∃ r, prngReg c r)) := by
  cases n with
  | zero => exact absurd rfl hz
  | succ n => rfl

/-- What the launch hands the region, with the accumulator's buffer split out of the scoped buffers and owned at some contents. -/
theorem Phi4_launch (c : Dev nD) :
    (Pipeline.ΦA spec4 c : sProp 𝕄)
      = iprop(iprop((∃ d, owns (c : Thread nD τ) (Memref.whole cc4_scratch0 : Memref sig .tc .vmem S2048x64 .f32) fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [owns_whole]; try rfl

/-- The invariant at a point's start, restated at the point's position. -/
theorem Phi4_castSucc (c : Dev nD) (t : Fin cfg4.N) :
    (dat4 V c).Φ t.castSucc = Phi4 V c t.val (Nat.le_of_lt t.isLt) := by
  dsimp only [dat4]; simp only [Fin.coe_castSucc]

/-! ## What the body finds in the inputs' buffers -/

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]

/-- The edge block's indices: fetched at node block 0 only, and the block index does not move within an edge block,
    so the buffer holds the block at every position. -/
theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)

/-- The edge block's weights: likewise. -/
theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)

/-- The node block of the table: fetched at every position. -/
theorem before4_2 (c : Dev nD) (t : Fin cfg4.N) (d) : (dat4 V c).before 2 t d = iblk4 V c 2 t :=
  ((dat4 V c).before_in_eq_fetched 2 rfl (fun _ => rfl) (fun _ _ _ => rfl)
      (fun t => by rw [after4_2]; unfold Dat.blockOf iblk4; rw [A_eq4]; try rfl) t d).trans
    (by unfold Dat.fetched Dat.blockOf iblk4; rw [A_eq4]; try rfl)

/-- An input's buffer is handed back at its block (no input window is ever idle). -/
theorem blk4_0_back (c : Dev nD) (t : Fin cfg4.N) :
    (dat4 V c).leavesExact 0 t = owns (c : Thread nD τ) (st4_0 t) fullShare (iblk4 V c 0 t) := by
  unfold Dat.leavesExact; rw [show cfg4.idle 0 (cfg4.grid.coords t) = false from rfl, after4_0]
theorem blk4_1_back (c : Dev nD) (t : Fin cfg4.N) :
    (dat4 V c).leavesExact 1 t = owns (c : Thread nD τ) (st4_1 t) fullShare (iblk4 V c 1 t) := by
  unfold Dat.leavesExact; rw [show cfg4.idle 1 (cfg4.grid.coords t) = false from rfl, after4_1]
theorem blk4_2_back (c : Dev nD) (t : Fin cfg4.N) :
    (dat4 V c).leavesExact 2 t = owns (c : Thread nD τ) (st4_2 t) fullShare (iblk4 V c 2 t) := by
  unfold Dat.leavesExact; rw [show cfg4.idle 2 (cfg4.grid.coords t) = false from rfl, after4_2]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4000000 in
/-- The body at any point. The inputs' buffers hold their blocks; the position's node block says which case the point is in.
    At node block 0 the accumulator is taken at anything (at the first position out of the scoped buffers the launch hands over)
    and left at this point's product; elsewhere it is taken at what the position before left and this point's product is added.
    The output buffer is handed back as found except at node block 49, where it is left at the accumulator times the weights. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = Phi4 V c (t.val + 1) t.isLt from rfl, Phi4_succ, Phi4_castSucc]
  rw [blk4_0_back, blk4_1_back, blk4_2_back]
  by_cases h0 : t.val % 50 = 0
  · have h1 : ¬t.val % 50 = 49 := by omega
    have hc0 : cond4_0 (grid4.coords t) := (hcond4_0 t).mpr h0
    have hc1 : ¬cond4_1 (grid4.coords t) := fun h => h1 ((hcond4_1 t).mp h)
    rw [Dat.leavesExact_idle (dat4 V c) 3 t (idle4_3_off _ hc1) (Bool.eq_false_iff.mpr (mt (flush4_3 t).mp h1))]
    rw [acc4_reset V c t h0]
    by_cases hz : t.val = 0
    · rw [Phi4_zero V c _ _ hz, Phi4_launch]
      iintro ⟨⟨⟨HS, HR⟩, Hg⟩, Ho, ⟨%d0, H0⟩, ⟨%d1, H1⟩, ⟨%d2, H2⟩, H3⟩
      iapply (sound_kernel4_reset c Set.univ (grid4.coords t) _ _ _ _ _ _ _ _ _ _ hc0 hc1 (iblk4 V c 0 t) (iblk4 V c 2 t) _)
      isplitl [H0]; · iexact H0
      isplitl [H2]; · iexact H2
      isplitl [HS]; · iexact HS
      iintro ⟨H0, H2, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [Phi4_pos V c _ _ hz]
      iintro ⟨⟨HS, HR, Hg⟩, Ho, ⟨%d0, H0⟩, ⟨%d1, H1⟩, ⟨%d2, H2⟩, H3⟩
      iapply (sound_kernel4_reset c Set.univ (grid4.coords t) _ _ _ _ _ _ _ _ _ _ hc0 hc1 (iblk4 V c 0 t) (iblk4 V c 2 t) _)
      isplitl [H0]; · iexact H0
      isplitl [H2]; · iexact H2
      isplitl [HS]; · iexists _; iexact HS
      iintro ⟨H0, H2, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
  · have hz : t.val ≠ 0 := fun e => h0 (by rw [e])
    have hc0 : ¬cond4_0 (grid4.coords t) := fun h => h0 ((hcond4_0 t).mp h)
    rw [acc4_step V c t h0, Phi4_pos V c _ _ hz]
    by_cases h1 : t.val % 50 = 49
    · have hc1 : cond4_1 (grid4.coords t) := (hcond4_1 t).mpr h1
      rw [show (dat4 V c).leavesExact 3 t = owns (c : Thread nD τ) (st4_3 t) fullShare ((dat4 V c).after 3 t) from by
        unfold Dat.leavesExact; rw [idle4_3_on _ hc1], after4_3, acc4_step V c t h0]
      iintro ⟨⟨HS, HR, Hg⟩, Ho, ⟨%d0, H0⟩, ⟨%d1, H1⟩, ⟨%d2, H2⟩, ⟨%d3, H3⟩⟩
      iapply (sound_kernel4_last c Set.univ (grid4.coords t) _ _ _ _ _ _ _ _ _ _ hc0 hc1 (iblk4 V c 0 t) (iblk4 V c 1 t) (iblk4 V c 2 t)
        (acc4 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · have hc1 : ¬cond4_1 (grid4.coords t) := fun h => h1 ((hcond4_1 t).mp h)
      rw [Dat.leavesExact_idle (dat4 V c) 3 t (idle4_3_off _ hc1) (Bool.eq_false_iff.mpr (mt (flush4_3 t).mp h1))]
      iintro ⟨⟨HS, HR, Hg⟩, Ho, ⟨%d0, H0⟩, ⟨%d1, H1⟩, ⟨%d2, H2⟩, H3⟩
      iapply (sound_kernel4_mid c Set.univ (grid4.coords t) _ _ _ _ _ _ _ _ _ _ hc0 hc1 (iblk4 V c 0 t) (iblk4 V c 2 t)
        (acc4 V c (t.val - 1) (Nat.lt_of_le_of_lt (Nat.sub_le _ _) t.isLt)) _)
      isplitl [H0]; · iexact H0
      isplitl [H2]; · iexact H2
      isplitl [HS]; · iexact HS
      iintro ⟨H0, H2, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first position. -/
theorem phi_in4 (c : Dev nD) : (Pipeline.ΦA spec4 c : sProp 𝕄) ⊢ (dat4 V c).Φ 0 := by
  rw [show (dat4 V c).Φ 0 = Phi4 V c 0 (Nat.zero_le _) from rfl, Phi4_zero V c 0 _ rfl]
  try exact Idealize.SL.BI.Entails.refl _

/-- After the last position the invariant gives it back: the accumulator's contents are forgotten, and its buffer joins the
    other scoped buffers again. -/
theorem phi_out4 (c : Dev nD) : (dat4 V c).Φ (Fin.last cfg4.N) ⊢ (Pipeline.ΦA spec4 c : sProp 𝕄) := by
  rw [show (dat4 V c).Φ (Fin.last cfg4.N) = Phi4 V c (Fin.last cfg4.N).val (Nat.le_of_lt_succ (Fin.last cfg4.N).isLt) from rfl,
    Phi4_pos V c _ _ (by rw [Fin.val_last]; have : cfg4.N = 41550 := N_4; omega), Phi4_launch]
  iintro ⟨HS, HR, Hg⟩
  isplitl [HS HR]
  · isplitl [HS]; · iexists _; iexact HS
    iexact HR
  iexact Hg

end Cert.Kernel.Hand

end
-- ==== Proof.KB.Sca5.lean ====
import proofs.«158984_j43568148250937_1_alg».proof.Proof.Gen.Kernel.Launch
import proofs.«158984_j43568148250937_1_alg».proof.Proof.Gen.Kernel.Skeleton
import proofs.«158984_j43568148250937_1_alg».proof.Proof.KB.Sched
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 5: the second scatter. Grid (50 node blocks, 831 edge blocks), row-major: position n is node block n / 831, edge block n % 831 -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The accumulator after the body at grid position `n`: zeroed at edge block 0, then this point's one-hot product
    (the node block's numbers against the edge block's indices, times the edge block of the values) added. -/
def acc5 (c : Dev nD) : (n : ℕ) → n < cfg5.N → Vec F S2000x64 .f32
  | 0, h => k5_pay2 (grid5.coords ⟨0, h⟩) (iblk5 V c 0 ⟨0, h⟩) (iblk5 V c 1 ⟨0, h⟩) (k5_pay1 (F := F))
  | n + 1, h => k5_pay2 (grid5.coords ⟨n + 1, h⟩) (iblk5 V c 0 ⟨n + 1, h⟩) (iblk5 V c 1 ⟨n + 1, h⟩)
      (if (n + 1) % 831 = 0 then k5_pay1 (F := F) else acc5 c n (Nat.lt_of_succ_lt h))

/-- The region invariant before position `n`: before the first point the scoped rest and the generator register; afterwards the
    accumulator at what the point before left, the rest of the scoped buffers at anything, the generator register at some state. -/
def Phi5 (c : Dev nD) : (n : ℕ) → n ≤ cfg5.N → sProp 𝕄
  | 0, _ => Pipeline.ΦA spec5 c
  | n + 1, hn => iprop(owns (c : Thread nD τ) (Memref.whole cc5_scratch0 : Memref sig .tc .vmem S2000x64 .f32) fullShare (acc5 V c n hn)
      ∗ Pipeline.scopedRestBut (Ix := Unit) (Name := ℕ) (U := UR sig nD τ) (Lvl := ℕ) (Val := Elt F) spec5 c [cc5_scratch0] ∗ (∃ r, prngReg c r))

/-- The proof data of region 5 on core `c`. The output block is stored only at edge block 830, from the accumulator and the bias. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k5_pay3 (acc5 V c t.val t.isLt) (iblk5 V c 2 t)
  Φ t := Phi5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_3 (c : Dev nD) (t : Fin cfg5.N) : (dat5 V c).after 3 t = k5_pay3 (acc5 V c t.val t.isLt) (iblk5 V c 2 t) := by
  dsimp only [dat5]

/-! ## Where the body's two conditions hold, and where the output window is idle -/

/-- The zero offsets of a whole-buffer access. -/
theorem hz5 : (![0, 0] : Fin 2 → ℕ) = fun _ => 0 := funext fun a => by fin_cases a <;> rfl

/-- The body zeroes the accumulator first where this holds: the edge block is 0. -/
abbrev resets5 (i : grid5.Coords) : Prop :=
  (Scalar.cmpi .ne (Scalar.extui (Scalar.cmpi .eq (BitVec.ofNat 32 (i 1).val) 0#32)) 0#32) = 1#1
/-- A fact about the one coordinate it reads, decided over the 831 edge blocks. -/
theorem resets_edge5 : ∀ e : Fin 831,
    ((Scalar.cmpi .ne (Scalar.extui (Scalar.cmpi .eq (BitVec.ofNat 32 e.val) 0#32)) 0#32) = 1#1) ↔ e.val = 0 := by decide +kernel
theorem hresets5 (t : Fin cfg5.N) : resets5 (grid5.coords t) ↔ t.val % 831 = 0 :=
  (resets_edge5 (grid5.coords t 1)).trans (by rw [coord5_1])

/-- The body stores the output block where this holds: the edge block is 830, the last. -/
abbrev stores5 (i : grid5.Coords) : Prop := k5_cond2 i = 1#1
theorem stores_edge5 : ∀ e : Fin 831,
    ((Scalar.cmpi .ne (Scalar.extui (Scalar.cmpi .eq (BitVec.ofNat 32 e.val) 830#32)) 0#32) = 1#1) ↔ e.val = 830 := by decide +kernel
theorem hstores5 (t : Fin cfg5.N) : stores5 (grid5.coords t) ↔ t.val % 831 = 830 :=
  (stores_edge5 (grid5.coords t 1)).trans (by rw [coord5_1])

/-- Where the body does not store the output block the printed program calls its window idle, -/
theorem idleAt5 (t : Fin cfg5.N) (h : ¬stores5 (grid5.coords t)) : cfg5.idle 3 (grid5.coords t) = true := by
  show (!(k5_cond2 (grid5.coords t) == 1#1)) = true
  rw [beq_eq_false_iff_ne.mpr h]; rfl
/-- where it does, live; -/
theorem liveAt5 (t : Fin cfg5.N) (h : stores5 (grid5.coords t)) : cfg5.idle 3 (grid5.coords t) = false := by
  show (!(k5_cond2 (grid5.coords t) == 1#1)) = false
  rw [beq_iff_eq.mpr h]; rfl
/-- and the block is written back at the last edge block only. -/
theorem noFlush5 (t : Fin cfg5.N) (h : ¬t.val % 831 = 830) : (cfg5.win 3).flush t = false :=
  Bool.eq_false_iff.mpr fun hf => h ((flush5_3 t).mp hf)

set_option maxHeartbeats 1000000 in
/-- The body at a point of edge block 0 that is not of the last edge block: the accumulator, whatever it held, is zeroed and this point's
    one-hot product added to it; the output block's buffer is handed back as found. -/
theorem run_reset5 (c : Dev nD) (E : Set ℕ) (i : grid5.Coords)
    (arg2 : Memref sig .tc .vmem S1x2048 .i32) (harg2 : arg2.IsWhole) (arg3 : Memref sig .tc .vmem S2048x64 .f32) (harg3 : arg3.IsWhole)
    (arg4 : Memref sig .tc .vmem S1x64 .f32) (harg4 : arg4.IsWhole) (arg5 : Memref sig .tc .vmem S2000x64 .f32) (harg5 : arg5.IsWhole)
    (arg6 : Memref sig .tc .vmem S2000x64 .f32) (harg6 : arg6.IsWhole)
    (hc0 : resets5 i) (hc1 : ¬stores5 i)
    (x0 : Vec F S1x2048 .i32) (x1 : Vec F S2048x64 .f32) (x2 : Vec F S1x64 .f32) (xi3 : Vec F S2000x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k5_pay2 i x0 x1 (k5_pay1 (F := F)))) -∗ K ⟨⟩))
      ⊢ wp frame (wpE (defs₀ (F := F)) Variants.none c none) E (cc5_kernel i arg2 harg2 arg3 harg3 arg4 harg4 arg5 harg5 arg6 harg6) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [View.read_writes_eq_canon _ _ _ (fun y => ⟨_, List.mem_cons_self, View.mem_set_unit_zero hz5 inb_S2000x64_S2000x64_0_0 y⟩)]
  sl_unfold_words
  rw [View.canon_cons_unit_zero (S := S2000x64) hz5]
  simp only [View.readAt_eq_ld, View.readCov_unit_zero (S := S2000x64) _ hz5, View.ld_unit_zero (S := S1x2048) hz5, View.ld_unit_zero (S := S2048x64) hz5]

set_option maxHeartbeats 1000000 in
/-- The body at a point that is neither of edge block 0 nor of the last edge block: this point's one-hot product is added to the
    accumulator; the output block's buffer is handed back as found. -/
theorem run_mid5 (c : Dev nD) (E : Set ℕ) (i : grid5.Coords)
    (arg2 : Memref sig .tc .vmem S1x2048 .i32) (harg2 : arg2.IsWhole) (arg3 : Memref sig .tc .vmem S2048x64 .f32) (harg3 : arg3.IsWhole)
    (arg4 : Memref sig .tc .vmem S1x64 .f32) (harg4 : arg4.IsWhole) (arg5 : Memref sig .tc .vmem S2000x64 .f32) (harg5 : arg5.IsWhole)
    (arg6 : Memref sig .tc .vmem S2000x64 .f32) (harg6 : arg6.IsWhole)
    (hc0 : ¬resets5 i) (hc1 : ¬stores5 i)
    (x0 : Vec F S1x2048 .i32) (x1 : Vec F S2048x64 .f32) (x2 : Vec F S1x64 .f32) (xi3 : Vec F S2000x64 .f32) (xs : Vec F S2000x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k5_pay2 i x0 x1 xs)) -∗ K ⟨⟩))
      ⊢ wp frame (wpE (defs₀ (F := F)) Variants.none c none) E (cc5_kernel i arg2 harg2 arg3 harg3 arg4 harg4 arg5 harg5 arg6 harg6) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [View.read_writes_eq_canon _ _ _ (fun y => ⟨_, List.mem_cons_self, View.mem_set_unit_zero hz5 inb_S2000x64_S2000x64_0_0 y⟩)]
  sl_unfold_words
  rw [View.canon_cons_unit_zero (S := S2000x64) hz5]
  simp only [View.readAt_eq_ld, View.ld_unit_zero (S := S2000x64) hz5, View.ld_unit_zero (S := S1x2048) hz5, View.ld_unit_zero (S := S2048x64) hz5]

set_option maxHeartbeats 1000000 in
/-- The body at a point of the last edge block (which is not edge block 0): this point's one-hot product is added to the accumulator,
    and the output block is stored whole from the accumulator and the bias, whatever its buffer held. -/
theorem run_last5 (c : Dev nD) (E : Set ℕ) (i : grid5.Coords)
    (arg2 : Memref sig .tc .vmem S1x2048 .i32) (harg2 : arg2.IsWhole) (arg3 : Memref sig .tc .vmem S2048x64 .f32) (harg3 : arg3.IsWhole)
    (arg4 : Memref sig .tc .vmem S1x64 .f32) (harg4 : arg4.IsWhole) (arg5 : Memref sig .tc .vmem S2000x64 .f32) (harg5 : arg5.IsWhole)
    (arg6 : Memref sig .tc .vmem S2000x64 .f32) (harg6 : arg6.IsWhole)
    (hc0 : ¬resets5 i) (hc1 : stores5 i)
    (x0 : Vec F S1x2048 .i32) (x1 : Vec F S2048x64 .f32) (x2 : Vec F S1x64 .f32) (xs : Vec F S2000x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k5_pay3 (k5_pay2 i x0 x1 xs) x2) ∗ owns (c : Thread nD τ) arg6 fullShare (k5_pay2 i x0 x1 xs)) -∗ K ⟨⟩))
      ⊢ wp frame (wpE (defs₀ (F := F)) Variants.none c none) E (cc5_kernel i arg2 harg2 arg3 harg3 arg4 harg4 arg5 harg5 arg6 harg6) K := by
  simp only [cc5_kernel_eq_skeleton]; unfold cc5_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_cons_self, View.mem_set_unit_zero hz5 inb_S2000x64_S2000x64_0_0 y⟩)]
    sl_unfold_words
    rw [View.canon_cons_unit_zero (S := S2000x64) hz5]
    simp only [View.readAt_eq_ld, View.readCov_unit_zero (S := S2000x64) _ hz5, View.ld_unit_zero (S := S2000x64) hz5, View.ld_unit_zero (S := S1x2048) hz5, View.ld_unit_zero (S := S2048x64) hz5, View.ld_unit_zero (S := S1x64) hz5]
  iexists _; isplitr
  swap; · iexact HS
  ipureintro
  sl_unfold_words
  rw [View.read_writes_eq_canon _ _ _ (fun y => ⟨_, List.mem_cons_self, View.mem_set_unit_zero hz5 inb_S2000x64_S2000x64_0_0 y⟩)]
  rw [View.canon_cons_unit_zero (S := S2000x64) hz5]
  simp only [View.readAt_eq_ld, View.ld_unit_zero (S := S2000x64) hz5, View.ld_unit_zero (S := S1x2048) hz5, View.ld_unit_zero (S := S2048x64) hz5]

/-! ## What the windows hold when the body is called -/

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]

/-- Each input window's current buffer holds its block at every point, fetched there or not (unfetched, its block index has not
    moved: the bias is fetched at the first point only). -/
theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)

/-! ## The accumulator and the invariant, position by position -/

/-- At a position of edge block 0 the accumulator restarts from zero. -/
theorem acc_reset5 (c : Dev nD) (t : Fin cfg5.N) (h0 : t.val % 831 = 0) :
    acc5 V c t.val t.isLt = k5_pay2 (grid5.coords t) (iblk5 V c 0 t) (iblk5 V c 1 t) (k5_pay1 (F := F)) := by
  obtain ⟨n, hn⟩ := t
  cases n with
  | zero => rfl
  | succ n => exact congrArg (k5_pay2 (grid5.coords ⟨n + 1, hn⟩) (iblk5 V c 0 ⟨n + 1, hn⟩) (iblk5 V c 1 ⟨n + 1, hn⟩)) (if_pos h0)

/-- At any other position it continues from what the position before left. -/
theorem acc_step5 (c : Dev nD) (t : Fin cfg5.N) (h0 : ¬t.val % 831 = 0) :
    acc5 V c t.val t.isLt = k5_pay2 (grid5.coords t) (iblk5 V c 0 t) (iblk5 V c 1 t)
      (acc5 V c (t.val - 1) (Nat.lt_of_le_of_lt (Nat.sub_le _ _) t.isLt)) := by
  obtain ⟨n, hn⟩ := t
  cases n with
  | zero => exact absurd (Nat.zero_mod _) h0
  | succ n => exact congrArg (k5_pay2 (grid5.coords ⟨n + 1, hn⟩) (iblk5 V c 0 ⟨n + 1, hn⟩) (iblk5 V c 1 ⟨n + 1, hn⟩)) (if_neg h0)

theorem Phi_zero5 (c : Dev nD) (n : ℕ) (h : n ≤ cfg5.N) (hz : n = 0) : Phi5 V c n h = Pipeline.ΦA spec5 c := by
  subst hz; rfl

/-- After position `n`: the accumulator at that position's contents. -/
theorem Phi_succ5 (c : Dev nD) (n : ℕ) (hn : n < cfg5.N) :
    Phi5 V c (n + 1) hn = iprop(owns (c : Thread nD τ) (Memref.whole cc5_scratch0 : Memref sig .tc .vmem S2000x64 .f32) fullShare (acc5 V c n hn)
      ∗ Pipeline.scopedRestBut (Ix := Unit) (Name := ℕ) (U := UR sig nD τ) (Lvl := ℕ) (Val := Elt F) spec5 c [cc5_scratch0] ∗ (∃ r, prngReg c r)) := rfl

/-- Before a position that is not the first: the accumulator at what the position before left. -/
theorem Phi_pos5 (c : Dev nD) (n : ℕ) (h : n ≤ cfg5.N) (hz : n ≠ 0) :
    Phi5 V c n h = iprop(owns (c : Thread nD τ) (Memref.whole cc5_scratch0 : Memref sig .tc .vmem S2000x64 .f32) fullShare (acc5 V c (n - 1) (by omega))
      ∗ Pipeline.scopedRestBut (Ix := Unit) (Name := ℕ) (U := UR sig nD τ) (Lvl := ℕ) (Val := Elt F) spec5 c [cc5_scratch0] ∗ (∃ r, prngReg c r)) := by
  cases n with
  | zero => exact absurd rfl hz
  | succ n => rfl

/-- The invariant at a point's start, restated at the point's position. -/
theorem Phi_castSucc5 (c : Dev nD) (t : Fin cfg5.N) : (dat5 V c).Φ t.castSucc = Phi5 V c t.val (Nat.le_of_lt t.isLt) := by
  first | rfl | (dsimp only [dat5]; simp only [Fin.coe_castSucc])

/-- What the launch hands the region, with the accumulator's buffer split out of the scoped rest. -/
theorem PhiA_eq5 (c : Dev nD) :
    (Pipeline.ΦA spec5 c : sProp 𝕄)
      = iprop(iprop(iprop(∃ d, owns (c : Thread nD τ) (Memref.whole cc5_scratch0 : Memref sig .tc .vmem S2000x64 .f32) fullShare d)
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [owns_whole]; try rfl

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point: the input windows hold their blocks; the position's edge block says which of the three cases the point is in;
    the invariant hands the body the accumulator at what the position before left (at anything before the first point, where the body
    zeroes it), keeps the other scoped buffers and the generator register, and takes the accumulator back at this position's contents;
    the output block's buffer comes back as found except at the last edge block, where it holds the accumulator plus the bias. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = Phi5 V c (t.val + 1) t.isLt from rfl, Phi_succ5]
  rw [show (dat5 V c).leavesExact 0 t = owns (c : Thread nD τ) (st5_0 t) fullShare ((dat5 V c).after 0 t) from rfl,
    show (dat5 V c).leavesExact 1 t = owns (c : Thread nD τ) (st5_1 t) fullShare ((dat5 V c).after 1 t) from rfl,
    show (dat5 V c).leavesExact 2 t = owns (c : Thread nD τ) (st5_2 t) fullShare ((dat5 V c).after 2 t) from rfl,
    after5_0, after5_1, after5_2]
  by_cases h0 : t.val % 831 = 0
  · have h1 : ¬t.val % 831 = 830 := by omega
    rw [Dat.leavesExact_idle (dat5 V c) 3 t (idleAt5 t (fun h => h1 ((hstores5 t).mp h))) (noFlush5 t h1)]
    rw [acc_reset5 V c t h0]
    by_cases hz : t.val = 0
    · rw [Phi_castSucc5 V c t, Phi_zero5 V c _ _ hz, PhiA_eq5]
      iintro ⟨⟨⟨HS, HR⟩, Hg⟩, Ho, ⟨%d0, H0⟩, ⟨%d1, H1⟩, ⟨%d2, H2⟩, ⟨%d3, H3⟩⟩
      iapply (run_reset5 c Set.univ (grid5.coords t) _ _ _ _ _ _ _ _ _ _ ((hresets5 t).mpr h0) (fun h => h1 ((hstores5 t).mp h))
        (iblk5 V c 0 t) (iblk5 V c 1 t) (iblk5 V c 2 t) ((dat5 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [Phi_castSucc5 V c t, Phi_pos5 V c _ _ hz]
      iintro ⟨⟨HS, HR, Hg⟩, Ho, ⟨%d0, H0⟩, ⟨%d1, H1⟩, ⟨%d2, H2⟩, ⟨%d3, H3⟩⟩
      iapply (run_reset5 c Set.univ (grid5.coords t) _ _ _ _ _ _ _ _ _ _ ((hresets5 t).mpr h0) (fun h => h1 ((hstores5 t).mp h))
        (iblk5 V c 0 t) (iblk5 V c 1 t) (iblk5 V c 2 t) ((dat5 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := by omega
    rw [Phi_castSucc5 V c t, Phi_pos5 V c _ _ hz]
    rw [acc_step5 V c t h0]
    by_cases h1 : t.val % 831 = 830
    · rw [show (dat5 V c).leavesExact 3 t = owns (c : Thread nD τ) (st5_3 t) fullShare ((dat5 V c).after 3 t) from by
        unfold Dat.leavesExact; rw [liveAt5 t ((hstores5 t).mpr h1)], after5_3]
      rw [acc_step5 V c t h0]
      iintro ⟨⟨HS, HR, Hg⟩, Ho, ⟨%d0, H0⟩, ⟨%d1, H1⟩, ⟨%d2, H2⟩, ⟨%d3, H3⟩⟩
      iapply (run_last5 c Set.univ (grid5.coords t) _ _ _ _ _ _ _ _ _ _ (fun h => h0 ((hresets5 t).mp h)) ((hstores5 t).mpr h1)
        (iblk5 V c 0 t) (iblk5 V c 1 t) (iblk5 V c 2 t) (acc5 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [Dat.leavesExact_idle (dat5 V c) 3 t (idleAt5 t (fun h => h1 ((hstores5 t).mp h))) (noFlush5 t h1)]
      iintro ⟨⟨HS, HR, Hg⟩, Ho, ⟨%d0, H0⟩, ⟨%d1, H1⟩, ⟨%d2, H2⟩, ⟨%d3, H3⟩⟩
      iapply (run_mid5 c Set.univ (grid5.coords t) _ _ _ _ _ _ _ _ _ _ (fun h => h0 ((hresets5 t).mp h)) (fun h => h1 ((hstores5 t).mp h))
        (iblk5 V c 0 t) (iblk5 V c 1 t) (iblk5 V c 2 t) ((dat5 V c).before 3 t d3) (acc5 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem phi_in5 (c : Dev nD) : (Pipeline.ΦA spec5 c : sProp 𝕄) ⊢ (dat5 V c).Φ 0 := by
  rw [show (dat5 V c).Φ 0 = Phi5 V c 0 (Nat.zero_le _) from rfl, Phi_zero5 V c 0 _ rfl]

/-- After the last point the invariant gives it back: the accumulator's named contents are forgotten. -/
theorem phi_out5 (c : Dev nD) : (dat5 V c).Φ (Fin.last cfg5.N) ⊢ (Pipeline.ΦA spec5 c : sProp 𝕄) := by
  rw [show (dat5 V c).Φ (Fin.last cfg5.N) = Phi5 V c cfg5.N (Nat.le_refl _) from rfl,
    Phi_pos5 V c cfg5.N (Nat.le_refl _) (by have : cfg5.N = 41550 := N_5; omega), PhiA_eq5]
  iintro ⟨HS, HR, Hg⟩
  isplitl [HS HR]
  · isplitl [HS]; · iexists _; iexact HS
    iexact HR
  iexact Hg

end Cert.Kernel.Hand

end
-- ==== Proof.KB.Run.lean ====
import proofs.«158984_j43568148250937_1_alg».proof.Proof.Gen.Kernel.Launch
import proofs.«158984_j43568148250937_1_alg».proof.Proof.Gen.Kernel.Skeleton
import proofs.«158984_j43568148250937_1_alg».proof.Proof.KB.Sched
import proofs.«158984_j43568148250937_1_alg».proof.Proof.Gen.Kernel.Regions
import proofs.«158984_j43568148250937_1_alg».proof.Proof.KB.Lin0
import proofs.«158984_j43568148250937_1_alg».proof.Proof.KB.Gat1
import proofs.«158984_j43568148250937_1_alg».proof.Proof.KB.Sca2
import proofs.«158984_j43568148250937_1_alg».proof.Proof.KB.Lin3
import proofs.«158984_j43568148250937_1_alg».proof.Proof.KB.Gat4
import proofs.«158984_j43568148250937_1_alg».proof.Proof.KB.Sca5
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: three host stretches, the first dense layer, the first gather, a reshape of the bias, the first
    scatter, the second dense layer, the second gather, a reshape of the second bias, the second scatter

## The buffers' contents at each region's entry and what each region leaves

An explicit chain from the launch memory: each region is entered from the contents the item before it left, and leaves
its output array at what its pipeline's write-backs fold to, every other buffer as entered. -/

/-- Core `c`'s buffers when the first dense layer is entered: the launch memory after the three host stretches. -/
def E0 (c : Dev nD) : Valuation τ sig (Elt F) := Gen.V3 m c
/-- What the first dense layer leaves in its output array `main_v39` (node features times the first weight matrix). -/
def out0 (c : Dev nD) : Buf (Elt F) ((c : Thread nD τ).loc main_v39) := (dat0 (fun c b => E0 m c b) c).arrAt 2 cfg0.N
/-- Core `c`'s buffers when the first gather is entered. -/
def E1 (c : Dev nD) : Valuation τ sig (Elt F) := Function.update (E0 m c) main_v39 (out0 m c)
/-- What the first gather leaves in its output array `main_v40` (per edge, the source node's row times the edge weight). -/
def out1 (c : Dev nD) : Buf (Elt F) ((c : Thread nD τ).loc main_v40) := (dat1 (fun c b => E1 m c b) c).arrAt 3 cfg1.N
/-- Core `c`'s buffers after the first gather, before the first bias is reshaped. -/
def X2 (c : Dev nD) : Valuation τ sig (Elt F) := Function.update (E1 m c) main_v40 (out1 m c)
/-- Core `c`'s buffers when the first scatter is entered. -/
def E2 (c : Dev nD) : Valuation τ sig (Elt F) := StableHlo.after hostOps2 (X2 m c)
/-- What the first scatter leaves in its output array `main_v42` (per node, the incoming rows summed, plus bias, clamped at 0). -/
def out2 (c : Dev nD) : Buf (Elt F) ((c : Thread nD τ).loc main_v42) := (dat2 (fun c b => E2 m c b) c).arrAt 3 cfg2.N
/-- Core `c`'s buffers when the second dense layer is entered. -/
def E3 (c : Dev nD) : Valuation τ sig (Elt F) := Function.update (E2 m c) main_v42 (out2 m c)
/-- What the second dense layer leaves in its output array `main_v43`. -/
def out3 (c : Dev nD) : Buf (Elt F) ((c : Thread nD τ).loc main_v43) := (dat3 (fun c b => E3 m c b) c).arrAt 2 cfg3.N
/-- Core `c`'s buffers when the second gather is entered. -/
def E4 (c : Dev nD) : Valuation τ sig (Elt F) := Function.update (E3 m c) main_v43 (out3 m c)
/-- What the second gather leaves in its output array `main_v44`. -/
def out4 (c : Dev nD) : Buf (Elt F) ((c : Thread nD τ).loc main_v44) := (dat4 (fun c b => E4 m c b) c).arrAt 3 cfg4.N
/-- Core `c`'s buffers after the second gather, before the second bias is reshaped. -/
def X5 (c : Dev nD) : Valuation τ sig (Elt F) := Function.update (E4 m c) main_v44 (out4 m c)
/-- Core `c`'s buffers when the second scatter is entered. -/
def E5 (c : Dev nD) : Valuation τ sig (Elt F) := StableHlo.after hostOps5 (X5 m c)
/-- What the second scatter leaves in its output array `main_v46`: the result of @main. -/
def out5 (c : Dev nD) : Buf (Elt F) ((c : Thread nD τ).loc main_v46) := (dat5 (fun c b => E5 m c b) c).arrAt 3 cfg5.N
/-- Core `c`'s buffers at the return. -/
def Efin (c : Dev nD) : Valuation τ sig (Elt F) := Function.update (E5 m c) main_v46 (out5 m c)

/-- What each region leaves in the one array it may change, as the family the boundary valuations are written over:
    item `J`'s contents at the reference it is read at, the launch contents anywhere else. -/
def outs : Gen.Outs (F := F) := fun J r c =>
  match J with
  | 4 => if h : r = main_v39 then h ▸ out0 m c else m ((c : Thread nD τ).loc r)
  | 5 => if h : r = main_v40 then h ▸ out1 m c else m ((c : Thread nD τ).loc r)
  | 7 => if h : r = main_v42 then h ▸ out2 m c else m ((c : Thread nD τ).loc r)
  | 8 => if h : r = main_v43 then h ▸ out3 m c else m ((c : Thread nD τ).loc r)
  | 9 => if h : r = main_v44 then h ▸ out4 m c else m ((c : Thread nD τ).loc r)
  | 11 => if h : r = main_v46 then h ▸ out5 m c else m ((c : Thread nD τ).loc r)
  | _ => m ((c : Thread nD τ).loc r)

theorem outs_4 (c : Dev nD) : outs m 4 main_v39 c = out0 m c := rfl
theorem outs_5 (c : Dev nD) : outs m 5 main_v40 c = out1 m c := rfl
theorem outs_7 (c : Dev nD) : outs m 7 main_v42 c = out2 m c := rfl
theorem outs_8 (c : Dev nD) : outs m 8 main_v43 c = out3 m c := rfl
theorem outs_9 (c : Dev nD) : outs m 9 main_v44 c = out4 m c := rfl
theorem outs_11 (c : Dev nD) : outs m 11 main_v46 c = out5 m c := rfl

/-- The boundary valuations at these contents are the chain above. -/
theorem V4_eq (c : Dev nD) : Gen.V4 m (outs m) c = E1 m c := rfl
theorem V5_eq (c : Dev nD) : Gen.V5 m (outs m) c = X2 m c := rfl
theorem V6_eq (c : Dev nD) : Gen.V6 m (outs m) c = E2 m c := rfl
theorem V7_eq (c : Dev nD) : Gen.V7 m (outs m) c = E3 m c := rfl
theorem V8_eq (c : Dev nD) : Gen.V8 m (outs m) c = E4 m c := rfl
theorem V9_eq (c : Dev nD) : Gen.V9 m (outs m) c = X5 m c := rfl
theorem V10_eq (c : Dev nD) : Gen.V10 m (outs m) c = E5 m c := rfl
theorem V11_eq (c : Dev nD) : Gen.V11 m (outs m) c = Efin m c := rfl

/-! ## What each region's pipeline leaves in the unscoped buffers -/

/-- At the exit of the first dense layer each of its arrays holds what the pipeline leaves: an input array is never written and is
    no output of the region, so it holds what it held at entry; the output array holds its write-backs folded. -/
theorem hF0 (c : Dev nD) : ∀ w : Fin cfg0.W, (dat0 (fun c b => E0 m c b) c).arrAt w cfg0.N
    = (fun b => E1 m c b : (b : Ref sig .tc) → Buf (Elt F) ((c : Thread nD τ).loc b)) (Pipeline.arrRef spec0 w)
  | 0 => ((dat0 (fun c b => E0 m c b) c).arrAt_in 0 rfl _).trans ((A_eq0 (fun c b => E0 m c b) c 0).trans
      (by unfold E1; exact (Function.update_of_ne (StableHlo.devRef_ne_of_ne (by decide) : (Proc.devRef .tc main_arg0 : DevRef τ sig) ≠ Proc.devRef .tc main_v39) _ _).symm))
  | 1 => ((dat0 (fun c b => E0 m c b) c).arrAt_in 1 rfl _).trans ((A_eq0 (fun c b => E0 m c b) c 1).trans
      (by unfold E1; exact (Function.update_of_ne (StableHlo.devRef_ne_of_ne (by decide) : (Proc.devRef .tc main_arg2 : DevRef τ sig) ≠ Proc.devRef .tc main_v39) _ _).symm))
  | 2 => by unfold E1; exact (Function.update_self (β := fun b : DevRef τ sig => b.ty.Contents (Elt F)) (Proc.devRef .tc main_v39) (out0 m c) (E0 m c)).symm
  | ⟨_ + 3, h⟩ => absurd h (Nat.not_lt.2 (Nat.le_add_left _ _))
/-- and every buffer that is no array of the region holds what it held at entry. -/
theorem hrest0 (c : Dev nD) : ∀ b : Ref sig .tc, b ∉ Finset.univ.image (Pipeline.arrRef spec0) →
    (fun b => E1 m c b : (b : Ref sig .tc) → Buf (Elt F) ((c : Thread nD τ).loc b)) b = E0 m c b := fun b hb => by
  have hne : b ≠ main_v39 := fun e => hb (Finset.mem_image.mpr ⟨2, Finset.mem_univ _, e.symm⟩)
  unfold E1
  exact Function.update_of_ne (StableHlo.devRef_ne_of_ne hne) _ _

/-- At the exit of the first gather each of its arrays holds what the pipeline leaves: an input array is never written and is
    no output of the region, so it holds what it held at entry; the output array holds its write-backs folded. -/
theorem hF1 (c : Dev nD) : ∀ w : Fin cfg1.W, (dat1 (fun c b => E1 m c b) c).arrAt w cfg1.N
    = (fun b => X2 m c b : (b : Ref sig .tc) → Buf (Elt F) ((c : Thread nD τ).loc b)) (Pipeline.arrRef spec1 w)
  | 0 => ((dat1 (fun c b => E1 m c b) c).arrAt_in 0 rfl _).trans ((A_eq1 (fun c b => E1 m c b) c 0).trans
      (by unfold X2; exact (Function.update_of_ne (StableHlo.devRef_ne_of_ne (by decide) : (Proc.devRef .tc main_v36 : DevRef τ sig) ≠ Proc.devRef .tc main_v40) _ _).symm))
  | 1 => ((dat1 (fun c b => E1 m c b) c).arrAt_in 1 rfl _).trans ((A_eq1 (fun c b => E1 m c b) c 1).trans
      (by unfold X2; exact (Function.update_of_ne (StableHlo.devRef_ne_of_ne (by decide) : (Proc.devRef .tc main_v38 : DevRef τ sig) ≠ Proc.devRef .tc main_v40) _ _).symm))
  | 2 => ((dat1 (fun c b => E1 m c b) c).arrAt_in 2 rfl _).trans ((A_eq1 (fun c b => E1 m c b) c 2).trans
      (by unfold X2; exact (Function.update_of_ne (StableHlo.devRef_ne_of_ne (by decide) : (Proc.devRef .tc main_v39 : DevRef τ sig) ≠ Proc.devRef .tc main_v40) _ _).symm))
  | 3 => by unfold X2; exact (Function.update_self (β := fun b : DevRef τ sig => b.ty.Contents (Elt F)) (Proc.devRef .tc main_v40) (out1 m c) (E1 m c)).symm
  | ⟨_ + 4, h⟩ => absurd h (Nat.not_lt.2 (Nat.le_add_left _ _))
/-- and every buffer that is no array of the region holds what it held at entry. -/
theorem hrest1 (c : Dev nD) : ∀ b : Ref sig .tc, b ∉ Finset.univ.image (Pipeline.arrRef spec1) →
    (fun b => X2 m c b : (b : Ref sig .tc) → Buf (Elt F) ((c : Thread nD τ).loc b)) b = E1 m c b := fun b hb => by
  have hne : b ≠ main_v40 := fun e => hb (Finset.mem_image.mpr ⟨3, Finset.mem_univ _, e.symm⟩)
  unfold X2
  exact Function.update_of_ne (StableHlo.devRef_ne_of_ne hne) _ _

/-- At the exit of the first scatter each of its arrays holds what the pipeline leaves: an input array is never written and is
    no output of the region, so it holds what it held at entry; the output array holds its write-backs folded. -/
theorem hF2 (c : Dev nD) : ∀ w : Fin cfg2.W, (dat2 (fun c b => E2 m c b) c).arrAt w cfg2.N
    = (fun b => E3 m c b : (b : Ref sig .tc) → Buf (Elt F) ((c : Thread nD τ).loc b)) (Pipeline.arrRef spec2 w)
  | 0 => ((dat2 (fun c b => E2 m c b) c).arrAt_in 0 rfl _).trans ((A_eq2 (fun c b => E2 m c b) c 0).trans
      (by unfold E3; exact (Function.update_of_ne (StableHlo.devRef_ne_of_ne (by decide) : (Proc.devRef .tc main_v37 : DevRef τ sig) ≠ Proc.devRef .tc main_v42) _ _).symm))
  | 1 => ((dat2 (fun c b => E2 m c b) c).arrAt_in 1 rfl _).trans ((A_eq2 (fun c b => E2 m c b) c 1).trans
      (by unfold E3; exact (Function.update_of_ne (StableHlo.devRef_ne_of_ne (by decide) : (Proc.devRef .tc main_v40 : DevRef τ sig) ≠ Proc.devRef .tc main_v42) _ _).symm))
  | 2 => ((dat2 (fun c b => E2 m c b) c).arrAt_in 2 rfl _).trans ((A_eq2 (fun c b => E2 m c b) c 2).trans
      (by unfold E3; exact (Function.update_of_ne (StableHlo.devRef_ne_of_ne (by decide) : (Proc.devRef .tc main_v41 : DevRef τ sig) ≠ Proc.devRef .tc main_v42) _ _).symm))
  | 3 => by unfold E3; exact (Function.update_self (β := fun b : DevRef τ sig => b.ty.Contents (Elt F)) (Proc.devRef .tc main_v42) (out2 m c) (E2 m c)).symm
  | ⟨_ + 4, h⟩ => absurd h (Nat.not_lt.2 (Nat.le_add_left _ _))
/-- and every buffer that is no array of the region holds what it held at entry. -/
theorem hrest2 (c : Dev nD) : ∀ b : Ref sig .tc, b ∉ Finset.univ.image (Pipeline.arrRef spec2) →
    (fun b => E3 m c b : (b : Ref sig .tc) → Buf (Elt F) ((c : Thread nD τ).loc b)) b = E2 m c b := fun b hb => by
  have hne : b ≠ main_v42 := fun e => hb (Finset.mem_image.mpr ⟨3, Finset.mem_univ _, e.symm⟩)
  unfold E3
  exact Function.update_of_ne (StableHlo.devRef_ne_of_ne hne) _ _

/-- At the exit of the second dense layer each of its arrays holds what the pipeline leaves: an input array is never written and is
    no output of the region, so it holds what it held at entry; the output array holds its write-backs folded. -/
theorem hF3 (c : Dev nD) : ∀ w : Fin cfg3.W, (dat3 (fun c b => E3 m c b) c).arrAt w cfg3.N
    = (fun b => E4 m c b : (b : Ref sig .tc) → Buf (Elt F) ((c : Thread nD τ).loc b)) (Pipeline.arrRef spec3 w)
  | 0 => ((dat3 (fun c b => E3 m c b) c).arrAt_in 0 rfl _).trans ((A_eq3 (fun c b => E3 m c b) c 0).trans
      (by unfold E4; exact (Function.update_of_ne (StableHlo.devRef_ne_of_ne (by decide) : (Proc.devRef .tc main_v42 : DevRef τ sig) ≠ Proc.devRef .tc main_v43) _ _).symm))
  | 1 => ((dat3 (fun c b => E3 m c b) c).arrAt_in 1 rfl _).trans ((A_eq3 (fun c b => E3 m c b) c 1).trans
      (by unfold E4; exact (Function.update_of_ne (StableHlo.devRef_ne_of_ne (by decide) : (Proc.devRef .tc main_arg4 : DevRef τ sig) ≠ Proc.devRef .tc main_v43) _ _).symm))
  | 2 => by unfold E4; exact (Function.update_self (β := fun b : DevRef τ sig => b.ty.Contents (Elt F)) (Proc.devRef .tc main_v43) (out3 m c) (E3 m c)).symm
  | ⟨_ + 3, h⟩ => absurd h (Nat.not_lt.2 (Nat.le_add_left _ _))
/-- and every buffer that is no array of the region holds what it held at entry. -/
theorem hrest3 (c : Dev nD) : ∀ b : Ref sig .tc, b ∉ Finset.univ.image (Pipeline.arrRef spec3) →
    (fun b => E4 m c b : (b : Ref sig .tc) → Buf (Elt F) ((c : Thread nD τ).loc b)) b = E3 m c b := fun b hb => by
  have hne : b ≠ main_v43 := fun e => hb (Finset.mem_image.mpr ⟨2, Finset.mem_univ _, e.symm⟩)
  unfold E4
  exact Function.update_of_ne (StableHlo.devRef_ne_of_ne hne) _ _

/-- At the exit of the second gather each of its arrays holds what the pipeline leaves: an input array is never written and is
    no output of the region, so it holds what it held at entry; the output array holds its write-backs folded. -/
theorem hF4 (c : Dev nD) : ∀ w : Fin cfg4.W, (dat4 (fun c b => E4 m c b) c).arrAt w cfg4.N
    = (fun b => X5 m c b : (b : Ref sig .tc) → Buf (Elt F) ((c : Thread nD τ).loc b)) (Pipeline.arrRef spec4 w)
  | 0 => ((dat4 (fun c b => E4 m c b) c).arrAt_in 0 rfl _).trans ((A_eq4 (fun c b => E4 m c b) c 0).trans
      (by unfold X5; exact (Function.update_of_ne (StableHlo.devRef_ne_of_ne (by decide) : (Proc.devRef .tc main_v36 : DevRef τ sig) ≠ Proc.devRef .tc main_v44) _ _).symm))
  | 1 => ((dat4 (fun c b => E4 m c b) c).arrAt_in 1 rfl _).trans ((A_eq4 (fun c b => E4 m c b) c 1).trans
      (by unfold X5; exact (Function.update_of_ne (StableHlo.devRef_ne_of_ne (by decide) : (Proc.devRef .tc main_v38 : DevRef τ sig) ≠ Proc.devRef .tc main_v44) _ _).symm))
  | 2 => ((dat4 (fun c b => E4 m c b) c).arrAt_in 2 rfl _).trans ((A_eq4 (fun c b => E4 m c b) c 2).trans
      (by unfold X5; exact (Function.update_of_ne (StableHlo.devRef_ne_of_ne (by decide) : (Proc.devRef .tc main_v43 : DevRef τ sig) ≠ Proc.devRef .tc main_v44) _ _).symm))
  | 3 => by unfold X5; exact (Function.update_self (β := fun b : DevRef τ sig => b.ty.Contents (Elt F)) (Proc.devRef .tc main_v44) (out4 m c) (E4 m c)).symm
  | ⟨_ + 4, h⟩ => absurd h (Nat.not_lt.2 (Nat.le_add_left _ _))
/-- and every buffer that is no array of the region holds what it held at entry. -/
theorem hrest4 (c : Dev nD) : ∀ b : Ref sig .tc, b ∉ Finset.univ.image (Pipeline.arrRef spec4) →
    (fun b => X5 m c b : (b : Ref sig .tc) → Buf (Elt F) ((c : Thread nD τ).loc b)) b = E4 m c b := fun b hb => by
  have hne : b ≠ main_v44 := fun e => hb (Finset.mem_image.mpr ⟨3, Finset.mem_univ _, e.symm⟩)
  unfold X5
  exact Function.update_of_ne (StableHlo.devRef_ne_of_ne hne) _ _

/-- At the exit of the second scatter each of its arrays holds what the pipeline leaves: an input array is never written and is
    no output of the region, so it holds what it held at entry; the output array holds its write-backs folded. -/
theorem hF5 (c : Dev nD) : ∀ w : Fin cfg5.W, (dat5 (fun c b => E5 m c b) c).arrAt w cfg5.N
    = (fun b => Efin m c b : (b : Ref sig .tc) → Buf (Elt F) ((c : Thread nD τ).loc b)) (Pipeline.arrRef spec5 w)
  | 0 => ((dat5 (fun c b => E5 m c b) c).arrAt_in 0 rfl _).trans ((A_eq5 (fun c b => E5 m c b) c 0).trans
      (by unfold Efin; exact (Function.update_of_ne (StableHlo.devRef_ne_of_ne (by decide) : (Proc.devRef .tc main_v37 : DevRef τ sig) ≠ Proc.devRef .tc main_v46) _ _).symm))
  | 1 => ((dat5 (fun c b => E5 m c b) c).arrAt_in 1 rfl _).trans ((A_eq5 (fun c b => E5 m c b) c 1).trans
      (by unfold Efin; exact (Function.update_of_ne (StableHlo.devRef_ne_of_ne (by decide) : (Proc.devRef .tc main_v44 : DevRef τ sig) ≠ Proc.devRef .tc main_v46) _ _).symm))
  | 2 => ((dat5 (fun c b => E5 m c b) c).arrAt_in 2 rfl _).trans ((A_eq5 (fun c b => E5 m c b) c 2).trans
      (by unfold Efin; exact (Function.update_of_ne (StableHlo.devRef_ne_of_ne (by decide) : (Proc.devRef .tc main_v45 : DevRef τ sig) ≠ Proc.devRef .tc main_v46) _ _).symm))
  | 3 => by unfold Efin; exact (Function.update_self (β := fun b : DevRef τ sig => b.ty.Contents (Elt F)) (Proc.devRef .tc main_v46) (out5 m c) (E5 m c)).symm
  | ⟨_ + 4, h⟩ => absurd h (Nat.not_lt.2 (Nat.le_add_left _ _))
/-- and every buffer that is no array of the region holds what it held at entry. -/
theorem hrest5 (c : Dev nD) : ∀ b : Ref sig .tc, b ∉ Finset.univ.image (Pipeline.arrRef spec5) →
    (fun b => Efin m c b : (b : Ref sig .tc) → Buf (Elt F) ((c : Thread nD τ).loc b)) b = E5 m c b := fun b hb => by
  have hne : b ≠ main_v46 := fun e => hb (Finset.mem_image.mpr ⟨3, Finset.mem_univ _, e.symm⟩)
  unfold Efin
  exact Function.update_of_ne (StableHlo.devRef_ne_of_ne hne) _ _

/-! ## The proof data family and the thread state -/

/-- Every pipeline's proof data, each at its region's entry contents. -/
def pdats : (p : Fin 6) → (c : Dev nD) → Dat τ (Elt F) Unit ℕ (UR sig nD τ) ℕ (cfgs p) c
  | ⟨0, _⟩ => fun c => dat0 (fun c b => E0 m c b) c
  | ⟨1, _⟩ => fun c => dat1 (fun c b => E1 m c b) c
  | ⟨2, _⟩ => fun c => dat2 (fun c b => E2 m c b) c
  | ⟨3, _⟩ => fun c => dat3 (fun c b => E3 m c b) c
  | ⟨4, _⟩ => fun c => dat4 (fun c b => E4 m c b) c
  | ⟨5, _⟩ => fun c => dat5 (fun c b => E5 m c b) c
/-- No body has a loop of its own to bound. -/
abbrev runV : Variants := Variants.none
/-- No core owes another anything: no level is assigned. -/
abbrev runL : GSem nD τ sig → Finset Unit := fun _ => ∅
abbrev runLv : GSem nD τ sig → Unit → ℕ := fun _ _ => 0
/-- What rides beside the buffers through every item: the core's generator register at some state (each region's
    invariant takes it in and gives it back) and what the core owes, which is nothing. -/
abbrev runR (c : Dev nD) : sProp 𝕄 := iprop((∃ r, prngReg c r) ∗ ∃ W, owes (c : Thread nD τ) (0 : CellTallies nD τ sig Unit) W)
/-- The same rest at every boundary. -/
abbrev runE : Fin 7 → Dev nD → sProp 𝕄 := fun _ c => runR (F := F) c

/-! ## The regions as segments -/

set_option backward.isDefEq.respectTransparency.types false in
/-- REGION 0 (the first dense layer) over the thread state: entered from every unscoped buffer at `E0`, left at `E1`.
    Its arrays are split out of the unscoped buffers and put back at the exit contents; the generator register goes into
    the region invariant and comes back; nothing is owed; the kernel has no semaphore of its own. -/
def reg0 : Pipeline.RegionSeg (pcfgs (F := F)) adm (pdats m) () defs₀ runV runL runLv 0 where
  win := launch0.win.to₀
  block_pos := launch0.block_pos
  stage_whole := launch0.stage_whole
  K := PEmpty
  osem k := k.elim
  ho := Pipeline.OwnSemFacts.none _
  hbody c := (body_obligation0 (fun c b => E0 m c b) c).loose
  hwaits := Pipeline.hwaits_of_owed_zero _ _ _ _ runL runLv 0 fun _ _ => rfl
  pre c := iprop(StableHlo.held (c : Thread nD τ) (Pipeline.ucRefs τ sig) (E0 m c) ∗ runR c)
  post c := iprop(StableHlo.held (c : Thread nD τ) (Pipeline.ucRefs τ sig) (E1 m c) ∗ runR c)
  X c := iprop(∃ r, prngReg c r)
  Y c := iprop(∃ r, prngReg c r)
  Z c := Pipeline.unscopedRest (Ix := Unit) (Name := ℕ) (U := UR sig nD τ) (Lvl := ℕ) spec0 c (fun b => E0 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => E0 m c b) (A_eq0 (fun c b => E0 m c b) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (phi_in0 (fun c b => E0 m c b) c)
    unfold Pipeline.ΦA
    iintro ⟨Hp, -, Hr⟩
    isplitl [Hr]; · iexact Hr
    iexact Hp
  hout c := by
    rw [Pipeline.ownSems0_none]
    refine (phi_out0 (fun c b => E0 m c b) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => E0 m c b) (fun b => E1 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (the first gather) over the thread state: entered from every unscoped buffer at `E1`, left at `X2`.
    Its arrays are split out of the unscoped buffers and put back at the exit contents; the generator register goes into
    the region invariant and comes back; nothing is owed; the kernel has no semaphore of its own. -/
def reg1 : Pipeline.RegionSeg (pcfgs (F := F)) adm (pdats m) () defs₀ runV runL runLv 1 where
  win := launch1.win.to₀
  block_pos := launch1.block_pos
  stage_whole := launch1.stage_whole
  K := PEmpty
  osem k := k.elim
  ho := Pipeline.OwnSemFacts.none _
  hbody c := (body_obligation1 (fun c b => E1 m c b) c).loose
  hwaits := Pipeline.hwaits_of_owed_zero _ _ _ _ runL runLv 1 fun _ _ => rfl
  pre c := iprop(StableHlo.held (c : Thread nD τ) (Pipeline.ucRefs τ sig) (E1 m c) ∗ runR c)
  post c := iprop(StableHlo.held (c : Thread nD τ) (Pipeline.ucRefs τ sig) (X2 m c) ∗ runR c)
  X c := iprop(∃ r, prngReg c r)
  Y c := iprop(∃ r, prngReg c r)
  Z c := Pipeline.unscopedRest (Ix := Unit) (Name := ℕ) (U := UR sig nD τ) (Lvl := ℕ) spec1 c (fun b => E1 m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => E1 m c b) (A_eq1 (fun c b => E1 m c b) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (phi_in1 (fun c b => E1 m c b) c)
    unfold Pipeline.ΦA
    iintro ⟨Hp, -, Hr⟩
    isplitl [Hr]; · iexact Hr
    iexact Hp
  hout c := by
    rw [Pipeline.ownSems0_none]
    refine (phi_out1 (fun c b => E1 m c b) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => E1 m c b) (fun b => X2 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (the first scatter) over the thread state: entered from every unscoped buffer at `E2`, left at `E3`.
    Its arrays are split out of the unscoped buffers and put back at the exit contents; the generator register goes into
    the region invariant and comes back; nothing is owed; the kernel has no semaphore of its own. -/
def reg2 : Pipeline.RegionSeg (pcfgs (F := F)) adm (pdats m) () defs₀ runV runL runLv 2 where
  win := launch2.win.to₀
  block_pos := launch2.block_pos
  stage_whole := launch2.stage_whole
  K := PEmpty
  osem k := k.elim
  ho := Pipeline.OwnSemFacts.none _
  hbody c := (body_obligation2 (fun c b => E2 m c b) c).loose
  hwaits := Pipeline.hwaits_of_owed_zero _ _ _ _ runL runLv 2 fun _ _ => rfl
  pre c := iprop(StableHlo.held (c : Thread nD τ) (Pipeline.ucRefs τ sig) (E2 m c) ∗ runR c)
  post c := iprop(StableHlo.held (c : Thread nD τ) (Pipeline.ucRefs τ sig) (E3 m c) ∗ runR c)
  X c := iprop(∃ r, prngReg c r)
  Y c := iprop(∃ r, prngReg c r)
  Z c := Pipeline.unscopedRest (Ix := Unit) (Name := ℕ) (U := UR sig nD τ) (Lvl := ℕ) spec2 c (fun b => E2 m c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => E2 m c b) (A_eq2 (fun c b => E2 m c b) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (phi_in2 (fun c b => E2 m c b) c)
    unfold Pipeline.ΦA
    iintro ⟨Hp, -, Hr⟩
    isplitl [Hr]; · iexact Hr
    iexact Hp
  hout c := by
    rw [Pipeline.ownSems0_none]
    refine (phi_out2 (fun c b => E2 m c b) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => E2 m c b) (fun b => E3 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 (the second dense layer) over the thread state: entered from every unscoped buffer at `E3`, left at `E4`.
    Its arrays are split out of the unscoped buffers and put back at the exit contents; the generator register goes into
    the region invariant and comes back; nothing is owed; the kernel has no semaphore of its own. -/
def reg3 : Pipeline.RegionSeg (pcfgs (F := F)) adm (pdats m) () defs₀ runV runL runLv 3 where
  win := launch3.win.to₀
  block_pos := launch3.block_pos
  stage_whole := launch3.stage_whole
  K := PEmpty
  osem k := k.elim
  ho := Pipeline.OwnSemFacts.none _
  hbody c := (body_obligation3 (fun c b => E3 m c b) c).loose
  hwaits := Pipeline.hwaits_of_owed_zero _ _ _ _ runL runLv 3 fun _ _ => rfl
  pre c := iprop(StableHlo.held (c : Thread nD τ) (Pipeline.ucRefs τ sig) (E3 m c) ∗ runR c)
  post c := iprop(StableHlo.held (c : Thread nD τ) (Pipeline.ucRefs τ sig) (E4 m c) ∗ runR c)
  X c := iprop(∃ r, prngReg c r)
  Y c := iprop(∃ r, prngReg c r)
  Z c := Pipeline.unscopedRest (Ix := Unit) (Name := ℕ) (U := UR sig nD τ) (Lvl := ℕ) spec3 c (fun b => E3 m c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => E3 m c b) (A_eq3 (fun c b => E3 m c b) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (phi_in3 (fun c b => E3 m c b) c)
    unfold Pipeline.ΦA
    iintro ⟨Hp, -, Hr⟩
    isplitl [Hr]; · iexact Hr
    iexact Hp
  hout c := by
    rw [Pipeline.ownSems0_none]
    refine (phi_out3 (fun c b => E3 m c b) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => E3 m c b) (fun b => E4 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 (the second gather) over the thread state: entered from every unscoped buffer at `E4`, left at `X5`.
    Its arrays are split out of the unscoped buffers and put back at the exit contents; the generator register goes into
    the region invariant and comes back; nothing is owed; the kernel has no semaphore of its own. -/
def reg4 : Pipeline.RegionSeg (pcfgs (F := F)) adm (pdats m) () defs₀ runV runL runLv 4 where
  win := launch4.win.to₀
  block_pos := launch4.block_pos
  stage_whole := launch4.stage_whole
  K := PEmpty
  osem k := k.elim
  ho := Pipeline.OwnSemFacts.none _
  hbody c := (body_obligation4 (fun c b => E4 m c b) c).loose
  hwaits := Pipeline.hwaits_of_owed_zero _ _ _ _ runL runLv 4 fun _ _ => rfl
  pre c := iprop(StableHlo.held (c : Thread nD τ) (Pipeline.ucRefs τ sig) (E4 m c) ∗ runR c)
  post c := iprop(StableHlo.held (c : Thread nD τ) (Pipeline.ucRefs τ sig) (X5 m c) ∗ runR c)
  X c := iprop(∃ r, prngReg c r)
  Y c := iprop(∃ r, prngReg c r)
  Z c := Pipeline.unscopedRest (Ix := Unit) (Name := ℕ) (U := UR sig nD τ) (Lvl := ℕ) spec4 c (fun b => E4 m c b)
  hentry c := by
    rw [Pipeline.ownSems0_none]
    have hsplit := Pipeline.arrays_of_unscopedBufs (p := 4) (pcfgs (F := F)) adm (pdats m) launch4.win launch4.arr_whole c
      ((pdats m 4 c).share_full fun _ => rfl) (fun b => E4 m c b) (A_eq4 (fun c b => E4 m c b) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (phi_in4 (fun c b => E4 m c b) c)
    unfold Pipeline.ΦA
    iintro ⟨Hp, -, Hr⟩
    isplitl [Hr]; · iexact Hr
    iexact Hp
  hout c := by
    rw [Pipeline.ownSems0_none]
    refine (phi_out4 (fun c b => E4 m c b) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (fun b => E4 m c b) (fun b => X5 m c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 (the second scatter) over the thread state: entered from every unscoped buffer at `E5`, left at `Efin`.
    Its arrays are split out of the unscoped buffers and put back at the exit contents; the generator register goes into
    the region invariant and comes back; nothing is owed; the kernel has no semaphore of its own. -/
def reg5 : Pipeline.RegionSeg (pcfgs (F := F)) adm (pdats m) () defs₀ runV runL runLv 5 where
  win := launch5.win.to₀
  block_pos := launch5.block_pos
  stage_whole := launch5.stage_whole
  K := PEmpty
  osem k := k.elim
  ho := Pipeline.OwnSemFacts.none _
  hbody c := (body_obligation5 (fun c b => E5 m c b) c).loose
  hwaits := Pipeline.hwaits_of_owed_zero _ _ _ _ runL runLv 5 fun _ _ => rfl
  pre c := iprop(StableHlo.held (c : Thread nD τ) (Pipeline.ucRefs τ sig) (E5 m c) ∗ runR c)
  post c := iprop(StableHlo.held (c : Thread nD τ) (Pipeline.ucRefs τ sig) (Efin m c) ∗ runR c)
  X c := iprop(∃ r, prngReg c r)
  Y c := iprop(∃ r, prngReg c r)
  Z c := Pipeline.unscopedRest (Ix := Unit) (Name := ℕ) (U := UR sig nD τ) (Lvl := ℕ) spec5 c (fun b => E5 m c b)
  hentry c := by
    rw [Pipeline.ownSems0_none]
    have hsplit := Pipeline.arrays_of_unscopedBufs (p := 5) (pcfgs (F := F)) adm (pdats m) launch5.win launch5.arr_whole c
      ((pdats m 5 c).share_full fun _ => rfl) (fun b => E5 m c b) (A_eq5 (fun c b => E5 m c b) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (phi_in5 (fun c b => E5 m c b) c)
    unfold Pipeline.ΦA
    iintro ⟨Hp, -, Hr⟩
    isplitl [Hr]; · iexact Hr
    iexact Hp
  hout c := by
    rw [Pipeline.ownSems0_none]
    refine (phi_out5 (fun c b => E5 m c b) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (fun b => E5 m c b) (fun b => Efin m c b) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The chain of thread states -/

/-- Every region is entered from the thread state the item before it left and leaves the one the next item is entered
    from: the boundary valuations at `outs` are the chain of contents above. -/
theorem hpre0 (c : Dev nD) : iprop(StableHlo.held (c : Thread nD τ) (Pipeline.ucRefs τ sig) (Gen.V3 m c) ∗ runE (F := F) 0 c) ⊢ (reg0 m).pre c := .rfl
theorem hpost0 (c : Dev nD) : (reg0 m).post c ⊢ iprop(StableHlo.held (c : Thread nD τ) (Pipeline.ucRefs τ sig) (Gen.V4 m (outs m) c) ∗ runE (F := F) 1 c) := by
  rw [V4_eq]; exact .rfl
theorem hpre1 (c : Dev nD) : iprop(StableHlo.held (c : Thread nD τ) (Pipeline.ucRefs τ sig) (Gen.V4 m (outs m) c) ∗ runE (F := F) 1 c) ⊢ (reg1 m).pre c := by
  rw [V4_eq]; exact .rfl
theorem hpost1 (c : Dev nD) : (reg1 m).post c ⊢ iprop(StableHlo.held (c : Thread nD τ) (Pipeline.ucRefs τ sig) (Gen.V5 m (outs m) c) ∗ runE (F := F) 2 c) := by
  rw [V5_eq]; exact .rfl
theorem hpre2 (c : Dev nD) : iprop(StableHlo.held (c : Thread nD τ) (Pipeline.ucRefs τ sig) (Gen.V6 m (outs m) c) ∗ runE (F := F) 2 c) ⊢ (reg2 m).pre c := by
  rw [V6_eq]; exact .rfl
theorem hpost2 (c : Dev nD) : (reg2 m).post c ⊢ iprop(StableHlo.held (c : Thread nD τ) (Pipeline.ucRefs τ sig) (Gen.V7 m (outs m) c) ∗ runE (F := F) 3 c) := by
  rw [V7_eq]; exact .rfl
theorem hpre3 (c : Dev nD) : iprop(StableHlo.held (c : Thread nD τ) (Pipeline.ucRefs τ sig) (Gen.V7 m (outs m) c) ∗ runE (F := F) 3 c) ⊢ (reg3 m).pre c := by
  rw [V7_eq]; exact .rfl
theorem hpost3 (c : Dev nD) : (reg3 m).post c ⊢ iprop(StableHlo.held (c : Thread nD τ) (Pipeline.ucRefs τ sig) (Gen.V8 m (outs m) c) ∗ runE (F := F) 4 c) := by
  rw [V8_eq]; exact .rfl
theorem hpre4 (c : Dev nD) : iprop(StableHlo.held (c : Thread nD τ) (Pipeline.ucRefs τ sig) (Gen.V8 m (outs m) c) ∗ runE (F := F) 4 c) ⊢ (reg4 m).pre c := by
  rw [V8_eq]; exact .rfl
theorem hpost4 (c : Dev nD) : (reg4 m).post c ⊢ iprop(StableHlo.held (c : Thread nD τ) (Pipeline.ucRefs τ sig) (Gen.V9 m (outs m) c) ∗ runE (F := F) 5 c) := by
  rw [V9_eq]; exact .rfl
theorem hpre5 (c : Dev nD) : iprop(StableHlo.held (c : Thread nD τ) (Pipeline.ucRefs τ sig) (Gen.V10 m (outs m) c) ∗ runE (F := F) 5 c) ⊢ (reg5 m).pre c := by
  rw [V10_eq]; exact .rfl
theorem hpost5 (c : Dev nD) : (reg5 m).post c ⊢ iprop(StableHlo.held (c : Thread nD τ) (Pipeline.ucRefs τ sig) (Gen.V11 m (outs m) c) ∗ runE (F := F) 6 c) := by
  rw [V11_eq]; exact .rfl

/-- The rest state owes nothing. -/
theorem hE6_run (c : Dev nD) : runE (F := F) 6 c ⊢ (iprop(∃ W, owes (c : Thread nD τ) (0 : CellTallies nD τ sig Unit) W) : sProp 𝕄) := by
  iintro ⟨-, H⟩; iexact H

/-- The result's array at the return holds what the second scatter leaves. -/
theorem V11_main_v46 (c : Dev nD) : Gen.V11 m (outs m) c main_v46 = out5 m c := by
  rw [V11_eq]; unfold Efin
  exact Function.update_self (β := fun b : DevRef τ sig => b.ty.Contents (Elt F)) (Proc.devRef .tc main_v46) (out5 m c) (E5 m c)

/-- The launch element is the pipeline library's, and no core is given a ghost resource. -/
theorem hu₀_run : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

end Cert.Kernel.Hand

end
-- ==== Proof.KB.RunPost.lean ====
import proofs.«158984_j43568148250937_1_alg».proof.Proof.Gen.Kernel.Launch
import proofs.«158984_j43568148250937_1_alg».proof.Proof.Gen.Kernel.Skeleton
import proofs.«158984_j43568148250937_1_alg».proof.Proof.KB.Sched
import proofs.«158984_j43568148250937_1_alg».proof.Proof.Gen.Kernel.Regions
import proofs.«158984_j43568148250937_1_alg».proof.Proof.KB.Lin0
import proofs.«158984_j43568148250937_1_alg».proof.Proof.KB.Gat1
import proofs.«158984_j43568148250937_1_alg».proof.Proof.KB.Sca2
import proofs.«158984_j43568148250937_1_alg».proof.Proof.KB.Lin3
import proofs.«158984_j43568148250937_1_alg».proof.Proof.KB.Gat4
import proofs.«158984_j43568148250937_1_alg».proof.Proof.KB.Sca5
import proofs.«158984_j43568148250937_1_alg».proof.Proof.KB.Run
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run's post: the result named

The launch theorem over @main's items once more, the last thread state read at the result's array as well as at the
arguments. -/

set_option backward.isDefEq.respectTransparency.types false in
/-- THE RUN. Every weakly fair execution of @main from memory `m` with zero counters terminates, and every final memory
    holds in the result's array what the second scatter leaves (`out5`: the chain of the six regions' pipelines from
    the launch memory) and each argument as launched. -/
theorem run_main : θ_run defs (onTc (τ := τ) (main (F := F))) ⟨m, fun _ => 0, ρ⟩ (fun r => ∀ c : Dev nD,
      r.2.mem ((c.tc : Thread nD τ).loc main_v46) = out5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm (pdats m) () cellOf_inj emb₁ defs₀ runV runL runLv m ρ main
    (Gen.segs m (outs m) runV runL runLv runE () (pdats m) (reg0 m) (reg1 m) (reg2 m) (reg3 m) (reg4 m) (reg5 m))
    (fun c Q => by
      rewrite [main_chain c, Pipeline.Seg.run_eq_chain,
        show (Gen.segs m (outs m) runV runL runLv runE () (pdats m) (reg0 m) (reg1 m) (reg2 m) (reg3 m) (reg4 m) (reg5 m) c).map Pipeline.Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2,
          Prog.lift (.customCall (Pipeline.entry 2) ()),
          Prog.lift (.customCall (Pipeline.entry 3) ()),
          Prog.lift (.customCall (Pipeline.entry 4) ()),
          StableHlo.seq hostOps5,
          Prog.lift (.customCall (Pipeline.entry 5) ()) ] from rfl]
      exact .rfl)
    (fun c => by simp only [Gen.segs, Pipeline.Seg.pipes_host, Pipeline.Seg.pipes_region, Pipeline.Seg.pipes_nil]; decide)
    (0 : Dev nD → CellTallies nD τ sig Unit) (fun _ _ => rfl) (fun _ => (BI.emp : sProp 𝕄))
    (initOf (Pipeline.cells cfgs cellOf_inj) (Pipeline.launchToks cfgs cellOf_inj)) hu₀_run
    (T₀ := fun c => iprop(StableHlo.held (c : Thread nD τ) (Pipeline.ucRefs τ sig) (Gen.V0 m c) ∗ runE (F := F) 0 c))
    (Tₙ := fun c => StableHlo.held (c : Thread nD τ) (Pipeline.ucRefs τ sig) (Gen.V11 m (outs m) c))
    (hch := fun c => ⟨.rfl, .rfl, .rfl, hpre0 m c, (hpost0 m c).trans (hpre1 m c), hpost1 m c, hpre2 m c, (hpost2 m c).trans (hpre3 m c),
      (hpost3 m c).trans (hpre4 m c), hpost4 m c, hpre5 m c, (hpost5 m c).trans (sep_mono .rfl (hE6_run c))⟩)
    (hinit := ?_)
    (QY := fun c s => s.mem ((c.tc : Thread nD τ).loc main_v46) = out5 m c
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the launch: on each core the unscoped buffers are held at the launch contents, the generator register is as
    -- launched and nothing is owed
    refine Pipeline.initEach runL runLv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result's and each argument's buffer read off the last valuation
    unfold StableHlo.held
    iintro ⟨Hh, HSI⟩
    ihave Hr := (pointsTo_read_all (Pipeline.ucRefs τ sig) (fun b => ((c : Thread nD τ).1, b)) (Gen.V11 m (outs m) c) s') $$ [Hh HSI]
    · isplitl [Hh] <;> iassumption
    icases Hr with ⟨%h, HSI⟩
    imodintro
    isplitr
    · ipureintro
      exact ⟨(h (Proc.devRef .tc main_v46) (Finset.mem_filter.mpr ⟨StableHlo.devRef_mem_tcRefs main_v46, by decide⟩)).trans (V11_main_v46 m c),
        (h (Proc.devRef .tc main_arg0) (Finset.mem_filter.mpr ⟨StableHlo.devRef_mem_tcRefs main_arg0, by decide⟩)).trans (Gen.V11_main_arg0 m (outs m) c),
        (h (Proc.devRef .tc main_arg1) (Finset.mem_filter.mpr ⟨StableHlo.devRef_mem_tcRefs main_arg1, by decide⟩)).trans (Gen.V11_main_arg1 m (outs m) c),
        (h (Proc.devRef .tc main_arg2) (Finset.mem_filter.mpr ⟨StableHlo.devRef_mem_tcRefs main_arg2, by decide⟩)).trans (Gen.V11_main_arg2 m (outs m) c),
        (h (Proc.devRef .tc main_arg3) (Finset.mem_filter.mpr ⟨StableHlo.devRef_mem_tcRefs main_arg3, by decide⟩)).trans (Gen.V11_main_arg3 m (outs m) c),
        (h (Proc.devRef .tc main_arg4) (Finset.mem_filter.mpr ⟨StableHlo.devRef_mem_tcRefs main_arg4, by decide⟩)).trans (Gen.V11_main_arg4 m (outs m) c),
        (h (Proc.devRef .tc main_arg5) (Finset.mem_filter.mpr ⟨StableHlo.devRef_mem_tcRefs main_arg5, by decide⟩)).trans (Gen.V11_main_arg5 m (outs m) c)⟩
    · iexact HSI

/-- THE FRAME: every weakly fair execution of @main from memory `m` with zero counters terminates and every final memory
    holds each argument as launched. -/
theorem frame_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r hr c => (hr c).2) (run_main m ρ)

end Cert.Kernel.Hand

end
-- ==== Proof.KI.Sched0.lean ====
import proofs.«158984_j43568148250937_1_alg».proof.Proof.Gen.KernelIdeal.Launch
import Idealize.ShloMosaic.Lib.Pipeline.Kit

noncomputable section

namespace Cert.KernelIdeal.Gen

open Idealize.ShloMosaic Idealize.ShloMosaic.TcCoe
open Idealize.SL Idealize.SL.Sem

variable {F : FTy → Type} [FloatOps F]

/-! # Region 0's schedule: a grid of 50 points, one block of 2000 rows each. Windows 0 (the rows) and 2 (the output) sit at block `t`;
    window 1 (the weights) is the one whole block. The output's block index changes at every point, so every point writes it back. -/

theorem coord0_0 (t : Fin grid0.N) : ((grid0.coords t) 0).val = t.val := by
  show t.val / grid0.stride 0 % grid0.bound 0 = _
  have h1 : grid0.stride 0 = 1 := by decide
  have h2 : grid0.bound 0 = 50 := rfl
  have hN : grid0.N = 50 := N_0
  have := t.isLt
  rw [h1, h2, Nat.div_one, Nat.mod_eq_of_lt (by omega)]

theorem index0_0 (t : Fin grid0.N) : win0_0.index t = ![t.val, 0] := by
  unfold Pipeline.Window.index
  show cc0_transform_0 (grid0.coords t) = _
  unfold cc0_transform_0
  simp only [coord0_0, BitVec.toNat_ofNat]
  have hN : grid0.N = 50 := N_0
  have := t.isLt
  rw [Nat.mod_eq_of_lt (by omega : t.val < 2 ^ 32)]

theorem index0_1 (t : Fin grid0.N) : win0_1.index t = ![0, 0] := by
  unfold Pipeline.Window.index
  show cc0_transform_1 (grid0.coords t) = _
  unfold cc0_transform_1
  rfl

theorem index0_2 (t : Fin grid0.N) : win0_2.index t = ![t.val, 0] := by
  unfold Pipeline.Window.index
  show cc0_transform_2 (grid0.coords t) = _
  unfold cc0_transform_2
  simp only [coord0_0, BitVec.toNat_ofNat]
  have hN : grid0.N = 50 := N_0
  have := t.isLt
  rw [Nat.mod_eq_of_lt (by omega : t.val < 2 ^ 32)]

/-- Window 2 (the output) is written back at every point. -/
theorem flush0_2 : ∀ t : Fin cfg0.N, (cfg0.win 2).flush t = true := by
  intro t
  show win0_2.flush t = true
  have hN : grid0.N = 50 := N_0
  have ht : t.val < grid0.N := t.isLt
  unfold Pipeline.Window.flush
  have hout : win0_2.isOut = true := rfl
  simp only [hout, Bool.true_and, Bool.or_eq_true, decide_eq_true_eq]
  by_cases hl : t.val + 1 = grid0.N
  · exact Or.inl hl
  · refine Or.inr ⟨by omega, ?_⟩
    rw [index0_2, index0_2]
    intro he
    have e0 := congrFun he 0
    have e1 : t.val + 1 = t.val := e0
    omega

/-- The current staging memref of each window at point `t`: which of its buffers it is on. -/
abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)

/-- The kernel body at point `t`, on what the pipeline calls it with. -/
abbrev bodyAt0 (t : Fin cfg0.N) : Prog (TpuEff nD τ sig (Elt F) Λ₀ .tc) PUnit :=
  cc0__linear_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))

end Cert.KernelIdeal.Gen

end
-- ==== Proof.KI.Sched1.lean ====
import proofs.«158984_j43568148250937_1_alg».proof.Proof.Gen.KernelIdeal.Launch
import Idealize.ShloMosaic.Lib.Pipeline.Kit

noncomputable section

namespace Cert.KernelIdeal.Gen

open Idealize.ShloMosaic Idealize.ShloMosaic.TcCoe
open Idealize.SL Idealize.SL.Sem

variable {F : FTy → Type} [FloatOps F]

/-! # Region 1's schedule: the grid is (831 edge blocks, 50 node blocks), row-major, so point `t` is edge block `t / 50`, node block `t % 50`.
    Windows 0, 1 (the edges' indices and weights) and 3 (the output) sit at the edge block; window 2 (the table) at the node block. The output's block
    index changes exactly after a point with node block 49, which is where it is written back. All of it arithmetic in `t`. -/

theorem coord1_0 (t : Fin grid1.N) : ((grid1.coords t) 0).val = t.val / 50 % 831 := by
  show t.val / grid1.stride 0 % grid1.bound 0 = _
  have h1 : grid1.stride 0 = 50 := by decide
  have h2 : grid1.bound 0 = 831 := rfl
  rw [h1, h2]

theorem coord1_1 (t : Fin grid1.N) : ((grid1.coords t) 1).val = t.val % 50 := by
  show t.val / grid1.stride 1 % grid1.bound 1 = _
  have h1 : grid1.stride 1 = 1 := by decide
  have h2 : grid1.bound 1 = 50 := rfl
  rw [h1, h2, Nat.div_one]

/-- The edge block of a point, as a number below 831. -/
theorem eblk1_lt (t : Fin grid1.N) : t.val / 50 < 831 := by
  have hN : grid1.N = 41550 := N_1
  have := t.isLt
  omega

theorem index1_0 (t : Fin grid1.N) : win1_0.index t = ![t.val / 50, 0] := by
  unfold Pipeline.Window.index
  show cc1_transform_0 (grid1.coords t) = _
  unfold cc1_transform_0
  simp only [coord1_0, BitVec.toNat_ofNat]
  have h := eblk1_lt t
  rw [Nat.mod_eq_of_lt h, Nat.mod_eq_of_lt (by omega : t.val / 50 < 2 ^ 32)]

theorem index1_1 (t : Fin grid1.N) : win1_1.index t = ![t.val / 50, 0] := by
  unfold Pipeline.Window.index
  show cc1_transform_1 (grid1.coords t) = _
  unfold cc1_transform_1
  simp only [coord1_0, BitVec.toNat_ofNat]
  have h := eblk1_lt t
  rw [Nat.mod_eq_of_lt h, Nat.mod_eq_of_lt (by omega : t.val / 50 < 2 ^ 32)]

theorem index1_2 (t : Fin grid1.N) : win1_2.index t = ![t.val % 50, 0] := by
  unfold Pipeline.Window.index
  show cc1_transform_2 (grid1.coords t) = _
  unfold cc1_transform_2
  simp only [coord1_1, BitVec.toNat_ofNat]
  rw [Nat.mod_eq_of_lt (by omega : t.val % 50 < 2 ^ 32)]

theorem index1_3 (t : Fin grid1.N) : win1_3.index t = ![t.val / 50, 0] := by
  unfold Pipeline.Window.index
  show cc1_transform_3 (grid1.coords t) = _
  unfold cc1_transform_3
  simp only [coord1_0, BitVec.toNat_ofNat]
  have h := eblk1_lt t
  rw [Nat.mod_eq_of_lt h, Nat.mod_eq_of_lt (by omega : t.val / 50 < 2 ^ 32)]

/-- Window 3 (the output) is written back at the points with node block 49. -/
theorem flush1_3 : ∀ t : Fin cfg1.N, (cfg1.win 3).flush t = true ↔ t.val % 50 = 49 := by
  intro t
  show win1_3.flush t = true ↔ _
  have hN : grid1.N = 41550 := N_1
  have ht : t.val < grid1.N := t.isLt
  unfold Pipeline.Window.flush
  have hout : win1_3.isOut = true := rfl
  simp only [hout, Bool.true_and, Bool.or_eq_true, decide_eq_true_eq]
  constructor
  · rintro (h | ⟨h, hne⟩)
    · omega
    · by_contra hc
      apply hne
      rw [index1_3, index1_3]
      have e : (t.val + 1) / 50 = t.val / 50 := by omega
      show ![(t.val + 1) / 50, 0] = _
      rw [e]
  · intro h
    by_cases hl : t.val + 1 = grid1.N
    · exact Or.inl hl
    · refine Or.inr ⟨by omega, ?_⟩
      rw [index1_3, index1_3]
      intro he
      have e0 := congrFun he 0
      have e1 : (t.val + 1) / 50 = t.val / 50 := e0
      omega

/-- The current staging memref of each window at point `t`: which of its buffers it is on. -/
abbrev st1_0 (t : Fin cfg1.N) := (cfg1.win 0).stage (cfg1.slots t 0)
abbrev st1_1 (t : Fin cfg1.N) := (cfg1.win 1).stage (cfg1.slots t 1)
abbrev st1_2 (t : Fin cfg1.N) := (cfg1.win 2).stage (cfg1.slots t 2)
abbrev st1_3 (t : Fin cfg1.N) := (cfg1.win 3).stage (cfg1.slots t 3)

/-- The kernel body at point `t`, on what the pipeline calls it with. -/
abbrev bodyAt1 (t : Fin cfg1.N) : Prog (TpuEff nD τ sig (Elt F) Λ₀ .tc) PUnit :=
  cc1_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _)

end Cert.KernelIdeal.Gen

end
-- ==== Proof.KI.Sched2.lean ====
import proofs.«158984_j43568148250937_1_alg».proof.Proof.Gen.KernelIdeal.Launch
import Idealize.ShloMosaic.Lib.Pipeline.Kit

noncomputable section

namespace Cert.KernelIdeal.Gen

open Idealize.ShloMosaic Idealize.ShloMosaic.TcCoe
open Idealize.SL Idealize.SL.Sem

variable {F : FTy → Type} [FloatOps F]

/-! # Region 2's schedule: the grid is (50 node blocks, 831 edge blocks), row-major, so point `t` is node block `t / 831`, edge block `t % 831`.
    Windows 0 and 1 (the edges' target words and their rows) sit at the edge block; window 2 (the bias) is the one whole block; window 3 (the output) at
    the node block. The output's block index changes exactly after a point with edge block 830, which is where it is written back. -/

theorem coord2_0 (t : Fin grid2.N) : ((grid2.coords t) 0).val = t.val / 831 % 50 := by
  show t.val / grid2.stride 0 % grid2.bound 0 = _
  have h1 : grid2.stride 0 = 831 := by decide
  have h2 : grid2.bound 0 = 50 := rfl
  rw [h1, h2]

theorem coord2_1 (t : Fin grid2.N) : ((grid2.coords t) 1).val = t.val % 831 := by
  show t.val / grid2.stride 1 % grid2.bound 1 = _
  have h1 : grid2.stride 1 = 1 := by decide
  have h2 : grid2.bound 1 = 831 := rfl
  rw [h1, h2, Nat.div_one]

/-- The node block of a point, as a number below 50. -/
theorem nblk2_lt (t : Fin grid2.N) : t.val / 831 < 50 := by
  have hN : grid2.N = 41550 := N_2
  have := t.isLt
  omega

theorem index2_0 (t : Fin grid2.N) : win2_0.index t = ![0, t.val % 831] := by
  unfold Pipeline.Window.index
  show cc2_transform_0 (grid2.coords t) = _
  unfold cc2_transform_0
  simp only [coord2_1, BitVec.toNat_ofNat]
  rw [Nat.mod_eq_of_lt (by omega : t.val % 831 < 2 ^ 32)]

theorem index2_1 (t : Fin grid2.N) : win2_1.index t = ![t.val % 831, 0] := by
  unfold Pipeline.Window.index
  show cc2_transform_1 (grid2.coords t) = _
  unfold cc2_transform_1
  simp only [coord2_1, BitVec.toNat_ofNat]
  rw [Nat.mod_eq_of_lt (by omega : t.val % 831 < 2 ^ 32)]

theorem index2_2 (t : Fin grid2.N) : win2_2.index t = ![0, 0] := by
  unfold Pipeline.Window.index
  show cc2_transform_2 (grid2.coords t) = _
  unfold cc2_transform_2
  rfl

theorem index2_3 (t : Fin grid2.N) : win2_3.index t = ![t.val / 831, 0] := by
  unfold Pipeline.Window.index
  show cc2_transform_3 (grid2.coords t) = _
  unfold cc2_transform_3
  simp only [coord2_0, BitVec.toNat_ofNat]
  have h := nblk2_lt t
  rw [Nat.mod_eq_of_lt h, Nat.mod_eq_of_lt (by omega : t.val / 831 < 2 ^ 32)]

/-- Window 3 (the output) is written back at the points with edge block 830. -/
theorem flush2_3 : ∀ t : Fin cfg2.N, (cfg2.win 3).flush t = true ↔ t.val % 831 = 830 := by
  intro t
  show win2_3.flush t = true ↔ _
  have hN : grid2.N = 41550 := N_2
  have ht : t.val < grid2.N := t.isLt
  unfold Pipeline.Window.flush
  have hout : win2_3.isOut = true := rfl
  simp only [hout, Bool.true_and, Bool.or_eq_true, decide_eq_true_eq]
  constructor
  · rintro (h | ⟨h, hne⟩)
    · omega
    · by_contra hc
      apply hne
      rw [index2_3, index2_3]
      have e : (t.val + 1) / 831 = t.val / 831 := by omega
      show ![(t.val + 1) / 831, 0] = _
      rw [e]
  · intro h
    by_cases hl : t.val + 1 = grid2.N
    · exact Or.inl hl
    · refine Or.inr ⟨by omega, ?_⟩
      rw [index2_3, index2_3]
      intro he
      have e0 := congrFun he 0
      have e1 : (t.val + 1) / 831 = t.val / 831 := e0
      omega

/-- The current staging memref of each window at point `t`: which of its buffers it is on. -/
abbrev st2_0 (t : Fin cfg2.N) := (cfg2.win 0).stage (cfg2.slots t 0)
abbrev st2_1 (t : Fin cfg2.N) := (cfg2.win 1).stage (cfg2.slots t 1)
abbrev st2_2 (t : Fin cfg2.N) := (cfg2.win 2).stage (cfg2.slots t 2)
abbrev st2_3 (t : Fin cfg2.N) := (cfg2.win 3).stage (cfg2.slots t 3)

/-- The kernel body at point `t`, on what the pipeline calls it with. -/
abbrev bodyAt2 (t : Fin cfg2.N) : Prog (TpuEff nD τ sig (Elt F) Λ₀ .tc) PUnit :=
  cc2_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (Memref.whole cc2_scratch0) (Memref.isWhole_whole _)

end Cert.KernelIdeal.Gen

end
-- ==== Proof.KI.Sched3.lean ====
import proofs.«158984_j43568148250937_1_alg».proof.Proof.Gen.KernelIdeal.Launch
import Idealize.ShloMosaic.Lib.Pipeline.Kit

noncomputable section

namespace Cert.KernelIdeal.Gen

open Idealize.ShloMosaic Idealize.ShloMosaic.TcCoe
open Idealize.SL Idealize.SL.Sem

variable {F : FTy → Type} [FloatOps F]

/-! # Region 3's schedule: a grid of 50 points, one block of 2000 rows each. Windows 0 (the rows) and 2 (the output) sit at block `t`;
    window 1 (the weights) is the one whole block. The output's block index changes at every point, so every point writes it back. -/

theorem coord3_0 (t : Fin grid3.N) : ((grid3.coords t) 0).val = t.val := by
  show t.val / grid3.stride 0 % grid3.bound 0 = _
  have h1 : grid3.stride 0 = 1 := by decide
  have h2 : grid3.bound 0 = 50 := rfl
  have hN : grid3.N = 50 := N_3
  have := t.isLt
  rw [h1, h2, Nat.div_one, Nat.mod_eq_of_lt (by omega)]

theorem index3_0 (t : Fin grid3.N) : win3_0.index t = ![t.val, 0] := by
  unfold Pipeline.Window.index
  show cc3_transform_0 (grid3.coords t) = _
  unfold cc3_transform_0
  simp only [coord3_0, BitVec.toNat_ofNat]
  have hN : grid3.N = 50 := N_3
  have := t.isLt
  rw [Nat.mod_eq_of_lt (by omega : t.val < 2 ^ 32)]

theorem index3_1 (t : Fin grid3.N) : win3_1.index t = ![0, 0] := by
  unfold Pipeline.Window.index
  show cc3_transform_1 (grid3.coords t) = _
  unfold cc3_transform_1
  rfl

theorem index3_2 (t : Fin grid3.N) : win3_2.index t = ![t.val, 0] := by
  unfold Pipeline.Window.index
  show cc3_transform_2 (grid3.coords t) = _
  unfold cc3_transform_2
  simp only [coord3_0, BitVec.toNat_ofNat]
  have hN : grid3.N = 50 := N_3
  have := t.isLt
  rw [Nat.mod_eq_of_lt (by omega : t.val < 2 ^ 32)]

/-- Window 2 (the output) is written back at every point. -/
theorem flush3_2 : ∀ t : Fin cfg3.N, (cfg3.win 2).flush t = true := by
  intro t
  show win3_2.flush t = true
  have hN : grid3.N = 50 := N_3
  have ht : t.val < grid3.N := t.isLt
  unfold Pipeline.Window.flush
  have hout : win3_2.isOut = true := rfl
  simp only [hout, Bool.true_and, Bool.or_eq_true, decide_eq_true_eq]
  by_cases hl : t.val + 1 = grid3.N
  · exact Or.inl hl
  · refine Or.inr ⟨by omega, ?_⟩
    rw [index3_2, index3_2]
    intro he
    have e0 := congrFun he 0
    have e1 : t.val + 1 = t.val := e0
    omega

/-- The current staging memref of each window at point `t`: which of its buffers it is on. -/
abbrev st3_0 (t : Fin cfg3.N) := (cfg3.win 0).stage (cfg3.slots t 0)
abbrev st3_1 (t : Fin cfg3.N) := (cfg3.win 1).stage (cfg3.slots t 1)
abbrev st3_2 (t : Fin cfg3.N) := (cfg3.win 2).stage (cfg3.slots t 2)

/-- The kernel body at point `t`, on what the pipeline calls it with. -/
abbrev bodyAt3 (t : Fin cfg3.N) : Prog (TpuEff nD τ sig (Elt F) Λ₀ .tc) PUnit :=
  cc3__linear_kernel (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2))

end Cert.KernelIdeal.Gen

end
-- ==== Proof.KI.Sched4.lean ====
import proofs.«158984_j43568148250937_1_alg».proof.Proof.Gen.KernelIdeal.Launch
import Idealize.ShloMosaic.Lib.Pipeline.Kit

noncomputable section

namespace Cert.KernelIdeal.Gen

open Idealize.ShloMosaic Idealize.ShloMosaic.TcCoe
open Idealize.SL Idealize.SL.Sem

variable {F : FTy → Type} [FloatOps F]

/-! # Region 4's schedule: the grid is (831 edge blocks, 50 node blocks), row-major, so point `t` is edge block `t / 50`, node block `t % 50`.
    Windows 0, 1 (the edges' indices and weights) and 3 (the output) sit at the edge block; window 2 (the table) at the node block. The output's block
    index changes exactly after a point with node block 49, which is where it is written back. All of it arithmetic in `t`. -/

theorem coord4_0 (t : Fin grid4.N) : ((grid4.coords t) 0).val = t.val / 50 % 831 := by
  show t.val / grid4.stride 0 % grid4.bound 0 = _
  have h1 : grid4.stride 0 = 50 := by decide
  have h2 : grid4.bound 0 = 831 := rfl
  rw [h1, h2]

theorem coord4_1 (t : Fin grid4.N) : ((grid4.coords t) 1).val = t.val % 50 := by
  show t.val / grid4.stride 1 % grid4.bound 1 = _
  have h1 : grid4.stride 1 = 1 := by decide
  have h2 : grid4.bound 1 = 50 := rfl
  rw [h1, h2, Nat.div_one]

/-- The edge block of a point, as a number below 831. -/
theorem eblk4_lt (t : Fin grid4.N) : t.val / 50 < 831 := by
  have hN : grid4.N = 41550 := N_4
  have := t.isLt
  omega

theorem index4_0 (t : Fin grid4.N) : win4_0.index t = ![t.val / 50, 0] := by
  unfold Pipeline.Window.index
  show cc4_transform_0 (grid4.coords t) = _
  unfold cc4_transform_0
  simp only [coord4_0, BitVec.toNat_ofNat]
  have h := eblk4_lt t
  rw [Nat.mod_eq_of_lt h, Nat.mod_eq_of_lt (by omega : t.val / 50 < 2 ^ 32)]

theorem index4_1 (t : Fin grid4.N) : win4_1.index t = ![t.val / 50, 0] := by
  unfold Pipeline.Window.index
  show cc4_transform_1 (grid4.coords t) = _
  unfold cc4_transform_1
  simp only [coord4_0, BitVec.toNat_ofNat]
  have h := eblk4_lt t
  rw [Nat.mod_eq_of_lt h, Nat.mod_eq_of_lt (by omega : t.val / 50 < 2 ^ 32)]

theorem index4_2 (t : Fin grid4.N) : win4_2.index t = ![t.val % 50, 0] := by
  unfold Pipeline.Window.index
  show cc4_transform_2 (grid4.coords t) = _
  unfold cc4_transform_2
  simp only [coord4_1, BitVec.toNat_ofNat]
  rw [Nat.mod_eq_of_lt (by omega : t.val % 50 < 2 ^ 32)]

theorem index4_3 (t : Fin grid4.N) : win4_3.index t = ![t.val / 50, 0] := by
  unfold Pipeline.Window.index
  show cc4_transform_3 (grid4.coords t) = _
  unfold cc4_transform_3
  simp only [coord4_0, BitVec.toNat_ofNat]
  have h := eblk4_lt t
  rw [Nat.mod_eq_of_lt h, Nat.mod_eq_of_lt (by omega : t.val / 50 < 2 ^ 32)]

/-- Window 3 (the output) is written back at the points with node block 49. -/
theorem flush4_3 : ∀ t : Fin cfg4.N, (cfg4.win 3).flush t = true ↔ t.val % 50 = 49 := by
  intro t
  show win4_3.flush t = true ↔ _
  have hN : grid4.N = 41550 := N_4
  have ht : t.val < grid4.N := t.isLt
  unfold Pipeline.Window.flush
  have hout : win4_3.isOut = true := rfl
  simp only [hout, Bool.true_and, Bool.or_eq_true, decide_eq_true_eq]
  constructor
  · rintro (h | ⟨h, hne⟩)
    · omega
    · by_contra hc
      apply hne
      rw [index4_3, index4_3]
      have e : (t.val + 1) / 50 = t.val / 50 := by omega
      show ![(t.val + 1) / 50, 0] = _
      rw [e]
  · intro h
    by_cases hl : t.val + 1 = grid4.N
    · exact Or.inl hl
    · refine Or.inr ⟨by omega, ?_⟩
      rw [index4_3, index4_3]
      intro he
      have e0 := congrFun he 0
      have e1 : (t.val + 1) / 50 = t.val / 50 := e0
      omega

/-- The current staging memref of each window at point `t`: which of its buffers it is on. -/
abbrev st4_0 (t : Fin cfg4.N) := (cfg4.win 0).stage (cfg4.slots t 0)
abbrev st4_1 (t : Fin cfg4.N) := (cfg4.win 1).stage (cfg4.slots t 1)
abbrev st4_2 (t : Fin cfg4.N) := (cfg4.win 2).stage (cfg4.slots t 2)
abbrev st4_3 (t : Fin cfg4.N) := (cfg4.win 3).stage (cfg4.slots t 3)

/-- The kernel body at point `t`, on what the pipeline calls it with. -/
abbrev bodyAt4 (t : Fin cfg4.N) : Prog (TpuEff nD τ sig (Elt F) Λ₀ .tc) PUnit :=
  cc4_kernel (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (Memref.whole cc4_scratch0) (Memref.isWhole_whole _)

end Cert.KernelIdeal.Gen

end
-- ==== Proof.KI.Sched5.lean ====
import proofs.«158984_j43568148250937_1_alg».proof.Proof.Gen.KernelIdeal.Launch
import Idealize.ShloMosaic.Lib.Pipeline.Kit

noncomputable section

namespace Cert.KernelIdeal.Gen

open Idealize.ShloMosaic Idealize.ShloMosaic.TcCoe
open Idealize.SL Idealize.SL.Sem

variable {F : FTy → Type} [FloatOps F]

/-! # Region 5's schedule: the grid is (50 node blocks, 831 edge blocks), row-major, so point `t` is node block `t / 831`, edge block `t % 831`.
    Windows 0 and 1 (the edges' target words and their rows) sit at the edge block; window 2 (the bias) is the one whole block; window 3 (the output) at
    the node block. The output's block index changes exactly after a point with edge block 830, which is where it is written back. -/

theorem coord5_0 (t : Fin grid5.N) : ((grid5.coords t) 0).val = t.val / 831 % 50 := by
  show t.val / grid5.stride 0 % grid5.bound 0 = _
  have h1 : grid5.stride 0 = 831 := by decide
  have h2 : grid5.bound 0 = 50 := rfl
  rw [h1, h2]

theorem coord5_1 (t : Fin grid5.N) : ((grid5.coords t) 1).val = t.val % 831 := by
  show t.val / grid5.stride 1 % grid5.bound 1 = _
  have h1 : grid5.stride 1 = 1 := by decide
  have h2 : grid5.bound 1 = 831 := rfl
  rw [h1, h2, Nat.div_one]

/-- The node block of a point, as a number below 50. -/
theorem nblk5_lt (t : Fin grid5.N) : t.val / 831 < 50 := by
  have hN : grid5.N = 41550 := N_5
  have := t.isLt
  omega

theorem index5_0 (t : Fin grid5.N) : win5_0.index t = ![0, t.val % 831] := by
  unfold Pipeline.Window.index
  show cc5_transform_0 (grid5.coords t) = _
  unfold cc5_transform_0
  simp only [coord5_1, BitVec.toNat_ofNat]
  rw [Nat.mod_eq_of_lt (by omega : t.val % 831 < 2 ^ 32)]

theorem index5_1 (t : Fin grid5.N) : win5_1.index t = ![t.val % 831, 0] := by
  unfold Pipeline.Window.index
  show cc5_transform_1 (grid5.coords t) = _
  unfold cc5_transform_1
  simp only [coord5_1, BitVec.toNat_ofNat]
  rw [Nat.mod_eq_of_lt (by omega : t.val % 831 < 2 ^ 32)]

theorem index5_2 (t : Fin grid5.N) : win5_2.index t = ![0, 0] := by
  unfold Pipeline.Window.index
  show cc5_transform_2 (grid5.coords t) = _
  unfold cc5_transform_2
  rfl

theorem index5_3 (t : Fin grid5.N) : win5_3.index t = ![t.val / 831, 0] := by
  unfold Pipeline.Window.index
  show cc5_transform_3 (grid5.coords t) = _
  unfold cc5_transform_3
  simp only [coord5_0, BitVec.toNat_ofNat]
  have h := nblk5_lt t
  rw [Nat.mod_eq_of_lt h, Nat.mod_eq_of_lt (by omega : t.val / 831 < 2 ^ 32)]

/-- Window 3 (the output) is written back at the points with edge block 830. -/
theorem flush5_3 : ∀ t : Fin cfg5.N, (cfg5.win 3).flush t = true ↔ t.val % 831 = 830 := by
  intro t
  show win5_3.flush t = true ↔ _
  have hN : grid5.N = 41550 := N_5
  have ht : t.val < grid5.N := t.isLt
  unfold Pipeline.Window.flush
  have hout : win5_3.isOut = true := rfl
  simp only [hout, Bool.true_and, Bool.or_eq_true, decide_eq_true_eq]
  constructor
  · rintro (h | ⟨h, hne⟩)
    · omega
    · by_contra hc
      apply hne
      rw [index5_3, index5_3]
      have e : (t.val + 1) / 831 = t.val / 831 := by omega
      show ![(t.val + 1) / 831, 0] = _
      rw [e]
  · intro h
    by_cases hl : t.val + 1 = grid5.N
    · exact Or.inl hl
    · refine Or.inr ⟨by omega, ?_⟩
      rw [index5_3, index5_3]
      intro he
      have e0 := congrFun he 0
      have e1 : (t.val + 1) / 831 = t.val / 831 := e0
      omega

/-- The current staging memref of each window at point `t`: which of its buffers it is on. -/
abbrev st5_0 (t : Fin cfg5.N) := (cfg5.win 0).stage (cfg5.slots t 0)
abbrev st5_1 (t : Fin cfg5.N) := (cfg5.win 1).stage (cfg5.slots t 1)
abbrev st5_2 (t : Fin cfg5.N) := (cfg5.win 2).stage (cfg5.slots t 2)
abbrev st5_3 (t : Fin cfg5.N) := (cfg5.win 3).stage (cfg5.slots t 3)

/-- The kernel body at point `t`, on what the pipeline calls it with. -/
abbrev bodyAt5 (t : Fin cfg5.N) : Prog (TpuEff nD τ sig (Elt F) Λ₀ .tc) PUnit :=
  cc5_kernel (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3)) (Memref.whole cc5_scratch0) (Memref.isWhole_whole _)

end Cert.KernelIdeal.Gen

end
-- ==== Proof.KI.Sched.lean ====
import proofs.«158984_j43568148250937_1_alg».proof.Proof.KI.Sched0
import proofs.«158984_j43568148250937_1_alg».proof.Proof.KI.Sched1
import proofs.«158984_j43568148250937_1_alg».proof.Proof.KI.Sched2
import proofs.«158984_j43568148250937_1_alg».proof.Proof.KI.Sched3
import proofs.«158984_j43568148250937_1_alg».proof.Proof.KI.Sched4
import proofs.«158984_j43568148250937_1_alg».proof.Proof.KI.Sched5

/-! The six regions' schedules (each grid point's coordinates, each window's block index there, the points that write an output back), proved arithmetically. -/
-- ==== Proof.KI.Lin0.lean ====
import proofs.«158984_j43568148250937_1_alg».proof.Proof.Gen.KernelIdeal.Launch
import proofs.«158984_j43568148250937_1_alg».proof.Proof.Gen.KernelIdeal.Skeleton
import proofs.«158984_j43568148250937_1_alg».proof.Proof.KI.Sched
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the first dense layer, one block of 2000 rows per grid point -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of region 0 on core `c`: the arrays as the region finds them; after the body each input's buffer at its block,
    the output's at the product of the two input blocks; the invariant the scoped rest and the generator register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = k0_pay1 (iblk0 V c 0 t) (iblk0 V c 1 t) := by
  dsimp only [dat0]

/-! ## The input blocks stay in their buffers -/

/-- Both offsets of a whole-block access are zero. -/
theorem zero_off0 : (![0, 0] : Fin 2 → Nat) = fun _ => 0 := funext fun a => by fin_cases a <;> rfl

/-- The rows' staging buffer holds its block at every point (it is fetched at each). -/
theorem before0_0 (c : Dev nD) (t : Fin cfg0.N) (d) : (dat0 V c).before 0 t d = iblk0 V c 0 t :=
  ((dat0 V c).before_in_eq_fetched 0 rfl (fun _ => rfl) (fun _ _ _ => rfl)
      (fun t => by show (cfg0.win 0).cut (cfg0.grid.coords t) (iblk0 V c 0 t) = _; unfold Dat.blockOf iblk0; rw [A_eq0]; try rfl) t d).trans
    (by unfold Dat.fetched Dat.blockOf iblk0; rw [A_eq0]; try rfl)

/-- The weight's staging buffer holds the whole weight at every point: fetched at the first, and its index never moves. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by show (cfg0.win 1).cut (cfg0.grid.coords t) (iblk0 V c 1 t) = _; unfold Dat.blockOf iblk0; rw [A_eq0]; try rfl) t d).trans
    (by unfold Dat.fetched Dat.blockOf iblk0; rw [A_eq0]; try rfl)

/-! ## The body's triple -/

/-- The one whole-block store covers the output's buffer. -/
theorem cover0_2 (p0 : Vec F S2000x128 .f32) (y : S2000x128.Idx) :
    ∃ pc ∈ ([⟨Rect.unit (s := S2000x128) ![0, 0] S2000x128.size inb_S2000x128_S2000x128_0_0, p0⟩] : List (View.Piece (Elt F) S2000x128 .f32)), y ∈ pc.1.set :=
  ⟨_, List.mem_singleton_self _, View.mem_set_unit_zero zero_off0 inb_S2000x128_S2000x128_0_0 y⟩

set_option maxHeartbeats 1000000 in
/-- The dense layer's body on whole staging memrefs, the inputs' at contents `x0`, `x1` and the output's at anything, runs to
    the continuation holding the inputs' as they were and the output's at the product payload of the two. -/
theorem sound_kernel0 (c : Dev nD) (E : Set ℕ) (i : grid0.Coords)
    (arg1 : Memref sig .tc .vmem S2000x256 .f32) (harg1 : arg1.IsWhole) (arg2 : Memref sig .tc .vmem S256x128 .f32) (harg2 : arg2.IsWhole)
    (arg3 : Memref sig .tc .vmem S2000x128 .f32) (harg3 : arg3.IsWhole)
    (x0 : Vec F S2000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover0_2 _), View.canon_unit_zero zero_off0]
  simp only [View.readAt_eq_ld, View.ld_unit_zero (S := S2000x256) zero_off0, View.ld_unit_zero (S := S256x128) zero_off0]

/-! ## The body obligation, at a generic point -/

/-- What the body leaves in the inputs' buffers: their blocks, untouched. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]

/-- What the body is called with at point `t`: the invariant, what the core owes, the two inputs' buffers at their blocks
    and the output's buffer at whatever it held, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: the inputs' as they were, the output's at the product of the two blocks. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- Entering: the invariant before the first point is the region's own. -/
theorem phi_in0 (c : Dev nD) : (Pipeline.ΦA spec0 c : sProp 𝕄) ⊢ (dat0 V c).Φ 0 :=
  BI.Entails.refl _

/-- Leaving: so is the invariant after the last point. -/
theorem phi_out0 (c : Dev nD) : (dat0 V c).Φ (Fin.last cfg0.N) ⊢ (Pipeline.ΦA spec0 c : sProp 𝕄) :=
  BI.Entails.refl _

end Cert.KernelIdeal.Hand

end
-- ==== Proof.KI.Gat1.lean ====
import proofs.«158984_j43568148250937_1_alg».proof.Proof.Gen.KernelIdeal.Launch
import proofs.«158984_j43568148250937_1_alg».proof.Proof.Gen.KernelIdeal.Skeleton
import proofs.«158984_j43568148250937_1_alg».proof.Proof.KI.Sched
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: the first gather. Grid (831 edge blocks, 50 node blocks), row-major: position n is edge block n / 50, node block n % 50 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after the body at grid position `n`: zeroed at node block 0, then this point's one-hot product
    (the edge block's indices against the node block's numbers, times the node block of the table) added. -/
def acc1 (c : Dev nD) : (n : ℕ) → n < cfg1.N → Vec F S2048x128 .f32
  | 0, h => k1_pay2 (grid1.coords ⟨0, h⟩) (iblk1 V c 0 ⟨0, h⟩) (iblk1 V c 2 ⟨0, h⟩) (k1_pay1 (F := F))
  | n + 1, h => k1_pay2 (grid1.coords ⟨n + 1, h⟩) (iblk1 V c 0 ⟨n + 1, h⟩) (iblk1 V c 2 ⟨n + 1, h⟩)
      (if (n + 1) % 50 = 0 then k1_pay1 (F := F) else acc1 c n (Nat.lt_of_succ_lt h))

/-- The region invariant before position `n`: before the first point the scoped rest and the generator register; afterwards the
    accumulator at what the point before left, the rest of the scoped buffers at anything, the generator register at some state. -/
def Phi1 (c : Dev nD) : (n : ℕ) → n ≤ cfg1.N → sProp 𝕄
  | 0, _ => Pipeline.ΦA spec1 c
  | n + 1, hn => iprop(owns (c : Thread nD τ) (Memref.whole cc1_scratch0 : Memref sig .tc .vmem S2048x128 .f32) fullShare (acc1 V c n hn)
      ∗ Pipeline.scopedRestBut (Ix := Unit) (Name := ℕ) (U := UR sig nD τ) (Lvl := ℕ) (Val := Elt F) spec1 c [cc1_scratch0] ∗ (∃ r, prngReg c r))

/-- The proof data of region 1 on core `c`. The output block is stored only at node block 49, from the accumulator and the edge weights. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 1 t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) : (dat1 V c).after 3 t = k1_pay3 (acc1 V c t.val t.isLt) (iblk1 V c 1 t) := by
  dsimp only [dat1]

/-- The offsets of a whole-buffer access, however spelt, are zero. -/
theorem rect1_zero : (![0, 0] : Fin 2 → Nat) = fun _ => 0 := funext fun a => by fin_cases a <;> rfl

/-! ## The body's two conditions, over the grid coordinates -/

/-- The first conditional's test (the accumulator is zeroed): the node block is block 0. -/
abbrev cond1_0 (i : grid1.Coords) : Prop := (Scalar.cmpi .ne (Scalar.extui (Scalar.cmpi .eq (BitVec.ofNat 32 (i 1).val) 0#32)) 0#32) = 1#1
/-- The second conditional's test (the output block is stored): the node block is block 49. -/
abbrev cond1_1 (i : grid1.Coords) : Prop := k1_cond2 i = 1#1

/-! ## The body's triple, per case of its two conditions

Every access is of a whole buffer, so a load reads the contents and a store leaves its payload. -/

set_option maxHeartbeats 1000000 in
/-- A point of node block 0: the accumulator, at anything, is zeroed and then holds this point's product alone;
    the output buffer is not touched. -/
theorem sound_kernel1_reset (c : Dev nD) (E : Set ℕ) (i : grid1.Coords)
    (arg2 : Memref sig .tc .vmem S2048x1 .i32) (harg2 : arg2.IsWhole) (arg3 : Memref sig .tc .vmem S2048x1 .f32) (harg3 : arg3.IsWhole)
    (arg4 : Memref sig .tc .vmem S2000x128 .f32) (harg4 : arg4.IsWhole) (arg5 : Memref sig .tc .vmem S2048x128 .f32) (harg5 : arg5.IsWhole)
    (arg6 : Memref sig .tc .vmem S2048x128 .f32) (harg6 : arg6.IsWhole)
    (hc0 : cond1_0 i) (hc1 : ¬cond1_1 i)
    (x0 : Vec F S2048x1 .i32) (x2 : Vec F S2000x128 .f32) (K : PUnit → sProp 𝕄) :
    iprop(owns (c : Thread nD τ) arg2 fullShare x0 ∗ owns (c : Thread nD τ) arg4 fullShare x2 ∗ (∃ d, owns (c : Thread nD τ) arg6 fullShare d)
        ∗ (iprop(owns (c : Thread nD τ) arg2 fullShare x0 ∗ owns (c : Thread nD τ) arg4 fullShare x2
            ∗ owns (c : Thread nD τ) arg6 fullShare (k1_pay2 i x0 x2 (k1_pay1 (F := F)))) -∗ K ⟨⟩))
      ⊢ wp frame (wpE (defs₀ (F := F)) Variants.none c none) E (cc1_kernel i arg2 harg2 arg3 harg3 arg4 harg4 arg5 harg5 arg6 harg6) K := by
  simp only [cc1_kernel_eq_skeleton]; unfold cc1_kernel_skel
  unfold owns
  iintro ⟨⟨%f0, %hf0, H0⟩, ⟨%f2, %hf2, H2⟩, ⟨%d6, %f6, -, H6⟩, Hk⟩
  subst hf0; subst hf2
  sl_exec (disch := first | exact hc0 | exact hc1)
  sl_step
  iapply Hk
  isplitl [H0]
  · iexists f0; isplitr; · ipureintro; rfl
    iexact H0
  isplitl [H2]
  · iexists f2; isplitr; · ipureintro; rfl
    iexact H2
  iexists _; isplitr
  swap; · iexact H6
  ipureintro
  sl_unfold_words
  rw [View.read_writes_eq_canon _ _ _ (fun y => ⟨_, List.mem_cons.mpr (Or.inl rfl), View.mem_set_unit_zero rect1_zero inb_S2048x128_S2048x128_0_0 y⟩),
    View.canon_cons_unit_zero (S := S2048x128) rect1_zero, View.readCov_unit_zero (S := S2048x128) _ rect1_zero]
  simp only [View.readAt_eq_ld, View.ld_unit_zero (S := S2048x1) rect1_zero, View.ld_unit_zero (S := S2000x128) rect1_zero]

set_option maxHeartbeats 1000000 in
/-- A point of a node block that is neither the first nor the last: this point's product is added to the accumulator;
    the output buffer is not touched. -/
theorem sound_kernel1_mid (c : Dev nD) (E : Set ℕ) (i : grid1.Coords)
    (arg2 : Memref sig .tc .vmem S2048x1 .i32) (harg2 : arg2.IsWhole) (arg3 : Memref sig .tc .vmem S2048x1 .f32) (harg3 : arg3.IsWhole)
    (arg4 : Memref sig .tc .vmem S2000x128 .f32) (harg4 : arg4.IsWhole) (arg5 : Memref sig .tc .vmem S2048x128 .f32) (harg5 : arg5.IsWhole)
    (arg6 : Memref sig .tc .vmem S2048x128 .f32) (harg6 : arg6.IsWhole)
    (hc0 : ¬cond1_0 i) (hc1 : ¬cond1_1 i)
    (x0 : Vec F S2048x1 .i32) (x2 : Vec F S2000x128 .f32) (a : Vec F S2048x128 .f32) (K : PUnit → sProp 𝕄) :
    iprop(owns (c : Thread nD τ) arg2 fullShare x0 ∗ owns (c : Thread nD τ) arg4 fullShare x2 ∗ owns (c : Thread nD τ) arg6 fullShare a
        ∗ (iprop(owns (c : Thread nD τ) arg2 fullShare x0 ∗ owns (c : Thread nD τ) arg4 fullShare x2
            ∗ owns (c : Thread nD τ) arg6 fullShare (k1_pay2 i x0 x2 a)) -∗ K ⟨⟩))
      ⊢ wp frame (wpE (defs₀ (F := F)) Variants.none c none) E (cc1_kernel i arg2 harg2 arg3 harg3 arg4 harg4 arg5 harg5 arg6 harg6) K := by
  simp only [cc1_kernel_eq_skeleton]; unfold cc1_kernel_skel
  unfold owns
  iintro ⟨⟨%f0, %hf0, H0⟩, ⟨%f2, %hf2, H2⟩, ⟨%f6, %hf6, H6⟩, Hk⟩
  subst hf0; subst hf2; subst hf6
  sl_exec (disch := first | exact hc0 | exact hc1)
  sl_step
  iapply Hk
  isplitl [H0]
  · iexists f0; isplitr; · ipureintro; rfl
    iexact H0
  isplitl [H2]
  · iexists f2; isplitr; · ipureintro; rfl
    iexact H2
  iexists _; isplitr
  swap; · iexact H6
  ipureintro
  rw [View.read_writes_eq_canon _ _ _ (fun y => ⟨_, List.mem_cons.mpr (Or.inl rfl), View.mem_set_unit_zero rect1_zero inb_S2048x128_S2048x128_0_0 y⟩),
    View.canon_unit_zero (S := S2048x128) rect1_zero]
  simp only [View.readAt_eq_ld, View.ld_unit_zero (S := S2048x1) rect1_zero, View.ld_unit_zero (S := S2000x128) rect1_zero,
    View.ld_unit_zero (S := S2048x128) rect1_zero]

set_option maxHeartbeats 1000000 in
/-- A point of node block 49: this point's product is added to the accumulator, and the output buffer, at anything, is
    stored whole with the accumulator times the edge weights. -/
theorem sound_kernel1_last (c : Dev nD) (E : Set ℕ) (i : grid1.Coords)
    (arg2 : Memref sig .tc .vmem S2048x1 .i32) (harg2 : arg2.IsWhole) (arg3 : Memref sig .tc .vmem S2048x1 .f32) (harg3 : arg3.IsWhole)
    (arg4 : Memref sig .tc .vmem S2000x128 .f32) (harg4 : arg4.IsWhole) (arg5 : Memref sig .tc .vmem S2048x128 .f32) (harg5 : arg5.IsWhole)
    (arg6 : Memref sig .tc .vmem S2048x128 .f32) (harg6 : arg6.IsWhole)
    (hc0 : ¬cond1_0 i) (hc1 : cond1_1 i)
    (x0 : Vec F S2048x1 .i32) (x1 : Vec F S2048x1 .f32) (x2 : Vec F S2000x128 .f32) (a : Vec F S2048x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 i x0 x2 a) x1)
            ∗ owns (c : Thread nD τ) arg6 fullShare (k1_pay2 i x0 x2 a)) -∗ K ⟨⟩))
      ⊢ wp frame (wpE (defs₀ (F := F)) Variants.none c none) E (cc1_kernel i arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  subst hf0; subst hf1; subst hf2; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_words
    rw [View.read_writes_eq_canon _ _ _ (fun y => ⟨_, List.mem_cons.mpr (Or.inl rfl), View.mem_set_unit_zero rect1_zero inb_S2048x128_S2048x128_0_0 y⟩),
      View.canon_unit_zero (S := S2048x128) rect1_zero, View.readCov_unit_zero (S := S2048x128) _ rect1_zero]
    simp only [View.readAt_eq_ld, View.ld_unit_zero (S := S2048x1) rect1_zero, View.ld_unit_zero (S := S2000x128) rect1_zero,
      View.ld_unit_zero (S := S2048x128) rect1_zero]
  iexists _; isplitr
  swap; · iexact H6
  ipureintro
  sl_unfold_words
  rw [View.read_writes_eq_canon _ _ _ (fun y => ⟨_, List.mem_cons.mpr (Or.inl rfl), View.mem_set_unit_zero rect1_zero inb_S2048x128_S2048x128_0_0 y⟩),
    View.canon_unit_zero (S := S2048x128) rect1_zero]
  simp only [View.readAt_eq_ld, View.ld_unit_zero (S := S2048x1) rect1_zero, View.ld_unit_zero (S := S2000x128) rect1_zero,
    View.ld_unit_zero (S := S2048x128) rect1_zero]

/-! ## Where the two conditions hold

Both read the node block alone, which at position `t` of the row-major grid is `t % 50`: each is decided on the 50 node blocks. -/

/-- Position `t` is in node block `t % 50`. -/
theorem pt1_node (t : Fin cfg1.N) : ((grid1.coords t) 1).val = t.val % 50 := by
  show t.val / grid1.stride 1 % grid1.bound 1 = t.val % 50
  rw [show grid1.stride 1 = 1 from by decide, show grid1.bound 1 = 50 from rfl, Nat.div_one]

theorem cond1_0_node : ∀ j : Fin 50, (Scalar.cmpi .ne (Scalar.extui (Scalar.cmpi .eq (BitVec.ofNat 32 j.val) 0#32)) 0#32) = 1#1 ↔ j.val = 0 := by decide
theorem cond1_1_node : ∀ j : Fin 50, (Scalar.cmpi .ne (Scalar.extui (Scalar.cmpi .eq (BitVec.ofNat 32 j.val) 49#32)) 0#32) = 1#1 ↔ j.val = 49 := by decide

/-- The accumulator is zeroed at the positions ≡ 0 (mod 50), -/
theorem hcond1_0 (t : Fin cfg1.N) : cond1_0 (grid1.coords t) ↔ t.val % 50 = 0 :=
  (cond1_0_node ((grid1.coords t) 1)).trans (by rw [pt1_node t])
/-- and the output block is stored at the positions ≡ 49 (mod 50). -/
theorem hcond1_1 (t : Fin cfg1.N) : cond1_1 (grid1.coords t) ↔ t.val % 50 = 49 :=
  (cond1_1_node ((grid1.coords t) 1)).trans (by rw [pt1_node t])

/-- Where the output block is not stored the program states window 3 idle, -/
theorem idle1_3_off (i : grid1.Coords) (h : ¬cond1_1 i) : cfg1.idle 3 i = true := by
  show (!(k1_cond2 i == 1#1)) = true
  simpa using h
/-- and where it is stored, live. -/
theorem idle1_3_on (i : grid1.Coords) (h : cond1_1 i) : cfg1.idle 3 i = false := by
  show (!(k1_cond2 i == 1#1)) = false
  simpa using h

/-! ## The accumulator, position by position -/

/-- At a position of node block 0 the accumulator holds that point's product alone. -/
theorem acc1_reset (c : Dev nD) (t : Fin cfg1.N) (h : t.val % 50 = 0) :
    acc1 V c t.val t.isLt = k1_pay2 (grid1.coords t) (iblk1 V c 0 t) (iblk1 V c 2 t) (k1_pay1 (F := F)) := by
  obtain ⟨n, hn⟩ := t
  cases n with
  | zero => rfl
  | succ n => exact congrArg (k1_pay2 (grid1.coords ⟨n + 1, hn⟩) (iblk1 V c 0 ⟨n + 1, hn⟩) (iblk1 V c 2 ⟨n + 1, hn⟩)) (if_pos h)

/-- At any other position it holds what the position before left plus this point's product. -/
theorem acc1_step (c : Dev nD) (t : Fin cfg1.N) (h : ¬t.val % 50 = 0) :
    acc1 V c t.val t.isLt = k1_pay2 (grid1.coords t) (iblk1 V c 0 t) (iblk1 V c 2 t)
      (acc1 V c (t.val - 1) (Nat.lt_of_le_of_lt (Nat.sub_le _ _) t.isLt)) := by
  obtain ⟨n, hn⟩ := t
  cases n with
  | zero => exact absurd (Nat.zero_mod _) h
  | succ n => exact congrArg (k1_pay2 (grid1.coords ⟨n + 1, hn⟩) (iblk1 V c 0 ⟨n + 1, hn⟩) (iblk1 V c 2 ⟨n + 1, hn⟩)) (if_neg h)

/-! ## The invariant, position by position -/

theorem Phi1_zero (c : Dev nD) (n : ℕ) (h : n ≤ cfg1.N) (hz : n = 0) : Phi1 V c n h = Pipeline.ΦA spec1 c := by
  subst hz; rfl

/-- After position `n`: the accumulator at that position's contents. -/
theorem Phi1_succ (c : Dev nD) (n : ℕ) (hn : n < cfg1.N) :
    Phi1 V c (n + 1) hn = iprop(owns (c : Thread nD τ) (Memref.whole cc1_scratch0 : Memref sig .tc .vmem S2048x128 .f32) fullShare (acc1 V c n hn)
      ∗ Pipeline.scopedRestBut (Ix := Unit) (Name := ℕ) (U := UR sig nD τ) (Lvl := ℕ) (Val := Elt F) spec1 c [cc1_scratch0] ∗ (∃ r, prngReg c r)) := rfl

/-- Before a position that is not the first: the accumulator at what the position before left. -/
theorem Phi1_pos (c : Dev nD) (n : ℕ) (h : n ≤ cfg1.N) (hz : n ≠ 0) :
    Phi1 V c n h = iprop(owns (c : Thread nD τ) (Memref.whole cc1_scratch0 : Memref sig .tc .vmem S2048x128 .f32) fullShare (acc1 V c (n - 1) (by omega))
      ∗ Pipeline.scopedRestBut (Ix := Unit) (Name := ℕ) (U := UR sig nD τ) (Lvl := ℕ) (Val := Elt F) spec1 c [cc1_scratch0] ∗ (∃ r, prngReg c r)) := by
  cases n with
  | zero => exact absurd rfl hz
  | succ n => rfl

/-- What the launch hands the region, with the accumulator's buffer split out of the scoped buffers and owned at some contents. -/
theorem Phi1_launch (c : Dev nD) :
    (Pipeline.ΦA spec1 c : sProp 𝕄)
      = iprop(iprop((∃ d, owns (c : Thread nD τ) (Memref.whole cc1_scratch0 : Memref sig .tc .vmem S2048x128 .f32) fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [owns_whole]; try rfl

/-- The invariant at a point's start, restated at the point's position. -/
theorem Phi1_castSucc (c : Dev nD) (t : Fin cfg1.N) :
    (dat1 V c).Φ t.castSucc = Phi1 V c t.val (Nat.le_of_lt t.isLt) := by
  dsimp only [dat1]; simp only [Fin.coe_castSucc]

/-! ## What the body finds in the inputs' buffers -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]

/-- The edge block's indices: fetched at node block 0 only, and the block index does not move within an edge block,
    so the buffer holds the block at every position. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The edge block's weights: likewise. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- The node block of the table: fetched at every position. -/
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-- An input's buffer is handed back at its block (no input window is ever idle). -/
theorem blk1_0_back (c : Dev nD) (t : Fin cfg1.N) :
    (dat1 V c).leavesExact 0 t = owns (c : Thread nD τ) (st1_0 t) fullShare (iblk1 V c 0 t) := by
  unfold Dat.leavesExact; rw [show cfg1.idle 0 (cfg1.grid.coords t) = false from rfl, after1_0]
theorem blk1_1_back (c : Dev nD) (t : Fin cfg1.N) :
    (dat1 V c).leavesExact 1 t = owns (c : Thread nD τ) (st1_1 t) fullShare (iblk1 V c 1 t) := by
  unfold Dat.leavesExact; rw [show cfg1.idle 1 (cfg1.grid.coords t) = false from rfl, after1_1]
theorem blk1_2_back (c : Dev nD) (t : Fin cfg1.N) :
    (dat1 V c).leavesExact 2 t = owns (c : Thread nD τ) (st1_2 t) fullShare (iblk1 V c 2 t) := by
  unfold Dat.leavesExact; rw [show cfg1.idle 2 (cfg1.grid.coords t) = false from rfl, after1_2]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point. The inputs' buffers hold their blocks; the position's node block says which case the point is in.
    At node block 0 the accumulator is taken at anything (at the first position out of the scoped buffers the launch hands over)
    and left at this point's product; elsewhere it is taken at what the position before left and this point's product is added.
    The output buffer is handed back as found except at node block 49, where it is left at the accumulator times the weights. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ, Phi1_castSucc]
  rw [blk1_0_back, blk1_1_back, blk1_2_back]
  by_cases h0 : t.val % 50 = 0
  · have h1 : ¬t.val % 50 = 49 := by omega
    have hc0 : cond1_0 (grid1.coords t) := (hcond1_0 t).mpr h0
    have hc1 : ¬cond1_1 (grid1.coords t) := fun h => h1 ((hcond1_1 t).mp h)
    rw [Dat.leavesExact_idle (dat1 V c) 3 t (idle1_3_off _ hc1) (Bool.eq_false_iff.mpr (mt (flush1_3 t).mp h1))]
    rw [acc1_reset V c t h0]
    by_cases hz : t.val = 0
    · rw [Phi1_zero V c _ _ hz, Phi1_launch]
      iintro ⟨⟨⟨HS, HR⟩, Hg⟩, Ho, ⟨%d0, H0⟩, ⟨%d1, H1⟩, ⟨%d2, H2⟩, H3⟩
      iapply (sound_kernel1_reset c Set.univ (grid1.coords t) _ _ _ _ _ _ _ _ _ _ hc0 hc1 (iblk1 V c 0 t) (iblk1 V c 2 t) _)
      isplitl [H0]; · iexact H0
      isplitl [H2]; · iexact H2
      isplitl [HS]; · iexact HS
      iintro ⟨H0, H2, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [Phi1_pos V c _ _ hz]
      iintro ⟨⟨HS, HR, Hg⟩, Ho, ⟨%d0, H0⟩, ⟨%d1, H1⟩, ⟨%d2, H2⟩, H3⟩
      iapply (sound_kernel1_reset c Set.univ (grid1.coords t) _ _ _ _ _ _ _ _ _ _ hc0 hc1 (iblk1 V c 0 t) (iblk1 V c 2 t) _)
      isplitl [H0]; · iexact H0
      isplitl [H2]; · iexact H2
      isplitl [HS]; · iexists _; iexact HS
      iintro ⟨H0, H2, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
  · have hz : t.val ≠ 0 := fun e => h0 (by rw [e])
    have hc0 : ¬cond1_0 (grid1.coords t) := fun h => h0 ((hcond1_0 t).mp h)
    rw [acc1_step V c t h0, Phi1_pos V c _ _ hz]
    by_cases h1 : t.val % 50 = 49
    · have hc1 : cond1_1 (grid1.coords t) := (hcond1_1 t).mpr h1
      rw [show (dat1 V c).leavesExact 3 t = owns (c : Thread nD τ) (st1_3 t) fullShare ((dat1 V c).after 3 t) from by
        unfold Dat.leavesExact; rw [idle1_3_on _ hc1], after1_3, acc1_step V c t h0]
      iintro ⟨⟨HS, HR, Hg⟩, Ho, ⟨%d0, H0⟩, ⟨%d1, H1⟩, ⟨%d2, H2⟩, ⟨%d3, H3⟩⟩
      iapply (sound_kernel1_last c Set.univ (grid1.coords t) _ _ _ _ _ _ _ _ _ _ hc0 hc1 (iblk1 V c 0 t) (iblk1 V c 1 t) (iblk1 V c 2 t)
        (acc1 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idle1_3_off _ hc1) (Bool.eq_false_iff.mpr (mt (flush1_3 t).mp h1))]
      iintro ⟨⟨HS, HR, Hg⟩, Ho, ⟨%d0, H0⟩, ⟨%d1, H1⟩, ⟨%d2, H2⟩, H3⟩
      iapply (sound_kernel1_mid c Set.univ (grid1.coords t) _ _ _ _ _ _ _ _ _ _ hc0 hc1 (iblk1 V c 0 t) (iblk1 V c 2 t)
        (acc1 V c (t.val - 1) (Nat.lt_of_le_of_lt (Nat.sub_le _ _) t.isLt)) _)
      isplitl [H0]; · iexact H0
      isplitl [H2]; · iexact H2
      isplitl [HS]; · iexact HS
      iintro ⟨H0, H2, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first position. -/
theorem phi_in1 (c : Dev nD) : (Pipeline.ΦA spec1 c : sProp 𝕄) ⊢ (dat1 V c).Φ 0 := by
  rw [show (dat1 V c).Φ 0 = Phi1 V c 0 (Nat.zero_le _) from rfl, Phi1_zero V c 0 _ rfl]
  try exact Idealize.SL.BI.Entails.refl _

/-- After the last position the invariant gives it back: the accumulator's contents are forgotten, and its buffer joins the
    other scoped buffers again. -/
theorem phi_out1 (c : Dev nD) : (dat1 V c).Φ (Fin.last cfg1.N) ⊢ (Pipeline.ΦA spec1 c : sProp 𝕄) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 41550 := N_1; omega), Phi1_launch]
  iintro ⟨HS, HR, Hg⟩
  isplitl [HS HR]
  · isplitl [HS]; · iexists _; iexact HS
    iexact HR
  iexact Hg

end Cert.KernelIdeal.Hand

end
-- ==== Proof.KI.Sca2.lean ====
import proofs.«158984_j43568148250937_1_alg».proof.Proof.Gen.KernelIdeal.Launch
import proofs.«158984_j43568148250937_1_alg».proof.Proof.Gen.KernelIdeal.Skeleton
import proofs.«158984_j43568148250937_1_alg».proof.Proof.KI.Sched
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: the first scatter. Grid (50 node blocks, 831 edge blocks), row-major: position n is node block n / 831, edge block n % 831 -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after the body at grid position `n`: zeroed at edge block 0, then this point's one-hot product
    (the node block's numbers against the edge block's indices, times the edge block of the values) added. -/
def acc2 (c : Dev nD) : (n : ℕ) → n < cfg2.N → Vec F S2000x128 .f32
  | 0, h => k2_pay2 (grid2.coords ⟨0, h⟩) (iblk2 V c 0 ⟨0, h⟩) (iblk2 V c 1 ⟨0, h⟩) (k2_pay1 (F := F))
  | n + 1, h => k2_pay2 (grid2.coords ⟨n + 1, h⟩) (iblk2 V c 0 ⟨n + 1, h⟩) (iblk2 V c 1 ⟨n + 1, h⟩)
      (if (n + 1) % 831 = 0 then k2_pay1 (F := F) else acc2 c n (Nat.lt_of_succ_lt h))

/-- The region invariant before position `n`: before the first point the scoped rest and the generator register; afterwards the
    accumulator at what the point before left, the rest of the scoped buffers at anything, the generator register at some state. -/
def Phi2 (c : Dev nD) : (n : ℕ) → n ≤ cfg2.N → sProp 𝕄
  | 0, _ => Pipeline.ΦA spec2 c
  | n + 1, hn => iprop(owns (c : Thread nD τ) (Memref.whole cc2_scratch0 : Memref sig .tc .vmem S2000x128 .f32) fullShare (acc2 V c n hn)
      ∗ Pipeline.scopedRestBut (Ix := Unit) (Name := ℕ) (U := UR sig nD τ) (Lvl := ℕ) (Val := Elt F) spec2 c [cc2_scratch0] ∗ (∃ r, prngReg c r))

/-- The proof data of region 2 on core `c`. The output block is stored only at edge block 830, from the accumulator and the bias. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt) (iblk2 V c 2 t)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_3 (c : Dev nD) (t : Fin cfg2.N) : (dat2 V c).after 3 t = k2_pay3 (acc2 V c t.val t.isLt) (iblk2 V c 2 t) := by
  dsimp only [dat2]

/-! ## Where the body's two conditions hold, and where the output window is idle -/

/-- The zero offsets of a whole-buffer access. -/
theorem hz2 : (![0, 0] : Fin 2 → ℕ) = fun _ => 0 := funext fun a => by fin_cases a <;> rfl

/-- The body zeroes the accumulator first where this holds: the edge block is 0. -/
abbrev resets2 (i : grid2.Coords) : Prop :=
  (Scalar.cmpi .ne (Scalar.extui (Scalar.cmpi .eq (BitVec.ofNat 32 (i 1).val) 0#32)) 0#32) = 1#1
/-- A fact about the one coordinate it reads, decided over the 831 edge blocks. -/
theorem resets_edge2 : ∀ e : Fin 831,
    ((Scalar.cmpi .ne (Scalar.extui (Scalar.cmpi .eq (BitVec.ofNat 32 e.val) 0#32)) 0#32) = 1#1) ↔ e.val = 0 := by decide +kernel
theorem hresets2 (t : Fin cfg2.N) : resets2 (grid2.coords t) ↔ t.val % 831 = 0 :=
  (resets_edge2 (grid2.coords t 1)).trans (by rw [coord2_1])

/-- The body stores the output block where this holds: the edge block is 830, the last. -/
abbrev stores2 (i : grid2.Coords) : Prop := k2_cond2 i = 1#1
theorem stores_edge2 : ∀ e : Fin 831,
    ((Scalar.cmpi .ne (Scalar.extui (Scalar.cmpi .eq (BitVec.ofNat 32 e.val) 830#32)) 0#32) = 1#1) ↔ e.val = 830 := by decide +kernel
theorem hstores2 (t : Fin cfg2.N) : stores2 (grid2.coords t) ↔ t.val % 831 = 830 :=
  (stores_edge2 (grid2.coords t 1)).trans (by rw [coord2_1])

/-- Where the body does not store the output block the printed program calls its window idle, -/
theorem idleAt2 (t : Fin cfg2.N) (h : ¬stores2 (grid2.coords t)) : cfg2.idle 3 (grid2.coords t) = true := by
  show (!(k2_cond2 (grid2.coords t) == 1#1)) = true
  rw [beq_eq_false_iff_ne.mpr h]; rfl
/-- where it does, live; -/
theorem liveAt2 (t : Fin cfg2.N) (h : stores2 (grid2.coords t)) : cfg2.idle 3 (grid2.coords t) = false := by
  show (!(k2_cond2 (grid2.coords t) == 1#1)) = false
  rw [beq_iff_eq.mpr h]; rfl
/-- and the block is written back at the last edge block only. -/
theorem noFlush2 (t : Fin cfg2.N) (h : ¬t.val % 831 = 830) : (cfg2.win 3).flush t = false :=
  Bool.eq_false_iff.mpr fun hf => h ((flush2_3 t).mp hf)

set_option maxHeartbeats 1000000 in
/-- The body at a point of edge block 0 that is not of the last edge block: the accumulator, whatever it held, is zeroed and this point's
    one-hot product added to it; the output block's buffer is handed back as found. -/
theorem run_reset2 (c : Dev nD) (E : Set ℕ) (i : grid2.Coords)
    (arg2 : Memref sig .tc .vmem S1x2048 .i32) (harg2 : arg2.IsWhole) (arg3 : Memref sig .tc .vmem S2048x128 .f32) (harg3 : arg3.IsWhole)
    (arg4 : Memref sig .tc .vmem S1x128 .f32) (harg4 : arg4.IsWhole) (arg5 : Memref sig .tc .vmem S2000x128 .f32) (harg5 : arg5.IsWhole)
    (arg6 : Memref sig .tc .vmem S2000x128 .f32) (harg6 : arg6.IsWhole)
    (hc0 : resets2 i) (hc1 : ¬stores2 i)
    (x0 : Vec F S1x2048 .i32) (x1 : Vec F S2048x128 .f32) (x2 : Vec F S1x128 .f32) (xi3 : Vec F S2000x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k2_pay2 i x0 x1 (k2_pay1 (F := F)))) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [View.read_writes_eq_canon _ _ _ (fun y => ⟨_, List.mem_cons_self, View.mem_set_unit_zero hz2 inb_S2000x128_S2000x128_0_0 y⟩)]
  sl_unfold_words
  rw [View.canon_cons_unit_zero (S := S2000x128) hz2]
  simp only [View.readAt_eq_ld, View.readCov_unit_zero (S := S2000x128) _ hz2, View.ld_unit_zero (S := S1x2048) hz2, View.ld_unit_zero (S := S2048x128) hz2]

set_option maxHeartbeats 1000000 in
/-- The body at a point that is neither of edge block 0 nor of the last edge block: this point's one-hot product is added to the
    accumulator; the output block's buffer is handed back as found. -/
theorem run_mid2 (c : Dev nD) (E : Set ℕ) (i : grid2.Coords)
    (arg2 : Memref sig .tc .vmem S1x2048 .i32) (harg2 : arg2.IsWhole) (arg3 : Memref sig .tc .vmem S2048x128 .f32) (harg3 : arg3.IsWhole)
    (arg4 : Memref sig .tc .vmem S1x128 .f32) (harg4 : arg4.IsWhole) (arg5 : Memref sig .tc .vmem S2000x128 .f32) (harg5 : arg5.IsWhole)
    (arg6 : Memref sig .tc .vmem S2000x128 .f32) (harg6 : arg6.IsWhole)
    (hc0 : ¬resets2 i) (hc1 : ¬stores2 i)
    (x0 : Vec F S1x2048 .i32) (x1 : Vec F S2048x128 .f32) (x2 : Vec F S1x128 .f32) (xi3 : Vec F S2000x128 .f32) (xs : Vec F S2000x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k2_pay2 i x0 x1 xs)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [View.read_writes_eq_canon _ _ _ (fun y => ⟨_, List.mem_cons_self, View.mem_set_unit_zero hz2 inb_S2000x128_S2000x128_0_0 y⟩)]
  sl_unfold_words
  rw [View.canon_cons_unit_zero (S := S2000x128) hz2]
  simp only [View.readAt_eq_ld, View.ld_unit_zero (S := S2000x128) hz2, View.ld_unit_zero (S := S1x2048) hz2, View.ld_unit_zero (S := S2048x128) hz2]

set_option maxHeartbeats 1000000 in
/-- The body at a point of the last edge block (which is not edge block 0): this point's one-hot product is added to the accumulator,
    and the output block is stored whole from the accumulator and the bias, whatever its buffer held. -/
theorem run_last2 (c : Dev nD) (E : Set ℕ) (i : grid2.Coords)
    (arg2 : Memref sig .tc .vmem S1x2048 .i32) (harg2 : arg2.IsWhole) (arg3 : Memref sig .tc .vmem S2048x128 .f32) (harg3 : arg3.IsWhole)
    (arg4 : Memref sig .tc .vmem S1x128 .f32) (harg4 : arg4.IsWhole) (arg5 : Memref sig .tc .vmem S2000x128 .f32) (harg5 : arg5.IsWhole)
    (arg6 : Memref sig .tc .vmem S2000x128 .f32) (harg6 : arg6.IsWhole)
    (hc0 : ¬resets2 i) (hc1 : stores2 i)
    (x0 : Vec F S1x2048 .i32) (x1 : Vec F S2048x128 .f32) (x2 : Vec F S1x128 .f32) (xs : Vec F S2000x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k2_pay3 (k2_pay2 i x0 x1 xs) x2) ∗ owns (c : Thread nD τ) arg6 fullShare (k2_pay2 i x0 x1 xs)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_cons_self, View.mem_set_unit_zero hz2 inb_S2000x128_S2000x128_0_0 y⟩)]
    sl_unfold_words
    rw [View.canon_cons_unit_zero (S := S2000x128) hz2]
    simp only [View.readAt_eq_ld, View.readCov_unit_zero (S := S2000x128) _ hz2, View.ld_unit_zero (S := S2000x128) hz2, View.ld_unit_zero (S := S1x2048) hz2, View.ld_unit_zero (S := S2048x128) hz2, View.ld_unit_zero (S := S1x128) hz2]
  iexists _; isplitr
  swap; · iexact HS
  ipureintro
  sl_unfold_words
  rw [View.read_writes_eq_canon _ _ _ (fun y => ⟨_, List.mem_cons_self, View.mem_set_unit_zero hz2 inb_S2000x128_S2000x128_0_0 y⟩)]
  rw [View.canon_cons_unit_zero (S := S2000x128) hz2]
  simp only [View.readAt_eq_ld, View.ld_unit_zero (S := S2000x128) hz2, View.ld_unit_zero (S := S1x2048) hz2, View.ld_unit_zero (S := S2048x128) hz2]

/-! ## What the windows hold when the body is called -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]

/-- Each input window's current buffer holds its block at every point, fetched there or not (unfetched, its block index has not
    moved: the bias is fetched at the first point only). -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-! ## The accumulator and the invariant, position by position -/

/-- At a position of edge block 0 the accumulator restarts from zero. -/
theorem acc_reset2 (c : Dev nD) (t : Fin cfg2.N) (h0 : t.val % 831 = 0) :
    acc2 V c t.val t.isLt = k2_pay2 (grid2.coords t) (iblk2 V c 0 t) (iblk2 V c 1 t) (k2_pay1 (F := F)) := by
  obtain ⟨n, hn⟩ := t
  cases n with
  | zero => rfl
  | succ n => exact congrArg (k2_pay2 (grid2.coords ⟨n + 1, hn⟩) (iblk2 V c 0 ⟨n + 1, hn⟩) (iblk2 V c 1 ⟨n + 1, hn⟩)) (if_pos h0)

/-- At any other position it continues from what the position before left. -/
theorem acc_step2 (c : Dev nD) (t : Fin cfg2.N) (h0 : ¬t.val % 831 = 0) :
    acc2 V c t.val t.isLt = k2_pay2 (grid2.coords t) (iblk2 V c 0 t) (iblk2 V c 1 t)
      (acc2 V c (t.val - 1) (Nat.lt_of_le_of_lt (Nat.sub_le _ _) t.isLt)) := by
  obtain ⟨n, hn⟩ := t
  cases n with
  | zero => exact absurd (Nat.zero_mod _) h0
  | succ n => exact congrArg (k2_pay2 (grid2.coords ⟨n + 1, hn⟩) (iblk2 V c 0 ⟨n + 1, hn⟩) (iblk2 V c 1 ⟨n + 1, hn⟩)) (if_neg h0)

theorem Phi_zero2 (c : Dev nD) (n : ℕ) (h : n ≤ cfg2.N) (hz : n = 0) : Phi2 V c n h = Pipeline.ΦA spec2 c := by
  subst hz; rfl

/-- After position `n`: the accumulator at that position's contents. -/
theorem Phi_succ2 (c : Dev nD) (n : ℕ) (hn : n < cfg2.N) :
    Phi2 V c (n + 1) hn = iprop(owns (c : Thread nD τ) (Memref.whole cc2_scratch0 : Memref sig .tc .vmem S2000x128 .f32) fullShare (acc2 V c n hn)
      ∗ Pipeline.scopedRestBut (Ix := Unit) (Name := ℕ) (U := UR sig nD τ) (Lvl := ℕ) (Val := Elt F) spec2 c [cc2_scratch0] ∗ (∃ r, prngReg c r)) := rfl

/-- Before a position that is not the first: the accumulator at what the position before left. -/
theorem Phi_pos2 (c : Dev nD) (n : ℕ) (h : n ≤ cfg2.N) (hz : n ≠ 0) :
    Phi2 V c n h = iprop(owns (c : Thread nD τ) (Memref.whole cc2_scratch0 : Memref sig .tc .vmem S2000x128 .f32) fullShare (acc2 V c (n - 1) (by omega))
      ∗ Pipeline.scopedRestBut (Ix := Unit) (Name := ℕ) (U := UR sig nD τ) (Lvl := ℕ) (Val := Elt F) spec2 c [cc2_scratch0] ∗ (∃ r, prngReg c r)) := by
  cases n with
  | zero => exact absurd rfl hz
  | succ n => rfl

/-- The invariant at a point's start, restated at the point's position. -/
theorem Phi_castSucc2 (c : Dev nD) (t : Fin cfg2.N) : (dat2 V c).Φ t.castSucc = Phi2 V c t.val (Nat.le_of_lt t.isLt) := by
  first | rfl | (dsimp only [dat2]; simp only [Fin.coe_castSucc])

/-- What the launch hands the region, with the accumulator's buffer split out of the scoped rest. -/
theorem PhiA_eq2 (c : Dev nD) :
    (Pipeline.ΦA spec2 c : sProp 𝕄)
      = iprop(iprop(iprop(∃ d, owns (c : Thread nD τ) (Memref.whole cc2_scratch0 : Memref sig .tc .vmem S2000x128 .f32) fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [owns_whole]; try rfl

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the input windows hold their blocks; the position's edge block says which of the three cases the point is in;
    the invariant hands the body the accumulator at what the position before left (at anything before the first point, where the body
    zeroes it), keeps the other scoped buffers and the generator register, and takes the accumulator back at this position's contents;
    the output block's buffer comes back as found except at the last edge block, where it holds the accumulator plus the bias. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Phi2 V c (t.val + 1) t.isLt from rfl, Phi_succ2]
  rw [show (dat2 V c).leavesExact 0 t = owns (c : Thread nD τ) (st2_0 t) fullShare ((dat2 V c).after 0 t) from rfl,
    show (dat2 V c).leavesExact 1 t = owns (c : Thread nD τ) (st2_1 t) fullShare ((dat2 V c).after 1 t) from rfl,
    show (dat2 V c).leavesExact 2 t = owns (c : Thread nD τ) (st2_2 t) fullShare ((dat2 V c).after 2 t) from rfl,
    after2_0, after2_1, after2_2]
  by_cases h0 : t.val % 831 = 0
  · have h1 : ¬t.val % 831 = 830 := by omega
    rw [Dat.leavesExact_idle (dat2 V c) 3 t (idleAt2 t (fun h => h1 ((hstores2 t).mp h))) (noFlush2 t h1)]
    rw [acc_reset2 V c t h0]
    by_cases hz : t.val = 0
    · rw [Phi_castSucc2 V c t, Phi_zero2 V c _ _ hz, PhiA_eq2]
      iintro ⟨⟨⟨HS, HR⟩, Hg⟩, Ho, ⟨%d0, H0⟩, ⟨%d1, H1⟩, ⟨%d2, H2⟩, ⟨%d3, H3⟩⟩
      iapply (run_reset2 c Set.univ (grid2.coords t) _ _ _ _ _ _ _ _ _ _ ((hresets2 t).mpr h0) (fun h => h1 ((hstores2 t).mp h))
        (iblk2 V c 0 t) (iblk2 V c 1 t) (iblk2 V c 2 t) ((dat2 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [Phi_castSucc2 V c t, Phi_pos2 V c _ _ hz]
      iintro ⟨⟨HS, HR, Hg⟩, Ho, ⟨%d0, H0⟩, ⟨%d1, H1⟩, ⟨%d2, H2⟩, ⟨%d3, H3⟩⟩
      iapply (run_reset2 c Set.univ (grid2.coords t) _ _ _ _ _ _ _ _ _ _ ((hresets2 t).mpr h0) (fun h => h1 ((hstores2 t).mp h))
        (iblk2 V c 0 t) (iblk2 V c 1 t) (iblk2 V c 2 t) ((dat2 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := by omega
    rw [Phi_castSucc2 V c t, Phi_pos2 V c _ _ hz]
    rw [acc_step2 V c t h0]
    by_cases h1 : t.val % 831 = 830
    · rw [show (dat2 V c).leavesExact 3 t = owns (c : Thread nD τ) (st2_3 t) fullShare ((dat2 V c).after 3 t) from by
        unfold Dat.leavesExact; rw [liveAt2 t ((hstores2 t).mpr h1)], after2_3]
      rw [acc_step2 V c t h0]
      iintro ⟨⟨HS, HR, Hg⟩, Ho, ⟨%d0, H0⟩, ⟨%d1, H1⟩, ⟨%d2, H2⟩, ⟨%d3, H3⟩⟩
      iapply (run_last2 c Set.univ (grid2.coords t) _ _ _ _ _ _ _ _ _ _ (fun h => h0 ((hresets2 t).mp h)) ((hstores2 t).mpr h1)
        (iblk2 V c 0 t) (iblk2 V c 1 t) (iblk2 V c 2 t) (acc2 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [Dat.leavesExact_idle (dat2 V c) 3 t (idleAt2 t (fun h => h1 ((hstores2 t).mp h))) (noFlush2 t h1)]
      iintro ⟨⟨HS, HR, Hg⟩, Ho, ⟨%d0, H0⟩, ⟨%d1, H1⟩, ⟨%d2, H2⟩, ⟨%d3, H3⟩⟩
      iapply (run_mid2 c Set.univ (grid2.coords t) _ _ _ _ _ _ _ _ _ _ (fun h => h0 ((hresets2 t).mp h)) (fun h => h1 ((hstores2 t).mp h))
        (iblk2 V c 0 t) (iblk2 V c 1 t) (iblk2 V c 2 t) ((dat2 V c).before 3 t d3) (acc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem phi_in2 (c : Dev nD) : (Pipeline.ΦA spec2 c : sProp 𝕄) ⊢ (dat2 V c).Φ 0 := by
  rw [show (dat2 V c).Φ 0 = Phi2 V c 0 (Nat.zero_le _) from rfl, Phi_zero2 V c 0 _ rfl]

/-- After the last point the invariant gives it back: the accumulator's named contents are forgotten. -/
theorem phi_out2 (c : Dev nD) : (dat2 V c).Φ (Fin.last cfg2.N) ⊢ (Pipeline.ΦA spec2 c : sProp 𝕄) := by
  rw [show (dat2 V c).Φ (Fin.last cfg2.N) = Phi2 V c cfg2.N (Nat.le_refl _) from rfl,
    Phi_pos2 V c cfg2.N (Nat.le_refl _) (by have : cfg2.N = 41550 := N_2; omega), PhiA_eq2]
  iintro ⟨HS, HR, Hg⟩
  isplitl [HS HR]
  · isplitl [HS]; · iexists _; iexact HS
    iexact HR
  iexact Hg

end Cert.KernelIdeal.Hand

end
-- ==== Proof.KI.Lin3.lean ====
import proofs.«158984_j43568148250937_1_alg».proof.Proof.Gen.KernelIdeal.Launch
import proofs.«158984_j43568148250937_1_alg».proof.Proof.Gen.KernelIdeal.Skeleton
import proofs.«158984_j43568148250937_1_alg».proof.Proof.KI.Sched
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 3: the second dense layer, one block of 2000 rows per grid point -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The proof data of region 3 on core `c`: the arrays as the region finds them; after the body each input's buffer at its block,
    the output's at the product of the two input blocks; the invariant the scoped rest and the generator register, untouched. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay1 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_2 (c : Dev nD) (t : Fin cfg3.N) : (dat3 V c).after 2 t = k3_pay1 (iblk3 V c 0 t) (iblk3 V c 1 t) := by
  dsimp only [dat3]

/-! ## The input blocks stay in their buffers -/

/-- Both offsets of a whole-block access are zero. -/
theorem zero_off3 : (![0, 0] : Fin 2 → Nat) = fun _ => 0 := funext fun a => by fin_cases a <;> rfl

/-- The rows' staging buffer holds its block at every point (it is fetched at each). -/
theorem before3_0 (c : Dev nD) (t : Fin cfg3.N) (d) : (dat3 V c).before 0 t d = iblk3 V c 0 t :=
  ((dat3 V c).before_in_eq_fetched 0 rfl (fun _ => rfl) (fun _ _ _ => rfl)
      (fun t => by show (cfg3.win 0).cut (cfg3.grid.coords t) (iblk3 V c 0 t) = _; unfold Dat.blockOf iblk3; rw [A_eq3]; try rfl) t d).trans
    (by unfold Dat.fetched Dat.blockOf iblk3; rw [A_eq3]; try rfl)

/-- The weight's staging buffer holds the whole weight at every point: fetched at the first, and its index never moves. -/
theorem before3_1 (c : Dev nD) (t : Fin cfg3.N) (d) : (dat3 V c).before 1 t d = iblk3 V c 1 t :=
  ((dat3 V c).before_in_eq_fetched 1 rfl (fun _ => rfl) (fun _ _ _ => rfl)
      (fun t => by show (cfg3.win 1).cut (cfg3.grid.coords t) (iblk3 V c 1 t) = _; unfold Dat.blockOf iblk3; rw [A_eq3]; try rfl) t d).trans
    (by unfold Dat.fetched Dat.blockOf iblk3; rw [A_eq3]; try rfl)

/-! ## The body's triple -/

/-- The one whole-block store covers the output's buffer. -/
theorem cover3_2 (p0 : Vec F S2000x64 .f32) (y : S2000x64.Idx) :
    ∃ pc ∈ ([⟨Rect.unit (s := S2000x64) ![0, 0] S2000x64.size inb_S2000x64_S2000x64_0_0, p0⟩] : List (View.Piece (Elt F) S2000x64 .f32)), y ∈ pc.1.set :=
  ⟨_, List.mem_singleton_self _, View.mem_set_unit_zero zero_off3 inb_S2000x64_S2000x64_0_0 y⟩

set_option maxHeartbeats 1000000 in
/-- The dense layer's body on whole staging memrefs, the inputs' at contents `x0`, `x1` and the output's at anything, runs to
    the continuation holding the inputs' as they were and the output's at the product payload of the two. -/
theorem sound_kernel3 (c : Dev nD) (E : Set ℕ) (i : grid3.Coords)
    (arg1 : Memref sig .tc .vmem S2000x128 .f32) (harg1 : arg1.IsWhole) (arg2 : Memref sig .tc .vmem S128x64 .f32) (harg2 : arg2.IsWhole)
    (arg3 : Memref sig .tc .vmem S2000x64 .f32) (harg3 : arg3.IsWhole)
    (x0 : Vec F S2000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k3_pay1 x0 x1)) -∗ K ⟨⟩))
      ⊢ wp frame (wpE (defs₀ (F := F)) Variants.none c none) E (cc3__linear_kernel i arg1 harg1 arg2 harg2 arg3 harg3) K := by
  simp only [cc3__linear_kernel_eq_skeleton]; unfold cc3__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover3_2 _), View.canon_unit_zero zero_off3]
  simp only [View.readAt_eq_ld, View.ld_unit_zero (S := S2000x128) zero_off3, View.ld_unit_zero (S := S128x64) zero_off3]

/-! ## The body obligation, at a generic point -/

/-- What the body leaves in the inputs' buffers: their blocks, untouched. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]

/-- What the body is called with at point `t`: the invariant, what the core owes, the two inputs' buffers at their blocks
    and the output's buffer at whatever it held, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns: the inputs' as they were, the output's at the product of the two blocks. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's two ends -/

/-- Entering: the invariant before the first point is the region's own. -/
theorem phi_in3 (c : Dev nD) : (Pipeline.ΦA spec3 c : sProp 𝕄) ⊢ (dat3 V c).Φ 0 :=
  BI.Entails.refl _

/-- Leaving: so is the invariant after the last point. -/
theorem phi_out3 (c : Dev nD) : (dat3 V c).Φ (Fin.last cfg3.N) ⊢ (Pipeline.ΦA spec3 c : sProp 𝕄) :=
  BI.Entails.refl _

end Cert.KernelIdeal.Hand

end
-- ==== Proof.KI.Gat4.lean ====
import proofs.«158984_j43568148250937_1_alg».proof.Proof.Gen.KernelIdeal.Launch
import proofs.«158984_j43568148250937_1_alg».proof.Proof.Gen.KernelIdeal.Skeleton
import proofs.«158984_j43568148250937_1_alg».proof.Proof.KI.Sched
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 4: the second gather. Grid (831 edge blocks, 50 node blocks), row-major: position n is edge block n / 50, node block n % 50 -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The accumulator after the body at grid position `n`: zeroed at node block 0, then this point's one-hot product
    (the edge block's indices against the node block's numbers, times the node block of the table) added. -/
def acc4 (c : Dev nD) : (n : ℕ) → n < cfg4.N → Vec F S2048x64 .f32
  | 0, h => k4_pay2 (grid4.coords ⟨0, h⟩) (iblk4 V c 0 ⟨0, h⟩) (iblk4 V c 2 ⟨0, h⟩) (k4_pay1 (F := F))
  | n + 1, h => k4_pay2 (grid4.coords ⟨n + 1, h⟩) (iblk4 V c 0 ⟨n + 1, h⟩) (iblk4 V c 2 ⟨n + 1, h⟩)
      (if (n + 1) % 50 = 0 then k4_pay1 (F := F) else acc4 c n (Nat.lt_of_succ_lt h))

/-- The region invariant before position `n`: before the first point the scoped rest and the generator register; afterwards the
    accumulator at what the point before left, the rest of the scoped buffers at anything, the generator register at some state. -/
def Phi4 (c : Dev nD) : (n : ℕ) → n ≤ cfg4.N → sProp 𝕄
  | 0, _ => Pipeline.ΦA spec4 c
  | n + 1, hn => iprop(owns (c : Thread nD τ) (Memref.whole cc4_scratch0 : Memref sig .tc .vmem S2048x64 .f32) fullShare (acc4 V c n hn)
      ∗ Pipeline.scopedRestBut (Ix := Unit) (Name := ℕ) (U := UR sig nD τ) (Lvl := ℕ) (Val := Elt F) spec4 c [cc4_scratch0] ∗ (∃ r, prngReg c r))

/-- The proof data of region 4 on core `c`. The output block is stored only at node block 49, from the accumulator and the edge weights. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (acc4 V c t.val t.isLt) (iblk4 V c 1 t)
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_3 (c : Dev nD) (t : Fin cfg4.N) : (dat4 V c).after 3 t = k4_pay3 (acc4 V c t.val t.isLt) (iblk4 V c 1 t) := by
  dsimp only [dat4]

/-- The offsets of a whole-buffer access, however spelt, are zero. -/
theorem rect4_zero : (![0, 0] : Fin 2 → Nat) = fun _ => 0 := funext fun a => by fin_cases a <;> rfl

/-! ## The body's two conditions, over the grid coordinates -/

/-- The first conditional's test (the accumulator is zeroed): the node block is block 0. -/
abbrev cond4_0 (i : grid4.Coords) : Prop := (Scalar.cmpi .ne (Scalar.extui (Scalar.cmpi .eq (BitVec.ofNat 32 (i 1).val) 0#32)) 0#32) = 1#1
/-- The second conditional's test (the output block is stored): the node block is block 49. -/
abbrev cond4_1 (i : grid4.Coords) : Prop := k4_cond2 i = 1#1

/-! ## The body's triple, per case of its two conditions

Every access is of a whole buffer, so a load reads the contents and a store leaves its payload. -/

set_option maxHeartbeats 1000000 in
/-- A point of node block 0: the accumulator, at anything, is zeroed and then holds this point's product alone;
    the output buffer is not touched. -/
theorem sound_kernel4_reset (c : Dev nD) (E : Set ℕ) (i : grid4.Coords)
    (arg2 : Memref sig .tc .vmem S2048x1 .i32) (harg2 : arg2.IsWhole) (arg3 : Memref sig .tc .vmem S2048x1 .f32) (harg3 : arg3.IsWhole)
    (arg4 : Memref sig .tc .vmem S2000x64 .f32) (harg4 : arg4.IsWhole) (arg5 : Memref sig .tc .vmem S2048x64 .f32) (harg5 : arg5.IsWhole)
    (arg6 : Memref sig .tc .vmem S2048x64 .f32) (harg6 : arg6.IsWhole)
    (hc0 : cond4_0 i) (hc1 : ¬cond4_1 i)
    (x0 : Vec F S2048x1 .i32) (x2 : Vec F S2000x64 .f32) (K : PUnit → sProp 𝕄) :
    iprop(owns (c : Thread nD τ) arg2 fullShare x0 ∗ owns (c : Thread nD τ) arg4 fullShare x2 ∗ (∃ d, owns (c : Thread nD τ) arg6 fullShare d)
        ∗ (iprop(owns (c : Thread nD τ) arg2 fullShare x0 ∗ owns (c : Thread nD τ) arg4 fullShare x2
            ∗ owns (c : Thread nD τ) arg6 fullShare (k4_pay2 i x0 x2 (k4_pay1 (F := F)))) -∗ K ⟨⟩))
      ⊢ wp frame (wpE (defs₀ (F := F)) Variants.none c none) E (cc4_kernel i arg2 harg2 arg3 harg3 arg4 harg4 arg5 harg5 arg6 harg6) K := by
  simp only [cc4_kernel_eq_skeleton]; unfold cc4_kernel_skel
  unfold owns
  iintro ⟨⟨%f0, %hf0, H0⟩, ⟨%f2, %hf2, H2⟩, ⟨%d6, %f6, -, H6⟩, Hk⟩
  subst hf0; subst hf2
  sl_exec (disch := first | exact hc0 | exact hc1)
  sl_step
  iapply Hk
  isplitl [H0]
  · iexists f0; isplitr; · ipureintro; rfl
    iexact H0
  isplitl [H2]
  · iexists f2; isplitr; · ipureintro; rfl
    iexact H2
  iexists _; isplitr
  swap; · iexact H6
  ipureintro
  sl_unfold_words
  rw [View.read_writes_eq_canon _ _ _ (fun y => ⟨_, List.mem_cons.mpr (Or.inl rfl), View.mem_set_unit_zero rect4_zero inb_S2048x64_S2048x64_0_0 y⟩),
    View.canon_cons_unit_zero (S := S2048x64) rect4_zero, View.readCov_unit_zero (S := S2048x64) _ rect4_zero]
  simp only [View.readAt_eq_ld, View.ld_unit_zero (S := S2048x1) rect4_zero, View.ld_unit_zero (S := S2000x64) rect4_zero]

set_option maxHeartbeats 1000000 in
/-- A point of a node block that is neither the first nor the last: this point's product is added to the accumulator;
    the output buffer is not touched. -/
theorem sound_kernel4_mid (c : Dev nD) (E : Set ℕ) (i : grid4.Coords)
    (arg2 : Memref sig .tc .vmem S2048x1 .i32) (harg2 : arg2.IsWhole) (arg3 : Memref sig .tc .vmem S2048x1 .f32) (harg3 : arg3.IsWhole)
    (arg4 : Memref sig .tc .vmem S2000x64 .f32) (harg4 : arg4.IsWhole) (arg5 : Memref sig .tc .vmem S2048x64 .f32) (harg5 : arg5.IsWhole)
    (arg6 : Memref sig .tc .vmem S2048x64 .f32) (harg6 : arg6.IsWhole)
    (hc0 : ¬cond4_0 i) (hc1 : ¬cond4_1 i)
    (x0 : Vec F S2048x1 .i32) (x2 : Vec F S2000x64 .f32) (a : Vec F S2048x64 .f32) (K : PUnit → sProp 𝕄) :
    iprop(owns (c : Thread nD τ) arg2 fullShare x0 ∗ owns (c : Thread nD τ) arg4 fullShare x2 ∗ owns (c : Thread nD τ) arg6 fullShare a
        ∗ (iprop(owns (c : Thread nD τ) arg2 fullShare x0 ∗ owns (c : Thread nD τ) arg4 fullShare x2
            ∗ owns (c : Thread nD τ) arg6 fullShare (k4_pay2 i x0 x2 a)) -∗ K ⟨⟩))
      ⊢ wp frame (wpE (defs₀ (F := F)) Variants.none c none) E (cc4_kernel i arg2 harg2 arg3 harg3 arg4 harg4 arg5 harg5 arg6 harg6) K := by
  simp only [cc4_kernel_eq_skeleton]; unfold cc4_kernel_skel
  unfold owns
  iintro ⟨⟨%f0, %hf0, H0⟩, ⟨%f2, %hf2, H2⟩, ⟨%f6, %hf6, H6⟩, Hk⟩
  subst hf0; subst hf2; subst hf6
  sl_exec (disch := first | exact hc0 | exact hc1)
  sl_step
  iapply Hk
  isplitl [H0]
  · iexists f0; isplitr; · ipureintro; rfl
    iexact H0
  isplitl [H2]
  · iexists f2; isplitr; · ipureintro; rfl
    iexact H2
  iexists _; isplitr
  swap; · iexact H6
  ipureintro
  rw [View.read_writes_eq_canon _ _ _ (fun y => ⟨_, List.mem_cons.mpr (Or.inl rfl), View.mem_set_unit_zero rect4_zero inb_S2048x64_S2048x64_0_0 y⟩),
    View.canon_unit_zero (S := S2048x64) rect4_zero]
  simp only [View.readAt_eq_ld, View.ld_unit_zero (S := S2048x1) rect4_zero, View.ld_unit_zero (S := S2000x64) rect4_zero,
    View.ld_unit_zero (S := S2048x64) rect4_zero]

set_option maxHeartbeats 1000000 in
/-- A point of node block 49: this point's product is added to the accumulator, and the output buffer, at anything, is
    stored whole with the accumulator times the edge weights. -/
theorem sound_kernel4_last (c : Dev nD) (E : Set ℕ) (i : grid4.Coords)
    (arg2 : Memref sig .tc .vmem S2048x1 .i32) (harg2 : arg2.IsWhole) (arg3 : Memref sig .tc .vmem S2048x1 .f32) (harg3 : arg3.IsWhole)
    (arg4 : Memref sig .tc .vmem S2000x64 .f32) (harg4 : arg4.IsWhole) (arg5 : Memref sig .tc .vmem S2048x64 .f32) (harg5 : arg5.IsWhole)
    (arg6 : Memref sig .tc .vmem S2048x64 .f32) (harg6 : arg6.IsWhole)
    (hc0 : ¬cond4_0 i) (hc1 : cond4_1 i)
    (x0 : Vec F S2048x1 .i32) (x1 : Vec F S2048x1 .f32) (x2 : Vec F S2000x64 .f32) (a : Vec F S2048x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (k4_pay3 (k4_pay2 i x0 x2 a) x1)
            ∗ owns (c : Thread nD τ) arg6 fullShare (k4_pay2 i x0 x2 a)) -∗ K ⟨⟩))
      ⊢ wp frame (wpE (defs₀ (F := F)) Variants.none c none) E (cc4_kernel i arg2 harg2 arg3 harg3 arg4 harg4 arg5 harg5 arg6 harg6) K := by
  simp only [cc4_kernel_eq_skeleton]; unfold cc4_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  subst hf0; subst hf1; subst hf2; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_words
    rw [View.read_writes_eq_canon _ _ _ (fun y => ⟨_, List.mem_cons.mpr (Or.inl rfl), View.mem_set_unit_zero rect4_zero inb_S2048x64_S2048x64_0_0 y⟩),
      View.canon_unit_zero (S := S2048x64) rect4_zero, View.readCov_unit_zero (S := S2048x64) _ rect4_zero]
    simp only [View.readAt_eq_ld, View.ld_unit_zero (S := S2048x1) rect4_zero, View.ld_unit_zero (S := S2000x64) rect4_zero,
      View.ld_unit_zero (S := S2048x64) rect4_zero]
  iexists _; isplitr
  swap; · iexact H6
  ipureintro
  sl_unfold_words
  rw [View.read_writes_eq_canon _ _ _ (fun y => ⟨_, List.mem_cons.mpr (Or.inl rfl), View.mem_set_unit_zero rect4_zero inb_S2048x64_S2048x64_0_0 y⟩),
    View.canon_unit_zero (S := S2048x64) rect4_zero]
  simp only [View.readAt_eq_ld, View.ld_unit_zero (S := S2048x1) rect4_zero, View.ld_unit_zero (S := S2000x64) rect4_zero,
    View.ld_unit_zero (S := S2048x64) rect4_zero]

/-! ## Where the two conditions hold

Both read the node block alone, which at position `t` of the row-major grid is `t % 50`: each is decided on the 50 node blocks. -/

/-- Position `t` is in node block `t % 50`. -/
theorem pt4_node (t : Fin cfg4.N) : ((grid4.coords t) 1).val = t.val % 50 := by
  show t.val / grid4.stride 1 % grid4.bound 1 = t.val % 50
  rw [show grid4.stride 1 = 1 from by decide, show grid4.bound 1 = 50 from rfl, Nat.div_one]

theorem cond4_0_node : ∀ j : Fin 50, (Scalar.cmpi .ne (Scalar.extui (Scalar.cmpi .eq (BitVec.ofNat 32 j.val) 0#32)) 0#32) = 1#1 ↔ j.val = 0 := by decide
theorem cond4_1_node : ∀ j : Fin 50, (Scalar.cmpi .ne (Scalar.extui (Scalar.cmpi .eq (BitVec.ofNat 32 j.val) 49#32)) 0#32) = 1#1 ↔ j.val = 49 := by decide

/-- The accumulator is zeroed at the positions ≡ 0 (mod 50), -/
theorem hcond4_0 (t : Fin cfg4.N) : cond4_0 (grid4.coords t) ↔ t.val % 50 = 0 :=
  (cond4_0_node ((grid4.coords t) 1)).trans (by rw [pt4_node t])
/-- and the output block is stored at the positions ≡ 49 (mod 50). -/
theorem hcond4_1 (t : Fin cfg4.N) : cond4_1 (grid4.coords t) ↔ t.val % 50 = 49 :=
  (cond4_1_node ((grid4.coords t) 1)).trans (by rw [pt4_node t])

/-- Where the output block is not stored the program states window 3 idle, -/
theorem idle4_3_off (i : grid4.Coords) (h : ¬cond4_1 i) : cfg4.idle 3 i = true := by
  show (!(k4_cond2 i == 1#1)) = true
  simpa using h
/-- and where it is stored, live. -/
theorem idle4_3_on (i : grid4.Coords) (h : cond4_1 i) : cfg4.idle 3 i = false := by
  show (!(k4_cond2 i == 1#1)) = false
  simpa using h

/-! ## The accumulator, position by position -/

/-- At a position of node block 0 the accumulator holds that point's product alone. -/
theorem acc4_reset (c : Dev nD) (t : Fin cfg4.N) (h : t.val % 50 = 0) :
    acc4 V c t.val t.isLt = k4_pay2 (grid4.coords t) (iblk4 V c 0 t) (iblk4 V c 2 t) (k4_pay1 (F := F)) := by
  obtain ⟨n, hn⟩ := t
  cases n with
  | zero => rfl
  | succ n => exact congrArg (k4_pay2 (grid4.coords ⟨n + 1, hn⟩) (iblk4 V c 0 ⟨n + 1, hn⟩) (iblk4 V c 2 ⟨n + 1, hn⟩)) (if_pos h)

/-- At any other position it holds what the position before left plus this point's product. -/
theorem acc4_step (c : Dev nD) (t : Fin cfg4.N) (h : ¬t.val % 50 = 0) :
    acc4 V c t.val t.isLt = k4_pay2 (grid4.coords t) (iblk4 V c 0 t) (iblk4 V c 2 t)
      (acc4 V c (t.val - 1) (Nat.lt_of_le_of_lt (Nat.sub_le _ _) t.isLt)) := by
  obtain ⟨n, hn⟩ := t
  cases n with
  | zero => exact absurd (Nat.zero_mod _) h
  | succ n => exact congrArg (k4_pay2 (grid4.coords ⟨n + 1, hn⟩) (iblk4 V c 0 ⟨n + 1, hn⟩) (iblk4 V c 2 ⟨n + 1, hn⟩)) (if_neg h)

/-! ## The invariant, position by position -/

theorem Phi4_zero (c : Dev nD) (n : ℕ) (h : n ≤ cfg4.N) (hz : n = 0) : Phi4 V c n h = Pipeline.ΦA spec4 c := by
  subst hz; rfl

/-- After position `n`: the accumulator at that position's contents. -/
theorem Phi4_succ (c : Dev nD) (n : ℕ) (hn : n < cfg4.N) :
    Phi4 V c (n + 1) hn = iprop(owns (c : Thread nD τ) (Memref.whole cc4_scratch0 : Memref sig .tc .vmem S2048x64 .f32) fullShare (acc4 V c n hn)
      ∗ Pipeline.scopedRestBut (Ix := Unit) (Name := ℕ) (U := UR sig nD τ) (Lvl := ℕ) (Val := Elt F) spec4 c [cc4_scratch0] ∗ (∃ r, prngReg c r)) := rfl

/-- Before a position that is not the first: the accumulator at what the position before left. -/
theorem Phi4_pos (c : Dev nD) (n : ℕ) (h : n ≤ cfg4.N) (hz : n ≠ 0) :
    Phi4 V c n h = iprop(owns (c : Thread nD τ) (Memref.whole cc4_scratch0 : Memref sig .tc .vmem S2048x64 .f32) fullShare (acc4 V c (n - 1) (by omega))
      ∗ Pipeline.scopedRestBut (Ix := Unit) (Name := ℕ) (U := UR sig nD τ) (Lvl := ℕ) (Val := Elt F) spec4 c [cc4_scratch0] ∗ (∃ r, prngReg c r)) := by
  cases n with
  | zero => exact absurd rfl hz
  | succ n => rfl

/-- What the launch hands the region, with the accumulator's buffer split out of the scoped buffers and owned at some contents. -/
theorem Phi4_launch (c : Dev nD) :
    (Pipeline.ΦA spec4 c : sProp 𝕄)
      = iprop(iprop((∃ d, owns (c : Thread nD τ) (Memref.whole cc4_scratch0 : Memref sig .tc .vmem S2048x64 .f32) fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [owns_whole]; try rfl

/-- The invariant at a point's start, restated at the point's position. -/
theorem Phi4_castSucc (c : Dev nD) (t : Fin cfg4.N) :
    (dat4 V c).Φ t.castSucc = Phi4 V c t.val (Nat.le_of_lt t.isLt) := by
  dsimp only [dat4]; simp only [Fin.coe_castSucc]

/-! ## What the body finds in the inputs' buffers -/

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]

/-- The edge block's indices: fetched at node block 0 only, and the block index does not move within an edge block,
    so the buffer holds the block at every position. -/
theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)

/-- The edge block's weights: likewise. -/
theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)

/-- The node block of the table: fetched at every position. -/
theorem before4_2 (c : Dev nD) (t : Fin cfg4.N) (d) : (dat4 V c).before 2 t d = iblk4 V c 2 t :=
  ((dat4 V c).before_in_eq_fetched 2 rfl (fun _ => rfl) (fun _ _ _ => rfl)
      (fun t => by rw [after4_2]; unfold Dat.blockOf iblk4; rw [A_eq4]; try rfl) t d).trans
    (by unfold Dat.fetched Dat.blockOf iblk4; rw [A_eq4]; try rfl)

/-- An input's buffer is handed back at its block (no input window is ever idle). -/
theorem blk4_0_back (c : Dev nD) (t : Fin cfg4.N) :
    (dat4 V c).leavesExact 0 t = owns (c : Thread nD τ) (st4_0 t) fullShare (iblk4 V c 0 t) := by
  unfold Dat.leavesExact; rw [show cfg4.idle 0 (cfg4.grid.coords t) = false from rfl, after4_0]
theorem blk4_1_back (c : Dev nD) (t : Fin cfg4.N) :
    (dat4 V c).leavesExact 1 t = owns (c : Thread nD τ) (st4_1 t) fullShare (iblk4 V c 1 t) := by
  unfold Dat.leavesExact; rw [show cfg4.idle 1 (cfg4.grid.coords t) = false from rfl, after4_1]
theorem blk4_2_back (c : Dev nD) (t : Fin cfg4.N) :
    (dat4 V c).leavesExact 2 t = owns (c : Thread nD τ) (st4_2 t) fullShare (iblk4 V c 2 t) := by
  unfold Dat.leavesExact; rw [show cfg4.idle 2 (cfg4.grid.coords t) = false from rfl, after4_2]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4000000 in
/-- The body at any point. The inputs' buffers hold their blocks; the position's node block says which case the point is in.
    At node block 0 the accumulator is taken at anything (at the first position out of the scoped buffers the launch hands over)
    and left at this point's product; elsewhere it is taken at what the position before left and this point's product is added.
    The output buffer is handed back as found except at node block 49, where it is left at the accumulator times the weights. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = Phi4 V c (t.val + 1) t.isLt from rfl, Phi4_succ, Phi4_castSucc]
  rw [blk4_0_back, blk4_1_back, blk4_2_back]
  by_cases h0 : t.val % 50 = 0
  · have h1 : ¬t.val % 50 = 49 := by omega
    have hc0 : cond4_0 (grid4.coords t) := (hcond4_0 t).mpr h0
    have hc1 : ¬cond4_1 (grid4.coords t) := fun h => h1 ((hcond4_1 t).mp h)
    rw [Dat.leavesExact_idle (dat4 V c) 3 t (idle4_3_off _ hc1) (Bool.eq_false_iff.mpr (mt (flush4_3 t).mp h1))]
    rw [acc4_reset V c t h0]
    by_cases hz : t.val = 0
    · rw [Phi4_zero V c _ _ hz, Phi4_launch]
      iintro ⟨⟨⟨HS, HR⟩, Hg⟩, Ho, ⟨%d0, H0⟩, ⟨%d1, H1⟩, ⟨%d2, H2⟩, H3⟩
      iapply (sound_kernel4_reset c Set.univ (grid4.coords t) _ _ _ _ _ _ _ _ _ _ hc0 hc1 (iblk4 V c 0 t) (iblk4 V c 2 t) _)
      isplitl [H0]; · iexact H0
      isplitl [H2]; · iexact H2
      isplitl [HS]; · iexact HS
      iintro ⟨H0, H2, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [Phi4_pos V c _ _ hz]
      iintro ⟨⟨HS, HR, Hg⟩, Ho, ⟨%d0, H0⟩, ⟨%d1, H1⟩, ⟨%d2, H2⟩, H3⟩
      iapply (sound_kernel4_reset c Set.univ (grid4.coords t) _ _ _ _ _ _ _ _ _ _ hc0 hc1 (iblk4 V c 0 t) (iblk4 V c 2 t) _)
      isplitl [H0]; · iexact H0
      isplitl [H2]; · iexact H2
      isplitl [HS]; · iexists _; iexact HS
      iintro ⟨H0, H2, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
  · have hz : t.val ≠ 0 := fun e => h0 (by rw [e])
    have hc0 : ¬cond4_0 (grid4.coords t) := fun h => h0 ((hcond4_0 t).mp h)
    rw [acc4_step V c t h0, Phi4_pos V c _ _ hz]
    by_cases h1 : t.val % 50 = 49
    · have hc1 : cond4_1 (grid4.coords t) := (hcond4_1 t).mpr h1
      rw [show (dat4 V c).leavesExact 3 t = owns (c : Thread nD τ) (st4_3 t) fullShare ((dat4 V c).after 3 t) from by
        unfold Dat.leavesExact; rw [idle4_3_on _ hc1], after4_3, acc4_step V c t h0]
      iintro ⟨⟨HS, HR, Hg⟩, Ho, ⟨%d0, H0⟩, ⟨%d1, H1⟩, ⟨%d2, H2⟩, ⟨%d3, H3⟩⟩
      iapply (sound_kernel4_last c Set.univ (grid4.coords t) _ _ _ _ _ _ _ _ _ _ hc0 hc1 (iblk4 V c 0 t) (iblk4 V c 1 t) (iblk4 V c 2 t)
        (acc4 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · have hc1 : ¬cond4_1 (grid4.coords t) := fun h => h1 ((hcond4_1 t).mp h)
      rw [Dat.leavesExact_idle (dat4 V c) 3 t (idle4_3_off _ hc1) (Bool.eq_false_iff.mpr (mt (flush4_3 t).mp h1))]
      iintro ⟨⟨HS, HR, Hg⟩, Ho, ⟨%d0, H0⟩, ⟨%d1, H1⟩, ⟨%d2, H2⟩, H3⟩
      iapply (sound_kernel4_mid c Set.univ (grid4.coords t) _ _ _ _ _ _ _ _ _ _ hc0 hc1 (iblk4 V c 0 t) (iblk4 V c 2 t)
        (acc4 V c (t.val - 1) (Nat.lt_of_le_of_lt (Nat.sub_le _ _) t.isLt)) _)
      isplitl [H0]; · iexact H0
      isplitl [H2]; · iexact H2
      isplitl [HS]; · iexact HS
      iintro ⟨H0, H2, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first position. -/
theorem phi_in4 (c : Dev nD) : (Pipeline.ΦA spec4 c : sProp 𝕄) ⊢ (dat4 V c).Φ 0 := by
  rw [show (dat4 V c).Φ 0 = Phi4 V c 0 (Nat.zero_le _) from rfl, Phi4_zero V c 0 _ rfl]
  try exact Idealize.SL.BI.Entails.refl _

/-- After the last position the invariant gives it back: the accumulator's contents are forgotten, and its buffer joins the
    other scoped buffers again. -/
theorem phi_out4 (c : Dev nD) : (dat4 V c).Φ (Fin.last cfg4.N) ⊢ (Pipeline.ΦA spec4 c : sProp 𝕄) := by
  rw [show (dat4 V c).Φ (Fin.last cfg4.N) = Phi4 V c (Fin.last cfg4.N).val (Nat.le_of_lt_succ (Fin.last cfg4.N).isLt) from rfl,
    Phi4_pos V c _ _ (by rw [Fin.val_last]; have : cfg4.N = 41550 := N_4; omega), Phi4_launch]
  iintro ⟨HS, HR, Hg⟩
  isplitl [HS HR]
  · isplitl [HS]; · iexists _; iexact HS
    iexact HR
  iexact Hg

end Cert.KernelIdeal.Hand

end
-- ==== Proof.KI.Sca5.lean ====
import proofs.«158984_j43568148250937_1_alg».proof.Proof.Gen.KernelIdeal.Launch
import proofs.«158984_j43568148250937_1_alg».proof.Proof.Gen.KernelIdeal.Skeleton
import proofs.«158984_j43568148250937_1_alg».proof.Proof.KI.Sched
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 5: the second scatter. Grid (50 node blocks, 831 edge blocks), row-major: position n is node block n / 831, edge block n % 831 -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The accumulator after the body at grid position `n`: zeroed at edge block 0, then this point's one-hot product
    (the node block's numbers against the edge block's indices, times the edge block of the values) added. -/
def acc5 (c : Dev nD) : (n : ℕ) → n < cfg5.N → Vec F S2000x64 .f32
  | 0, h => k5_pay2 (grid5.coords ⟨0, h⟩) (iblk5 V c 0 ⟨0, h⟩) (iblk5 V c 1 ⟨0, h⟩) (k5_pay1 (F := F))
  | n + 1, h => k5_pay2 (grid5.coords ⟨n + 1, h⟩) (iblk5 V c 0 ⟨n + 1, h⟩) (iblk5 V c 1 ⟨n + 1, h⟩)
      (if (n + 1) % 831 = 0 then k5_pay1 (F := F) else acc5 c n (Nat.lt_of_succ_lt h))

/-- The region invariant before position `n`: before the first point the scoped rest and the generator register; afterwards the
    accumulator at what the point before left, the rest of the scoped buffers at anything, the generator register at some state. -/
def Phi5 (c : Dev nD) : (n : ℕ) → n ≤ cfg5.N → sProp 𝕄
  | 0, _ => Pipeline.ΦA spec5 c
  | n + 1, hn => iprop(owns (c : Thread nD τ) (Memref.whole cc5_scratch0 : Memref sig .tc .vmem S2000x64 .f32) fullShare (acc5 V c n hn)
      ∗ Pipeline.scopedRestBut (Ix := Unit) (Name := ℕ) (U := UR sig nD τ) (Lvl := ℕ) (Val := Elt F) spec5 c [cc5_scratch0] ∗ (∃ r, prngReg c r))

/-- The proof data of region 5 on core `c`. The output block is stored only at edge block 830, from the accumulator and the bias. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k5_pay3 (acc5 V c t.val t.isLt) (iblk5 V c 2 t)
  Φ t := Phi5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_3 (c : Dev nD) (t : Fin cfg5.N) : (dat5 V c).after 3 t = k5_pay3 (acc5 V c t.val t.isLt) (iblk5 V c 2 t) := by
  dsimp only [dat5]

/-! ## Where the body's two conditions hold, and where the output window is idle -/

/-- The zero offsets of a whole-buffer access. -/
theorem hz5 : (![0, 0] : Fin 2 → ℕ) = fun _ => 0 := funext fun a => by fin_cases a <;> rfl

/-- The body zeroes the accumulator first where this holds: the edge block is 0. -/
abbrev resets5 (i : grid5.Coords) : Prop :=
  (Scalar.cmpi .ne (Scalar.extui (Scalar.cmpi .eq (BitVec.ofNat 32 (i 1).val) 0#32)) 0#32) = 1#1
/-- A fact about the one coordinate it reads, decided over the 831 edge blocks. -/
theorem resets_edge5 : ∀ e : Fin 831,
    ((Scalar.cmpi .ne (Scalar.extui (Scalar.cmpi .eq (BitVec.ofNat 32 e.val) 0#32)) 0#32) = 1#1) ↔ e.val = 0 := by decide +kernel
theorem hresets5 (t : Fin cfg5.N) : resets5 (grid5.coords t) ↔ t.val % 831 = 0 :=
  (resets_edge5 (grid5.coords t 1)).trans (by rw [coord5_1])

/-- The body stores the output block where this holds: the edge block is 830, the last. -/
abbrev stores5 (i : grid5.Coords) : Prop := k5_cond2 i = 1#1
theorem stores_edge5 : ∀ e : Fin 831,
    ((Scalar.cmpi .ne (Scalar.extui (Scalar.cmpi .eq (BitVec.ofNat 32 e.val) 830#32)) 0#32) = 1#1) ↔ e.val = 830 := by decide +kernel
theorem hstores5 (t : Fin cfg5.N) : stores5 (grid5.coords t) ↔ t.val % 831 = 830 :=
  (stores_edge5 (grid5.coords t 1)).trans (by rw [coord5_1])

/-- Where the body does not store the output block the printed program calls its window idle, -/
theorem idleAt5 (t : Fin cfg5.N) (h : ¬stores5 (grid5.coords t)) : cfg5.idle 3 (grid5.coords t) = true := by
  show (!(k5_cond2 (grid5.coords t) == 1#1)) = true
  rw [beq_eq_false_iff_ne.mpr h]; rfl
/-- where it does, live; -/
theorem liveAt5 (t : Fin cfg5.N) (h : stores5 (grid5.coords t)) : cfg5.idle 3 (grid5.coords t) = false := by
  show (!(k5_cond2 (grid5.coords t) == 1#1)) = false
  rw [beq_iff_eq.mpr h]; rfl
/-- and the block is written back at the last edge block only. -/
theorem noFlush5 (t : Fin cfg5.N) (h : ¬t.val % 831 = 830) : (cfg5.win 3).flush t = false :=
  Bool.eq_false_iff.mpr fun hf => h ((flush5_3 t).mp hf)

set_option maxHeartbeats 1000000 in
/-- The body at a point of edge block 0 that is not of the last edge block: the accumulator, whatever it held, is zeroed and this point's
    one-hot product added to it; the output block's buffer is handed back as found. -/
theorem run_reset5 (c : Dev nD) (E : Set ℕ) (i : grid5.Coords)
    (arg2 : Memref sig .tc .vmem S1x2048 .i32) (harg2 : arg2.IsWhole) (arg3 : Memref sig .tc .vmem S2048x64 .f32) (harg3 : arg3.IsWhole)
    (arg4 : Memref sig .tc .vmem S1x64 .f32) (harg4 : arg4.IsWhole) (arg5 : Memref sig .tc .vmem S2000x64 .f32) (harg5 : arg5.IsWhole)
    (arg6 : Memref sig .tc .vmem S2000x64 .f32) (harg6 : arg6.IsWhole)
    (hc0 : resets5 i) (hc1 : ¬stores5 i)
    (x0 : Vec F S1x2048 .i32) (x1 : Vec F S2048x64 .f32) (x2 : Vec F S1x64 .f32) (xi3 : Vec F S2000x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k5_pay2 i x0 x1 (k5_pay1 (F := F)))) -∗ K ⟨⟩))
      ⊢ wp frame (wpE (defs₀ (F := F)) Variants.none c none) E (cc5_kernel i arg2 harg2 arg3 harg3 arg4 harg4 arg5 harg5 arg6 harg6) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [View.read_writes_eq_canon _ _ _ (fun y => ⟨_, List.mem_cons_self, View.mem_set_unit_zero hz5 inb_S2000x64_S2000x64_0_0 y⟩)]
  sl_unfold_words
  rw [View.canon_cons_unit_zero (S := S2000x64) hz5]
  simp only [View.readAt_eq_ld, View.readCov_unit_zero (S := S2000x64) _ hz5, View.ld_unit_zero (S := S1x2048) hz5, View.ld_unit_zero (S := S2048x64) hz5]

set_option maxHeartbeats 1000000 in
/-- The body at a point that is neither of edge block 0 nor of the last edge block: this point's one-hot product is added to the
    accumulator; the output block's buffer is handed back as found. -/
theorem run_mid5 (c : Dev nD) (E : Set ℕ) (i : grid5.Coords)
    (arg2 : Memref sig .tc .vmem S1x2048 .i32) (harg2 : arg2.IsWhole) (arg3 : Memref sig .tc .vmem S2048x64 .f32) (harg3 : arg3.IsWhole)
    (arg4 : Memref sig .tc .vmem S1x64 .f32) (harg4 : arg4.IsWhole) (arg5 : Memref sig .tc .vmem S2000x64 .f32) (harg5 : arg5.IsWhole)
    (arg6 : Memref sig .tc .vmem S2000x64 .f32) (harg6 : arg6.IsWhole)
    (hc0 : ¬resets5 i) (hc1 : ¬stores5 i)
    (x0 : Vec F S1x2048 .i32) (x1 : Vec F S2048x64 .f32) (x2 : Vec F S1x64 .f32) (xi3 : Vec F S2000x64 .f32) (xs : Vec F S2000x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k5_pay2 i x0 x1 xs)) -∗ K ⟨⟩))
      ⊢ wp frame (wpE (defs₀ (F := F)) Variants.none c none) E (cc5_kernel i arg2 harg2 arg3 harg3 arg4 harg4 arg5 harg5 arg6 harg6) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [View.read_writes_eq_canon _ _ _ (fun y => ⟨_, List.mem_cons_self, View.mem_set_unit_zero hz5 inb_S2000x64_S2000x64_0_0 y⟩)]
  sl_unfold_words
  rw [View.canon_cons_unit_zero (S := S2000x64) hz5]
  simp only [View.readAt_eq_ld, View.ld_unit_zero (S := S2000x64) hz5, View.ld_unit_zero (S := S1x2048) hz5, View.ld_unit_zero (S := S2048x64) hz5]

set_option maxHeartbeats 1000000 in
/-- The body at a point of the last edge block (which is not edge block 0): this point's one-hot product is added to the accumulator,
    and the output block is stored whole from the accumulator and the bias, whatever its buffer held. -/
theorem run_last5 (c : Dev nD) (E : Set ℕ) (i : grid5.Coords)
    (arg2 : Memref sig .tc .vmem S1x2048 .i32) (harg2 : arg2.IsWhole) (arg3 : Memref sig .tc .vmem S2048x64 .f32) (harg3 : arg3.IsWhole)
    (arg4 : Memref sig .tc .vmem S1x64 .f32) (harg4 : arg4.IsWhole) (arg5 : Memref sig .tc .vmem S2000x64 .f32) (harg5 : arg5.IsWhole)
    (arg6 : Memref sig .tc .vmem S2000x64 .f32) (harg6 : arg6.IsWhole)
    (hc0 : ¬resets5 i) (hc1 : stores5 i)
    (x0 : Vec F S1x2048 .i32) (x1 : Vec F S2048x64 .f32) (x2 : Vec F S1x64 .f32) (xs : Vec F S2000x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k5_pay3 (k5_pay2 i x0 x1 xs) x2) ∗ owns (c : Thread nD τ) arg6 fullShare (k5_pay2 i x0 x1 xs)) -∗ K ⟨⟩))
      ⊢ wp frame (wpE (defs₀ (F := F)) Variants.none c none) E (cc5_kernel i arg2 harg2 arg3 harg3 arg4 harg4 arg5 harg5 arg6 harg6) K := by
  simp only [cc5_kernel_eq_skeleton]; unfold cc5_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_cons_self, View.mem_set_unit_zero hz5 inb_S2000x64_S2000x64_0_0 y⟩)]
    sl_unfold_words
    rw [View.canon_cons_unit_zero (S := S2000x64) hz5]
    simp only [View.readAt_eq_ld, View.readCov_unit_zero (S := S2000x64) _ hz5, View.ld_unit_zero (S := S2000x64) hz5, View.ld_unit_zero (S := S1x2048) hz5, View.ld_unit_zero (S := S2048x64) hz5, View.ld_unit_zero (S := S1x64) hz5]
  iexists _; isplitr
  swap; · iexact HS
  ipureintro
  sl_unfold_words
  rw [View.read_writes_eq_canon _ _ _ (fun y => ⟨_, List.mem_cons_self, View.mem_set_unit_zero hz5 inb_S2000x64_S2000x64_0_0 y⟩)]
  rw [View.canon_cons_unit_zero (S := S2000x64) hz5]
  simp only [View.readAt_eq_ld, View.ld_unit_zero (S := S2000x64) hz5, View.ld_unit_zero (S := S1x2048) hz5, View.ld_unit_zero (S := S2048x64) hz5]

/-! ## What the windows hold when the body is called -/

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]

/-- Each input window's current buffer holds its block at every point, fetched there or not (unfetched, its block index has not
    moved: the bias is fetched at the first point only). -/
theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)

/-! ## The accumulator and the invariant, position by position -/

/-- At a position of edge block 0 the accumulator restarts from zero. -/
theorem acc_reset5 (c : Dev nD) (t : Fin cfg5.N) (h0 : t.val % 831 = 0) :
    acc5 V c t.val t.isLt = k5_pay2 (grid5.coords t) (iblk5 V c 0 t) (iblk5 V c 1 t) (k5_pay1 (F := F)) := by
  obtain ⟨n, hn⟩ := t
  cases n with
  | zero => rfl
  | succ n => exact congrArg (k5_pay2 (grid5.coords ⟨n + 1, hn⟩) (iblk5 V c 0 ⟨n + 1, hn⟩) (iblk5 V c 1 ⟨n + 1, hn⟩)) (if_pos h0)

/-- At any other position it continues from what the position before left. -/
theorem acc_step5 (c : Dev nD) (t : Fin cfg5.N) (h0 : ¬t.val % 831 = 0) :
    acc5 V c t.val t.isLt = k5_pay2 (grid5.coords t) (iblk5 V c 0 t) (iblk5 V c 1 t)
      (acc5 V c (t.val - 1) (Nat.lt_of_le_of_lt (Nat.sub_le _ _) t.isLt)) := by
  obtain ⟨n, hn⟩ := t
  cases n with
  | zero => exact absurd (Nat.zero_mod _) h0
  | succ n => exact congrArg (k5_pay2 (grid5.coords ⟨n + 1, hn⟩) (iblk5 V c 0 ⟨n + 1, hn⟩) (iblk5 V c 1 ⟨n + 1, hn⟩)) (if_neg h0)

theorem Phi_zero5 (c : Dev nD) (n : ℕ) (h : n ≤ cfg5.N) (hz : n = 0) : Phi5 V c n h = Pipeline.ΦA spec5 c := by
  subst hz; rfl

/-- After position `n`: the accumulator at that position's contents. -/
theorem Phi_succ5 (c : Dev nD) (n : ℕ) (hn : n < cfg5.N) :
    Phi5 V c (n + 1) hn = iprop(owns (c : Thread nD τ) (Memref.whole cc5_scratch0 : Memref sig .tc .vmem S2000x64 .f32) fullShare (acc5 V c n hn)
      ∗ Pipeline.scopedRestBut (Ix := Unit) (Name := ℕ) (U := UR sig nD τ) (Lvl := ℕ) (Val := Elt F) spec5 c [cc5_scratch0] ∗ (∃ r, prngReg c r)) := rfl

/-- Before a position that is not the first: the accumulator at what the position before left. -/
theorem Phi_pos5 (c : Dev nD) (n : ℕ) (h : n ≤ cfg5.N) (hz : n ≠ 0) :
    Phi5 V c n h = iprop(owns (c : Thread nD τ) (Memref.whole cc5_scratch0 : Memref sig .tc .vmem S2000x64 .f32) fullShare (acc5 V c (n - 1) (by omega))
      ∗ Pipeline.scopedRestBut (Ix := Unit) (Name := ℕ) (U := UR sig nD τ) (Lvl := ℕ) (Val := Elt F) spec5 c [cc5_scratch0] ∗ (∃ r, prngReg c r)) := by
  cases n with
  | zero => exact absurd rfl hz
  | succ n => rfl

/-- The invariant at a point's start, restated at the point's position. -/
theorem Phi_castSucc5 (c : Dev nD) (t : Fin cfg5.N) : (dat5 V c).Φ t.castSucc = Phi5 V c t.val (Nat.le_of_lt t.isLt) := by
  first | rfl | (dsimp only [dat5]; simp only [Fin.coe_castSucc])

/-- What the launch hands the region, with the accumulator's buffer split out of the scoped rest. -/
theorem PhiA_eq5 (c : Dev nD) :
    (Pipeline.ΦA spec5 c : sProp 𝕄)
      = iprop(iprop(iprop(∃ d, owns (c : Thread nD τ) (Memref.whole cc5_scratch0 : Memref sig .tc .vmem S2000x64 .f32) fullShare d)
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [owns_whole]; try rfl

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point: the input windows hold their blocks; the position's edge block says which of the three cases the point is in;
    the invariant hands the body the accumulator at what the position before left (at anything before the first point, where the body
    zeroes it), keeps the other scoped buffers and the generator register, and takes the accumulator back at this position's contents;
    the output block's buffer comes back as found except at the last edge block, where it holds the accumulator plus the bias. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = Phi5 V c (t.val + 1) t.isLt from rfl, Phi_succ5]
  rw [show (dat5 V c).leavesExact 0 t = owns (c : Thread nD τ) (st5_0 t) fullShare ((dat5 V c).after 0 t) from rfl,
    show (dat5 V c).leavesExact 1 t = owns (c : Thread nD τ) (st5_1 t) fullShare ((dat5 V c).after 1 t) from rfl,
    show (dat5 V c).leavesExact 2 t = owns (c : Thread nD τ) (st5_2 t) fullShare ((dat5 V c).after 2 t) from rfl,
    after5_0, after5_1, after5_2]
  by_cases h0 : t.val % 831 = 0
  · have h1 : ¬t.val % 831 = 830 := by omega
    rw [Dat.leavesExact_idle (dat5 V c) 3 t (idleAt5 t (fun h => h1 ((hstores5 t).mp h))) (noFlush5 t h1)]
    rw [acc_reset5 V c t h0]
    by_cases hz : t.val = 0
    · rw [Phi_castSucc5 V c t, Phi_zero5 V c _ _ hz, PhiA_eq5]
      iintro ⟨⟨⟨HS, HR⟩, Hg⟩, Ho, ⟨%d0, H0⟩, ⟨%d1, H1⟩, ⟨%d2, H2⟩, ⟨%d3, H3⟩⟩
      iapply (run_reset5 c Set.univ (grid5.coords t) _ _ _ _ _ _ _ _ _ _ ((hresets5 t).mpr h0) (fun h => h1 ((hstores5 t).mp h))
        (iblk5 V c 0 t) (iblk5 V c 1 t) (iblk5 V c 2 t) ((dat5 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [Phi_castSucc5 V c t, Phi_pos5 V c _ _ hz]
      iintro ⟨⟨HS, HR, Hg⟩, Ho, ⟨%d0, H0⟩, ⟨%d1, H1⟩, ⟨%d2, H2⟩, ⟨%d3, H3⟩⟩
      iapply (run_reset5 c Set.univ (grid5.coords t) _ _ _ _ _ _ _ _ _ _ ((hresets5 t).mpr h0) (fun h => h1 ((hstores5 t).mp h))
        (iblk5 V c 0 t) (iblk5 V c 1 t) (iblk5 V c 2 t) ((dat5 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := by omega
    rw [Phi_castSucc5 V c t, Phi_pos5 V c _ _ hz]
    rw [acc_step5 V c t h0]
    by_cases h1 : t.val % 831 = 830
    · rw [show (dat5 V c).leavesExact 3 t = owns (c : Thread nD τ) (st5_3 t) fullShare ((dat5 V c).after 3 t) from by
        unfold Dat.leavesExact; rw [liveAt5 t ((hstores5 t).mpr h1)], after5_3]
      rw [acc_step5 V c t h0]
      iintro ⟨⟨HS, HR, Hg⟩, Ho, ⟨%d0, H0⟩, ⟨%d1, H1⟩, ⟨%d2, H2⟩, ⟨%d3, H3⟩⟩
      iapply (run_last5 c Set.univ (grid5.coords t) _ _ _ _ _ _ _ _ _ _ (fun h => h0 ((hresets5 t).mp h)) ((hstores5 t).mpr h1)
        (iblk5 V c 0 t) (iblk5 V c 1 t) (iblk5 V c 2 t) (acc5 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [Dat.leavesExact_idle (dat5 V c) 3 t (idleAt5 t (fun h => h1 ((hstores5 t).mp h))) (noFlush5 t h1)]
      iintro ⟨⟨HS, HR, Hg⟩, Ho, ⟨%d0, H0⟩, ⟨%d1, H1⟩, ⟨%d2, H2⟩, ⟨%d3, H3⟩⟩
      iapply (run_mid5 c Set.univ (grid5.coords t) _ _ _ _ _ _ _ _ _ _ (fun h => h0 ((hresets5 t).mp h)) (fun h => h1 ((hstores5 t).mp h))
        (iblk5 V c 0 t) (iblk5 V c 1 t) (iblk5 V c 2 t) ((dat5 V c).before 3 t d3) (acc5 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem phi_in5 (c : Dev nD) : (Pipeline.ΦA spec5 c : sProp 𝕄) ⊢ (dat5 V c).Φ 0 := by
  rw [show (dat5 V c).Φ 0 = Phi5 V c 0 (Nat.zero_le _) from rfl, Phi_zero5 V c 0 _ rfl]

/-- After the last point the invariant gives it back: the accumulator's named contents are forgotten. -/
theorem phi_out5 (c : Dev nD) : (dat5 V c).Φ (Fin.last cfg5.N) ⊢ (Pipeline.ΦA spec5 c : sProp 𝕄) := by
  rw [show (dat5 V c).Φ (Fin.last cfg5.N) = Phi5 V c cfg5.N (Nat.le_refl _) from rfl,
    Phi_pos5 V c cfg5.N (Nat.le_refl _) (by have : cfg5.N = 41550 := N_5; omega), PhiA_eq5]
  iintro ⟨HS, HR, Hg⟩
  isplitl [HS HR]
  · isplitl [HS]; · iexists _; iexact HS
    iexact HR
  iexact Hg

end Cert.KernelIdeal.Hand

end
-- ==== Proof.KI.Run.lean ====
import proofs.«158984_j43568148250937_1_alg».proof.Proof.Gen.KernelIdeal.Launch
import proofs.«158984_j43568148250937_1_alg».proof.Proof.Gen.KernelIdeal.Skeleton
import proofs.«158984_j43568148250937_1_alg».proof.Proof.KI.Sched
import proofs.«158984_j43568148250937_1_alg».proof.Proof.Gen.KernelIdeal.Regions
import proofs.«158984_j43568148250937_1_alg».proof.Proof.KI.Lin0
import proofs.«158984_j43568148250937_1_alg».proof.Proof.KI.Gat1
import proofs.«158984_j43568148250937_1_alg».proof.Proof.KI.Sca2
import proofs.«158984_j43568148250937_1_alg».proof.Proof.KI.Lin3
import proofs.«158984_j43568148250937_1_alg».proof.Proof.KI.Gat4
import proofs.«158984_j43568148250937_1_alg».proof.Proof.KI.Sca5
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: three host stretches, the first dense layer, the first gather, a reshape of the bias, the first
    scatter, the second dense layer, the second gather, a reshape of the second bias, the second scatter

## The buffers' contents at each region's entry and what each region leaves

An explicit chain from the launch memory: each region is entered from the contents the item before it left, and leaves
its output array at what its pipeline's write-backs fold to, every other buffer as entered. -/

/-- Core `c`'s buffers when the first dense layer is entered: the launch memory after the three host stretches. -/
def E0 (c : Dev nD) : Valuation τ sig (Elt F) := Gen.V3 m c
/-- What the first dense layer leaves in its output array `main_v39` (node features times the first weight matrix). -/
def out0 (c : Dev nD) : Buf (Elt F) ((c : Thread nD τ).loc main_v39) := (dat0 (fun c b => E0 m c b) c).arrAt 2 cfg0.N
/-- Core `c`'s buffers when the first gather is entered. -/
def E1 (c : Dev nD) : Valuation τ sig (Elt F) := Function.update (E0 m c) main_v39 (out0 m c)
/-- What the first gather leaves in its output array `main_v40` (per edge, the source node's row times the edge weight). -/
def out1 (c : Dev nD) : Buf (Elt F) ((c : Thread nD τ).loc main_v40) := (dat1 (fun c b => E1 m c b) c).arrAt 3 cfg1.N
/-- Core `c`'s buffers after the first gather, before the first bias is reshaped. -/
def X2 (c : Dev nD) : Valuation τ sig (Elt F) := Function.update (E1 m c) main_v40 (out1 m c)
/-- Core `c`'s buffers when the first scatter is entered. -/
def E2 (c : Dev nD) : Valuation τ sig (Elt F) := StableHlo.after hostOps2 (X2 m c)
/-- What the first scatter leaves in its output array `main_v42` (per node, the incoming rows summed, plus bias, clamped at 0). -/
def out2 (c : Dev nD) : Buf (Elt F) ((c : Thread nD τ).loc main_v42) := (dat2 (fun c b => E2 m c b) c).arrAt 3 cfg2.N
/-- Core `c`'s buffers when the second dense layer is entered. -/
def E3 (c : Dev nD) : Valuation τ sig (Elt F) := Function.update (E2 m c) main_v42 (out2 m c)
/-- What the second dense layer leaves in its output array `main_v43`. -/
def out3 (c : Dev nD) : Buf (Elt F) ((c : Thread nD τ).loc main_v43) := (dat3 (fun c b => E3 m c b) c).arrAt 2 cfg3.N
/-- Core `c`'s buffers when the second gather is entered. -/
def E4 (c : Dev nD) : Valuation τ sig (Elt F) := Function.update (E3 m c) main_v43 (out3 m c)
/-- What the second gather leaves in its output array `main_v44`. -/
def out4 (c : Dev nD) : Buf (Elt F) ((c : Thread nD τ).loc main_v44) := (dat4 (fun c b => E4 m c b) c).arrAt 3 cfg4.N
/-- Core `c`'s buffers after the second gather, before the second bias is reshaped. -/
def X5 (c : Dev nD) : Valuation τ sig (Elt F) := Function.update (E4 m c) main_v44 (out4 m c)
/-- Core `c`'s buffers when the second scatter is entered. -/
def E5 (c : Dev nD) : Valuation τ sig (Elt F) := StableHlo.after hostOps5 (X5 m c)
/-- What the second scatter leaves in its output array `main_v46`: the result of @main. -/
def out5 (c : Dev nD) : Buf (Elt F) ((c : Thread nD τ).loc main_v46) := (dat5 (fun c b => E5 m c b) c).arrAt 3 cfg5.N
/-- Core `c`'s buffers at the return. -/
def Efin (c : Dev nD) : Valuation τ sig (Elt F) := Function.update (E5 m c) main_v46 (out5 m c)

/-- What each region leaves in the one array it may change, as the family the boundary valuations are written over:
    item `J`'s contents at the reference it is read at, the launch contents anywhere else. -/
def outs : Gen.Outs (F := F) := fun J r c =>
  match J with
  | 4 => if h : r = main_v39 then h ▸ out0 m c else m ((c : Thread nD τ).loc r)
  | 5 => if h : r = main_v40 then h ▸ out1 m c else m ((c : Thread nD τ).loc r)
  | 7 => if h : r = main_v42 then h ▸ out2 m c else m ((c : Thread nD τ).loc r)
  | 8 => if h : r = main_v43 then h ▸ out3 m c else m ((c : Thread nD τ).loc r)
  | 9 => if h : r = main_v44 then h ▸ out4 m c else m ((c : Thread nD τ).loc r)
  | 11 => if h : r = main_v46 then h ▸ out5 m c else m ((c : Thread nD τ).loc r)
  | _ => m ((c : Thread nD τ).loc r)

theorem outs_4 (c : Dev nD) : outs m 4 main_v39 c = out0 m c := rfl
theorem outs_5 (c : Dev nD) : outs m 5 main_v40 c = out1 m c := rfl
theorem outs_7 (c : Dev nD) : outs m 7 main_v42 c = out2 m c := rfl
theorem outs_8 (c : Dev nD) : outs m 8 main_v43 c = out3 m c := rfl
theorem outs_9 (c : Dev nD) : outs m 9 main_v44 c = out4 m c := rfl
theorem outs_11 (c : Dev nD) : outs m 11 main_v46 c = out5 m c := rfl

/-- The boundary valuations at these contents are the chain above. -/
theorem V4_eq (c : Dev nD) : Gen.V4 m (outs m) c = E1 m c := rfl
theorem V5_eq (c : Dev nD) : Gen.V5 m (outs m) c = X2 m c := rfl
theorem V6_eq (c : Dev nD) : Gen.V6 m (outs m) c = E2 m c := rfl
theorem V7_eq (c : Dev nD) : Gen.V7 m (outs m) c = E3 m c := rfl
theorem V8_eq (c : Dev nD) : Gen.V8 m (outs m) c = E4 m c := rfl
theorem V9_eq (c : Dev nD) : Gen.V9 m (outs m) c = X5 m c := rfl
theorem V10_eq (c : Dev nD) : Gen.V10 m (outs m) c = E5 m c := rfl
theorem V11_eq (c : Dev nD) : Gen.V11 m (outs m) c = Efin m c := rfl

/-! ## What each region's pipeline leaves in the unscoped buffers -/

/-- At the exit of the first dense layer each of its arrays holds what the pipeline leaves: an input array is never written and is
    no output of the region, so it holds what it held at entry; the output array holds its write-backs folded. -/
theorem hF0 (c : Dev nD) : ∀ w : Fin cfg0.W, (dat0 (fun c b => E0 m c b) c).arrAt w cfg0.N
    = (fun b => E1 m c b : (b : Ref sig .tc) → Buf (Elt F) ((c : Thread nD τ).loc b)) (Pipeline.arrRef spec0 w)
  | 0 => ((dat0 (fun c b => E0 m c b) c).arrAt_in 0 rfl _).trans ((A_eq0 (fun c b => E0 m c b) c 0).trans
      (by unfold E1; exact (Function.update_of_ne (StableHlo.devRef_ne_of_ne (by decide) : (Proc.devRef .tc main_arg0 : DevRef τ sig) ≠ Proc.devRef .tc main_v39) _ _).symm))
  | 1 => ((dat0 (fun c b => E0 m c b) c).arrAt_in 1 rfl _).trans ((A_eq0 (fun c b => E0 m c b) c 1).trans
      (by unfold E1; exact (Function.update_of_ne (StableHlo.devRef_ne_of_ne (by decide) : (Proc.devRef .tc main_arg2 : DevRef τ sig) ≠ Proc.devRef .tc main_v39) _ _).symm))
  | 2 => by unfold E1; exact (Function.update_self (β := fun b : DevRef τ sig => b.ty.Contents (Elt F)) (Proc.devRef .tc main_v39) (out0 m c) (E0 m c)).symm
  | ⟨_ + 3, h⟩ => absurd h (Nat.not_lt.2 (Nat.le_add_left _ _))
/-- and every buffer that is no array of the region holds what it held at entry. -/
theorem hrest0 (c : Dev nD) : ∀ b : Ref sig .tc, b ∉ Finset.univ.image (Pipeline.arrRef spec0) →
    (fun b => E1 m c b : (b : Ref sig .tc) → Buf (Elt F) ((c : Thread nD τ).loc b)) b = E0 m c b := fun b hb => by
  have hne : b ≠ main_v39 := fun e => hb (Finset.mem_image.mpr ⟨2, Finset.mem_univ _, e.symm⟩)
  unfold E1
  exact Function.update_of_ne (StableHlo.devRef_ne_of_ne hne) _ _

/-- At the exit of the first gather each of its arrays holds what the pipeline leaves: an input array is never written and is
    no output of the region, so it holds what it held at entry; the output array holds its write-backs folded. -/
theorem hF1 (c : Dev nD) : ∀ w : Fin cfg1.W, (dat1 (fun c b => E1 m c b) c).arrAt w cfg1.N
    = (fun b => X2 m c b : (b : Ref sig .tc) → Buf (Elt F) ((c : Thread nD τ).loc b)) (Pipeline.arrRef spec1 w)
  | 0 => ((dat1 (fun c b => E1 m c b) c).arrAt_in 0 rfl _).trans ((A_eq1 (fun c b => E1 m c b) c 0).trans
      (by unfold X2; exact (Function.update_of_ne (StableHlo.devRef_ne_of_ne (by decide) : (Proc.devRef .tc main_v36 : DevRef τ sig) ≠ Proc.devRef .tc main_v40) _ _).symm))
  | 1 => ((dat1 (fun c b => E1 m c b) c).arrAt_in 1 rfl _).trans ((A_eq1 (fun c b => E1 m c b) c 1).trans
      (by unfold X2; exact (Function.update_of_ne (StableHlo.devRef_ne_of_ne (by decide) : (Proc.devRef .tc main_v38 : DevRef τ sig) ≠ Proc.devRef .tc main_v40) _ _).symm))
  | 2 => ((dat1 (fun c b => E1 m c b) c).arrAt_in 2 rfl _).trans ((A_eq1 (fun c b => E1 m c b) c 2).trans
      (by unfold X2; exact (Function.update_of_ne (StableHlo.devRef_ne_of_ne (by decide) : (Proc.devRef .tc main_v39 : DevRef τ sig) ≠ Proc.devRef .tc main_v40) _ _).symm))
  | 3 => by unfold X2; exact (Function.update_self (β := fun b : DevRef τ sig => b.ty.Contents (Elt F)) (Proc.devRef .tc main_v40) (out1 m c) (E1 m c)).symm
  | ⟨_ + 4, h⟩ => absurd h (Nat.not_lt.2 (Nat.le_add_left _ _))
/-- and every buffer that is no array of the region holds what it held at entry. -/
theorem hrest1 (c : Dev nD) : ∀ b : Ref sig .tc, b ∉ Finset.univ.image (Pipeline.arrRef spec1) →
    (fun b => X2 m c b : (b : Ref sig .tc) → Buf (Elt F) ((c : Thread nD τ).loc b)) b = E1 m c b := fun b hb => by
  have hne : b ≠ main_v40 := fun e => hb (Finset.mem_image.mpr ⟨3, Finset.mem_univ _, e.symm⟩)
  unfold X2
  exact Function.update_of_ne (StableHlo.devRef_ne_of_ne hne) _ _

/-- At the exit of the first scatter each of its arrays holds what the pipeline leaves: an input array is never written and is
    no output of the region, so it holds what it held at entry; the output array holds its write-backs folded. -/
theorem hF2 (c : Dev nD) : ∀ w : Fin cfg2.W, (dat2 (fun c b => E2 m c b) c).arrAt w cfg2.N
    = (fun b => E3 m c b : (b : Ref sig .tc) → Buf (Elt F) ((c : Thread nD τ).loc b)) (Pipeline.arrRef spec2 w)
  | 0 => ((dat2 (fun c b => E2 m c b) c).arrAt_in 0 rfl _).trans ((A_eq2 (fun c b => E2 m c b) c 0).trans
      (by unfold E3; exact (Function.update_of_ne (StableHlo.devRef_ne_of_ne (by decide) : (Proc.devRef .tc main_v37 : DevRef τ sig) ≠ Proc.devRef .tc main_v42) _ _).symm))
  | 1 => ((dat2 (fun c b => E2 m c b) c).arrAt_in 1 rfl _).trans ((A_eq2 (fun c b => E2 m c b) c 1).trans
      (by unfold E3; exact (Function.update_of_ne (StableHlo.devRef_ne_of_ne (by decide) : (Proc.devRef .tc main_v40 : DevRef τ sig) ≠ Proc.devRef .tc main_v42) _ _).symm))
  | 2 => ((dat2 (fun c b => E2 m c b) c).arrAt_in 2 rfl _).trans ((A_eq2 (fun c b => E2 m c b) c 2).trans
      (by unfold E3; exact (Function.update_of_ne (StableHlo.devRef_ne_of_ne (by decide) : (Proc.devRef .tc main_v41 : DevRef τ sig) ≠ Proc.devRef .tc main_v42) _ _).symm))
  | 3 => by unfold E3; exact (Function.update_self (β := fun b : DevRef τ sig => b.ty.Contents (Elt F)) (Proc.devRef .tc main_v42) (out2 m c) (E2 m c)).symm
  | ⟨_ + 4, h⟩ => absurd h (Nat.not_lt.2 (Nat.le_add_left _ _))
/-- and every buffer that is no array of the region holds what it held at entry. -/
theorem hrest2 (c : Dev nD) : ∀ b : Ref sig .tc, b ∉ Finset.univ.image (Pipeline.arrRef spec2) →
    (fun b => E3 m c b : (b : Ref sig .tc) → Buf (Elt F) ((c : Thread nD τ).loc b)) b = E2 m c b := fun b hb => by
  have hne : b ≠ main_v42 := fun e => hb (Finset.mem_image.mpr ⟨3, Finset.mem_univ _, e.symm⟩)
  unfold E3
  exact Function.update_of_ne (StableHlo.devRef_ne_of_ne hne) _ _

/-- At the exit of the second dense layer each of its arrays holds what the pipeline leaves: an input array is never written and is
    no output of the region, so it holds what it held at entry; the output array holds its write-backs folded. -/
theorem hF3 (c : Dev nD) : ∀ w : Fin cfg3.W, (dat3 (fun c b => E3 m c b) c).arrAt w cfg3.N
    = (fun b => E4 m c b : (b : Ref sig .tc) → Buf (Elt F) ((c : Thread nD τ).loc b)) (Pipeline.arrRef spec3 w)
  | 0 => ((dat3 (fun c b => E3 m c b) c).arrAt_in 0 rfl _).trans ((A_eq3 (fun c b => E3 m c b) c 0).trans
      (by unfold E4; exact (Function.update_of_ne (StableHlo.devRef_ne_of_ne (by decide) : (Proc.devRef .tc main_v42 : DevRef τ sig) ≠ Proc.devRef .tc main_v43) _ _).symm))
  | 1 => ((dat3 (fun c b => E3 m c b) c).arrAt_in 1 rfl _).trans ((A_eq3 (fun c b => E3 m c b) c 1).trans
      (by unfold E4; exact (Function.update_of_ne (StableHlo.devRef_ne_of_ne (by decide) : (Proc.devRef .tc main_arg4 : DevRef τ sig) ≠ Proc.devRef .tc main_v43) _ _).symm))
  | 2 => by unfold E4; exact (Function.update_self (β := fun b : DevRef τ sig => b.ty.Contents (Elt F)) (Proc.devRef .tc main_v43) (out3 m c) (E3 m c)).symm
  | ⟨_ + 3, h⟩ => absurd h (Nat.not_lt.2 (Nat.le_add_left _ _))
/-- and every buffer that is no array of the region holds what it held at entry. -/
theorem hrest3 (c : Dev nD) : ∀ b : Ref sig .tc, b ∉ Finset.univ.image (Pipeline.arrRef spec3) →
    (fun b => E4 m c b : (b : Ref sig .tc) → Buf (Elt F) ((c : Thread nD τ).loc b)) b = E3 m c b := fun b hb => by
  have hne : b ≠ main_v43 := fun e => hb (Finset.mem_image.mpr ⟨2, Finset.mem_univ _, e.symm⟩)
  unfold E4
  exact Function.update_of_ne (StableHlo.devRef_ne_of_ne hne) _ _

/-- At the exit of the second gather each of its arrays holds what the pipeline leaves: an input array is never written and is
    no output of the region, so it holds what it held at entry; the output array holds its write-backs folded. -/
theorem hF4 (c : Dev nD) : ∀ w : Fin cfg4.W, (dat4 (fun c b => E4 m c b) c).arrAt w cfg4.N
    = (fun b => X5 m c b : (b : Ref sig .tc) → Buf (Elt F) ((c : Thread nD τ).loc b)) (Pipeline.arrRef spec4 w)
  | 0 => ((dat4 (fun c b => E4 m c b) c).arrAt_in 0 rfl _).trans ((A_eq4 (fun c b => E4 m c b) c 0).trans
      (by unfold X5; exact (Function.update_of_ne (StableHlo.devRef_ne_of_ne (by decide) : (Proc.devRef .tc main_v36 : DevRef τ sig) ≠ Proc.devRef .tc main_v44) _ _).symm))
  | 1 => ((dat4 (fun c b => E4 m c b) c).arrAt_in 1 rfl _).trans ((A_eq4 (fun c b => E4 m c b) c 1).trans
      (by unfold X5; exact (Function.update_of_ne (StableHlo.devRef_ne_of_ne (by decide) : (Proc.devRef .tc main_v38 : DevRef τ sig) ≠ Proc.devRef .tc main_v44) _ _).symm))
  | 2 => ((dat4 (fun c b => E4 m c b) c).arrAt_in 2 rfl _).trans ((A_eq4 (fun c b => E4 m c b) c 2).trans
      (by unfold X5; exact (Function.update_of_ne (StableHlo.devRef_ne_of_ne (by decide) : (Proc.devRef .tc main_v43 : DevRef τ sig) ≠ Proc.devRef .tc main_v44) _ _).symm))
  | 3 => by unfold X5; exact (Function.update_self (β := fun b : DevRef τ sig => b.ty.Contents (Elt F)) (Proc.devRef .tc main_v44) (out4 m c) (E4 m c)).symm
  | ⟨_ + 4, h⟩ => absurd h (Nat.not_lt.2 (Nat.le_add_left _ _))
/-- and every buffer that is no array of the region holds what it held at entry. -/
theorem hrest4 (c : Dev nD) : ∀ b : Ref sig .tc, b ∉ Finset.univ.image (Pipeline.arrRef spec4) →
    (fun b => X5 m c b : (b : Ref sig .tc) → Buf (Elt F) ((c : Thread nD τ).loc b)) b = E4 m c b := fun b hb => by
  have hne : b ≠ main_v44 := fun e => hb (Finset.mem_image.mpr ⟨3, Finset.mem_univ _, e.symm⟩)
  unfold X5
  exact Function.update_of_ne (StableHlo.devRef_ne_of_ne hne) _ _

/-- At the exit of the second scatter each of its arrays holds what the pipeline leaves: an input array is never written and is
    no output of the region, so it holds what it held at entry; the output array holds its write-backs folded. -/
theorem hF5 (c : Dev nD) : ∀ w : Fin cfg5.W, (dat5 (fun c b => E5 m c b) c).arrAt w cfg5.N
    = (fun b => Efin m c b : (b : Ref sig .tc) → Buf (Elt F) ((c : Thread nD τ).loc b)) (Pipeline.arrRef spec5 w)
  | 0 => ((dat5 (fun c b => E5 m c b) c).arrAt_in 0 rfl _).trans ((A_eq5 (fun c b => E5 m c b) c 0).trans
      (by unfold Efin; exact (Function.update_of_ne (StableHlo.devRef_ne_of_ne (by decide) : (Proc.devRef .tc main_v37 : DevRef τ sig) ≠ Proc.devRef .tc main_v46) _ _).symm))
  | 1 => ((dat5 (fun c b => E5 m c b) c).arrAt_in 1 rfl _).trans ((A_eq5 (fun c b => E5 m c b) c 1).trans
      (by unfold Efin; exact (Function.update_of_ne (StableHlo.devRef_ne_of_ne (by decide) : (Proc.devRef .tc main_v44 : DevRef τ sig) ≠ Proc.devRef .tc main_v46) _ _).symm))
  | 2 => ((dat5 (fun c b => E5 m c b) c).arrAt_in 2 rfl _).trans ((A_eq5 (fun c b => E5 m c b) c 2).trans
      (by unfold Efin; exact (Function.update_of_ne (StableHlo.devRef_ne_of_ne (by decide) : (Proc.devRef .tc main_v45 : DevRef τ sig) ≠ Proc.devRef .tc main_v46) _ _).symm))
  | 3 => by unfold Efin; exact (Function.update_self (β := fun b : DevRef τ sig => b.ty.Contents (Elt F)) (Proc.devRef .tc main_v46) (out5 m c) (E5 m c)).symm
  | ⟨_ + 4, h⟩ => absurd h (Nat.not_lt.2 (Nat.le_add_left _ _))
/-- and every buffer that is no array of the region holds what it held at entry. -/
theorem hrest5 (c : Dev nD) : ∀ b : Ref sig .tc, b ∉ Finset.univ.image (Pipeline.arrRef spec5) →
    (fun b => Efin m c b : (b : Ref sig .tc) → Buf (Elt F) ((c : Thread nD τ).loc b)) b = E5 m c b := fun b hb => by
  have hne : b ≠ main_v46 := fun e => hb (Finset.mem_image.mpr ⟨3, Finset.mem_univ _, e.symm⟩)
  unfold Efin
  exact Function.update_of_ne (StableHlo.devRef_ne_of_ne hne) _ _

/-! ## The proof data family and the thread state -/

/-- Every pipeline's proof data, each at its region's entry contents. -/
def pdats : (p : Fin 6) → (c : Dev nD) → Dat τ (Elt F) Unit ℕ (UR sig nD τ) ℕ (cfgs p) c
  | ⟨0, _⟩ => fun c => dat0 (fun c b => E0 m c b) c
  | ⟨1, _⟩ => fun c => dat1 (fun c b => E1 m c b) c
  | ⟨2, _⟩ => fun c => dat2 (fun c b => E2 m c b) c
  | ⟨3, _⟩ => fun c => dat3 (fun c b => E3 m c b) c
  | ⟨4, _⟩ => fun c => dat4 (fun c b => E4 m c b) c
  | ⟨5, _⟩ => fun c => dat5 (fun c b => E5 m c b) c
/-- No body has a loop of its own to bound. -/
abbrev runV : Variants := Variants.none
/-- No core owes another anything: no level is assigned. -/
abbrev runL : GSem nD τ sig → Finset Unit := fun _ => ∅
abbrev runLv : GSem nD τ sig → Unit → ℕ := fun _ _ => 0
/-- What rides beside the buffers through every item: the core's generator register at some state (each region's
    invariant takes it in and gives it back) and what the core owes, which is nothing. -/
abbrev runR (c : Dev nD) : sProp 𝕄 := iprop((∃ r, prngReg c r) ∗ ∃ W, owes (c : Thread nD τ) (0 : CellTallies nD τ sig Unit) W)
/-- The same rest at every boundary. -/
abbrev runE : Fin 7 → Dev nD → sProp 𝕄 := fun _ c => runR (F := F) c

/-! ## The regions as segments -/

set_option backward.isDefEq.respectTransparency.types false in
/-- REGION 0 (the first dense layer) over the thread state: entered from every unscoped buffer at `E0`, left at `E1`.
    Its arrays are split out of the unscoped buffers and put back at the exit contents; the generator register goes into
    the region invariant and comes back; nothing is owed; the kernel has no semaphore of its own. -/
def reg0 : Pipeline.RegionSeg (pcfgs (F := F)) adm (pdats m) () defs₀ runV runL runLv 0 where
  win := launch0.win.to₀
  block_pos := launch0.block_pos
  stage_whole := launch0.stage_whole
  K := PEmpty
  osem k := k.elim
  ho := Pipeline.OwnSemFacts.none _
  hbody c := (body_obligation0 (fun c b => E0 m c b) c).loose
  hwaits := Pipeline.hwaits_of_owed_zero _ _ _ _ runL runLv 0 fun _ _ => rfl
  pre c := iprop(StableHlo.held (c : Thread nD τ) (Pipeline.ucRefs τ sig) (E0 m c) ∗ runR c)
  post c := iprop(StableHlo.held (c : Thread nD τ) (Pipeline.ucRefs τ sig) (E1 m c) ∗ runR c)
  X c := iprop(∃ r, prngReg c r)
  Y c := iprop(∃ r, prngReg c r)
  Z c := Pipeline.unscopedRest (Ix := Unit) (Name := ℕ) (U := UR sig nD τ) (Lvl := ℕ) spec0 c (fun b => E0 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => E0 m c b) (A_eq0 (fun c b => E0 m c b) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (phi_in0 (fun c b => E0 m c b) c)
    unfold Pipeline.ΦA
    iintro ⟨Hp, -, Hr⟩
    isplitl [Hr]; · iexact Hr
    iexact Hp
  hout c := by
    rw [Pipeline.ownSems0_none]
    refine (phi_out0 (fun c b => E0 m c b) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => E0 m c b) (fun b => E1 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (the first gather) over the thread state: entered from every unscoped buffer at `E1`, left at `X2`.
    Its arrays are split out of the unscoped buffers and put back at the exit contents; the generator register goes into
    the region invariant and comes back; nothing is owed; the kernel has no semaphore of its own. -/
def reg1 : Pipeline.RegionSeg (pcfgs (F := F)) adm (pdats m) () defs₀ runV runL runLv 1 where
  win := launch1.win.to₀
  block_pos := launch1.block_pos
  stage_whole := launch1.stage_whole
  K := PEmpty
  osem k := k.elim
  ho := Pipeline.OwnSemFacts.none _
  hbody c := (body_obligation1 (fun c b => E1 m c b) c).loose
  hwaits := Pipeline.hwaits_of_owed_zero _ _ _ _ runL runLv 1 fun _ _ => rfl
  pre c := iprop(StableHlo.held (c : Thread nD τ) (Pipeline.ucRefs τ sig) (E1 m c) ∗ runR c)
  post c := iprop(StableHlo.held (c : Thread nD τ) (Pipeline.ucRefs τ sig) (X2 m c) ∗ runR c)
  X c := iprop(∃ r, prngReg c r)
  Y c := iprop(∃ r, prngReg c r)
  Z c := Pipeline.unscopedRest (Ix := Unit) (Name := ℕ) (U := UR sig nD τ) (Lvl := ℕ) spec1 c (fun b => E1 m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => E1 m c b) (A_eq1 (fun c b => E1 m c b) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (phi_in1 (fun c b => E1 m c b) c)
    unfold Pipeline.ΦA
    iintro ⟨Hp, -, Hr⟩
    isplitl [Hr]; · iexact Hr
    iexact Hp
  hout c := by
    rw [Pipeline.ownSems0_none]
    refine (phi_out1 (fun c b => E1 m c b) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => E1 m c b) (fun b => X2 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (the first scatter) over the thread state: entered from every unscoped buffer at `E2`, left at `E3`.
    Its arrays are split out of the unscoped buffers and put back at the exit contents; the generator register goes into
    the region invariant and comes back; nothing is owed; the kernel has no semaphore of its own. -/
def reg2 : Pipeline.RegionSeg (pcfgs (F := F)) adm (pdats m) () defs₀ runV runL runLv 2 where
  win := launch2.win.to₀
  block_pos := launch2.block_pos
  stage_whole := launch2.stage_whole
  K := PEmpty
  osem k := k.elim
  ho := Pipeline.OwnSemFacts.none _
  hbody c := (body_obligation2 (fun c b => E2 m c b) c).loose
  hwaits := Pipeline.hwaits_of_owed_zero _ _ _ _ runL runLv 2 fun _ _ => rfl
  pre c := iprop(StableHlo.held (c : Thread nD τ) (Pipeline.ucRefs τ sig) (E2 m c) ∗ runR c)
  post c := iprop(StableHlo.held (c : Thread nD τ) (Pipeline.ucRefs τ sig) (E3 m c) ∗ runR c)
  X c := iprop(∃ r, prngReg c r)
  Y c := iprop(∃ r, prngReg c r)
  Z c := Pipeline.unscopedRest (Ix := Unit) (Name := ℕ) (U := UR sig nD τ) (Lvl := ℕ) spec2 c (fun b => E2 m c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => E2 m c b) (A_eq2 (fun c b => E2 m c b) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (phi_in2 (fun c b => E2 m c b) c)
    unfold Pipeline.ΦA
    iintro ⟨Hp, -, Hr⟩
    isplitl [Hr]; · iexact Hr
    iexact Hp
  hout c := by
    rw [Pipeline.ownSems0_none]
    refine (phi_out2 (fun c b => E2 m c b) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => E2 m c b) (fun b => E3 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 (the second dense layer) over the thread state: entered from every unscoped buffer at `E3`, left at `E4`.
    Its arrays are split out of the unscoped buffers and put back at the exit contents; the generator register goes into
    the region invariant and comes back; nothing is owed; the kernel has no semaphore of its own. -/
def reg3 : Pipeline.RegionSeg (pcfgs (F := F)) adm (pdats m) () defs₀ runV runL runLv 3 where
  win := launch3.win.to₀
  block_pos := launch3.block_pos
  stage_whole := launch3.stage_whole
  K := PEmpty
  osem k := k.elim
  ho := Pipeline.OwnSemFacts.none _
  hbody c := (body_obligation3 (fun c b => E3 m c b) c).loose
  hwaits := Pipeline.hwaits_of_owed_zero _ _ _ _ runL runLv 3 fun _ _ => rfl
  pre c := iprop(StableHlo.held (c : Thread nD τ) (Pipeline.ucRefs τ sig) (E3 m c) ∗ runR c)
  post c := iprop(StableHlo.held (c : Thread nD τ) (Pipeline.ucRefs τ sig) (E4 m c) ∗ runR c)
  X c := iprop(∃ r, prngReg c r)
  Y c := iprop(∃ r, prngReg c r)
  Z c := Pipeline.unscopedRest (Ix := Unit) (Name := ℕ) (U := UR sig nD τ) (Lvl := ℕ) spec3 c (fun b => E3 m c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => E3 m c b) (A_eq3 (fun c b => E3 m c b) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (phi_in3 (fun c b => E3 m c b) c)
    unfold Pipeline.ΦA
    iintro ⟨Hp, -, Hr⟩
    isplitl [Hr]; · iexact Hr
    iexact Hp
  hout c := by
    rw [Pipeline.ownSems0_none]
    refine (phi_out3 (fun c b => E3 m c b) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => E3 m c b) (fun b => E4 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 (the second gather) over the thread state: entered from every unscoped buffer at `E4`, left at `X5`.
    Its arrays are split out of the unscoped buffers and put back at the exit contents; the generator register goes into
    the region invariant and comes back; nothing is owed; the kernel has no semaphore of its own. -/
def reg4 : Pipeline.RegionSeg (pcfgs (F := F)) adm (pdats m) () defs₀ runV runL runLv 4 where
  win := launch4.win.to₀
  block_pos := launch4.block_pos
  stage_whole := launch4.stage_whole
  K := PEmpty
  osem k := k.elim
  ho := Pipeline.OwnSemFacts.none _
  hbody c := (body_obligation4 (fun c b => E4 m c b) c).loose
  hwaits := Pipeline.hwaits_of_owed_zero _ _ _ _ runL runLv 4 fun _ _ => rfl
  pre c := iprop(StableHlo.held (c : Thread nD τ) (Pipeline.ucRefs τ sig) (E4 m c) ∗ runR c)
  post c := iprop(StableHlo.held (c : Thread nD τ) (Pipeline.ucRefs τ sig) (X5 m c) ∗ runR c)
  X c := iprop(∃ r, prngReg c r)
  Y c := iprop(∃ r, prngReg c r)
  Z c := Pipeline.unscopedRest (Ix := Unit) (Name := ℕ) (U := UR sig nD τ) (Lvl := ℕ) spec4 c (fun b => E4 m c b)
  hentry c := by
    rw [Pipeline.ownSems0_none]
    have hsplit := Pipeline.arrays_of_unscopedBufs (p := 4) (pcfgs (F := F)) adm (pdats m) launch4.win launch4.arr_whole c
      ((pdats m 4 c).share_full fun _ => rfl) (fun b => E4 m c b) (A_eq4 (fun c b => E4 m c b) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (phi_in4 (fun c b => E4 m c b) c)
    unfold Pipeline.ΦA
    iintro ⟨Hp, -, Hr⟩
    isplitl [Hr]; · iexact Hr
    iexact Hp
  hout c := by
    rw [Pipeline.ownSems0_none]
    refine (phi_out4 (fun c b => E4 m c b) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (fun b => E4 m c b) (fun b => X5 m c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 (the second scatter) over the thread state: entered from every unscoped buffer at `E5`, left at `Efin`.
    Its arrays are split out of the unscoped buffers and put back at the exit contents; the generator register goes into
    the region invariant and comes back; nothing is owed; the kernel has no semaphore of its own. -/
def reg5 : Pipeline.RegionSeg (pcfgs (F := F)) adm (pdats m) () defs₀ runV runL runLv 5 where
  win := launch5.win.to₀
  block_pos := launch5.block_pos
  stage_whole := launch5.stage_whole
  K := PEmpty
  osem k := k.elim
  ho := Pipeline.OwnSemFacts.none _
  hbody c := (body_obligation5 (fun c b => E5 m c b) c).loose
  hwaits := Pipeline.hwaits_of_owed_zero _ _ _ _ runL runLv 5 fun _ _ => rfl
  pre c := iprop(StableHlo.held (c : Thread nD τ) (Pipeline.ucRefs τ sig) (E5 m c) ∗ runR c)
  post c := iprop(StableHlo.held (c : Thread nD τ) (Pipeline.ucRefs τ sig) (Efin m c) ∗ runR c)
  X c := iprop(∃ r, prngReg c r)
  Y c := iprop(∃ r, prngReg c r)
  Z c := Pipeline.unscopedRest (Ix := Unit) (Name := ℕ) (U := UR sig nD τ) (Lvl := ℕ) spec5 c (fun b => E5 m c b)
  hentry c := by
    rw [Pipeline.ownSems0_none]
    have hsplit := Pipeline.arrays_of_unscopedBufs (p := 5) (pcfgs (F := F)) adm (pdats m) launch5.win launch5.arr_whole c
      ((pdats m 5 c).share_full fun _ => rfl) (fun b => E5 m c b) (A_eq5 (fun c b => E5 m c b) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (phi_in5 (fun c b => E5 m c b) c)
    unfold Pipeline.ΦA
    iintro ⟨Hp, -, Hr⟩
    isplitl [Hr]; · iexact Hr
    iexact Hp
  hout c := by
    rw [Pipeline.ownSems0_none]
    refine (phi_out5 (fun c b => E5 m c b) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (fun b => E5 m c b) (fun b => Efin m c b) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The chain of thread states -/

/-- Every region is entered from the thread state the item before it left and leaves the one the next item is entered
    from: the boundary valuations at `outs` are the chain of contents above. -/
theorem hpre0 (c : Dev nD) : iprop(StableHlo.held (c : Thread nD τ) (Pipeline.ucRefs τ sig) (Gen.V3 m c) ∗ runE (F := F) 0 c) ⊢ (reg0 m).pre c := .rfl
theorem hpost0 (c : Dev nD) : (reg0 m).post c ⊢ iprop(StableHlo.held (c : Thread nD τ) (Pipeline.ucRefs τ sig) (Gen.V4 m (outs m) c) ∗ runE (F := F) 1 c) := by
  rw [V4_eq]; exact .rfl
theorem hpre1 (c : Dev nD) : iprop(StableHlo.held (c : Thread nD τ) (Pipeline.ucRefs τ sig) (Gen.V4 m (outs m) c) ∗ runE (F := F) 1 c) ⊢ (reg1 m).pre c := by
  rw [V4_eq]; exact .rfl
theorem hpost1 (c : Dev nD) : (reg1 m).post c ⊢ iprop(StableHlo.held (c : Thread nD τ) (Pipeline.ucRefs τ sig) (Gen.V5 m (outs m) c) ∗ runE (F := F) 2 c) := by
  rw [V5_eq]; exact .rfl
theorem hpre2 (c : Dev nD) : iprop(StableHlo.held (c : Thread nD τ) (Pipeline.ucRefs τ sig) (Gen.V6 m (outs m) c) ∗ runE (F := F) 2 c) ⊢ (reg2 m).pre c := by
  rw [V6_eq]; exact .rfl
theorem hpost2 (c : Dev nD) : (reg2 m).post c ⊢ iprop(StableHlo.held (c : Thread nD τ) (Pipeline.ucRefs τ sig) (Gen.V7 m (outs m) c) ∗ runE (F := F) 3 c) := by
  rw [V7_eq]; exact .rfl
theorem hpre3 (c : Dev nD) : iprop(StableHlo.held (c : Thread nD τ) (Pipeline.ucRefs τ sig) (Gen.V7 m (outs m) c) ∗ runE (F := F) 3 c) ⊢ (reg3 m).pre c := by
  rw [V7_eq]; exact .rfl
theorem hpost3 (c : Dev nD) : (reg3 m).post c ⊢ iprop(StableHlo.held (c : Thread nD τ) (Pipeline.ucRefs τ sig) (Gen.V8 m (outs m) c) ∗ runE (F := F) 4 c) := by
  rw [V8_eq]; exact .rfl
theorem hpre4 (c : Dev nD) : iprop(StableHlo.held (c : Thread nD τ) (Pipeline.ucRefs τ sig) (Gen.V8 m (outs m) c) ∗ runE (F := F) 4 c) ⊢ (reg4 m).pre c := by
  rw [V8_eq]; exact .rfl
theorem hpost4 (c : Dev nD) : (reg4 m).post c ⊢ iprop(StableHlo.held (c : Thread nD τ) (Pipeline.ucRefs τ sig) (Gen.V9 m (outs m) c) ∗ runE (F := F) 5 c) := by
  rw [V9_eq]; exact .rfl
theorem hpre5 (c : Dev nD) : iprop(StableHlo.held (c : Thread nD τ) (Pipeline.ucRefs τ sig) (Gen.V10 m (outs m) c) ∗ runE (F := F) 5 c) ⊢ (reg5 m).pre c := by
  rw [V10_eq]; exact .rfl
theorem hpost5 (c : Dev nD) : (reg5 m).post c ⊢ iprop(StableHlo.held (c : Thread nD τ) (Pipeline.ucRefs τ sig) (Gen.V11 m (outs m) c) ∗ runE (F := F) 6 c) := by
  rw [V11_eq]; exact .rfl

/-- The rest state owes nothing. -/
theorem hE6_run (c : Dev nD) : runE (F := F) 6 c ⊢ (iprop(∃ W, owes (c : Thread nD τ) (0 : CellTallies nD τ sig Unit) W) : sProp 𝕄) := by
  iintro ⟨-, H⟩; iexact H

/-- The result's array at the return holds what the second scatter leaves. -/
theorem V11_main_v46 (c : Dev nD) : Gen.V11 m (outs m) c main_v46 = out5 m c := by
  rw [V11_eq]; unfold Efin
  exact Function.update_self (β := fun b : DevRef τ sig => b.ty.Contents (Elt F)) (Proc.devRef .tc main_v46) (out5 m c) (E5 m c)

/-- The launch element is the pipeline library's, and no core is given a ghost resource. -/
theorem hu₀_run : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

end Cert.KernelIdeal.Hand

end
-- ==== Proof.KI.RunPost.lean ====
import proofs.«158984_j43568148250937_1_alg».proof.Proof.Gen.KernelIdeal.Launch
import proofs.«158984_j43568148250937_1_alg».proof.Proof.Gen.KernelIdeal.Skeleton
import proofs.«158984_j43568148250937_1_alg».proof.Proof.KI.Sched
import proofs.«158984_j43568148250937_1_alg».proof.Proof.Gen.KernelIdeal.Regions
import proofs.«158984_j43568148250937_1_alg».proof.Proof.KI.Lin0
import proofs.«158984_j43568148250937_1_alg».proof.Proof.KI.Gat1
import proofs.«158984_j43568148250937_1_alg».proof.Proof.KI.Sca2
import proofs.«158984_j43568148250937_1_alg».proof.Proof.KI.Lin3
import proofs.«158984_j43568148250937_1_alg».proof.Proof.KI.Gat4
import proofs.«158984_j43568148250937_1_alg».proof.Proof.KI.Sca5
import proofs.«158984_j43568148250937_1_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run's post: the result named

The launch theorem over @main's items once more, the last thread state read at the result's array as well as at the
arguments. -/

set_option backward.isDefEq.respectTransparency.types false in
/-- THE RUN. Every weakly fair execution of @main from memory `m` with zero counters terminates, and every final memory
    holds in the result's array what the second scatter leaves (`out5`: the chain of the six regions' pipelines from
    the launch memory) and each argument as launched. -/
theorem run_main : θ_run defs (onTc (τ := τ) (main (F := F))) ⟨m, fun _ => 0, ρ⟩ (fun r => ∀ c : Dev nD,
      r.2.mem ((c.tc : Thread nD τ).loc main_v46) = out5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm (pdats m) () cellOf_inj emb₁ defs₀ runV runL runLv m ρ main
    (Gen.segs m (outs m) runV runL runLv runE () (pdats m) (reg0 m) (reg1 m) (reg2 m) (reg3 m) (reg4 m) (reg5 m))
    (fun c Q => by
      rewrite [main_chain c, Pipeline.Seg.run_eq_chain,
        show (Gen.segs m (outs m) runV runL runLv runE () (pdats m) (reg0 m) (reg1 m) (reg2 m) (reg3 m) (reg4 m) (reg5 m) c).map Pipeline.Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2,
          Prog.lift (.customCall (Pipeline.entry 2) ()),
          Prog.lift (.customCall (Pipeline.entry 3) ()),
          Prog.lift (.customCall (Pipeline.entry 4) ()),
          StableHlo.seq hostOps5,
          Prog.lift (.customCall (Pipeline.entry 5) ()) ] from rfl]
      exact .rfl)
    (fun c => by simp only [Gen.segs, Pipeline.Seg.pipes_host, Pipeline.Seg.pipes_region, Pipeline.Seg.pipes_nil]; decide)
    (0 : Dev nD → CellTallies nD τ sig Unit) (fun _ _ => rfl) (fun _ => (BI.emp : sProp 𝕄))
    (initOf (Pipeline.cells cfgs cellOf_inj) (Pipeline.launchToks cfgs cellOf_inj)) hu₀_run
    (T₀ := fun c => iprop(StableHlo.held (c : Thread nD τ) (Pipeline.ucRefs τ sig) (Gen.V0 m c) ∗ runE (F := F) 0 c))
    (Tₙ := fun c => StableHlo.held (c : Thread nD τ) (Pipeline.ucRefs τ sig) (Gen.V11 m (outs m) c))
    (hch := fun c => ⟨.rfl, .rfl, .rfl, hpre0 m c, (hpost0 m c).trans (hpre1 m c), hpost1 m c, hpre2 m c, (hpost2 m c).trans (hpre3 m c),
      (hpost3 m c).trans (hpre4 m c), hpost4 m c, hpre5 m c, (hpost5 m c).trans (sep_mono .rfl (hE6_run c))⟩)
    (hinit := ?_)
    (QY := fun c s => s.mem ((c.tc : Thread nD τ).loc main_v46) = out5 m c
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the launch: on each core the unscoped buffers are held at the launch contents, the generator register is as
    -- launched and nothing is owed
    refine Pipeline.initEach runL runLv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result's and each argument's buffer read off the last valuation
    unfold StableHlo.held
    iintro ⟨Hh, HSI⟩
    ihave Hr := (pointsTo_read_all (Pipeline.ucRefs τ sig) (fun b => ((c : Thread nD τ).1, b)) (Gen.V11 m (outs m) c) s') $$ [Hh HSI]
    · isplitl [Hh] <;> iassumption
    icases Hr with ⟨%h, HSI⟩
    imodintro
    isplitr
    · ipureintro
      exact ⟨(h (Proc.devRef .tc main_v46) (Finset.mem_filter.mpr ⟨StableHlo.devRef_mem_tcRefs main_v46, by decide⟩)).trans (V11_main_v46 m c),
        (h (Proc.devRef .tc main_arg0) (Finset.mem_filter.mpr ⟨StableHlo.devRef_mem_tcRefs main_arg0, by decide⟩)).trans (Gen.V11_main_arg0 m (outs m) c),
        (h (Proc.devRef .tc main_arg1) (Finset.mem_filter.mpr ⟨StableHlo.devRef_mem_tcRefs main_arg1, by decide⟩)).trans (Gen.V11_main_arg1 m (outs m) c),
        (h (Proc.devRef .tc main_arg2) (Finset.mem_filter.mpr ⟨StableHlo.devRef_mem_tcRefs main_arg2, by decide⟩)).trans (Gen.V11_main_arg2 m (outs m) c),
        (h (Proc.devRef .tc main_arg3) (Finset.mem_filter.mpr ⟨StableHlo.devRef_mem_tcRefs main_arg3, by decide⟩)).trans (Gen.V11_main_arg3 m (outs m) c),
        (h (Proc.devRef .tc main_arg4) (Finset.mem_filter.mpr ⟨StableHlo.devRef_mem_tcRefs main_arg4, by decide⟩)).trans (Gen.V11_main_arg4 m (outs m) c),
        (h (Proc.devRef .tc main_arg5) (Finset.mem_filter.mpr ⟨StableHlo.devRef_mem_tcRefs main_arg5, by decide⟩)).trans (Gen.V11_main_arg5 m (outs m) c)⟩
    · iexact HSI

/-- THE FRAME: every weakly fair execution of @main from memory `m` with zero counters terminates and every final memory
    holds each argument as launched. -/
theorem frame_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r hr c => (hr c).2) (run_main m ρ)

end Cert.KernelIdeal.Hand

end
-- ==== Proof.Math.Spec.lean ====
/- The mathematics of a two-layer graph convolution, over plain finite index types.

   A layer is: a dense map  h = x · W;  a GATHER of the rows of h named by an edge's source, scaled by the edge's
   weight;  a SCATTER that adds each edge's row into the row named by the edge's target, plus a bias.
   One side writes the gather and the scatter as products with a 0/1 matrix made by comparing every node number
   with the edge's index word (so an index naming no node selects nothing); the other side reads the row at the
   index's position and sums the updates that land on a row.  For an index word that IS a node number the two
   agree: a sum of 0/1 multiples with exactly one 1 is the selected term, and a sum of 0/1 multiples is the sum
   over the selected terms.  On the extended reals this needs only 0 · a = 0, 1 · a = a and the commutative-monoid
   laws of +, which hold at ±∞ as well, so no finiteness is used anywhere below. -/
import Mathlib.Data.EReal.Basic
import Mathlib.Data.EReal.Operations
import Mathlib.Data.Fintype.BigOperators
import Mathlib.Algebra.BigOperators.Fin
import Mathlib.Algebra.BigOperators.Group.Finset.Basic
import Mathlib.Algebra.BigOperators.Ring.Finset

noncomputable section

namespace Cert.Spec

open scoped BigOperators

/-- The node number `n` as a 32-bit index word. -/
abbrev word (n : ℕ) : BitVec 32 := BitVec.ofNat 32 n

/-- Distinct node numbers below 2³² are distinct words. -/
theorem word_inj {a b : ℕ} (ha : a < 2 ^ 32) (hb : b < 2 ^ 32) (h : word a = word b) : a = b := by
  have h' := congrArg BitVec.toNat h
  simp only [word, BitVec.toNat_ofNat] at h'
  rwa [Nat.mod_eq_of_lt ha, Nat.mod_eq_of_lt hb] at h'

/-- The dense layer: row `n` of `x` against column `f` of `w`. -/
def lin {N K M : ℕ} (x : Fin N → Fin K → EReal) (w : Fin K → Fin M → EReal) : Fin N → Fin M → EReal :=
  fun n f => ∑ k, x n k * w k f

/-- Gather by comparison: edge `e` takes the sum over ALL nodes of (1 if the node's word is the edge's index word,
    else 0) times the node's row, then its weight. -/
def gatherCmp {E N M : ℕ} (idx : Fin E → BitVec 32) (wt : Fin E → EReal) (tab : Fin N → Fin M → EReal) :
    Fin E → Fin M → EReal :=
  fun e f => (∑ n : Fin N, (if idx e = word n.val then (1 : EReal) else 0) * tab n f) * wt e

/-- Scatter by comparison: node `n` takes the sum over ALL edges of (1 if the node's word is the edge's index
    word, else 0) times the edge's row, then the bias. -/
def scatterCmp {E N M : ℕ} (idx : Fin E → BitVec 32) (vals : Fin E → Fin M → EReal) (b : Fin M → EReal) :
    Fin N → Fin M → EReal :=
  fun n f => (∑ e : Fin E, (if word n.val = idx e then (1 : EReal) else 0) * vals e f) + b f

/-- Gather by position: edge `e` reads the row at `pos e`, scaled (weight first). -/
def gatherAt {E N M : ℕ} (pos : Fin E → Fin N) (wt : Fin E → EReal) (tab : Fin N → Fin M → EReal) :
    Fin E → Fin M → EReal :=
  fun e f => wt e * tab (pos e) f

/-- Scatter by landing: node `n` starts from `0`, adds the rows of the edges that land on it, then the bias. -/
def scatterOn {E N M : ℕ} (lands : Fin E → Fin N → Prop) [∀ e n, Decidable (lands e n)]
    (vals : Fin E → Fin M → EReal) (b : Fin M → EReal) : Fin N → Fin M → EReal :=
  fun n f => (0 + ∑ e ∈ Finset.univ.filter (fun e => lands e n), vals e f) + b f

/-- The rectifier on the extended reals. -/
def relu {N M : ℕ} (a : Fin N → Fin M → EReal) : Fin N → Fin M → EReal := fun n f => max (a n f) 0

/-! ### A comparison sum with one hit is the hit -/

/-- If the edge's index word is node `p`'s (all node numbers below 2³²), the comparison gather reads row `p`. -/
theorem gatherCmp_eq_gatherAt {E N M : ℕ} (hN : N ≤ 2 ^ 32) (idx : Fin E → BitVec 32) (pos : Fin E → Fin N)
    (hpos : ∀ e, idx e = word (pos e).val) (wt : Fin E → EReal) (tab : Fin N → Fin M → EReal) :
    gatherCmp idx wt tab = gatherAt pos wt tab := by
  funext e f
  unfold gatherCmp gatherAt
  rw [Finset.sum_eq_single (pos e)]
  · rw [if_pos (hpos e), one_mul]; exact EReal.mul_comm (tab (pos e) f) (wt e)
  · intro n _ hn
    rw [if_neg, zero_mul]
    intro h
    exact hn (Fin.ext (word_inj (lt_of_lt_of_le n.isLt hN) (lt_of_lt_of_le (pos e).isLt hN) ((hpos e).symm.trans h).symm))
  · intro h; exact absurd (Finset.mem_univ _) h

/-- A sum of 0/1 multiples is the sum over the terms whose multiple is 1. -/
theorem sum_ite_one_mul {ι : Type*} [Fintype ι] (p : ι → Prop) [DecidablePred p] (a : ι → EReal) :
    (∑ i, (if p i then (1 : EReal) else 0) * a i) = ∑ i ∈ Finset.univ.filter p, a i := by
  rw [Finset.sum_filter]
  refine Finset.sum_congr rfl fun i _ => ?_
  by_cases h : p i
  · rw [if_pos h, if_pos h, one_mul]
  · rw [if_neg h, if_neg h, zero_mul]

/-! ### Padded edge lists

The comparison side carries `E + P` edges: the `E` true ones and `P` padding edges whose target word is the number
`N` itself, which is no node, so a padding edge lands nowhere. -/

/-- One edge of the comparison gather whose index word is node `p`'s reads row `p`, scaled. -/
theorem gatherCmp_apply_of_word {E N M : ℕ} (hN : N ≤ 2 ^ 32) (idx : Fin E → BitVec 32) (wt : Fin E → EReal)
    (tab : Fin N → Fin M → EReal) (e : Fin E) (p : Fin N) (hp : idx e = word p.val) (f : Fin M) :
    gatherCmp idx wt tab e f = wt e * tab p f := by
  unfold gatherCmp
  rw [Finset.sum_eq_single p]
  · rw [if_pos hp, one_mul]; exact EReal.mul_comm (tab p f) (wt e)
  · intro n _ hn
    rw [if_neg, zero_mul]
    intro h
    exact hn (Fin.ext (word_inj (lt_of_lt_of_le n.isLt hN) (lt_of_lt_of_le p.isLt hN) (hp.symm.trans h).symm))
  · intro h; exact absurd (Finset.mem_univ _) h

/-- The comparison scatter over a padded edge list is the landing scatter over the true edges: a padding edge's
    target word is `N`, which no node's word equals; a true edge's comparison with node `n` is `lands e n`; on the
    true edges the two value arrays agree. -/
theorem scatterCmp_padded {E P N M : ℕ} (hN : N < 2 ^ 32) (idx : Fin (E + P) → BitVec 32)
    (vals : Fin (E + P) → Fin M → EReal) (b : Fin M → EReal)
    (lands : Fin E → Fin N → Prop) [∀ e n, Decidable (lands e n)] (vals' : Fin E → Fin M → EReal)
    (hpad : ∀ p : Fin P, idx (Fin.natAdd E p) = word N)
    (hland : ∀ (e : Fin E) (n : Fin N), word n.val = idx (Fin.castAdd P e) ↔ lands e n)
    (hvals : ∀ (e : Fin E) (f : Fin M), vals (Fin.castAdd P e) f = vals' e f) :
    scatterCmp (N := N) idx vals b = scatterOn lands vals' b := by
  funext n f
  unfold scatterCmp scatterOn
  congr 1
  rw [Fin.sum_univ_add, zero_add]
  have hz : (∑ p : Fin P, (if word n.val = idx (Fin.natAdd E p) then (1 : EReal) else 0) * vals (Fin.natAdd E p) f) = 0 := by
    refine Finset.sum_eq_zero fun p _ => ?_
    rw [if_neg, zero_mul]
    rw [hpad p]
    intro h
    exact absurd (word_inj (lt_trans n.isLt hN) hN h) (Nat.ne_of_lt n.isLt)
  rw [hz, add_zero, ← sum_ite_one_mul]
  refine Finset.sum_congr rfl fun e _ => ?_
  rw [hvals e f]
  by_cases h : lands e n
  · rw [if_pos ((hland e n).mpr h), if_pos h]
  · rw [if_neg (fun h' => h ((hland e n).mp h')), if_neg h]

/-- One layer's aggregation. Over a padded edge list whose true edges' source words are the positions `pos`, whose target
    words compare as `lands`, whose weights are `wt`, and whose padding edges target the non-node `N`: gathering and
    scattering by comparison is gathering by position and scattering by landing. -/
theorem aggregate_padded {E P N M : ℕ} (hN : N < 2 ^ 32) (src tgt : Fin (E + P) → BitVec 32) (wtP : Fin (E + P) → EReal)
    (pos : Fin E → Fin N) (lands : Fin E → Fin N → Prop) [∀ e n, Decidable (lands e n)] (wt : Fin E → EReal)
    (hsrc : ∀ e : Fin E, src (Fin.castAdd P e) = word (pos e).val)
    (hwt : ∀ e : Fin E, wtP (Fin.castAdd P e) = wt e)
    (hpad : ∀ p : Fin P, tgt (Fin.natAdd E p) = word N)
    (hland : ∀ (e : Fin E) (n : Fin N), word n.val = tgt (Fin.castAdd P e) ↔ lands e n)
    (tab : Fin N → Fin M → EReal) (b : Fin M → EReal) :
    scatterCmp (N := N) tgt (gatherCmp src wtP tab) b = scatterOn lands (gatherAt pos wt tab) b :=
  scatterCmp_padded hN tgt (gatherCmp src wtP tab) b lands (gatherAt pos wt tab) hpad hland fun e f => by
    rw [gatherCmp_apply_of_word (le_of_lt hN) src wtP tab (Fin.castAdd P e) (pos e) (hsrc e) f, hwt e]
    rfl

end Cert.Spec

end
-- ==== Proof.KI.LinVal0.lean ====
import proofs.«158984_j43568148250937_1_alg».proof.Proof.Gen.KernelIdeal.Launch
import proofs.«158984_j43568148250937_1_alg».proof.Proof.Gen.KernelIdeal.Skeleton
import proofs.«158984_j43568148250937_1_alg».proof.Proof.KI.Sched
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«158984_j43568148250937_1_alg».proof.Proof.KI.Lin0
import proofs.«158984_j43568148250937_1_alg».proof.Proof.Math.Spec
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

local notation "𝕄" => MT nD τ sig Unit (Elt F) ℕ (UR sig nD τ) ℕ

/-! # Region 0 read at an entry: the dense layer of the arrays the region finds -/

-- the TensorCore's buffer contents when the region is entered, at the ideal values
variable (V : (c : Dev nD) → (b : Ref sig .tc) → Buf (Elt Ideal) ((c : Thread nD τ).loc b))

/-! ## The block product at an entry -/

/-- The body's payload at entry (r, f) of its block: the narrowing of the operands is the identity at the ideal values and
    the accumulator is the zero splat, so what is left is row `r` of the rows' block against column `f` of the weight,
    summed over the one contracted axis. -/
theorem pay0_apply (x : Vec Ideal S2000x256 .f32) (w : Vec Ideal S256x128 .f32) (r : Fin 2000) (f : Fin 128) :
    (k0_pay1 x w : S2000x128.Idx → EReal) (ix2 r f) = ∑ k : Fin 256, (x (ix2 r k) : EReal) * (w (ix2 k f) : EReal) := by
  unfold k0_pay1
  refine (Ideal.matmul_constant_zero_apply (φ₁ := .bf16) (φ₂ := .bf16) dot_S2000x256_S256x128_S2000x128_1_0_0_1_n_n none _ _ (ix2 r f)).trans ?_
  refine (Equiv.sum_comp (contrEquiv1 dot_S2000x256_S256x128_S2000x128_1_0_0_1_n_n 256 rfl rfl).symm _).symm.trans ?_
  refine Finset.sum_congr rfl fun k _ => ?_
  have ck := contrEquiv1_symm_val dot_S2000x256_S256x128_S2000x128_1_0_0_1_n_n 256 rfl rfl k
  have hl : dot_S2000x256_S256x128_S2000x128_1_0_0_1_n_n.lhsIdx (ix2 r f)
      ((contrEquiv1 dot_S2000x256_S256x128_S2000x128_1_0_0_1_n_n 256 rfl rfl).symm k) = ix2 r k := by
    funext ax; apply Fin.ext
    match ax with
    | ⟨0, _⟩ => simp [DotDims.lhsIdx, dot_S2000x256_S256x128_S2000x128_1_0_0_1_n_n]; rfl
    | ⟨1, _⟩ => simp [DotDims.lhsIdx, dot_S2000x256_S256x128_S2000x128_1_0_0_1_n_n]; exact ck
  have hr : dot_S2000x256_S256x128_S2000x128_1_0_0_1_n_n.rhsIdx (ix2 r f)
      ((contrEquiv1 dot_S2000x256_S256x128_S2000x128_1_0_0_1_n_n 256 rfl rfl).symm k) = ix2 k f := by
    funext ax; apply Fin.ext
    match ax with
    | ⟨0, _⟩ => simp [DotDims.rhsIdx, dot_S2000x256_S256x128_S2000x128_1_0_0_1_n_n]; exact ck
    | ⟨1, _⟩ => simp [DotDims.rhsIdx, dot_S2000x256_S256x128_S2000x128_1_0_0_1_n_n]; rfl
  rw [hl, hr]
  -- a reshape of a block to its own shape, where the body has one, is the identity
  try rw [shapeCast_self]
  rfl

/-! ## From blocks to the array -/

/-- The rows and the weight as the region finds them, -/
def rows0 (c : Dev nD) : S100000x256.Idx → EReal := V c (Pipeline.arrRef spec0 0)
def weight0 (c : Dev nD) : S256x128.Idx → EReal := V c (Pipeline.arrRef spec0 1)

/-- and their dense layer as one function of the output's index: entry (n, f) is row `n` of the rows against column `f`
    of the weight. -/
def lin0 (c : Dev nD) : S100000x128.Idx → EReal := fun i =>
  ∑ k : Fin 256, rows0 V c (ix2 (i 0 : Fin 100000) k) * weight0 V c (ix2 k (i 1 : Fin 128))

/-- The block indices: point `t` takes row block `t` of the rows and of the output, and the whole weight. -/
theorem idx_facts0 (t : Fin cfg0.N) : win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  ⟨congrFun (index0_0 t) 0, congrFun (index0_0 t) 1, congrFun (index0_1 t) 0, congrFun (index0_1 t) 1,
    congrFun (index0_2 t) 0, congrFun (index0_2 t) 1⟩

/-- What point `t` writes back is block `t` of the dense layer: the rows' block and the output's block sit at the same
    row offset, the weight's block is the whole weight, so entry (r, f) of the block product is entry
    (2000 t + r, f) of the layer. -/
theorem flushed0_eq (c : Dev nD) (t : Fin cfg0.N) :
    (dat0 (F := Ideal) V c).flushed 2 t = ((cfg0.win 2).blk t).view.read (Elt Ideal) (lin0 V c) := by
  show (cfg0.win 2).cut (grid0.coords t) ((dat0 (F := Ideal) V c).after 2 t) = _
  rw [after0_2]
  obtain ⟨e00, e01, e10, e11, e20, e21⟩ := idx_facts0 t
  refine funext fun (j : S2000x128.Idx) => ?_
  obtain ⟨r, f, rfl⟩ : ∃ (r : Fin 2000) (f : Fin 128), j = ix2 r f := ⟨j 0, j 1, eq_ix2 j⟩
  show (k0_pay1 (iblk0 V c 0 t) (iblk0 V c 1 t) : S2000x128.Idx → EReal) (ix2 r f)
    = lin0 V c (((cfg0.win 2).blk t).view.emb (ix2 r f))
  refine (pay0_apply _ _ r f).trans ?_
  unfold lin0
  refine Finset.sum_congr rfl fun k _ => ?_
  have h0 : ((cfg0.win 0).blk t).view.emb (ix2 r k) = ix2 ((((cfg0.win 2).blk t).view.emb (ix2 r f)) 0 : Fin 100000) k := by
    funext a; apply Fin.ext
    match a with
    | ⟨0, _⟩ => show win0_0.index t (0 : Fin 2) * 2000 + 1 * r.val = win0_2.index t (0 : Fin 2) * 2000 + 1 * r.val; omega
    | ⟨1, _⟩ => show win0_0.index t (1 : Fin 2) * 256 + 1 * k.val = k.val; omega
  have h1 : ((cfg0.win 1).blk t).view.emb (ix2 k f) = ix2 k ((((cfg0.win 2).blk t).view.emb (ix2 r f)) 1 : Fin 128) := by
    funext a; apply Fin.ext
    match a with
    | ⟨0, _⟩ => show win0_1.index t (0 : Fin 2) * 256 + 1 * k.val = k.val; omega
    | ⟨1, _⟩ => show win0_1.index t (1 : Fin 2) * 128 + 1 * f.val = win0_2.index t (1 : Fin 2) * 128 + 1 * f.val; omega
  show rows0 V c (((cfg0.win 0).blk t).view.emb (ix2 r k)) * weight0 V c (((cfg0.win 1).blk t).view.emb (ix2 k f)) = _
  rw [h0, h1]
  rfl

/-- An index of the output is in point `t`'s block iff each coordinate is in the block's range on its axis. -/
theorem mem_blk0 (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v39).slice (win0_2.rect t)).set ↔ _
  rw [View.set_slice_whole, Rect.mem_set_unit]
  exact Iff.rfl

/-- The fifty row blocks cover the output: row `n` is in the block of point `n / 2000`, which writes it back. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 2000 < cfg0.N := by show _ < grid0.N; rw [N_0]; omega
  obtain ⟨-, -, -, -, e20, e21⟩ := idx_facts0 ⟨(i 0).val / 2000, hN⟩
  have e20' : win0_2.index ⟨(i 0).val / 2000, hN⟩ (0 : Fin 2) = (i 0).val / 2000 := e20
  refine ⟨⟨(i 0).val / 2000, hN⟩, flush0_2 _, ?_⟩
  rw [mem_blk0]
  intro a
  match a with
  | ⟨0, _⟩ =>
    show win0_2.index ⟨(i 0).val / 2000, hN⟩ (0 : Fin 2) * 2000 ≤ (i 0).val
      ∧ (i 0).val < win0_2.index ⟨(i 0).val / 2000, hN⟩ (0 : Fin 2) * 2000 + 2000
    omega
  | ⟨1, _⟩ =>
    show win0_2.index ⟨(i 0).val / 2000, hN⟩ (1 : Fin 2) * 128 ≤ (i 1).val
      ∧ (i 1).val < win0_2.index ⟨(i 0).val / 2000, hN⟩ (1 : Fin 2) * 128 + 128
    omega

/-- After the region the output array holds the dense layer of the arrays it found. -/
theorem arr0_eq (c : Dev nD) : (dat0 (F := Ideal) V c).arrAt 2 cfg0.N = lin0 V c :=
  (dat0 (F := Ideal) V c).arrAt_eq_of_cover 2 (lin0 V c) (fun t _ => flushed0_eq V c t) cover0

/-- Entry (n, f) of the region's output is row `n` of the rows against column `f` of the weight. -/
theorem lin0_value (c : Dev nD) (n : Fin 100000) (f : Fin 128) :
    ((dat0 (F := Ideal) V c).arrAt 2 cfg0.N : S100000x128.Idx → EReal) (ValueIdx.ix2 n f)
      = Cert.Spec.lin (fun n k => (V c (Pipeline.arrRef spec0 0) : S100000x256.Idx → EReal) (ValueIdx.ix2 n k))
                      (fun k f => (V c (Pipeline.arrRef spec0 1) : S256x128.Idx → EReal) (ValueIdx.ix2 k f)) n f := by
  rw [arr0_eq]
  rfl

end Cert.KernelIdeal.Hand

end
-- ==== Proof.KI.GatVal1.lean ====
import proofs.«158984_j43568148250937_1_alg».proof.Proof.Gen.KernelIdeal.Launch
import proofs.«158984_j43568148250937_1_alg».proof.Proof.Gen.KernelIdeal.Skeleton
import proofs.«158984_j43568148250937_1_alg».proof.Proof.KI.Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«158984_j43568148250937_1_alg».proof.Proof.KI.Gat1
import proofs.«158984_j43568148250937_1_alg».proof.Proof.Math.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

open Idealize.ShloMosaic.ValueIdx
open scoped BigOperators

-- the same buffer contents at the ideal values
variable (W : (c : Dev nD) → (b : Ref sig .tc) → Buf (Elt Ideal) ((c : Thread nD τ).loc b))

/-! # Region 1, read as a value: what the gather leaves in its output array

The accumulator after grid position n (edge block n / 50, node block n % 50) holds, at edge row p and feature q, the sum over the node
numbers m below 2000 · (n % 50 + 1) of (1 if the edge's index word is m, else 0) · table[m, q]; at node block 49 that is the sum over all
100000 nodes, and the stored block is that times the edge's weight. -/

/-! ## Sums over the node numbers below a bound -/

/-- A sum over the indices below a + b splits into the part below a and the b terms from a on. -/
theorem sum_below_add1 {M : Type*} [AddCommMonoid M] {N : ℕ} (G : Fin N → M) (a : ℕ) :
    ∀ (b : ℕ) (hab : a + b ≤ N),
      (∑ m : Fin N, if m.val < a + b then G m else 0)
        = (∑ m : Fin N, if m.val < a then G m else 0) + ∑ r : Fin b, G ⟨a + r.val, by have := r.isLt; omega⟩
  | 0, _ => by simp
  | b + 1, hab => by
    have ih := sum_below_add1 G a b (by omega)
    have hlt : a + b < N := by omega
    have e : ∀ m : Fin N, (if m.val < a + (b + 1) then G m else 0)
        = (if m.val < a + b then G m else 0) + (if m = ⟨a + b, hlt⟩ then G m else 0) := by
      intro m
      by_cases h1 : m.val < a + b
      · have h2 : m.val < a + (b + 1) := by omega
        have h3 : m ≠ ⟨a + b, hlt⟩ := fun h => by rw [h] at h1; exact absurd h1 (lt_irrefl _)
        rw [if_pos h1, if_pos h2, if_neg h3, add_zero]
      · by_cases h3 : m = ⟨a + b, hlt⟩
        · have h2 : m.val < a + (b + 1) := by rw [h3]; show a + b < a + (b + 1); omega
          rw [if_neg h1, if_pos h2, if_pos h3, zero_add]
        · have h2 : ¬ m.val < a + (b + 1) := fun h => h3 (Fin.ext (by show m.val = a + b; omega))
          rw [if_neg h1, if_neg h2, if_neg h3, add_zero]
    have step : (∑ m : Fin N, if m.val < a + (b + 1) then G m else 0)
        = (∑ m : Fin N, if m.val < a + b then G m else 0) + G ⟨a + b, hlt⟩ := by
      rw [Finset.sum_congr rfl (fun m _ => e m), Finset.sum_add_distrib, Finset.sum_ite_eq' Finset.univ ⟨a + b, hlt⟩ G,
        if_pos (Finset.mem_univ _)]
    rw [step, ih, Fin.sum_univ_castSucc, add_assoc]
    rfl

/-- Below the zeroth node block there is nothing to sum. -/
theorem sum_below_zero1 (G : Fin 100000 → EReal) (j : ℕ) (hj : j = 0) :
    (∑ m : Fin 100000, if m.val < 2000 * j then G m else 0) = 0 := by
  subst hj
  exact Finset.sum_eq_zero fun m _ => if_neg (by omega)

/-- One more node block: the sum below 2000 · j plus the block's 2000 terms is the sum below 2000 · (j + 1). -/
theorem sum_below_block1 (G : Fin 100000 → EReal) (j : ℕ) (hj : j < 50) (prev : EReal)
    (hprev : prev = ∑ m : Fin 100000, if m.val < 2000 * j then G m else 0) :
    prev + ∑ r : Fin 2000, G ⟨2000 * j + r.val, by have := r.isLt; omega⟩
      = ∑ m : Fin 100000, if m.val < 2000 * (j + 1) then G m else 0 := by
  rw [hprev, show 2000 * (j + 1) = 2000 * j + 2000 from by omega, sum_below_add1 G (2000 * j) 2000 (by omega)]

/-! ## The one-hot product at an index -/

theorem lhs_dot1_0 (i : S2048x128.Idx) (q : dot_S2048x2000_S2000x128_S2048x128_1_0_0_1_n_n.contr.Idx) :
    (dot_S2048x2000_S2000x128_S2048x128_1_0_0_1_n_n.lhsIdx i q 0).val = (i 0).val := by
  unfold DotDims.lhsIdx
  rw [dif_neg (show ¬(0 : Fin S2048x2000.rank) ∈ dot_S2048x2000_S2000x128_S2048x128_1_0_0_1_n_n.lhsBatch by decide),
    dif_pos (show (0 : Fin S2048x2000.rank) ∈ dot_S2048x2000_S2000x128_S2048x128_1_0_0_1_n_n.lhsNonContracting by decide)]
  rfl
theorem lhs_dot1_1 (i : S2048x128.Idx) (q : dot_S2048x2000_S2000x128_S2048x128_1_0_0_1_n_n.contr.Idx) :
    (dot_S2048x2000_S2000x128_S2048x128_1_0_0_1_n_n.lhsIdx i q 1).val = (q ⟨0, by decide⟩).val :=
  dot_S2048x2000_S2000x128_S2048x128_1_0_0_1_n_n.lhsIdx_val_of_single rfl i q
theorem rhs_dot1_0 (i : S2048x128.Idx) (q : dot_S2048x2000_S2000x128_S2048x128_1_0_0_1_n_n.contr.Idx) :
    (dot_S2048x2000_S2000x128_S2048x128_1_0_0_1_n_n.rhsIdx i q 0).val = (q ⟨0, by decide⟩).val :=
  dot_S2048x2000_S2000x128_S2048x128_1_0_0_1_n_n.rhsIdx_val_of_single rfl i q
theorem rhs_dot1_1 (i : S2048x128.Idx) (q : dot_S2048x2000_S2000x128_S2048x128_1_0_0_1_n_n.contr.Idx) :
    (dot_S2048x2000_S2000x128_S2048x128_1_0_0_1_n_n.rhsIdx i q 1).val = (i 1).val := by
  unfold DotDims.rhsIdx
  rw [dif_neg (show ¬(1 : Fin S2000x128.rank) ∈ dot_S2048x2000_S2000x128_S2048x128_1_0_0_1_n_n.rhsBatch by decide),
    dif_pos (show (1 : Fin S2000x128.rank) ∈ dot_S2048x2000_S2000x128_S2048x128_1_0_0_1_n_n.rhsNonContracting by decide)]
  rfl

/-- The product into the zero accumulator, read at (p, q): the sum over the 2000 contracted positions. -/
theorem mm_apply1 (A : FVec Ideal S2048x2000 .bf16) (B : FVec Ideal S2000x128 .bf16) (p : Fin 2048) (q : Fin 128) :
    matmul dot_S2048x2000_S2000x128_S2048x128_1_0_0_1_n_n none A B (constant (F := Ideal) S2048x128 .f32 0x00000000#32) (ix2 p q)
      = ∑ r : Fin 2000, A (ix2 p r) * B (ix2 r q) := by
  simp only [matmul]
  rw [Ideal.matmul_constant_zero_apply, ← Equiv.sum_comp (contrEquiv1 dot_S2048x2000_S2000x128_S2048x128_1_0_0_1_n_n 2000 rfl rfl).symm]
  refine Finset.sum_congr rfl fun k _ => ?_
  have hk := contrEquiv1_symm_val dot_S2048x2000_S2000x128_S2048x128_1_0_0_1_n_n 2000 rfl rfl k
  have el : dot_S2048x2000_S2000x128_S2048x128_1_0_0_1_n_n.lhsIdx (ix2 p q)
      ((contrEquiv1 dot_S2048x2000_S2000x128_S2048x128_1_0_0_1_n_n 2000 rfl rfl).symm k) = ix2 p k := funext fun a => Fin.ext (by
    match a with
    | ⟨0, _⟩ => exact lhs_dot1_0 _ _
    | ⟨1, _⟩ => exact (lhs_dot1_1 _ _).trans hk)
  have er : dot_S2048x2000_S2000x128_S2048x128_1_0_0_1_n_n.rhsIdx (ix2 p q)
      ((contrEquiv1 dot_S2048x2000_S2000x128_S2048x128_1_0_0_1_n_n 2000 rfl rfl).symm k) = ix2 k q := funext fun a => Fin.ext (by
    match a with
    | ⟨0, _⟩ => exact (rhs_dot1_0 _ _).trans hk
    | ⟨1, _⟩ => exact rhs_dot1_1 _ _)
  rw [el, er]

/-! ## The payloads at an index -/

/-- A one-bit compare of two words is 1 exactly when the words are equal. -/
theorem cmpi_eq_one1 (x y : BitVec 32) : IntOp.cmpi .eq x y = 1#1 ↔ x = y := by
  unfold IntOp.cmpi
  by_cases h : x = y
  · subst h; simp
  · have hb : (x == y) = false := by simp [h]
    simp only [hb]
    exact iff_of_false (by decide) h

/-- Entry (p, r) of the one-hot matrix of node block j: 1 when edge p's index word is node 2000 · j + r, else 0. -/
theorem onehot_apply1 (j : ℕ) (v7 : IVec S2048x1 32) (p : Fin 2048) (r : Fin 2000) :
    select (cmpi .eq (broadcastTo S2048x2000 v7 broadcasts_S2048x1_S2048x2000)
        (broadcastTo S2048x2000 (addi (broadcast S1x2000 (Scalar.muli (BitVec.ofNat 32 j) 2000#32)) (iota .tc S1x2000 32 [1] iota_S1x2000_d1_w32))
          broadcasts_S1x2000_S2048x2000))
      (broadcast S2048x2000 (Ideal.ofBits .f32 0x3F800000#32)) (broadcast S2048x2000 (Ideal.ofBits .f32 0x00000000#32)) (ix2 p r)
      = if v7 (ix2 p 0) = BitVec.ofNat 32 (2000 * j + r.val) then (1 : EReal) else 0 := by
  have e9 : broadcastTo S2048x2000 v7 broadcasts_S2048x1_S2048x2000 (ix2 p r) = v7 (ix2 p 0) :=
    broadcastTo_apply v7 _ (ix2 p r) (ix2 p 0) (fun a => by match a with | ⟨0, _⟩ => rfl | ⟨1, _⟩ => rfl)
  have e10 : broadcastTo S2048x2000 (addi (broadcast S1x2000 (Scalar.muli (BitVec.ofNat 32 j) 2000#32)) (iota .tc S1x2000 32 [1] iota_S1x2000_d1_w32))
      broadcasts_S1x2000_S2048x2000 (ix2 p r)
      = addi (broadcast S1x2000 (Scalar.muli (BitVec.ofNat 32 j) 2000#32)) (iota .tc S1x2000 32 [1] iota_S1x2000_d1_w32) (ix2 0 r) :=
    broadcastTo_apply _ _ (ix2 p r) (ix2 0 r) (fun a => by match a with | ⟨0, _⟩ => rfl | ⟨1, _⟩ => rfl)
  have e6 : addi (broadcast S1x2000 (Scalar.muli (BitVec.ofNat 32 j) 2000#32)) (iota .tc S1x2000 32 [1] iota_S1x2000_d1_w32) (ix2 (0 : Fin 1) r)
      = BitVec.ofNat 32 (2000 * j + r.val) := by
    show IntOp.addi (Scalar.muli (BitVec.ofNat 32 j) 2000#32) (iota .tc S1x2000 32 [1] iota_S1x2000_d1_w32 (ix2 (0 : Fin 1) r)) = _
    rw [iota_single_apply]
    show BitVec.ofNat 32 j * BitVec.ofNat 32 2000 + BitVec.ofNat 32 r.val = _
    rw [BitVec.ofNat_add, BitVec.ofNat_mul, BitVec.mul_comm]
  show Scalar.select (IntOp.cmpi .eq (broadcastTo S2048x2000 v7 broadcasts_S2048x1_S2048x2000 (ix2 p r))
      (broadcastTo S2048x2000 (addi (broadcast S1x2000 (Scalar.muli (BitVec.ofNat 32 j) 2000#32)) (iota .tc S1x2000 32 [1] iota_S1x2000_d1_w32))
        broadcasts_S1x2000_S2048x2000 (ix2 p r))) (Ideal.ofBits .f32 0x3F800000#32) (Ideal.ofBits .f32 0x00000000#32) = _
  rw [e9, e10, e6]
  unfold Scalar.select
  exact if_congr (cmpi_eq_one1 _ _) Ideal.ofBits_one_f32 Ideal.ofBits_zero_f32

/-- The zero block. -/
theorem k1_pay1_apply (i : S2048x128.Idx) : k1_pay1 (F := Ideal) i = 0 := by
  unfold k1_pay1
  simp only [shapeCast_self]
  exact Ideal.ofBits_zero_f32

/-- The accumulator update at (p, q): the accumulator there plus, over the 2000 nodes of the point's node block, the node's row entry
    where the edge's index word is the node's number. -/
theorem k1_pay2_apply (i : grid1.Coords) (v7 : Vec Ideal S2048x1 .i32) (v16 : Vec Ideal S2000x128 .f32) (v19 : Vec Ideal S2048x128 .f32)
    (p : Fin 2048) (q : Fin 128) :
    k1_pay2 (F := Ideal) i v7 v16 v19 (ix2 p q)
      = v19 (ix2 p q) + ∑ r : Fin 2000, (if v7 (ix2 p 0) = BitVec.ofNat 32 (2000 * (i 1).val + r.val) then (1 : EReal) else 0) * v16 (ix2 r q) := by
  unfold k1_pay2
  simp only [shapeCast_self]
  refine (addf_apply _ _ _).trans ?_
  refine congrArg (v19 (ix2 p q) + ·) ?_
  refine (mm_apply1 _ _ p q).trans ?_
  refine Finset.sum_congr rfl fun r _ => ?_
  refine congrArg (· * v16 (ix2 r q)) ?_
  exact onehot_apply1 (i 1).val v7 p r

/-- The stored block at (p, q): the accumulator there times edge p's weight. -/
theorem k1_pay3_apply (v28 : Vec Ideal S2048x128 .f32) (v29 : Vec Ideal S2048x1 .f32) (p : Fin 2048) (q : Fin 128) :
    k1_pay3 (F := Ideal) v28 v29 (ix2 p q) = v28 (ix2 p q) * v29 (ix2 p 0) := by
  unfold k1_pay3
  simp only [shapeCast_self]
  refine (mulf_apply _ _ _).trans ?_
  refine congrArg (v28 (ix2 p q) * ·) ?_
  exact broadcastTo_apply v29 _ (ix2 p q) (ix2 p 0) (fun a => by match a with | ⟨0, _⟩ => rfl | ⟨1, _⟩ => rfl)

/-! ## Where each block sits in its array -/

theorem lt_N1 (t : Fin cfg1.N) : t.val < 41550 := by
  have h := t.isLt
  have hN : cfg1.N = 41550 := N_1
  omega

/-- The block indices of the four windows, axis by axis: the index, weight and output blocks move with the edge block t / 50, the
    table block with the node block t % 50. -/
theorem widx1_0_0 (t : Fin cfg1.N) : win1_0.index t (0 : Fin 2) = t.val / 50 := congrFun (index1_0 t) 0
theorem widx1_0_1 (t : Fin cfg1.N) : win1_0.index t (1 : Fin 2) = 0 := congrFun (index1_0 t) 1
theorem widx1_1_0 (t : Fin cfg1.N) : win1_1.index t (0 : Fin 2) = t.val / 50 := congrFun (index1_1 t) 0
theorem widx1_1_1 (t : Fin cfg1.N) : win1_1.index t (1 : Fin 2) = 0 := congrFun (index1_1 t) 1
theorem widx1_2_0 (t : Fin cfg1.N) : win1_2.index t (0 : Fin 2) = t.val % 50 := congrFun (index1_2 t) 0
theorem widx1_2_1 (t : Fin cfg1.N) : win1_2.index t (1 : Fin 2) = 0 := congrFun (index1_2 t) 1
theorem widx1_3_0 (t : Fin cfg1.N) : win1_3.index t (0 : Fin 2) = t.val / 50 := congrFun (index1_3 t) 0
theorem widx1_3_1 (t : Fin cfg1.N) : win1_3.index t (1 : Fin 2) = 0 := congrFun (index1_3 t) 1

/-- The index block at point t is rows 2048 · (t / 50) … of the index array. -/
theorem blk1_0_apply (c : Dev nD) (t : Fin cfg1.N) (x : S2048x1.Idx) (k : S1701888x1.Idx)
    (hk0 : (k 0).val = 2048 * (t.val / 50) + (x 0).val) (hk1 : (k 1).val = (x 1).val) :
    (iblk1 V c 0 t : Vec F S2048x1 .i32) x = (V c (Pipeline.arrRef spec1 0) : S1701888x1.Idx → Elt F .i32) k := by
  unfold iblk1
  rw [View.read_apply]
  show (V c (Pipeline.arrRef spec1 0) : S1701888x1.Idx → Elt F .i32) _ = (V c (Pipeline.arrRef spec1 0) : S1701888x1.Idx → Elt F .i32) k
  congr 1
  funext a
  apply Fin.ext
  match a with
  | ⟨0, _⟩ => show win1_0.index t (0 : Fin 2) * 2048 + 1 * (x 0).val = (k 0).val; rw [widx1_0_0, hk0]; omega
  | ⟨1, _⟩ => show win1_0.index t (1 : Fin 2) * 1 + 1 * (x 1).val = (k 1).val; rw [widx1_0_1, hk1]; omega

/-- The weight block at point t is the same rows of the weight array. -/
theorem blk1_1_apply (c : Dev nD) (t : Fin cfg1.N) (x : S2048x1.Idx) (k : S1701888x1.Idx)
    (hk0 : (k 0).val = 2048 * (t.val / 50) + (x 0).val) (hk1 : (k 1).val = (x 1).val) :
    (iblk1 V c 1 t : Vec F S2048x1 .f32) x = (V c (Pipeline.arrRef spec1 1) : S1701888x1.Idx → Elt F .f32) k := by
  unfold iblk1
  rw [View.read_apply]
  show (V c (Pipeline.arrRef spec1 1) : S1701888x1.Idx → Elt F .f32) _ = (V c (Pipeline.arrRef spec1 1) : S1701888x1.Idx → Elt F .f32) k
  congr 1
  funext a
  apply Fin.ext
  match a with
  | ⟨0, _⟩ => show win1_1.index t (0 : Fin 2) * 2048 + 1 * (x 0).val = (k 0).val; rw [widx1_1_0, hk0]; omega
  | ⟨1, _⟩ => show win1_1.index t (1 : Fin 2) * 1 + 1 * (x 1).val = (k 1).val; rw [widx1_1_1, hk1]; omega

/-- The table block at point t is rows 2000 · (t % 50) … of the table. -/
theorem blk1_2_apply (c : Dev nD) (t : Fin cfg1.N) (x : S2000x128.Idx) (k : S100000x128.Idx)
    (hk0 : (k 0).val = 2000 * (t.val % 50) + (x 0).val) (hk1 : (k 1).val = (x 1).val) :
    (iblk1 V c 2 t : Vec F S2000x128 .f32) x = (V c (Pipeline.arrRef spec1 2) : S100000x128.Idx → Elt F .f32) k := by
  unfold iblk1
  rw [View.read_apply]
  show (V c (Pipeline.arrRef spec1 2) : S100000x128.Idx → Elt F .f32) _ = (V c (Pipeline.arrRef spec1 2) : S100000x128.Idx → Elt F .f32) k
  congr 1
  funext a
  apply Fin.ext
  match a with
  | ⟨0, _⟩ => show win1_2.index t (0 : Fin 2) * 2000 + 1 * (x 0).val = (k 0).val; rw [widx1_2_0, hk0]; omega
  | ⟨1, _⟩ => show win1_2.index t (1 : Fin 2) * 128 + 1 * (x 1).val = (k 1).val; rw [widx1_2_1, hk1]; omega

/-! ## The accumulator -/

/-- Edge e's term for node m at feature q: the node's row entry where the edge's index word is the node's number, else nothing. -/
abbrev term1 (c : Dev nD) (e : Fin 1701888) (q : Fin 128) (m : Fin 100000) : EReal :=
  (if (W c (Pipeline.arrRef spec1 0) : S1701888x1.Idx → BitVec 32) (ix2 e 0) = BitVec.ofNat 32 m.val then (1 : EReal) else 0)
    * (W c (Pipeline.arrRef spec1 2) : S100000x128.Idx → EReal) (ix2 m q)

theorem acc1_at_zero (c : Dev nD) (h : 0 < cfg1.N) :
    acc1 V c 0 h = k1_pay2 (grid1.coords ⟨0, h⟩) (iblk1 V c 0 ⟨0, h⟩) (iblk1 V c 2 ⟨0, h⟩) (k1_pay1 (F := F)) := rfl

theorem acc1_at_succ (c : Dev nD) (n : ℕ) (h : n + 1 < cfg1.N) :
    acc1 V c (n + 1) h = k1_pay2 (grid1.coords ⟨n + 1, h⟩) (iblk1 V c 0 ⟨n + 1, h⟩) (iblk1 V c 2 ⟨n + 1, h⟩)
      (if (n + 1) % 50 = 0 then k1_pay1 (F := F) else acc1 V c n (Nat.lt_of_succ_lt h)) := rfl

/-- One point's update at (p, q), whatever the accumulator held: the 2000 terms of the point's node block are added. -/
theorem acc1_gain (c : Dev nD) (n : ℕ) (h : n < cfg1.N) (prev : Vec Ideal S2048x128 .f32) (p : Fin 2048) (q : Fin 128)
    (e : Fin 1701888) (he : e.val = 2048 * (n / 50) + p.val) :
    k1_pay2 (F := Ideal) (grid1.coords ⟨n, h⟩) (iblk1 W c 0 ⟨n, h⟩) (iblk1 W c 2 ⟨n, h⟩) prev (ix2 p q)
      = prev (ix2 p q) + ∑ r : Fin 2000, term1 W c e q ⟨2000 * (n % 50) + r.val, by
          have := r.isLt; have := Nat.mod_lt n (show 0 < 50 by decide); omega⟩ := by
  refine (k1_pay2_apply (grid1.coords ⟨n, h⟩) (iblk1 W c 0 ⟨n, h⟩) (iblk1 W c 2 ⟨n, h⟩) prev p q).trans ?_
  refine congrArg (prev (ix2 p q) + ·) ?_
  refine Finset.sum_congr rfl fun r _ => ?_
  have hr : (r.val : ℕ) < 2000 := r.isLt
  have hm : n % 50 < 50 := Nat.mod_lt n (by decide)
  have e0 : (iblk1 W c 0 ⟨n, h⟩ : Vec Ideal S2048x1 .i32) (ix2 p 0)
      = (W c (Pipeline.arrRef spec1 0) : S1701888x1.Idx → BitVec 32) (ix2 e 0) :=
    blk1_0_apply W c ⟨n, h⟩ (ix2 p 0) (ix2 e 0) he rfl
  have e2 : (iblk1 W c 2 ⟨n, h⟩ : Vec Ideal S2000x128 .f32) (ix2 r q)
      = (W c (Pipeline.arrRef spec1 2) : S100000x128.Idx → EReal) (ix2 (⟨2000 * (n % 50) + r.val, by omega⟩ : Fin 100000) q) :=
    blk1_2_apply W c ⟨n, h⟩ (ix2 r q) (ix2 (⟨2000 * (n % 50) + r.val, by omega⟩ : Fin 100000) q) rfl rfl
  rw [e0, e2, coord1_1 ⟨n, h⟩]

/-- THE ACCUMULATOR after position n, at edge row p and feature q: the sum of the edge's terms over the node numbers below
    2000 · (n % 50 + 1). By induction on the position: node block 0 starts from the zero block, every other from the point before,
    which is in the same edge block. -/
theorem acc1_apply (c : Dev nD) : ∀ (n : ℕ) (h : n < cfg1.N) (p : Fin 2048) (q : Fin 128) (e : Fin 1701888)
    (he : e.val = 2048 * (n / 50) + p.val),
    acc1 (F := Ideal) W c n h (ix2 p q) = ∑ m : Fin 100000, if m.val < 2000 * (n % 50 + 1) then term1 W c e q m else 0
  | 0, h, p, q, e, he => by
    rw [acc1_at_zero]
    refine (acc1_gain W c 0 h (k1_pay1 (F := Ideal)) p q e he).trans ?_
    refine sum_below_block1 (term1 W c e q) (0 % 50) (Nat.mod_lt _ (by decide)) _ ?_
    rw [k1_pay1_apply]
    exact (sum_below_zero1 _ _ rfl).symm
  | n + 1, h, p, q, e, he => by
    rw [acc1_at_succ]
    refine (acc1_gain W c (n + 1) h _ p q e he).trans ?_
    refine sum_below_block1 (term1 W c e q) ((n + 1) % 50) (Nat.mod_lt _ (by decide)) _ ?_
    by_cases hz : (n + 1) % 50 = 0
    · rw [if_pos hz, k1_pay1_apply]
      exact (sum_below_zero1 _ _ hz).symm
    · rw [if_neg hz]
      have he' : e.val = 2048 * (n / 50) + p.val := by omega
      rw [acc1_apply c n (Nat.lt_of_succ_lt h) p q e he', show n % 50 + 1 = (n + 1) % 50 from by omega]

/-! ## The output array -/

/-- What the output array ends holding: at edge e and feature f the comparison gather of the three arrays the region reads. -/
abbrev gathered1 (c : Dev nD) : Vec Ideal S1701888x128 .f32 := fun i =>
  Cert.Spec.gatherCmp (N := 100000)
    (fun e => (W c (Pipeline.arrRef spec1 0) : S1701888x1.Idx → BitVec 32) (ix2 e 0))
    (fun e => (W c (Pipeline.arrRef spec1 1) : S1701888x1.Idx → EReal) (ix2 e 0))
    (fun n f => (W c (Pipeline.arrRef spec1 2) : S100000x128.Idx → EReal) (ix2 n f)) (i 0) (i 1)

/-- At an index with coordinates (e, f): the sum of edge e's terms over all nodes, times the edge's weight. -/
theorem out1_apply (c : Dev nD) (k : S1701888x128.Idx) (e : Fin 1701888) (f : Fin 128) (h0 : (k 0).val = e.val) (h1 : (k 1).val = f.val) :
    gathered1 W c k = (∑ m : Fin 100000, term1 W c e f m) * (W c (Pipeline.arrRef spec1 1) : S1701888x1.Idx → EReal) (ix2 e 0) := by
  obtain rfl : k = ix2 e f := Shape.idx_ext₂ h0 h1
  rfl

/-- WHAT A FLUSHING POINT WRITES BACK (node block 49 of edge block t / 50) is its block of that array. -/
theorem flushed1_eq (c : Dev nD) (t : Fin cfg1.N) (hf : (cfg1.win 3).flush t = true) :
    (dat1 (F := Ideal) W c).flushed 3 t = ((cfg1.win 3).blk t).view.read (Elt Ideal) (gathered1 W c) := by
  have h49 : t.val % 50 = 49 := (flush1_3 t).mp hf
  have ht := lt_N1 t
  show (cfg1.win 3).cut (grid1.coords t) ((dat1 (F := Ideal) W c).after 3 t) = _
  rw [after1_3]
  funext y
  obtain ⟨p, q, rfl⟩ : ∃ (p : Fin 2048) (q : Fin 128), y = ix2 p q := ⟨y 0, y 1, eq_ix2 y⟩
  show k1_pay3 (F := Ideal) (acc1 W c t.val t.isLt) (iblk1 W c 1 t) (ix2 p q) = gathered1 W c (((cfg1.win 3).blk t).view.emb (ix2 p q))
  have hp : (p.val : ℕ) < 2048 := p.isLt
  have he : ((⟨2048 * (t.val / 50) + p.val, by omega⟩ : Fin 1701888)).val = 2048 * (t.val / 50) + p.val := rfl
  refine (k1_pay3_apply (acc1 W c t.val t.isLt) (iblk1 W c 1 t) p q).trans ?_
  rw [acc1_apply W c t.val t.isLt p q ⟨2048 * (t.val / 50) + p.val, by omega⟩ he,
    blk1_1_apply W c t (ix2 p 0) (ix2 (⟨2048 * (t.val / 50) + p.val, by omega⟩ : Fin 1701888) 0) rfl rfl]
  refine Eq.trans ?_ (out1_apply W c _ ⟨2048 * (t.val / 50) + p.val, by omega⟩ q
    (by show win1_3.index t (0 : Fin 2) * 2048 + 1 * p.val = 2048 * (t.val / 50) + p.val; rw [widx1_3_0]; omega)
    (by show win1_3.index t (1 : Fin 2) * 128 + 1 * q.val = q.val; rw [widx1_3_1]; omega)).symm
  have key : (∑ m : Fin 100000, if m.val < 2000 * (t.val % 50 + 1) then term1 W c ⟨2048 * (t.val / 50) + p.val, by omega⟩ q m else 0)
      = ∑ m : Fin 100000, term1 W c ⟨2048 * (t.val / 50) + p.val, by omega⟩ q m :=
    Finset.sum_congr rfl fun m _ => if_pos (by have hm : (m.val : ℕ) < 100000 := m.isLt; omega)
  rw [key]

/-- An index of the array is in point t's block iff each coordinate is in the block's range on its axis. -/
theorem mem_blk1 (t : Fin cfg1.N) (i : S1701888x128.Idx) :
    i ∈ ((cfg1.win 3).blk t).view.set ↔ ∀ a : Fin 2, win1_3.index t a * S2048x128.size a ≤ (i a).val
      ∧ (i a).val < win1_3.index t a * S2048x128.size a + S2048x128.size a := by
  show i ∈ ((View.whole main_v40).slice (win1_3.rect t)).set ↔ _
  rw [View.set_slice_whole, Rect.mem_set_unit]
  exact Iff.rfl

/-- Every index of the array is in the block of a flushing point: edge row r is in edge block r / 2048, written back at that block's
    node block 49 (2048 · 831 = 1701888 rows). -/
theorem cover1 (i : S1701888x128.Idx) :
    ∃ t : Fin cfg1.N, (cfg1.win 3).flush t = true ∧ i ∈ ((cfg1.win 3).blk t).view.set := by
  have hi0 : (i 0).val < 1701888 := (i 0).isLt
  have hi1 : (i 1).val < 128 := (i 1).isLt
  have hN : cfg1.N = 41550 := N_1
  have ht : 50 * ((i 0).val / 2048) + 49 < cfg1.N := by omega
  refine ⟨⟨50 * ((i 0).val / 2048) + 49, ht⟩, (flush1_3 _).mpr (by show (50 * ((i 0).val / 2048) + 49) % 50 = 49; omega), ?_⟩
  rw [mem_blk1]
  intro a
  match a with
  | ⟨0, _⟩ =>
    show win1_3.index ⟨50 * ((i 0).val / 2048) + 49, ht⟩ (0 : Fin 2) * 2048 ≤ (i 0).val
      ∧ (i 0).val < win1_3.index ⟨50 * ((i 0).val / 2048) + 49, ht⟩ (0 : Fin 2) * 2048 + 2048
    rw [widx1_3_0]
    show (50 * ((i 0).val / 2048) + 49) / 50 * 2048 ≤ (i 0).val ∧ (i 0).val < (50 * ((i 0).val / 2048) + 49) / 50 * 2048 + 2048
    omega
  | ⟨1, _⟩ =>
    show win1_3.index ⟨50 * ((i 0).val / 2048) + 49, ht⟩ (1 : Fin 2) * 128 ≤ (i 1).val
      ∧ (i 1).val < win1_3.index ⟨50 * ((i 0).val / 2048) + 49, ht⟩ (1 : Fin 2) * 128 + 128
    rw [widx1_3_1]
    omega

/-- THE GATHER'S VALUE: the output array of region 1 ends holding, at edge e and feature f, the comparison gather of the index words,
    the weights and the table as the region finds them. -/
theorem gat1_value (V : (c : Dev nD) → (b : Ref sig .tc) → Buf (Elt Ideal) ((c : Thread nD τ).loc b)) (c : Dev nD) (e : Fin 1701888) (f : Fin 128) :
    ((dat1 (F := Ideal) V c).arrAt 3 cfg1.N : S1701888x128.Idx → EReal) (ValueIdx.ix2 e f)
      = Cert.Spec.gatherCmp (N := 100000)
          (fun e => (V c (Pipeline.arrRef spec1 0) : S1701888x1.Idx → BitVec 32) (ValueIdx.ix2 e 0))
          (fun e => (V c (Pipeline.arrRef spec1 1) : S1701888x1.Idx → EReal) (ValueIdx.ix2 e 0))
          (fun n f => (V c (Pipeline.arrRef spec1 2) : S100000x128.Idx → EReal) (ValueIdx.ix2 n f)) e f :=
  congrFun ((dat1 (F := Ideal) V c).arrAt_eq_of_cover 3 (gathered1 V c) (fun t hf => flushed1_eq V c t hf) cover1) (ix2 e f)

end Cert.KernelIdeal.Hand

end
-- ==== Proof.KI.ScaVal2A.lean ====
import proofs.«158984_j43568148250937_1_alg».proof.Proof.Gen.KernelIdeal.Launch
import proofs.«158984_j43568148250937_1_alg».proof.Proof.Gen.KernelIdeal.Skeleton
import proofs.«158984_j43568148250937_1_alg».proof.Proof.KI.Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«158984_j43568148250937_1_alg».proof.Proof.KI.Sca2
import proofs.«158984_j43568148250937_1_alg».proof.Proof.Math.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

open Idealize.ShloMosaic.ValueIdx
open scoped BigOperators

/-! # Region 2, read: what the scatter leaves in its output array, at the extended reals

Grid position `t` is node block `t / 831` (2000 nodes) and edge block `t % 831` (2048 edges). Node `n`'s row of the
result is the sum, over ALL 831 · 2048 = 1701888 edges, of (1 if the edge's index word is `n`'s, else 0) times the
edge's row of values, then the bias row, then the maximum with 0. The accumulator reaches that sum one edge block at a
time: after edge block `j` it holds the terms of the edges numbered below 2048 · (j + 1). -/

/-! ## Sums over the edges numbered below a bound -/

/-- The sum of the terms of the edges numbered below `b` (the index type fixed: at `b` = 1701888 it is the whole sum). -/
def below2 (g : Fin 1701888 → EReal) (b : ℕ) : EReal := ∑ e : Fin 1701888, if e.val < b then g e else 0

theorem below2_zero (g : Fin 1701888 → EReal) : below2 g 0 = 0 :=
  Finset.sum_eq_zero fun e _ => if_neg (Nat.not_lt_zero _)

theorem below2_all (g : Fin 1701888 → EReal) : below2 g 1701888 = ∑ e, g e :=
  Finset.sum_congr rfl fun e _ => if_pos e.isLt

/-- Edge `e'` of edge block `j`. -/
def edge2 (j : ℕ) (hj : j < 831) (e' : Fin 2048) : Fin 1701888 := ⟨2048 * j + e'.val, by have := e'.isLt; omega⟩

/-- One more edge block: the edges below 2048 · (j + 1) are those below 2048 · j and the 2048 of block `j`. -/
theorem below2_step (g : Fin 1701888 → EReal) (j : ℕ) (hj : j < 831) :
    below2 g (2048 * (j + 1)) = below2 g (2048 * j) + ∑ e' : Fin 2048, g (edge2 j hj e') := by
  have hsplit : ∀ e : Fin 1701888, (if e.val < 2048 * (j + 1) then g e else 0)
      = (if e.val < 2048 * j then g e else 0) + (if 2048 * j ≤ e.val ∧ e.val < 2048 * (j + 1) then g e else 0) := by
    intro e
    by_cases h1 : e.val < 2048 * j
    · rw [if_pos (by omega), if_pos h1, if_neg (by omega), add_zero]
    · by_cases h2 : e.val < 2048 * (j + 1)
      · rw [if_pos h2, if_neg h1, if_pos ⟨by omega, h2⟩, zero_add]
      · rw [if_neg h2, if_neg h1, if_neg (by omega), add_zero]
  unfold below2
  rw [Finset.sum_congr rfl (fun e _ => hsplit e), Finset.sum_add_distrib]
  refine congrArg (fun x => (∑ e : Fin 1701888, if e.val < 2048 * j then g e else 0) + x) ?_
  rw [← Finset.sum_filter]
  have hinj : Function.Injective (edge2 j hj) := fun a b h => by
    have := congrArg Fin.val h
    simp only [edge2] at this
    exact Fin.ext (by omega)
  have hmap : Finset.univ.filter (fun e : Fin 1701888 => 2048 * j ≤ e.val ∧ e.val < 2048 * (j + 1))
      = Finset.univ.map ⟨edge2 j hj, hinj⟩ := by
    ext e
    simp only [Finset.mem_filter, Finset.mem_univ, true_and, Finset.mem_map, Function.Embedding.coeFn_mk]
    constructor
    · intro h
      exact ⟨⟨e.val - 2048 * j, by omega⟩, Fin.ext (by simp only [edge2]; omega)⟩
    · rintro ⟨e', rfl⟩
      have := e'.isLt
      simp only [edge2]
      omega
  rw [hmap, Finset.sum_map]
  rfl

/-! ## The layout operations and the product of the kernel, read at an index -/

section Layout2
variable {α : Type}

/-- A column [2000,1] broadcast along the edges reads its row. -/
theorem bcast_col2 (h : S2000x1.Broadcasts S2000x2048) (x : S2000x1.Idx → α) (r : Fin 2000) (e' : Fin 2048) :
    broadcastTo S2000x2048 x h (ix2 r e') = x (ix2 r 0) :=
  broadcastTo_apply x h (ix2 r e') (ix2 r 0) fun a => by
    match a with
    | ⟨0, _⟩ => rfl
    | ⟨1, _⟩ => rfl

/-- A row [1,2048] broadcast down the nodes reads its column. -/
theorem bcast_row2 (h : S1x2048.Broadcasts S2000x2048) (x : S1x2048.Idx → α) (r : Fin 2000) (e' : Fin 2048) :
    broadcastTo S2000x2048 x h (ix2 r e') = x (ix2 0 e') :=
  broadcastTo_apply x h (ix2 r e') (ix2 0 e') fun a => by
    match a with
    | ⟨0, _⟩ => rfl
    | ⟨1, _⟩ => rfl

/-- The bias row [1,128] broadcast down the nodes reads its column. -/
theorem bcast_bias2 (h : S1x128.Broadcasts S2000x128) (x : S1x128.Idx → α) (r : Fin 2000) (f : Fin 128) :
    broadcastTo S2000x128 x h (ix2 r f) = x (ix2 0 f) :=
  broadcastTo_apply x h (ix2 r f) (ix2 0 f) fun a => by
    match a with
    | ⟨0, _⟩ => rfl
    | ⟨1, _⟩ => rfl

/-- A select on an equality comparison of two words is the `if` on their equality. -/
theorem select_cmpi_eq2 (x y : BitVec 32) (a b : α) : Scalar.select (IntOp.cmpi .eq x y) a b = if x = y then a else b := by
  unfold Scalar.select IntOp.cmpi
  by_cases h : x = y
  · subst h; simp
  · have hb : (x == y) = false := beq_eq_false_iff_ne.mpr h
    simp [hb, h]

end Layout2

/-- The operand indices of the [2000,2048] × [2048,128] product at output index `j` and contraction index `k`, axis by axis. -/
theorem lhs_dot2_0 (j : S2000x128.Idx) (k : dot_S2000x2048_S2048x128_S2000x128_1_0_0_1_n_n.contr.Idx) :
    ((dot_S2000x2048_S2048x128_S2000x128_1_0_0_1_n_n.lhsIdx j k) 0).val = (j 0).val := by
  simp [DotDims.lhsIdx, dot_S2000x2048_S2048x128_S2000x128_1_0_0_1_n_n]; rfl
theorem lhs_dot2_1 (j : S2000x128.Idx) (k : dot_S2000x2048_S2048x128_S2000x128_1_0_0_1_n_n.contr.Idx) :
    ((dot_S2000x2048_S2048x128_S2000x128_1_0_0_1_n_n.lhsIdx j k) 1).val = (k ⟨0, by decide⟩).val :=
  dot_S2000x2048_S2048x128_S2000x128_1_0_0_1_n_n.lhsIdx_val_of_single (cl := 1) rfl j k
theorem rhs_dot2_0 (j : S2000x128.Idx) (k : dot_S2000x2048_S2048x128_S2000x128_1_0_0_1_n_n.contr.Idx) :
    ((dot_S2000x2048_S2048x128_S2000x128_1_0_0_1_n_n.rhsIdx j k) 0).val = (k ⟨0, by decide⟩).val :=
  dot_S2000x2048_S2048x128_S2000x128_1_0_0_1_n_n.rhsIdx_val_of_single (cr := 0) rfl j k
theorem rhs_dot2_1 (j : S2000x128.Idx) (k : dot_S2000x2048_S2048x128_S2000x128_1_0_0_1_n_n.contr.Idx) :
    ((dot_S2000x2048_S2048x128_S2000x128_1_0_0_1_n_n.rhsIdx j k) 1).val = (j 1).val := by
  simp [DotDims.rhsIdx, dot_S2000x2048_S2048x128_S2000x128_1_0_0_1_n_n]; rfl

/-- The product into the zero block, at (r, f): the sum over the block's 2048 edges of the row's entry times the edge's value. -/
theorem matmul2_apply (A : FVec Ideal S2000x2048 .bf16) (B : FVec Ideal S2048x128 .bf16) (r : Fin 2000) (f : Fin 128) :
    FloatOps.matmul dot_S2000x2048_S2048x128_S2000x128_1_0_0_1_n_n none A B (constant S2000x128 .f32 0x00000000#32) (ix2 r f)
      = ∑ e' : Fin 2048, A (ix2 r e') * B (ix2 e' f) := by
  rw [Ideal.matmul_constant_zero_apply,
    ← Equiv.sum_comp (contrEquiv1 dot_S2000x2048_S2048x128_S2000x128_1_0_0_1_n_n 2048 rfl rfl).symm]
  refine Finset.sum_congr rfl fun e' _ => ?_
  have c2 := contrEquiv1_symm_val dot_S2000x2048_S2048x128_S2000x128_1_0_0_1_n_n 2048 rfl rfl e'
  have l2 : dot_S2000x2048_S2048x128_S2000x128_1_0_0_1_n_n.lhsIdx (ix2 r f)
      ((contrEquiv1 dot_S2000x2048_S2048x128_S2000x128_1_0_0_1_n_n 2048 rfl rfl).symm e') = ix2 r e' := by
    funext ax; apply Fin.ext
    match ax with
    | ⟨0, _⟩ => exact lhs_dot2_0 _ _
    | ⟨1, _⟩ => exact (lhs_dot2_1 _ _).trans c2
  have r2 : dot_S2000x2048_S2048x128_S2000x128_1_0_0_1_n_n.rhsIdx (ix2 r f)
      ((contrEquiv1 dot_S2000x2048_S2048x128_S2000x128_1_0_0_1_n_n 2048 rfl rfl).symm e') = ix2 e' f := by
    funext ax; apply Fin.ext
    match ax with
    | ⟨0, _⟩ => exact (rhs_dot2_0 _ _).trans c2
    | ⟨1, _⟩ => exact rhs_dot2_1 _ _
  rw [l2, r2]

/-- The word of 1.0 is the extended real 1. -/
theorem one_f32_2 : Ideal.ofBits .f32 0x3F800000#32 = 1 := IdealRules.sign_bit.ideal_onePat .f32

/-- Node block `a`'s row `r` has the number 2000 · a + r, as words (32-bit arithmetic is arithmetic modulo 2³²). -/
theorem node_word2 (a r : ℕ) : Scalar.muli (BitVec.ofNat 32 a) 2000#32 + BitVec.ofNat 32 r = BitVec.ofNat 32 (2000 * a + r) := by
  show BitVec.ofNat 32 a * BitVec.ofNat 32 2000 + BitVec.ofNat 32 r = _
  rw [← BitVec.ofNat_mul, ← BitVec.ofNat_add, Nat.mul_comm]

/-! ## The payloads at an index -/

/-- The reset block is zero. -/
theorem k2_pay1_apply (r : Fin 2000) (f : Fin 128) : k2_pay1 (F := Ideal) (ix2 r f) = 0 := by
  unfold k2_pay1
  simp only [shapeCast_self]
  exact Ideal.ofBits_zero_f32

/-- One point's update at (r, f): the accumulator plus, over the point's 2048 edges, (1 if node 2000 · i₀ + r's word is the
    edge's index word, else 0) times the edge's value. -/
theorem k2_pay2_apply (i : grid2.Coords) (idxb : Vec Ideal S1x2048 .i32) (valb : Vec Ideal S2048x128 .f32)
    (acc : Vec Ideal S2000x128 .f32) (r : Fin 2000) (f : Fin 128) :
    k2_pay2 (F := Ideal) i idxb valb acc (ix2 r f)
      = acc (ix2 r f) + ∑ e' : Fin 2048,
          (if BitVec.ofNat 32 (2000 * (i 0).val + r.val) = idxb (ix2 0 e') then (1 : EReal) else 0) * valb (ix2 e' f) := by
  unfold k2_pay2
  simp only [shapeCast_self]
  refine (addf_apply _ _ _).trans ?_
  refine congrArg (fun x => acc (ix2 r f) + x) ?_
  refine (matmul2_apply _ _ r f).trans ?_
  refine Finset.sum_congr rfl fun e' _ => ?_
  refine congrArg (fun x => x * valb (ix2 e' f)) ?_
  refine (select_cmpi_eq2 _ _ _ _).trans ?_
  rw [bcast_col2, bcast_row2]
  show (if Scalar.muli (BitVec.ofNat 32 (i 0).val) 2000#32 + iota .tc S2000x1 32 [0] _ (ix2 r 0) = idxb (ix2 0 e')
    then Ideal.ofBits .f32 0x3F800000#32 else Ideal.ofBits .f32 0x00000000#32) = _
  rw [iota_single_apply]
  show (if Scalar.muli (BitVec.ofNat 32 (i 0).val) 2000#32 + BitVec.ofNat 32 r.val = idxb (ix2 0 e')
    then Ideal.ofBits .f32 0x3F800000#32 else Ideal.ofBits .f32 0x00000000#32) = _
  rw [node_word2, one_f32_2, Ideal.ofBits_zero_f32]

/-! ## The grid's arithmetic -/

/-- Position `t`'s node block is `t / 831` (below 50, so the coordinate's reduction modulo 50 is idle). -/
theorem nodeBlk2 (t : Fin cfg2.N) : (grid2.coords t 0).val = t.val / 831 :=
  (coord2_0 t).trans (Nat.mod_eq_of_lt (nblk2_lt t))

/-! ## The arrays and the blocks, by their literal types -/

/-- The TensorCore's buffer contents at the extended reals. -/
abbrev IdealBufs2 : Type := (c : Dev nD) → (b : Ref sig .tc) → Buf (Elt Ideal) ((c : Thread nD τ).loc b)

/-- Edge `e`'s index word, edge `e`'s row of values, the bias row: the region's three input arrays as it finds them. -/
abbrev idxArr2 (V : IdealBufs2) (c : Dev nD) : Fin 1701888 → BitVec 32 :=
  fun e => (V c (Pipeline.arrRef spec2 0) : S1x1701888.Idx → BitVec 32) (ix2 0 e)
abbrev valArr2 (V : IdealBufs2) (c : Dev nD) : Fin 1701888 → Fin 128 → EReal :=
  fun e f => (V c (Pipeline.arrRef spec2 1) : S1701888x128.Idx → EReal) (ix2 e f)
abbrev biasArr2 (V : IdealBufs2) (c : Dev nD) : Fin 128 → EReal :=
  fun f => (V c (Pipeline.arrRef spec2 2) : S1x128.Idx → EReal) (ix2 0 f)

/-- The three input blocks at a point. -/
abbrev idxBlk2 (V : IdealBufs2) (c : Dev nD) (t : Fin cfg2.N) : Vec Ideal S1x2048 .i32 := iblk2 V c 0 t
abbrev valBlk2 (V : IdealBufs2) (c : Dev nD) (t : Fin cfg2.N) : Vec Ideal S2048x128 .f32 := iblk2 V c 1 t
abbrev biasBlk2 (V : IdealBufs2) (c : Dev nD) (t : Fin cfg2.N) : Vec Ideal S1x128 .f32 := iblk2 V c 2 t

/-- The index block at position `t` holds the index words of edge block `t % 831`. -/
theorem idxBlk2_apply (V : IdealBufs2) (c : Dev nD) (t : Fin cfg2.N) (e' : Fin 2048) :
    idxBlk2 V c t (ix2 0 e') = idxArr2 V c (edge2 (t.val % 831) (Nat.mod_lt _ (by decide)) e') := by
  have i0 : win2_0.index t 0 = 0 := congrFun (index2_0 t) 0
  have i1 : win2_0.index t 1 = t.val % 831 := congrFun (index2_0 t) 1
  unfold idxBlk2 iblk2
  rw [View.read_apply]
  show (V c (Pipeline.arrRef spec2 0) : S1x1701888.Idx → BitVec 32) _ = (V c (Pipeline.arrRef spec2 0) : S1x1701888.Idx → BitVec 32) _
  refine congrArg _ (funext fun a => Fin.ext ?_)
  match a with
  | ⟨0, _⟩ => show win2_0.index t 0 * 1 + 1 * 0 = 0; rw [i0]
  | ⟨1, _⟩ => show win2_0.index t 1 * 2048 + 1 * e'.val = 2048 * (t.val % 831) + e'.val; rw [i1]; omega

/-- The value block at position `t` holds the rows of edge block `t % 831`. -/
theorem valBlk2_apply (V : IdealBufs2) (c : Dev nD) (t : Fin cfg2.N) (e' : Fin 2048) (f : Fin 128) :
    valBlk2 V c t (ix2 e' f) = valArr2 V c (edge2 (t.val % 831) (Nat.mod_lt _ (by decide)) e') f := by
  have i0 : win2_1.index t 0 = t.val % 831 := congrFun (index2_1 t) 0
  have i1 : win2_1.index t 1 = 0 := congrFun (index2_1 t) 1
  unfold valBlk2 iblk2
  rw [View.read_apply]
  show (V c (Pipeline.arrRef spec2 1) : S1701888x128.Idx → EReal) _ = (V c (Pipeline.arrRef spec2 1) : S1701888x128.Idx → EReal) _
  refine congrArg _ (funext fun a => Fin.ext ?_)
  match a with
  | ⟨0, _⟩ => show win2_1.index t 0 * 2048 + 1 * e'.val = 2048 * (t.val % 831) + e'.val; rw [i0]; omega
  | ⟨1, _⟩ => show win2_1.index t 1 * 128 + 1 * f.val = f.val; rw [i1]; omega

/-- The bias block is the bias row at every point. -/
theorem biasBlk2_apply (V : IdealBufs2) (c : Dev nD) (t : Fin cfg2.N) (f : Fin 128) :
    biasBlk2 V c t (ix2 0 f) = biasArr2 V c f := by
  have i0 : win2_2.index t 0 = 0 := congrFun (index2_2 t) 0
  have i1 : win2_2.index t 1 = 0 := congrFun (index2_2 t) 1
  unfold biasBlk2 iblk2
  rw [View.read_apply]
  show (V c (Pipeline.arrRef spec2 2) : S1x128.Idx → EReal) _ = (V c (Pipeline.arrRef spec2 2) : S1x128.Idx → EReal) _
  refine congrArg _ (funext fun a => Fin.ext ?_)
  match a with
  | ⟨0, _⟩ => show win2_2.index t 0 * 1 + 1 * 0 = 0; rw [i0]
  | ⟨1, _⟩ => show win2_2.index t 1 * 128 + 1 * f.val = f.val; rw [i1]; omega

/-! ## The accumulator: after edge block j, the terms of the edges below 2048 · (j + 1) -/

/-- Edge `e`'s term for node number `n`, feature `f`. -/
abbrev term2 (V : IdealBufs2) (c : Dev nD) (n : ℕ) (f : Fin 128) : Fin 1701888 → EReal :=
  fun e => (if Cert.Spec.word n = idxArr2 V c e then (1 : EReal) else 0) * valArr2 V c e f

/-- One point: an accumulator holding the terms of the edges before this point's block holds, after the update, those of
    the edges up to its end. -/
theorem step2 (V : IdealBufs2) (c : Dev nD) (t : Fin cfg2.N) (prev : Vec Ideal S2000x128 .f32) (r : Fin 2000) (f : Fin 128)
    (hprev : prev (ix2 r f) = below2 (term2 V c (2000 * (t.val / 831) + r.val) f) (2048 * (t.val % 831))) :
    k2_pay2 (F := Ideal) (grid2.coords t) (idxBlk2 V c t) (valBlk2 V c t) prev (ix2 r f)
      = below2 (term2 V c (2000 * (t.val / 831) + r.val) f) (2048 * (t.val % 831 + 1)) := by
  refine (k2_pay2_apply (grid2.coords t) (idxBlk2 V c t) (valBlk2 V c t) prev r f).trans ?_
  rw [hprev, below2_step (term2 V c (2000 * (t.val / 831) + r.val) f) (t.val % 831) (Nat.mod_lt _ (by decide)), nodeBlk2 t]
  refine congrArg (fun x => below2 (term2 V c (2000 * (t.val / 831) + r.val) f) (2048 * (t.val % 831)) + x) ?_
  refine Finset.sum_congr rfl fun e' _ => ?_
  rw [idxBlk2_apply V c t e', valBlk2_apply V c t e' f]

/-- THE INVARIANT, by induction on the grid position. -/
theorem acc2_apply (V : IdealBufs2) (c : Dev nD) : ∀ (p : ℕ) (hp : p < cfg2.N) (r : Fin 2000) (f : Fin 128),
    acc2 V c p hp (ix2 r f) = below2 (term2 V c (2000 * (p / 831) + r.val) f) (2048 * (p % 831 + 1))
  | 0, hp, r, f => by
    rw [acc2]
    exact step2 V c ⟨0, hp⟩ (k2_pay1 (F := Ideal)) r f ((k2_pay1_apply r f).trans (below2_zero _).symm)
  | p + 1, hp, r, f => by
    rw [acc2]
    by_cases h0 : (p + 1) % 831 = 0
    · rw [if_pos h0]
      refine step2 V c ⟨p + 1, hp⟩ (k2_pay1 (F := Ideal)) r f ?_
      show k2_pay1 (F := Ideal) (ix2 r f) = below2 (term2 V c (2000 * ((p + 1) / 831) + r.val) f) (2048 * ((p + 1) % 831))
      rw [h0]
      exact (k2_pay1_apply r f).trans (below2_zero _).symm
    · rw [if_neg h0]
      refine step2 V c ⟨p + 1, hp⟩ (acc2 V c p (Nat.lt_of_succ_lt hp)) r f ?_
      show acc2 V c p (Nat.lt_of_succ_lt hp) (ix2 r f) = below2 (term2 V c (2000 * ((p + 1) / 831) + r.val) f) (2048 * ((p + 1) % 831))
      rw [acc2_apply V c p (Nat.lt_of_succ_lt hp) r f]
      have e1 : (p + 1) / 831 = p / 831 := by omega
      have e2 : (p + 1) % 831 = p % 831 + 1 := by omega
      rw [e1, e2]

/-- At the last edge block the accumulator holds the whole comparison sum. -/
theorem acc2_last (V : IdealBufs2) (c : Dev nD) (t : Fin cfg2.N) (ht : t.val % 831 = 830) (r : Fin 2000) (f : Fin 128) :
    acc2 V c t.val t.isLt (ix2 r f) = ∑ e : Fin 1701888, term2 V c (2000 * (t.val / 831) + r.val) f e := by
  rw [acc2_apply V c t.val t.isLt r f, ht]
  exact below2_all _

/-! ## The output block: the sum, the bias, the last step -/

-- region-specific: begin
/-- The last step on one entry, after the bias: the maximum with 0. -/
abbrev fin2 (x : EReal) : EReal := max x 0

/-- The stored block at (r, f): the accumulator plus the bias, then the last step. -/
theorem k2_pay3_apply (acc : Vec Ideal S2000x128 .f32) (bias : Vec Ideal S1x128 .f32) (r : Fin 2000) (f : Fin 128) :
    k2_pay3 (F := Ideal) acc bias (ix2 r f) = fin2 (acc (ix2 r f) + bias (ix2 0 f)) := by
  unfold k2_pay3
  simp only [shapeCast_self]
  refine (maximumf_apply _ _ _).trans ?_
  show max (acc (ix2 r f) + broadcastTo S2000x128 bias _ (ix2 r f)) (Ideal.ofBits .f32 0x00000000#32) = _
  rw [bcast_bias2, Ideal.ofBits_zero_f32]
-- region-specific: end

/-- What the region leaves in its output array: node by node the comparison scatter, then the last step. -/
def scattered2 (V : IdealBufs2) (c : Dev nD) : S100000x128.Idx → EReal := fun i =>
  fin2 (Cert.Spec.scatterCmp (E := 1701888) (N := 100000) (M := 128) (idxArr2 V c) (valArr2 V c) (biasArr2 V c) (i 0) (i 1))

/-- The block stored at a point of the last edge block is its node block's rows of `scattered2`. -/
theorem outBlk2_apply (V : IdealBufs2) (c : Dev nD) (t : Fin cfg2.N) (ht : t.val % 831 = 830) (r : Fin 2000) (f : Fin 128)
    (n : Fin 100000) (f' : Fin 128) (hn : n.val = 2000 * (t.val / 831) + r.val) (hf : f'.val = f.val) :
    k2_pay3 (F := Ideal) (acc2 V c t.val t.isLt) (biasBlk2 V c t) (ix2 r f)
      = fin2 (Cert.Spec.scatterCmp (E := 1701888) (N := 100000) (M := 128) (idxArr2 V c) (valArr2 V c) (biasArr2 V c) n f') := by
  obtain rfl : f' = f := Fin.ext hf
  refine (k2_pay3_apply (acc2 V c t.val t.isLt) (biasBlk2 V c t) r f').trans ?_
  rw [acc2_last V c t ht r f', biasBlk2_apply V c t f']
  unfold Cert.Spec.scatterCmp
  rw [hn]

end Cert.KernelIdeal.Hand

end
-- ==== Proof.KI.ScaVal2.lean ====
import proofs.«158984_j43568148250937_1_alg».proof.Proof.Gen.KernelIdeal.Launch
import proofs.«158984_j43568148250937_1_alg».proof.Proof.Gen.KernelIdeal.Skeleton
import proofs.«158984_j43568148250937_1_alg».proof.Proof.KI.Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«158984_j43568148250937_1_alg».proof.Proof.KI.Sca2
import proofs.«158984_j43568148250937_1_alg».proof.Proof.KI.ScaVal2A
import proofs.«158984_j43568148250937_1_alg».proof.Proof.Math.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

open Idealize.ShloMosaic.ValueIdx
open scoped BigOperators

/-! # Region 2, read: from the stored blocks to the array

A point of the last edge block stores its node block's 2000 rows of `scattered2`; the 50 node blocks tile the 100000 rows. -/

/-- Reading a whole-array function through the output window's block at a point is reading it at the block's place in the array. -/
theorem read_blk2 (t : Fin cfg2.N) (G : S100000x128.Idx → EReal) (y : ((cfg2.win 3).xblock (grid2.coords t)).Idx) :
    ((cfg2.win 3).blk t).view.read (Elt Ideal) G y = G (((cfg2.win 3).blk t).view.emb y) := rfl

/-- What a point of the last edge block writes back is its block of `scattered2`. -/
theorem flushed2_eq (V : IdealBufs2) (c : Dev nD) (t : Fin cfg2.N) (hfl : (cfg2.win 3).flush t = true) :
    (dat2 (F := Ideal) V c).flushed 3 t = ((cfg2.win 3).blk t).view.read (Elt Ideal) (scattered2 V c) := by
  have ht : t.val % 831 = 830 := (flush2_3 t).mp hfl
  have i0 : win2_3.index t 0 = t.val / 831 := congrFun (index2_3 t) 0
  have i1 : win2_3.index t 1 = 0 := congrFun (index2_3 t) 1
  have hX : ∀ (x : S2000x128.Idx) (i : S100000x128.Idx), (i 0).val = 2000 * (t.val / 831) + (x 0).val → (i 1).val = (x 1).val →
      k2_pay3 (F := Ideal) (acc2 V c t.val t.isLt) (iblk2 V c 2 t) x = scattered2 V c i := by
    intro x i hn hf
    obtain ⟨r, f, rfl⟩ : ∃ (r : Fin 2000) (f : Fin 128), x = ix2 r f := ⟨x 0, x 1, eq_ix2 x⟩
    exact outBlk2_apply V c t ht r f (i 0) (i 1) hn hf
  show (cfg2.win 3).cut (grid2.coords t) ((dat2 (F := Ideal) V c).after 3 t) = _
  rw [after2_3 V c t]
  generalize k2_pay3 (F := Ideal) (acc2 V c t.val t.isLt) (iblk2 V c 2 t) = X at hX ⊢
  generalize scattered2 V c = G at hX ⊢
  funext y
  refine (hX ((cfg2.win 3).xinj (grid2.coords t) y) (((cfg2.win 3).blk t).view.emb y) ?_ ?_).trans (read_blk2 t G y).symm
  · show win2_3.index t 0 * 2000 + 1 * (y 0).val = 2000 * (t.val / 831) + (y 0).val
    rw [i0]; omega
  · show win2_3.index t 1 * 128 + 1 * (y 1).val = (y 1).val
    rw [i1]; omega

/-- The node blocks cover the array: row `n` is written at the last edge block of node block `n / 2000`. -/
theorem cover2 (i : S100000x128.Idx) : ∃ t : Fin cfg2.N, (cfg2.win 3).flush t = true ∧ i ∈ ((cfg2.win 3).blk t).view.set := by
  have h0 : (i 0).val < 100000 := (i 0).isLt
  have h1 : (i 1).val < 128 := (i 1).isLt
  have hlt : 831 * ((i 0).val / 2000) + 830 < cfg2.N := by have hN : cfg2.N = 41550 := N_2; omega
  obtain ⟨t, hv⟩ : ∃ t : Fin cfg2.N, t.val = 831 * ((i 0).val / 2000) + 830 := ⟨⟨_, hlt⟩, rfl⟩
  have i0 : win2_3.index t 0 = t.val / 831 := congrFun (index2_3 t) 0
  have i1 : win2_3.index t 1 = 0 := congrFun (index2_3 t) 1
  refine ⟨t, (flush2_3 t).mpr (by rw [hv]; omega), ?_⟩
  show i ∈ ((View.whole main_v42).slice (win2_3.rect t)).set
  rw [View.set_slice_whole, Rect.mem_set_unit]
  intro a
  match a with
  | ⟨0, _⟩ =>
    show win2_3.index t 0 * 2000 ≤ (i 0).val ∧ (i 0).val < win2_3.index t 0 * 2000 + 2000
    rw [i0, hv]; omega
  | ⟨1, _⟩ =>
    show win2_3.index t 1 * 128 ≤ (i 1).val ∧ (i 1).val < win2_3.index t 1 * 128 + 128
    rw [i1]; omega

/-- So the output array ends holding `scattered2`. -/
theorem final2 (V : IdealBufs2) (c : Dev nD) : (dat2 (F := Ideal) V c).arrAt 3 cfg2.N = scattered2 V c :=
  (dat2 (F := Ideal) V c).arrAt_eq_of_cover 3 (scattered2 V c) (flushed2_eq V c) cover2

-- region-specific: begin
/-- REGION 2'S VALUE: node `n`, feature `f` of its output array is the comparison scatter of the three input arrays as the
    region finds them, rectified. -/
theorem sca2_value (V : (c : Dev nD) → (b : Ref sig .tc) → Buf (Elt Ideal) ((c : Thread nD τ).loc b)) (c : Dev nD) (n : Fin 100000) (f : Fin 128) :
    ((dat2 (F := Ideal) V c).arrAt 3 cfg2.N : S100000x128.Idx → EReal) (ValueIdx.ix2 n f)
      = max (Cert.Spec.scatterCmp (E := 1701888)
          (fun e => (V c (Pipeline.arrRef spec2 0) : S1x1701888.Idx → BitVec 32) (ValueIdx.ix2 0 e))
          (fun e f => (V c (Pipeline.arrRef spec2 1) : S1701888x128.Idx → EReal) (ValueIdx.ix2 e f))
          (fun f => (V c (Pipeline.arrRef spec2 2) : S1x128.Idx → EReal) (ValueIdx.ix2 0 f)) n f) 0 :=
  (congrFun (final2 V c) (ix2 n f)).trans rfl
-- region-specific: end

end Cert.KernelIdeal.Hand

end
-- ==== Proof.KI.LinVal3.lean ====
import proofs.«158984_j43568148250937_1_alg».proof.Proof.Gen.KernelIdeal.Launch
import proofs.«158984_j43568148250937_1_alg».proof.Proof.Gen.KernelIdeal.Skeleton
import proofs.«158984_j43568148250937_1_alg».proof.Proof.KI.Sched
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«158984_j43568148250937_1_alg».proof.Proof.KI.Lin3
import proofs.«158984_j43568148250937_1_alg».proof.Proof.Math.Spec
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

local notation "𝕄" => MT nD τ sig Unit (Elt F) ℕ (UR sig nD τ) ℕ

/-! # Region 3 read at an entry: the dense layer of the arrays the region finds -/

-- the TensorCore's buffer contents when the region is entered, at the ideal values
variable (V : (c : Dev nD) → (b : Ref sig .tc) → Buf (Elt Ideal) ((c : Thread nD τ).loc b))

/-! ## The block product at an entry -/

/-- The body's payload at entry (r, f) of its block: the narrowing of the operands is the identity at the ideal values and
    the accumulator is the zero splat, so what is left is row `r` of the rows' block against column `f` of the weight,
    summed over the one contracted axis. -/
theorem pay3_apply (x : Vec Ideal S2000x128 .f32) (w : Vec Ideal S128x64 .f32) (r : Fin 2000) (f : Fin 64) :
    (k3_pay1 x w : S2000x64.Idx → EReal) (ix2 r f) = ∑ k : Fin 128, (x (ix2 r k) : EReal) * (w (ix2 k f) : EReal) := by
  unfold k3_pay1
  refine (Ideal.matmul_constant_zero_apply (φ₁ := .bf16) (φ₂ := .bf16) dot_S2000x128_S128x64_S2000x64_1_0_0_1_n_n none _ _ (ix2 r f)).trans ?_
  refine (Equiv.sum_comp (contrEquiv1 dot_S2000x128_S128x64_S2000x64_1_0_0_1_n_n 128 rfl rfl).symm _).symm.trans ?_
  refine Finset.sum_congr rfl fun k _ => ?_
  have ck := contrEquiv1_symm_val dot_S2000x128_S128x64_S2000x64_1_0_0_1_n_n 128 rfl rfl k
  have hl : dot_S2000x128_S128x64_S2000x64_1_0_0_1_n_n.lhsIdx (ix2 r f)
      ((contrEquiv1 dot_S2000x128_S128x64_S2000x64_1_0_0_1_n_n 128 rfl rfl).symm k) = ix2 r k := by
    funext ax; apply Fin.ext
    match ax with
    | ⟨0, _⟩ => simp [DotDims.lhsIdx, dot_S2000x128_S128x64_S2000x64_1_0_0_1_n_n]; rfl
    | ⟨1, _⟩ => simp [DotDims.lhsIdx, dot_S2000x128_S128x64_S2000x64_1_0_0_1_n_n]; exact ck
  have hr : dot_S2000x128_S128x64_S2000x64_1_0_0_1_n_n.rhsIdx (ix2 r f)
      ((contrEquiv1 dot_S2000x128_S128x64_S2000x64_1_0_0_1_n_n 128 rfl rfl).symm k) = ix2 k f := by
    funext ax; apply Fin.ext
    match ax with
    | ⟨0, _⟩ => simp [DotDims.rhsIdx, dot_S2000x128_S128x64_S2000x64_1_0_0_1_n_n]; exact ck
    | ⟨1, _⟩ => simp [DotDims.rhsIdx, dot_S2000x128_S128x64_S2000x64_1_0_0_1_n_n]; rfl
  rw [hl, hr]
  -- a reshape of a block to its own shape, where the body has one, is the identity
  try rw [shapeCast_self]
  rfl

/-! ## From blocks to the array -/

/-- The rows and the weight as the region finds them, -/
def rows3 (c : Dev nD) : S100000x128.Idx → EReal := V c (Pipeline.arrRef spec3 0)
def weight3 (c : Dev nD) : S128x64.Idx → EReal := V c (Pipeline.arrRef spec3 1)

/-- and their dense layer as one function of the output's index: entry (n, f) is row `n` of the rows against column `f`
    of the weight. -/
def lin3 (c : Dev nD) : S100000x64.Idx → EReal := fun i =>
  ∑ k : Fin 128, rows3 V c (ix2 (i 0 : Fin 100000) k) * weight3 V c (ix2 k (i 1 : Fin 64))

/-- The block indices: point `t` takes row block `t` of the rows and of the output, and the whole weight. -/
theorem idx_facts3 (t : Fin cfg3.N) : win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  ⟨congrFun (index3_0 t) 0, congrFun (index3_0 t) 1, congrFun (index3_1 t) 0, congrFun (index3_1 t) 1,
    congrFun (index3_2 t) 0, congrFun (index3_2 t) 1⟩

/-- What point `t` writes back is block `t` of the dense layer: the rows' block and the output's block sit at the same
    row offset, the weight's block is the whole weight, so entry (r, f) of the block product is entry
    (2000 t + r, f) of the layer. -/
theorem flushed3_eq (c : Dev nD) (t : Fin cfg3.N) :
    (dat3 (F := Ideal) V c).flushed 2 t = ((cfg3.win 2).blk t).view.read (Elt Ideal) (lin3 V c) := by
  show (cfg3.win 2).cut (grid3.coords t) ((dat3 (F := Ideal) V c).after 2 t) = _
  rw [after3_2]
  obtain ⟨e00, e01, e10, e11, e20, e21⟩ := idx_facts3 t
  refine funext fun (j : S2000x64.Idx) => ?_
  obtain ⟨r, f, rfl⟩ : ∃ (r : Fin 2000) (f : Fin 64), j = ix2 r f := ⟨j 0, j 1, eq_ix2 j⟩
  show (k3_pay1 (iblk3 V c 0 t) (iblk3 V c 1 t) : S2000x64.Idx → EReal) (ix2 r f)
    = lin3 V c (((cfg3.win 2).blk t).view.emb (ix2 r f))
  refine (pay3_apply _ _ r f).trans ?_
  unfold lin3
  refine Finset.sum_congr rfl fun k _ => ?_
  have h0 : ((cfg3.win 0).blk t).view.emb (ix2 r k) = ix2 ((((cfg3.win 2).blk t).view.emb (ix2 r f)) 0 : Fin 100000) k := by
    funext a; apply Fin.ext
    match a with
    | ⟨0, _⟩ => show win3_0.index t (0 : Fin 2) * 2000 + 1 * r.val = win3_2.index t (0 : Fin 2) * 2000 + 1 * r.val; omega
    | ⟨1, _⟩ => show win3_0.index t (1 : Fin 2) * 128 + 1 * k.val = k.val; omega
  have h1 : ((cfg3.win 1).blk t).view.emb (ix2 k f) = ix2 k ((((cfg3.win 2).blk t).view.emb (ix2 r f)) 1 : Fin 64) := by
    funext a; apply Fin.ext
    match a with
    | ⟨0, _⟩ => show win3_1.index t (0 : Fin 2) * 128 + 1 * k.val = k.val; omega
    | ⟨1, _⟩ => show win3_1.index t (1 : Fin 2) * 64 + 1 * f.val = win3_2.index t (1 : Fin 2) * 64 + 1 * f.val; omega
  show rows3 V c (((cfg3.win 0).blk t).view.emb (ix2 r k)) * weight3 V c (((cfg3.win 1).blk t).view.emb (ix2 k f)) = _
  rw [h0, h1]
  rfl

/-- An index of the output is in point `t`'s block iff each coordinate is in the block's range on its axis. -/
theorem mem_blk3 (t : Fin cfg3.N) (i : S100000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v43).slice (win3_2.rect t)).set ↔ _
  rw [View.set_slice_whole, Rect.mem_set_unit]
  exact Iff.rfl

/-- The fifty row blocks cover the output: row `n` is in the block of point `n / 2000`, which writes it back. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : (i 0).val / 2000 < cfg3.N := by show _ < grid3.N; rw [N_3]; omega
  obtain ⟨-, -, -, -, e20, e21⟩ := idx_facts3 ⟨(i 0).val / 2000, hN⟩
  have e20' : win3_2.index ⟨(i 0).val / 2000, hN⟩ (0 : Fin 2) = (i 0).val / 2000 := e20
  refine ⟨⟨(i 0).val / 2000, hN⟩, flush3_2 _, ?_⟩
  rw [mem_blk3]
  intro a
  match a with
  | ⟨0, _⟩ =>
    show win3_2.index ⟨(i 0).val / 2000, hN⟩ (0 : Fin 2) * 2000 ≤ (i 0).val
      ∧ (i 0).val < win3_2.index ⟨(i 0).val / 2000, hN⟩ (0 : Fin 2) * 2000 + 2000
    omega
  | ⟨1, _⟩ =>
    show win3_2.index ⟨(i 0).val / 2000, hN⟩ (1 : Fin 2) * 64 ≤ (i 1).val
      ∧ (i 1).val < win3_2.index ⟨(i 0).val / 2000, hN⟩ (1 : Fin 2) * 64 + 64
    omega

/-- After the region the output array holds the dense layer of the arrays it found. -/
theorem arr3_eq (c : Dev nD) : (dat3 (F := Ideal) V c).arrAt 2 cfg3.N = lin3 V c :=
  (dat3 (F := Ideal) V c).arrAt_eq_of_cover 2 (lin3 V c) (fun t _ => flushed3_eq V c t) cover3

/-- Entry (n, f) of the region's output is row `n` of the rows against column `f` of the weight. -/
theorem lin3_value (c : Dev nD) (n : Fin 100000) (f : Fin 64) :
    ((dat3 (F := Ideal) V c).arrAt 2 cfg3.N : S100000x64.Idx → EReal) (ValueIdx.ix2 n f)
      = Cert.Spec.lin (fun n k => (V c (Pipeline.arrRef spec3 0) : S100000x128.Idx → EReal) (ValueIdx.ix2 n k))
                      (fun k f => (V c (Pipeline.arrRef spec3 1) : S128x64.Idx → EReal) (ValueIdx.ix2 k f)) n f := by
  rw [arr3_eq]
  rfl

end Cert.KernelIdeal.Hand

end
-- ==== Proof.KI.GatVal4.lean ====
import proofs.«158984_j43568148250937_1_alg».proof.Proof.Gen.KernelIdeal.Launch
import proofs.«158984_j43568148250937_1_alg».proof.Proof.Gen.KernelIdeal.Skeleton
import proofs.«158984_j43568148250937_1_alg».proof.Proof.KI.Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«158984_j43568148250937_1_alg».proof.Proof.KI.Gat4
import proofs.«158984_j43568148250937_1_alg».proof.Proof.Math.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

open Idealize.ShloMosaic.ValueIdx
open scoped BigOperators

-- the same buffer contents at the ideal values
variable (W : (c : Dev nD) → (b : Ref sig .tc) → Buf (Elt Ideal) ((c : Thread nD τ).loc b))

/-! # Region 4, read as a value: what the gather leaves in its output array

The accumulator after grid position n (edge block n / 50, node block n % 50) holds, at edge row p and feature q, the sum over the node
numbers m below 2000 · (n % 50 + 1) of (1 if the edge's index word is m, else 0) · table[m, q]; at node block 49 that is the sum over all
100000 nodes, and the stored block is that times the edge's weight. -/

/-! ## Sums over the node numbers below a bound -/

/-- A sum over the indices below a + b splits into the part below a and the b terms from a on. -/
theorem sum_below_add4 {M : Type*} [AddCommMonoid M] {N : ℕ} (G : Fin N → M) (a : ℕ) :
    ∀ (b : ℕ) (hab : a + b ≤ N),
      (∑ m : Fin N, if m.val < a + b then G m else 0)
        = (∑ m : Fin N, if m.val < a then G m else 0) + ∑ r : Fin b, G ⟨a + r.val, by have := r.isLt; omega⟩
  | 0, _ => by simp
  | b + 1, hab => by
    have ih := sum_below_add4 G a b (by omega)
    have hlt : a + b < N := by omega
    have e : ∀ m : Fin N, (if m.val < a + (b + 1) then G m else 0)
        = (if m.val < a + b then G m else 0) + (if m = ⟨a + b, hlt⟩ then G m else 0) := by
      intro m
      by_cases h1 : m.val < a + b
      · have h2 : m.val < a + (b + 1) := by omega
        have h3 : m ≠ ⟨a + b, hlt⟩ := fun h => by rw [h] at h1; exact absurd h1 (lt_irrefl _)
        rw [if_pos h1, if_pos h2, if_neg h3, add_zero]
      · by_cases h3 : m = ⟨a + b, hlt⟩
        · have h2 : m.val < a + (b + 1) := by rw [h3]; show a + b < a + (b + 1); omega
          rw [if_neg h1, if_pos h2, if_pos h3, zero_add]
        · have h2 : ¬ m.val < a + (b + 1) := fun h => h3 (Fin.ext (by show m.val = a + b; omega))
          rw [if_neg h1, if_neg h2, if_neg h3, add_zero]
    have step : (∑ m : Fin N, if m.val < a + (b + 1) then G m else 0)
        = (∑ m : Fin N, if m.val < a + b then G m else 0) + G ⟨a + b, hlt⟩ := by
      rw [Finset.sum_congr rfl (fun m _ => e m), Finset.sum_add_distrib, Finset.sum_ite_eq' Finset.univ ⟨a + b, hlt⟩ G,
        if_pos (Finset.mem_univ _)]
    rw [step, ih, Fin.sum_univ_castSucc, add_assoc]
    rfl

/-- Below the zeroth node block there is nothing to sum. -/
theorem sum_below_zero4 (G : Fin 100000 → EReal) (j : ℕ) (hj : j = 0) :
    (∑ m : Fin 100000, if m.val < 2000 * j then G m else 0) = 0 := by
  subst hj
  exact Finset.sum_eq_zero fun m _ => if_neg (by omega)

/-- One more node block: the sum below 2000 · j plus the block's 2000 terms is the sum below 2000 · (j + 1). -/
theorem sum_below_block4 (G : Fin 100000 → EReal) (j : ℕ) (hj : j < 50) (prev : EReal)
    (hprev : prev = ∑ m : Fin 100000, if m.val < 2000 * j then G m else 0) :
    prev + ∑ r : Fin 2000, G ⟨2000 * j + r.val, by have := r.isLt; omega⟩
      = ∑ m : Fin 100000, if m.val < 2000 * (j + 1) then G m else 0 := by
  rw [hprev, show 2000 * (j + 1) = 2000 * j + 2000 from by omega, sum_below_add4 G (2000 * j) 2000 (by omega)]

/-! ## The one-hot product at an index -/

theorem lhs_dot4_0 (i : S2048x64.Idx) (q : dot_S2048x2000_S2000x64_S2048x64_1_0_0_1_n_n.contr.Idx) :
    (dot_S2048x2000_S2000x64_S2048x64_1_0_0_1_n_n.lhsIdx i q 0).val = (i 0).val := by
  unfold DotDims.lhsIdx
  rw [dif_neg (show ¬(0 : Fin S2048x2000.rank) ∈ dot_S2048x2000_S2000x64_S2048x64_1_0_0_1_n_n.lhsBatch by decide),
    dif_pos (show (0 : Fin S2048x2000.rank) ∈ dot_S2048x2000_S2000x64_S2048x64_1_0_0_1_n_n.lhsNonContracting by decide)]
  rfl
theorem lhs_dot4_1 (i : S2048x64.Idx) (q : dot_S2048x2000_S2000x64_S2048x64_1_0_0_1_n_n.contr.Idx) :
    (dot_S2048x2000_S2000x64_S2048x64_1_0_0_1_n_n.lhsIdx i q 1).val = (q ⟨0, by decide⟩).val :=
  dot_S2048x2000_S2000x64_S2048x64_1_0_0_1_n_n.lhsIdx_val_of_single rfl i q
theorem rhs_dot4_0 (i : S2048x64.Idx) (q : dot_S2048x2000_S2000x64_S2048x64_1_0_0_1_n_n.contr.Idx) :
    (dot_S2048x2000_S2000x64_S2048x64_1_0_0_1_n_n.rhsIdx i q 0).val = (q ⟨0, by decide⟩).val :=
  dot_S2048x2000_S2000x64_S2048x64_1_0_0_1_n_n.rhsIdx_val_of_single rfl i q
theorem rhs_dot4_1 (i : S2048x64.Idx) (q : dot_S2048x2000_S2000x64_S2048x64_1_0_0_1_n_n.contr.Idx) :
    (dot_S2048x2000_S2000x64_S2048x64_1_0_0_1_n_n.rhsIdx i q 1).val = (i 1).val := by
  unfold DotDims.rhsIdx
  rw [dif_neg (show ¬(1 : Fin S2000x64.rank) ∈ dot_S2048x2000_S2000x64_S2048x64_1_0_0_1_n_n.rhsBatch by decide),
    dif_pos (show (1 : Fin S2000x64.rank) ∈ dot_S2048x2000_S2000x64_S2048x64_1_0_0_1_n_n.rhsNonContracting by decide)]
  rfl

/-- The product into the zero accumulator, read at (p, q): the sum over the 2000 contracted positions. -/
theorem mm_apply4 (A : FVec Ideal S2048x2000 .bf16) (B : FVec Ideal S2000x64 .bf16) (p : Fin 2048) (q : Fin 64) :
    matmul dot_S2048x2000_S2000x64_S2048x64_1_0_0_1_n_n none A B (constant (F := Ideal) S2048x64 .f32 0x00000000#32) (ix2 p q)
      = ∑ r : Fin 2000, A (ix2 p r) * B (ix2 r q) := by
  simp only [matmul]
  rw [Ideal.matmul_constant_zero_apply, ← Equiv.sum_comp (contrEquiv1 dot_S2048x2000_S2000x64_S2048x64_1_0_0_1_n_n 2000 rfl rfl).symm]
  refine Finset.sum_congr rfl fun k _ => ?_
  have hk := contrEquiv1_symm_val dot_S2048x2000_S2000x64_S2048x64_1_0_0_1_n_n 2000 rfl rfl k
  have el : dot_S2048x2000_S2000x64_S2048x64_1_0_0_1_n_n.lhsIdx (ix2 p q)
      ((contrEquiv1 dot_S2048x2000_S2000x64_S2048x64_1_0_0_1_n_n 2000 rfl rfl).symm k) = ix2 p k := funext fun a => Fin.ext (by
    match a with
    | ⟨0, _⟩ => exact lhs_dot4_0 _ _
    | ⟨1, _⟩ => exact (lhs_dot4_1 _ _).trans hk)
  have er : dot_S2048x2000_S2000x64_S2048x64_1_0_0_1_n_n.rhsIdx (ix2 p q)
      ((contrEquiv1 dot_S2048x2000_S2000x64_S2048x64_1_0_0_1_n_n 2000 rfl rfl).symm k) = ix2 k q := funext fun a => Fin.ext (by
    match a with
    | ⟨0, _⟩ => exact (rhs_dot4_0 _ _).trans hk
    | ⟨1, _⟩ => exact rhs_dot4_1 _ _)
  rw [el, er]

/-! ## The payloads at an index -/

/-- A one-bit compare of two words is 1 exactly when the words are equal. -/
theorem cmpi_eq_one4 (x y : BitVec 32) : IntOp.cmpi .eq x y = 1#1 ↔ x = y := by
  unfold IntOp.cmpi
  by_cases h : x = y
  · subst h; simp
  · have hb : (x == y) = false := by simp [h]
    simp only [hb]
    exact iff_of_false (by decide) h

/-- Entry (p, r) of the one-hot matrix of node block j: 1 when edge p's index word is node 2000 · j + r, else 0. -/
theorem onehot_apply4 (j : ℕ) (v7 : IVec S2048x1 32) (p : Fin 2048) (r : Fin 2000) :
    select (cmpi .eq (broadcastTo S2048x2000 v7 broadcasts_S2048x1_S2048x2000)
        (broadcastTo S2048x2000 (addi (broadcast S1x2000 (Scalar.muli (BitVec.ofNat 32 j) 2000#32)) (iota .tc S1x2000 32 [1] iota_S1x2000_d1_w32))
          broadcasts_S1x2000_S2048x2000))
      (broadcast S2048x2000 (Ideal.ofBits .f32 0x3F800000#32)) (broadcast S2048x2000 (Ideal.ofBits .f32 0x00000000#32)) (ix2 p r)
      = if v7 (ix2 p 0) = BitVec.ofNat 32 (2000 * j + r.val) then (1 : EReal) else 0 := by
  have e9 : broadcastTo S2048x2000 v7 broadcasts_S2048x1_S2048x2000 (ix2 p r) = v7 (ix2 p 0) :=
    broadcastTo_apply v7 _ (ix2 p r) (ix2 p 0) (fun a => by match a with | ⟨0, _⟩ => rfl | ⟨1, _⟩ => rfl)
  have e10 : broadcastTo S2048x2000 (addi (broadcast S1x2000 (Scalar.muli (BitVec.ofNat 32 j) 2000#32)) (iota .tc S1x2000 32 [1] iota_S1x2000_d1_w32))
      broadcasts_S1x2000_S2048x2000 (ix2 p r)
      = addi (broadcast S1x2000 (Scalar.muli (BitVec.ofNat 32 j) 2000#32)) (iota .tc S1x2000 32 [1] iota_S1x2000_d1_w32) (ix2 0 r) :=
    broadcastTo_apply _ _ (ix2 p r) (ix2 0 r) (fun a => by match a with | ⟨0, _⟩ => rfl | ⟨1, _⟩ => rfl)
  have e6 : addi (broadcast S1x2000 (Scalar.muli (BitVec.ofNat 32 j) 2000#32)) (iota .tc S1x2000 32 [1] iota_S1x2000_d1_w32) (ix2 (0 : Fin 1) r)
      = BitVec.ofNat 32 (2000 * j + r.val) := by
    show IntOp.addi (Scalar.muli (BitVec.ofNat 32 j) 2000#32) (iota .tc S1x2000 32 [1] iota_S1x2000_d1_w32 (ix2 (0 : Fin 1) r)) = _
    rw [iota_single_apply]
    show BitVec.ofNat 32 j * BitVec.ofNat 32 2000 + BitVec.ofNat 32 r.val = _
    rw [BitVec.ofNat_add, BitVec.ofNat_mul, BitVec.mul_comm]
  show Scalar.select (IntOp.cmpi .eq (broadcastTo S2048x2000 v7 broadcasts_S2048x1_S2048x2000 (ix2 p r))
      (broadcastTo S2048x2000 (addi (broadcast S1x2000 (Scalar.muli (BitVec.ofNat 32 j) 2000#32)) (iota .tc S1x2000 32 [1] iota_S1x2000_d1_w32))
        broadcasts_S1x2000_S2048x2000 (ix2 p r))) (Ideal.ofBits .f32 0x3F800000#32) (Ideal.ofBits .f32 0x00000000#32) = _
  rw [e9, e10, e6]
  unfold Scalar.select
  exact if_congr (cmpi_eq_one4 _ _) Ideal.ofBits_one_f32 Ideal.ofBits_zero_f32

/-- The zero block. -/
theorem k4_pay1_apply (i : S2048x64.Idx) : k4_pay1 (F := Ideal) i = 0 := by
  unfold k4_pay1
  simp only [shapeCast_self]
  exact Ideal.ofBits_zero_f32

/-- The accumulator update at (p, q): the accumulator there plus, over the 2000 nodes of the point's node block, the node's row entry
    where the edge's index word is the node's number. -/
theorem k4_pay2_apply (i : grid4.Coords) (v7 : Vec Ideal S2048x1 .i32) (v16 : Vec Ideal S2000x64 .f32) (v19 : Vec Ideal S2048x64 .f32)
    (p : Fin 2048) (q : Fin 64) :
    k4_pay2 (F := Ideal) i v7 v16 v19 (ix2 p q)
      = v19 (ix2 p q) + ∑ r : Fin 2000, (if v7 (ix2 p 0) = BitVec.ofNat 32 (2000 * (i 1).val + r.val) then (1 : EReal) else 0) * v16 (ix2 r q) := by
  unfold k4_pay2
  simp only [shapeCast_self]
  refine (addf_apply _ _ _).trans ?_
  refine congrArg (v19 (ix2 p q) + ·) ?_
  refine (mm_apply4 _ _ p q).trans ?_
  refine Finset.sum_congr rfl fun r _ => ?_
  refine congrArg (· * v16 (ix2 r q)) ?_
  exact onehot_apply4 (i 1).val v7 p r

/-- The stored block at (p, q): the accumulator there times edge p's weight. -/
theorem k4_pay3_apply (v28 : Vec Ideal S2048x64 .f32) (v29 : Vec Ideal S2048x1 .f32) (p : Fin 2048) (q : Fin 64) :
    k4_pay3 (F := Ideal) v28 v29 (ix2 p q) = v28 (ix2 p q) * v29 (ix2 p 0) := by
  unfold k4_pay3
  simp only [shapeCast_self]
  refine (mulf_apply _ _ _).trans ?_
  refine congrArg (v28 (ix2 p q) * ·) ?_
  exact broadcastTo_apply v29 _ (ix2 p q) (ix2 p 0) (fun a => by match a with | ⟨0, _⟩ => rfl | ⟨1, _⟩ => rfl)

/-! ## Where each block sits in its array -/

theorem lt_N4 (t : Fin cfg4.N) : t.val < 41550 := by
  have h := t.isLt
  have hN : cfg4.N = 41550 := N_4
  omega

/-- The block indices of the four windows, axis by axis: the index, weight and output blocks move with the edge block t / 50, the
    table block with the node block t % 50. -/
theorem widx4_0_0 (t : Fin cfg4.N) : win4_0.index t (0 : Fin 2) = t.val / 50 := congrFun (index4_0 t) 0
theorem widx4_0_1 (t : Fin cfg4.N) : win4_0.index t (1 : Fin 2) = 0 := congrFun (index4_0 t) 1
theorem widx4_1_0 (t : Fin cfg4.N) : win4_1.index t (0 : Fin 2) = t.val / 50 := congrFun (index4_1 t) 0
theorem widx4_1_1 (t : Fin cfg4.N) : win4_1.index t (1 : Fin 2) = 0 := congrFun (index4_1 t) 1
theorem widx4_2_0 (t : Fin cfg4.N) : win4_2.index t (0 : Fin 2) = t.val % 50 := congrFun (index4_2 t) 0
theorem widx4_2_1 (t : Fin cfg4.N) : win4_2.index t (1 : Fin 2) = 0 := congrFun (index4_2 t) 1
theorem widx4_3_0 (t : Fin cfg4.N) : win4_3.index t (0 : Fin 2) = t.val / 50 := congrFun (index4_3 t) 0
theorem widx4_3_1 (t : Fin cfg4.N) : win4_3.index t (1 : Fin 2) = 0 := congrFun (index4_3 t) 1

/-- The index block at point t is rows 2048 · (t / 50) … of the index array. -/
theorem blk4_0_apply (c : Dev nD) (t : Fin cfg4.N) (x : S2048x1.Idx) (k : S1701888x1.Idx)
    (hk0 : (k 0).val = 2048 * (t.val / 50) + (x 0).val) (hk1 : (k 1).val = (x 1).val) :
    (iblk4 V c 0 t : Vec F S2048x1 .i32) x = (V c (Pipeline.arrRef spec4 0) : S1701888x1.Idx → Elt F .i32) k := by
  unfold iblk4
  rw [View.read_apply]
  show (V c (Pipeline.arrRef spec4 0) : S1701888x1.Idx → Elt F .i32) _ = (V c (Pipeline.arrRef spec4 0) : S1701888x1.Idx → Elt F .i32) k
  congr 1
  funext a
  apply Fin.ext
  match a with
  | ⟨0, _⟩ => show win4_0.index t (0 : Fin 2) * 2048 + 1 * (x 0).val = (k 0).val; rw [widx4_0_0, hk0]; omega
  | ⟨1, _⟩ => show win4_0.index t (1 : Fin 2) * 1 + 1 * (x 1).val = (k 1).val; rw [widx4_0_1, hk1]; omega

/-- The weight block at point t is the same rows of the weight array. -/
theorem blk4_1_apply (c : Dev nD) (t : Fin cfg4.N) (x : S2048x1.Idx) (k : S1701888x1.Idx)
    (hk0 : (k 0).val = 2048 * (t.val / 50) + (x 0).val) (hk1 : (k 1).val = (x 1).val) :
    (iblk4 V c 1 t : Vec F S2048x1 .f32) x = (V c (Pipeline.arrRef spec4 1) : S1701888x1.Idx → Elt F .f32) k := by
  unfold iblk4
  rw [View.read_apply]
  show (V c (Pipeline.arrRef spec4 1) : S1701888x1.Idx → Elt F .f32) _ = (V c (Pipeline.arrRef spec4 1) : S1701888x1.Idx → Elt F .f32) k
  congr 1
  funext a
  apply Fin.ext
  match a with
  | ⟨0, _⟩ => show win4_1.index t (0 : Fin 2) * 2048 + 1 * (x 0).val = (k 0).val; rw [widx4_1_0, hk0]; omega
  | ⟨1, _⟩ => show win4_1.index t (1 : Fin 2) * 1 + 1 * (x 1).val = (k 1).val; rw [widx4_1_1, hk1]; omega

/-- The table block at point t is rows 2000 · (t % 50) … of the table. -/
theorem blk4_2_apply (c : Dev nD) (t : Fin cfg4.N) (x : S2000x64.Idx) (k : S100000x64.Idx)
    (hk0 : (k 0).val = 2000 * (t.val % 50) + (x 0).val) (hk1 : (k 1).val = (x 1).val) :
    (iblk4 V c 2 t : Vec F S2000x64 .f32) x = (V c (Pipeline.arrRef spec4 2) : S100000x64.Idx → Elt F .f32) k := by
  unfold iblk4
  rw [View.read_apply]
  show (V c (Pipeline.arrRef spec4 2) : S100000x64.Idx → Elt F .f32) _ = (V c (Pipeline.arrRef spec4 2) : S100000x64.Idx → Elt F .f32) k
  congr 1
  funext a
  apply Fin.ext
  match a with
  | ⟨0, _⟩ => show win4_2.index t (0 : Fin 2) * 2000 + 1 * (x 0).val = (k 0).val; rw [widx4_2_0, hk0]; omega
  | ⟨1, _⟩ => show win4_2.index t (1 : Fin 2) * 64 + 1 * (x 1).val = (k 1).val; rw [widx4_2_1, hk1]; omega

/-! ## The accumulator -/

/-- Edge e's term for node m at feature q: the node's row entry where the edge's index word is the node's number, else nothing. -/
abbrev term4 (c : Dev nD) (e : Fin 1701888) (q : Fin 64) (m : Fin 100000) : EReal :=
  (if (W c (Pipeline.arrRef spec4 0) : S1701888x1.Idx → BitVec 32) (ix2 e 0) = BitVec.ofNat 32 m.val then (1 : EReal) else 0)
    * (W c (Pipeline.arrRef spec4 2) : S100000x64.Idx → EReal) (ix2 m q)

theorem acc4_at_zero (c : Dev nD) (h : 0 < cfg4.N) :
    acc4 V c 0 h = k4_pay2 (grid4.coords ⟨0, h⟩) (iblk4 V c 0 ⟨0, h⟩) (iblk4 V c 2 ⟨0, h⟩) (k4_pay1 (F := F)) := rfl

theorem acc4_at_succ (c : Dev nD) (n : ℕ) (h : n + 1 < cfg4.N) :
    acc4 V c (n + 1) h = k4_pay2 (grid4.coords ⟨n + 1, h⟩) (iblk4 V c 0 ⟨n + 1, h⟩) (iblk4 V c 2 ⟨n + 1, h⟩)
      (if (n + 1) % 50 = 0 then k4_pay1 (F := F) else acc4 V c n (Nat.lt_of_succ_lt h)) := rfl

/-- One point's update at (p, q), whatever the accumulator held: the 2000 terms of the point's node block are added. -/
theorem acc4_gain (c : Dev nD) (n : ℕ) (h : n < cfg4.N) (prev : Vec Ideal S2048x64 .f32) (p : Fin 2048) (q : Fin 64)
    (e : Fin 1701888) (he : e.val = 2048 * (n / 50) + p.val) :
    k4_pay2 (F := Ideal) (grid4.coords ⟨n, h⟩) (iblk4 W c 0 ⟨n, h⟩) (iblk4 W c 2 ⟨n, h⟩) prev (ix2 p q)
      = prev (ix2 p q) + ∑ r : Fin 2000, term4 W c e q ⟨2000 * (n % 50) + r.val, by
          have := r.isLt; have := Nat.mod_lt n (show 0 < 50 by decide); omega⟩ := by
  refine (k4_pay2_apply (grid4.coords ⟨n, h⟩) (iblk4 W c 0 ⟨n, h⟩) (iblk4 W c 2 ⟨n, h⟩) prev p q).trans ?_
  refine congrArg (prev (ix2 p q) + ·) ?_
  refine Finset.sum_congr rfl fun r _ => ?_
  have hr : (r.val : ℕ) < 2000 := r.isLt
  have hm : n % 50 < 50 := Nat.mod_lt n (by decide)
  have e0 : (iblk4 W c 0 ⟨n, h⟩ : Vec Ideal S2048x1 .i32) (ix2 p 0)
      = (W c (Pipeline.arrRef spec4 0) : S1701888x1.Idx → BitVec 32) (ix2 e 0) :=
    blk4_0_apply W c ⟨n, h⟩ (ix2 p 0) (ix2 e 0) he rfl
  have e2 : (iblk4 W c 2 ⟨n, h⟩ : Vec Ideal S2000x64 .f32) (ix2 r q)
      = (W c (Pipeline.arrRef spec4 2) : S100000x64.Idx → EReal) (ix2 (⟨2000 * (n % 50) + r.val, by omega⟩ : Fin 100000) q) :=
    blk4_2_apply W c ⟨n, h⟩ (ix2 r q) (ix2 (⟨2000 * (n % 50) + r.val, by omega⟩ : Fin 100000) q) rfl rfl
  rw [e0, e2, coord4_1 ⟨n, h⟩]

/-- THE ACCUMULATOR after position n, at edge row p and feature q: the sum of the edge's terms over the node numbers below
    2000 · (n % 50 + 1). By induction on the position: node block 0 starts from the zero block, every other from the point before,
    which is in the same edge block. -/
theorem acc4_apply (c : Dev nD) : ∀ (n : ℕ) (h : n < cfg4.N) (p : Fin 2048) (q : Fin 64) (e : Fin 1701888)
    (he : e.val = 2048 * (n / 50) + p.val),
    acc4 (F := Ideal) W c n h (ix2 p q) = ∑ m : Fin 100000, if m.val < 2000 * (n % 50 + 1) then term4 W c e q m else 0
  | 0, h, p, q, e, he => by
    rw [acc4_at_zero]
    refine (acc4_gain W c 0 h (k4_pay1 (F := Ideal)) p q e he).trans ?_
    refine sum_below_block4 (term4 W c e q) (0 % 50) (Nat.mod_lt _ (by decide)) _ ?_
    rw [k4_pay1_apply]
    exact (sum_below_zero4 _ _ rfl).symm
  | n + 1, h, p, q, e, he => by
    rw [acc4_at_succ]
    refine (acc4_gain W c (n + 1) h _ p q e he).trans ?_
    refine sum_below_block4 (term4 W c e q) ((n + 1) % 50) (Nat.mod_lt _ (by decide)) _ ?_
    by_cases hz : (n + 1) % 50 = 0
    · rw [if_pos hz, k4_pay1_apply]
      exact (sum_below_zero4 _ _ hz).symm
    · rw [if_neg hz]
      have he' : e.val = 2048 * (n / 50) + p.val := by omega
      rw [acc4_apply c n (Nat.lt_of_succ_lt h) p q e he', show n % 50 + 1 = (n + 1) % 50 from by omega]

/-! ## The output array -/

/-- What the output array ends holding: at edge e and feature f the comparison gather of the three arrays the region reads. -/
abbrev gathered4 (c : Dev nD) : Vec Ideal S1701888x64 .f32 := fun i =>
  Cert.Spec.gatherCmp (N := 100000)
    (fun e => (W c (Pipeline.arrRef spec4 0) : S1701888x1.Idx → BitVec 32) (ix2 e 0))
    (fun e => (W c (Pipeline.arrRef spec4 1) : S1701888x1.Idx → EReal) (ix2 e 0))
    (fun n f => (W c (Pipeline.arrRef spec4 2) : S100000x64.Idx → EReal) (ix2 n f)) (i 0) (i 1)

/-- At an index with coordinates (e, f): the sum of edge e's terms over all nodes, times the edge's weight. -/
theorem out4_apply (c : Dev nD) (k : S1701888x64.Idx) (e : Fin 1701888) (f : Fin 64) (h0 : (k 0).val = e.val) (h1 : (k 1).val = f.val) :
    gathered4 W c k = (∑ m : Fin 100000, term4 W c e f m) * (W c (Pipeline.arrRef spec4 1) : S1701888x1.Idx → EReal) (ix2 e 0) := by
  obtain rfl : k = ix2 e f := Shape.idx_ext₂ h0 h1
  rfl

/-- WHAT A FLUSHING POINT WRITES BACK (node block 49 of edge block t / 50) is its block of that array. -/
theorem flushed4_eq (c : Dev nD) (t : Fin cfg4.N) (hf : (cfg4.win 3).flush t = true) :
    (dat4 (F := Ideal) W c).flushed 3 t = ((cfg4.win 3).blk t).view.read (Elt Ideal) (gathered4 W c) := by
  have h49 : t.val % 50 = 49 := (flush4_3 t).mp hf
  have ht := lt_N4 t
  show (cfg4.win 3).cut (grid4.coords t) ((dat4 (F := Ideal) W c).after 3 t) = _
  rw [after4_3]
  funext y
  obtain ⟨p, q, rfl⟩ : ∃ (p : Fin 2048) (q : Fin 64), y = ix2 p q := ⟨y 0, y 1, eq_ix2 y⟩
  show k4_pay3 (F := Ideal) (acc4 W c t.val t.isLt) (iblk4 W c 1 t) (ix2 p q) = gathered4 W c (((cfg4.win 3).blk t).view.emb (ix2 p q))
  have hp : (p.val : ℕ) < 2048 := p.isLt
  have he : ((⟨2048 * (t.val / 50) + p.val, by omega⟩ : Fin 1701888)).val = 2048 * (t.val / 50) + p.val := rfl
  refine (k4_pay3_apply (acc4 W c t.val t.isLt) (iblk4 W c 1 t) p q).trans ?_
  rw [acc4_apply W c t.val t.isLt p q ⟨2048 * (t.val / 50) + p.val, by omega⟩ he,
    blk4_1_apply W c t (ix2 p 0) (ix2 (⟨2048 * (t.val / 50) + p.val, by omega⟩ : Fin 1701888) 0) rfl rfl]
  refine Eq.trans ?_ (out4_apply W c _ ⟨2048 * (t.val / 50) + p.val, by omega⟩ q
    (by show win4_3.index t (0 : Fin 2) * 2048 + 1 * p.val = 2048 * (t.val / 50) + p.val; rw [widx4_3_0]; omega)
    (by show win4_3.index t (1 : Fin 2) * 64 + 1 * q.val = q.val; rw [widx4_3_1]; omega)).symm
  have key : (∑ m : Fin 100000, if m.val < 2000 * (t.val % 50 + 1) then term4 W c ⟨2048 * (t.val / 50) + p.val, by omega⟩ q m else 0)
      = ∑ m : Fin 100000, term4 W c ⟨2048 * (t.val / 50) + p.val, by omega⟩ q m :=
    Finset.sum_congr rfl fun m _ => if_pos (by have hm : (m.val : ℕ) < 100000 := m.isLt; omega)
  rw [key]

/-- An index of the array is in point t's block iff each coordinate is in the block's range on its axis. -/
theorem mem_blk4 (t : Fin cfg4.N) (i : S1701888x64.Idx) :
    i ∈ ((cfg4.win 3).blk t).view.set ↔ ∀ a : Fin 2, win4_3.index t a * S2048x64.size a ≤ (i a).val
      ∧ (i a).val < win4_3.index t a * S2048x64.size a + S2048x64.size a := by
  show i ∈ ((View.whole main_v44).slice (win4_3.rect t)).set ↔ _
  rw [View.set_slice_whole, Rect.mem_set_unit]
  exact Iff.rfl

/-- Every index of the array is in the block of a flushing point: edge row r is in edge block r / 2048, written back at that block's
    node block 49 (2048 · 831 = 1701888 rows). -/
theorem cover4 (i : S1701888x64.Idx) :
    ∃ t : Fin cfg4.N, (cfg4.win 3).flush t = true ∧ i ∈ ((cfg4.win 3).blk t).view.set := by
  have hi0 : (i 0).val < 1701888 := (i 0).isLt
  have hi1 : (i 1).val < 64 := (i 1).isLt
  have hN : cfg4.N = 41550 := N_4
  have ht : 50 * ((i 0).val / 2048) + 49 < cfg4.N := by omega
  refine ⟨⟨50 * ((i 0).val / 2048) + 49, ht⟩, (flush4_3 _).mpr (by show (50 * ((i 0).val / 2048) + 49) % 50 = 49; omega), ?_⟩
  rw [mem_blk4]
  intro a
  match a with
  | ⟨0, _⟩ =>
    show win4_3.index ⟨50 * ((i 0).val / 2048) + 49, ht⟩ (0 : Fin 2) * 2048 ≤ (i 0).val
      ∧ (i 0).val < win4_3.index ⟨50 * ((i 0).val / 2048) + 49, ht⟩ (0 : Fin 2) * 2048 + 2048
    rw [widx4_3_0]
    show (50 * ((i 0).val / 2048) + 49) / 50 * 2048 ≤ (i 0).val ∧ (i 0).val < (50 * ((i 0).val / 2048) + 49) / 50 * 2048 + 2048
    omega
  | ⟨1, _⟩ =>
    show win4_3.index ⟨50 * ((i 0).val / 2048) + 49, ht⟩ (1 : Fin 2) * 64 ≤ (i 1).val
      ∧ (i 1).val < win4_3.index ⟨50 * ((i 0).val / 2048) + 49, ht⟩ (1 : Fin 2) * 64 + 64
    rw [widx4_3_1]
    omega

/-- THE GATHER'S VALUE: the output array of region 4 ends holding, at edge e and feature f, the comparison gather of the index words,
    the weights and the table as the region finds them. -/
theorem gat4_value (V : (c : Dev nD) → (b : Ref sig .tc) → Buf (Elt Ideal) ((c : Thread nD τ).loc b)) (c : Dev nD) (e : Fin 1701888) (f : Fin 64) :
    ((dat4 (F := Ideal) V c).arrAt 3 cfg4.N : S1701888x64.Idx → EReal) (ValueIdx.ix2 e f)
      = Cert.Spec.gatherCmp (N := 100000)
          (fun e => (V c (Pipeline.arrRef spec4 0) : S1701888x1.Idx → BitVec 32) (ValueIdx.ix2 e 0))
          (fun e => (V c (Pipeline.arrRef spec4 1) : S1701888x1.Idx → EReal) (ValueIdx.ix2 e 0))
          (fun n f => (V c (Pipeline.arrRef spec4 2) : S100000x64.Idx → EReal) (ValueIdx.ix2 n f)) e f :=
  congrFun ((dat4 (F := Ideal) V c).arrAt_eq_of_cover 3 (gathered4 V c) (fun t hf => flushed4_eq V c t hf) cover4) (ix2 e f)

end Cert.KernelIdeal.Hand

end
-- ==== Proof.KI.ScaVal5A.lean ====
import proofs.«158984_j43568148250937_1_alg».proof.Proof.Gen.KernelIdeal.Launch
import proofs.«158984_j43568148250937_1_alg».proof.Proof.Gen.KernelIdeal.Skeleton
import proofs.«158984_j43568148250937_1_alg».proof.Proof.KI.Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«158984_j43568148250937_1_alg».proof.Proof.KI.Sca5
import proofs.«158984_j43568148250937_1_alg».proof.Proof.Math.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

open Idealize.ShloMosaic.ValueIdx
open scoped BigOperators

/-! # Region 5, read: what the scatter leaves in its output array, at the extended reals

Grid position `t` is node block `t / 831` (2000 nodes) and edge block `t % 831` (2048 edges). Node `n`'s row of the
result is the sum, over ALL 831 · 2048 = 1701888 edges, of (1 if the edge's index word is `n`'s, else 0) times the
edge's row of values, then the bias row, then the maximum with 0. The accumulator reaches that sum one edge block at a
time: after edge block `j` it holds the terms of the edges numbered below 2048 · (j + 1). -/

/-! ## Sums over the edges numbered below a bound -/

/-- The sum of the terms of the edges numbered below `b` (the index type fixed: at `b` = 1701888 it is the whole sum). -/
def below5 (g : Fin 1701888 → EReal) (b : ℕ) : EReal := ∑ e : Fin 1701888, if e.val < b then g e else 0

theorem below5_zero (g : Fin 1701888 → EReal) : below5 g 0 = 0 :=
  Finset.sum_eq_zero fun e _ => if_neg (Nat.not_lt_zero _)

theorem below5_all (g : Fin 1701888 → EReal) : below5 g 1701888 = ∑ e, g e :=
  Finset.sum_congr rfl fun e _ => if_pos e.isLt

/-- Edge `e'` of edge block `j`. -/
def edge5 (j : ℕ) (hj : j < 831) (e' : Fin 2048) : Fin 1701888 := ⟨2048 * j + e'.val, by have := e'.isLt; omega⟩

/-- One more edge block: the edges below 2048 · (j + 1) are those below 2048 · j and the 2048 of block `j`. -/
theorem below5_step (g : Fin 1701888 → EReal) (j : ℕ) (hj : j < 831) :
    below5 g (2048 * (j + 1)) = below5 g (2048 * j) + ∑ e' : Fin 2048, g (edge5 j hj e') := by
  have hsplit : ∀ e : Fin 1701888, (if e.val < 2048 * (j + 1) then g e else 0)
      = (if e.val < 2048 * j then g e else 0) + (if 2048 * j ≤ e.val ∧ e.val < 2048 * (j + 1) then g e else 0) := by
    intro e
    by_cases h1 : e.val < 2048 * j
    · rw [if_pos (by omega), if_pos h1, if_neg (by omega), add_zero]
    · by_cases h2 : e.val < 2048 * (j + 1)
      · rw [if_pos h2, if_neg h1, if_pos ⟨by omega, h2⟩, zero_add]
      · rw [if_neg h2, if_neg h1, if_neg (by omega), add_zero]
  unfold below5
  rw [Finset.sum_congr rfl (fun e _ => hsplit e), Finset.sum_add_distrib]
  refine congrArg (fun x => (∑ e : Fin 1701888, if e.val < 2048 * j then g e else 0) + x) ?_
  rw [← Finset.sum_filter]
  have hinj : Function.Injective (edge5 j hj) := fun a b h => by
    have := congrArg Fin.val h
    simp only [edge5] at this
    exact Fin.ext (by omega)
  have hmap : Finset.univ.filter (fun e : Fin 1701888 => 2048 * j ≤ e.val ∧ e.val < 2048 * (j + 1))
      = Finset.univ.map ⟨edge5 j hj, hinj⟩ := by
    ext e
    simp only [Finset.mem_filter, Finset.mem_univ, true_and, Finset.mem_map, Function.Embedding.coeFn_mk]
    constructor
    · intro h
      exact ⟨⟨e.val - 2048 * j, by omega⟩, Fin.ext (by simp only [edge5]; omega)⟩
    · rintro ⟨e', rfl⟩
      have := e'.isLt
      simp only [edge5]
      omega
  rw [hmap, Finset.sum_map]
  rfl

/-! ## The layout operations and the product of the kernel, read at an index -/

section Layout2
variable {α : Type}

/-- A column [2000,1] broadcast along the edges reads its row. -/
theorem bcast_col5 (h : S2000x1.Broadcasts S2000x2048) (x : S2000x1.Idx → α) (r : Fin 2000) (e' : Fin 2048) :
    broadcastTo S2000x2048 x h (ix2 r e') = x (ix2 r 0) :=
  broadcastTo_apply x h (ix2 r e') (ix2 r 0) fun a => by
    match a with
    | ⟨0, _⟩ => rfl
    | ⟨1, _⟩ => rfl

/-- A row [1,2048] broadcast down the nodes reads its column. -/
theorem bcast_row5 (h : S1x2048.Broadcasts S2000x2048) (x : S1x2048.Idx → α) (r : Fin 2000) (e' : Fin 2048) :
    broadcastTo S2000x2048 x h (ix2 r e') = x (ix2 0 e') :=
  broadcastTo_apply x h (ix2 r e') (ix2 0 e') fun a => by
    match a with
    | ⟨0, _⟩ => rfl
    | ⟨1, _⟩ => rfl

/-- The bias row [1,64] broadcast down the nodes reads its column. -/
theorem bcast_bias5 (h : S1x64.Broadcasts S2000x64) (x : S1x64.Idx → α) (r : Fin 2000) (f : Fin 64) :
    broadcastTo S2000x64 x h (ix2 r f) = x (ix2 0 f) :=
  broadcastTo_apply x h (ix2 r f) (ix2 0 f) fun a => by
    match a with
    | ⟨0, _⟩ => rfl
    | ⟨1, _⟩ => rfl

/-- A select on an equality comparison of two words is the `if` on their equality. -/
theorem select_cmpi_eq5 (x y : BitVec 32) (a b : α) : Scalar.select (IntOp.cmpi .eq x y) a b = if x = y then a else b := by
  unfold Scalar.select IntOp.cmpi
  by_cases h : x = y
  · subst h; simp
  · have hb : (x == y) = false := beq_eq_false_iff_ne.mpr h
    simp [hb, h]

end Layout2

/-- The operand indices of the [2000,2048] × [2048,64] product at output index `j` and contraction index `k`, axis by axis. -/
theorem lhs_dot5_0 (j : S2000x64.Idx) (k : dot_S2000x2048_S2048x64_S2000x64_1_0_0_1_n_n.contr.Idx) :
    ((dot_S2000x2048_S2048x64_S2000x64_1_0_0_1_n_n.lhsIdx j k) 0).val = (j 0).val := by
  simp [DotDims.lhsIdx, dot_S2000x2048_S2048x64_S2000x64_1_0_0_1_n_n]; rfl
theorem lhs_dot5_1 (j : S2000x64.Idx) (k : dot_S2000x2048_S2048x64_S2000x64_1_0_0_1_n_n.contr.Idx) :
    ((dot_S2000x2048_S2048x64_S2000x64_1_0_0_1_n_n.lhsIdx j k) 1).val = (k ⟨0, by decide⟩).val :=
  dot_S2000x2048_S2048x64_S2000x64_1_0_0_1_n_n.lhsIdx_val_of_single (cl := 1) rfl j k
theorem rhs_dot5_0 (j : S2000x64.Idx) (k : dot_S2000x2048_S2048x64_S2000x64_1_0_0_1_n_n.contr.Idx) :
    ((dot_S2000x2048_S2048x64_S2000x64_1_0_0_1_n_n.rhsIdx j k) 0).val = (k ⟨0, by decide⟩).val :=
  dot_S2000x2048_S2048x64_S2000x64_1_0_0_1_n_n.rhsIdx_val_of_single (cr := 0) rfl j k
theorem rhs_dot5_1 (j : S2000x64.Idx) (k : dot_S2000x2048_S2048x64_S2000x64_1_0_0_1_n_n.contr.Idx) :
    ((dot_S2000x2048_S2048x64_S2000x64_1_0_0_1_n_n.rhsIdx j k) 1).val = (j 1).val := by
  simp [DotDims.rhsIdx, dot_S2000x2048_S2048x64_S2000x64_1_0_0_1_n_n]; rfl

/-- The product into the zero block, at (r, f): the sum over the block's 2048 edges of the row's entry times the edge's value. -/
theorem matmul5_apply (A : FVec Ideal S2000x2048 .bf16) (B : FVec Ideal S2048x64 .bf16) (r : Fin 2000) (f : Fin 64) :
    FloatOps.matmul dot_S2000x2048_S2048x64_S2000x64_1_0_0_1_n_n none A B (constant S2000x64 .f32 0x00000000#32) (ix2 r f)
      = ∑ e' : Fin 2048, A (ix2 r e') * B (ix2 e' f) := by
  rw [Ideal.matmul_constant_zero_apply,
    ← Equiv.sum_comp (contrEquiv1 dot_S2000x2048_S2048x64_S2000x64_1_0_0_1_n_n 2048 rfl rfl).symm]
  refine Finset.sum_congr rfl fun e' _ => ?_
  have c2 := contrEquiv1_symm_val dot_S2000x2048_S2048x64_S2000x64_1_0_0_1_n_n 2048 rfl rfl e'
  have l2 : dot_S2000x2048_S2048x64_S2000x64_1_0_0_1_n_n.lhsIdx (ix2 r f)
      ((contrEquiv1 dot_S2000x2048_S2048x64_S2000x64_1_0_0_1_n_n 2048 rfl rfl).symm e') = ix2 r e' := by
    funext ax; apply Fin.ext
    match ax with
    | ⟨0, _⟩ => exact lhs_dot5_0 _ _
    | ⟨1, _⟩ => exact (lhs_dot5_1 _ _).trans c2
  have r2 : dot_S2000x2048_S2048x64_S2000x64_1_0_0_1_n_n.rhsIdx (ix2 r f)
      ((contrEquiv1 dot_S2000x2048_S2048x64_S2000x64_1_0_0_1_n_n 2048 rfl rfl).symm e') = ix2 e' f := by
    funext ax; apply Fin.ext
    match ax with
    | ⟨0, _⟩ => exact (rhs_dot5_0 _ _).trans c2
    | ⟨1, _⟩ => exact rhs_dot5_1 _ _
  rw [l2, r2]

/-- The word of 1.0 is the extended real 1. -/
theorem one_f32_5 : Ideal.ofBits .f32 0x3F800000#32 = 1 := IdealRules.sign_bit.ideal_onePat .f32

/-- Node block `a`'s row `r` has the number 2000 · a + r, as words (32-bit arithmetic is arithmetic modulo 2³²). -/
theorem node_word5 (a r : ℕ) : Scalar.muli (BitVec.ofNat 32 a) 2000#32 + BitVec.ofNat 32 r = BitVec.ofNat 32 (2000 * a + r) := by
  show BitVec.ofNat 32 a * BitVec.ofNat 32 2000 + BitVec.ofNat 32 r = _
  rw [← BitVec.ofNat_mul, ← BitVec.ofNat_add, Nat.mul_comm]

/-! ## The payloads at an index -/

/-- The reset block is zero. -/
theorem k5_pay1_apply (r : Fin 2000) (f : Fin 64) : k5_pay1 (F := Ideal) (ix2 r f) = 0 := by
  unfold k5_pay1
  simp only [shapeCast_self]
  exact Ideal.ofBits_zero_f32

/-- One point's update at (r, f): the accumulator plus, over the point's 2048 edges, (1 if node 2000 · i₀ + r's word is the
    edge's index word, else 0) times the edge's value. -/
theorem k5_pay2_apply (i : grid5.Coords) (idxb : Vec Ideal S1x2048 .i32) (valb : Vec Ideal S2048x64 .f32)
    (acc : Vec Ideal S2000x64 .f32) (r : Fin 2000) (f : Fin 64) :
    k5_pay2 (F := Ideal) i idxb valb acc (ix2 r f)
      = acc (ix2 r f) + ∑ e' : Fin 2048,
          (if BitVec.ofNat 32 (2000 * (i 0).val + r.val) = idxb (ix2 0 e') then (1 : EReal) else 0) * valb (ix2 e' f) := by
  unfold k5_pay2
  simp only [shapeCast_self]
  refine (addf_apply _ _ _).trans ?_
  refine congrArg (fun x => acc (ix2 r f) + x) ?_
  refine (matmul5_apply _ _ r f).trans ?_
  refine Finset.sum_congr rfl fun e' _ => ?_
  refine congrArg (fun x => x * valb (ix2 e' f)) ?_
  refine (select_cmpi_eq5 _ _ _ _).trans ?_
  rw [bcast_col5, bcast_row5]
  show (if Scalar.muli (BitVec.ofNat 32 (i 0).val) 2000#32 + iota .tc S2000x1 32 [0] _ (ix2 r 0) = idxb (ix2 0 e')
    then Ideal.ofBits .f32 0x3F800000#32 else Ideal.ofBits .f32 0x00000000#32) = _
  rw [iota_single_apply]
  show (if Scalar.muli (BitVec.ofNat 32 (i 0).val) 2000#32 + BitVec.ofNat 32 r.val = idxb (ix2 0 e')
    then Ideal.ofBits .f32 0x3F800000#32 else Ideal.ofBits .f32 0x00000000#32) = _
  rw [node_word5, one_f32_5, Ideal.ofBits_zero_f32]

/-! ## The grid's arithmetic -/

/-- Position `t`'s node block is `t / 831` (below 50, so the coordinate's reduction modulo 50 is idle). -/
theorem nodeBlk5 (t : Fin cfg5.N) : (grid5.coords t 0).val = t.val / 831 :=
  (coord5_0 t).trans (Nat.mod_eq_of_lt (nblk5_lt t))

/-! ## The arrays and the blocks, by their literal types -/

/-- The TensorCore's buffer contents at the extended reals. -/
abbrev IdealBufs5 : Type := (c : Dev nD) → (b : Ref sig .tc) → Buf (Elt Ideal) ((c : Thread nD τ).loc b)

/-- Edge `e`'s index word, edge `e`'s row of values, the bias row: the region's three input arrays as it finds them. -/
abbrev idxArr5 (V : IdealBufs5) (c : Dev nD) : Fin 1701888 → BitVec 32 :=
  fun e => (V c (Pipeline.arrRef spec5 0) : S1x1701888.Idx → BitVec 32) (ix2 0 e)
abbrev valArr5 (V : IdealBufs5) (c : Dev nD) : Fin 1701888 → Fin 64 → EReal :=
  fun e f => (V c (Pipeline.arrRef spec5 1) : S1701888x64.Idx → EReal) (ix2 e f)
abbrev biasArr5 (V : IdealBufs5) (c : Dev nD) : Fin 64 → EReal :=
  fun f => (V c (Pipeline.arrRef spec5 2) : S1x64.Idx → EReal) (ix2 0 f)

/-- The three input blocks at a point. -/
abbrev idxBlk5 (V : IdealBufs5) (c : Dev nD) (t : Fin cfg5.N) : Vec Ideal S1x2048 .i32 := iblk5 V c 0 t
abbrev valBlk5 (V : IdealBufs5) (c : Dev nD) (t : Fin cfg5.N) : Vec Ideal S2048x64 .f32 := iblk5 V c 1 t
abbrev biasBlk5 (V : IdealBufs5) (c : Dev nD) (t : Fin cfg5.N) : Vec Ideal S1x64 .f32 := iblk5 V c 2 t

/-- The index block at position `t` holds the index words of edge block `t % 831`. -/
theorem idxBlk5_apply (V : IdealBufs5) (c : Dev nD) (t : Fin cfg5.N) (e' : Fin 2048) :
    idxBlk5 V c t (ix2 0 e') = idxArr5 V c (edge5 (t.val % 831) (Nat.mod_lt _ (by decide)) e') := by
  have i0 : win5_0.index t 0 = 0 := congrFun (index5_0 t) 0
  have i1 : win5_0.index t 1 = t.val % 831 := congrFun (index5_0 t) 1
  unfold idxBlk5 iblk5
  rw [View.read_apply]
  show (V c (Pipeline.arrRef spec5 0) : S1x1701888.Idx → BitVec 32) _ = (V c (Pipeline.arrRef spec5 0) : S1x1701888.Idx → BitVec 32) _
  refine congrArg _ (funext fun a => Fin.ext ?_)
  match a with
  | ⟨0, _⟩ => show win5_0.index t 0 * 1 + 1 * 0 = 0; rw [i0]
  | ⟨1, _⟩ => show win5_0.index t 1 * 2048 + 1 * e'.val = 2048 * (t.val % 831) + e'.val; rw [i1]; omega

/-- The value block at position `t` holds the rows of edge block `t % 831`. -/
theorem valBlk5_apply (V : IdealBufs5) (c : Dev nD) (t : Fin cfg5.N) (e' : Fin 2048) (f : Fin 64) :
    valBlk5 V c t (ix2 e' f) = valArr5 V c (edge5 (t.val % 831) (Nat.mod_lt _ (by decide)) e') f := by
  have i0 : win5_1.index t 0 = t.val % 831 := congrFun (index5_1 t) 0
  have i1 : win5_1.index t 1 = 0 := congrFun (index5_1 t) 1
  unfold valBlk5 iblk5
  rw [View.read_apply]
  show (V c (Pipeline.arrRef spec5 1) : S1701888x64.Idx → EReal) _ = (V c (Pipeline.arrRef spec5 1) : S1701888x64.Idx → EReal) _
  refine congrArg _ (funext fun a => Fin.ext ?_)
  match a with
  | ⟨0, _⟩ => show win5_1.index t 0 * 2048 + 1 * e'.val = 2048 * (t.val % 831) + e'.val; rw [i0]; omega
  | ⟨1, _⟩ => show win5_1.index t 1 * 64 + 1 * f.val = f.val; rw [i1]; omega

/-- The bias block is the bias row at every point. -/
theorem biasBlk5_apply (V : IdealBufs5) (c : Dev nD) (t : Fin cfg5.N) (f : Fin 64) :
    biasBlk5 V c t (ix2 0 f) = biasArr5 V c f := by
  have i0 : win5_2.index t 0 = 0 := congrFun (index5_2 t) 0
  have i1 : win5_2.index t 1 = 0 := congrFun (index5_2 t) 1
  unfold biasBlk5 iblk5
  rw [View.read_apply]
  show (V c (Pipeline.arrRef spec5 2) : S1x64.Idx → EReal) _ = (V c (Pipeline.arrRef spec5 2) : S1x64.Idx → EReal) _
  refine congrArg _ (funext fun a => Fin.ext ?_)
  match a with
  | ⟨0, _⟩ => show win5_2.index t 0 * 1 + 1 * 0 = 0; rw [i0]
  | ⟨1, _⟩ => show win5_2.index t 1 * 64 + 1 * f.val = f.val; rw [i1]; omega

/-! ## The accumulator: after edge block j, the terms of the edges below 2048 · (j + 1) -/

/-- Edge `e`'s term for node number `n`, feature `f`. -/
abbrev term5 (V : IdealBufs5) (c : Dev nD) (n : ℕ) (f : Fin 64) : Fin 1701888 → EReal :=
  fun e => (if Cert.Spec.word n = idxArr5 V c e then (1 : EReal) else 0) * valArr5 V c e f

/-- One point: an accumulator holding the terms of the edges before this point's block holds, after the update, those of
    the edges up to its end. -/
theorem step5 (V : IdealBufs5) (c : Dev nD) (t : Fin cfg5.N) (prev : Vec Ideal S2000x64 .f32) (r : Fin 2000) (f : Fin 64)
    (hprev : prev (ix2 r f) = below5 (term5 V c (2000 * (t.val / 831) + r.val) f) (2048 * (t.val % 831))) :
    k5_pay2 (F := Ideal) (grid5.coords t) (idxBlk5 V c t) (valBlk5 V c t) prev (ix2 r f)
      = below5 (term5 V c (2000 * (t.val / 831) + r.val) f) (2048 * (t.val % 831 + 1)) := by
  refine (k5_pay2_apply (grid5.coords t) (idxBlk5 V c t) (valBlk5 V c t) prev r f).trans ?_
  rw [hprev, below5_step (term5 V c (2000 * (t.val / 831) + r.val) f) (t.val % 831) (Nat.mod_lt _ (by decide)), nodeBlk5 t]
  refine congrArg (fun x => below5 (term5 V c (2000 * (t.val / 831) + r.val) f) (2048 * (t.val % 831)) + x) ?_
  refine Finset.sum_congr rfl fun e' _ => ?_
  rw [idxBlk5_apply V c t e', valBlk5_apply V c t e' f]

/-- THE INVARIANT, by induction on the grid position. -/
theorem acc5_apply (V : IdealBufs5) (c : Dev nD) : ∀ (p : ℕ) (hp : p < cfg5.N) (r : Fin 2000) (f : Fin 64),
    acc5 V c p hp (ix2 r f) = below5 (term5 V c (2000 * (p / 831) + r.val) f) (2048 * (p % 831 + 1))
  | 0, hp, r, f => by
    rw [acc5]
    exact step5 V c ⟨0, hp⟩ (k5_pay1 (F := Ideal)) r f ((k5_pay1_apply r f).trans (below5_zero _).symm)
  | p + 1, hp, r, f => by
    rw [acc5]
    by_cases h0 : (p + 1) % 831 = 0
    · rw [if_pos h0]
      refine step5 V c ⟨p + 1, hp⟩ (k5_pay1 (F := Ideal)) r f ?_
      show k5_pay1 (F := Ideal) (ix2 r f) = below5 (term5 V c (2000 * ((p + 1) / 831) + r.val) f) (2048 * ((p + 1) % 831))
      rw [h0]
      exact (k5_pay1_apply r f).trans (below5_zero _).symm
    · rw [if_neg h0]
      refine step5 V c ⟨p + 1, hp⟩ (acc5 V c p (Nat.lt_of_succ_lt hp)) r f ?_
      show acc5 V c p (Nat.lt_of_succ_lt hp) (ix2 r f) = below5 (term5 V c (2000 * ((p + 1) / 831) + r.val) f) (2048 * ((p + 1) % 831))
      rw [acc5_apply V c p (Nat.lt_of_succ_lt hp) r f]
      have e1 : (p + 1) / 831 = p / 831 := by omega
      have e2 : (p + 1) % 831 = p % 831 + 1 := by omega
      rw [e1, e2]

/-- At the last edge block the accumulator holds the whole comparison sum. -/
theorem acc5_last (V : IdealBufs5) (c : Dev nD) (t : Fin cfg5.N) (ht : t.val % 831 = 830) (r : Fin 2000) (f : Fin 64) :
    acc5 V c t.val t.isLt (ix2 r f) = ∑ e : Fin 1701888, term5 V c (2000 * (t.val / 831) + r.val) f e := by
  rw [acc5_apply V c t.val t.isLt r f, ht]
  exact below5_all _

/-! ## The output block: the sum, the bias, the last step -/

-- region-specific: begin
/-- The last step on one entry, after the bias: none. -/
abbrev fin5 (x : EReal) : EReal := x

/-- The stored block at (r, f): the accumulator plus the bias. -/
theorem k5_pay3_apply (acc : Vec Ideal S2000x64 .f32) (bias : Vec Ideal S1x64 .f32) (r : Fin 2000) (f : Fin 64) :
    k5_pay3 (F := Ideal) acc bias (ix2 r f) = fin5 (acc (ix2 r f) + bias (ix2 0 f)) := by
  unfold k5_pay3
  simp only [shapeCast_self]
  refine (addf_apply _ _ _).trans ?_
  show acc (ix2 r f) + broadcastTo S2000x64 bias _ (ix2 r f) = _
  rw [bcast_bias5]
-- region-specific: end

/-- What the region leaves in its output array: node by node the comparison scatter, then the last step. -/
def scattered5 (V : IdealBufs5) (c : Dev nD) : S100000x64.Idx → EReal := fun i =>
  fin5 (Cert.Spec.scatterCmp (E := 1701888) (N := 100000) (M := 64) (idxArr5 V c) (valArr5 V c) (biasArr5 V c) (i 0) (i 1))

/-- The block stored at a point of the last edge block is its node block's rows of `scattered5`. -/
theorem outBlk5_apply (V : IdealBufs5) (c : Dev nD) (t : Fin cfg5.N) (ht : t.val % 831 = 830) (r : Fin 2000) (f : Fin 64)
    (n : Fin 100000) (f' : Fin 64) (hn : n.val = 2000 * (t.val / 831) + r.val) (hf : f'.val = f.val) :
    k5_pay3 (F := Ideal) (acc5 V c t.val t.isLt) (biasBlk5 V c t) (ix2 r f)
      = fin5 (Cert.Spec.scatterCmp (E := 1701888) (N := 100000) (M := 64) (idxArr5 V c) (valArr5 V c) (biasArr5 V c) n f') := by
  obtain rfl : f' = f := Fin.ext hf
  refine (k5_pay3_apply (acc5 V c t.val t.isLt) (biasBlk5 V c t) r f').trans ?_
  rw [acc5_last V c t ht r f', biasBlk5_apply V c t f']
  unfold Cert.Spec.scatterCmp
  rw [hn]

end Cert.KernelIdeal.Hand

end
-- ==== Proof.KI.ScaVal5.lean ====
import proofs.«158984_j43568148250937_1_alg».proof.Proof.Gen.KernelIdeal.Launch
import proofs.«158984_j43568148250937_1_alg».proof.Proof.Gen.KernelIdeal.Skeleton
import proofs.«158984_j43568148250937_1_alg».proof.Proof.KI.Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«158984_j43568148250937_1_alg».proof.Proof.KI.Sca5
import proofs.«158984_j43568148250937_1_alg».proof.Proof.KI.ScaVal5A
import proofs.«158984_j43568148250937_1_alg».proof.Proof.Math.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

open Idealize.ShloMosaic.ValueIdx
open scoped BigOperators

/-! # Region 5, read: from the stored blocks to the array

A point of the last edge block stores its node block's 2000 rows of `scattered5`; the 50 node blocks tile the 100000 rows. -/

/-- Reading a whole-array function through the output window's block at a point is reading it at the block's place in the array. -/
theorem read_blk5 (t : Fin cfg5.N) (G : S100000x64.Idx → EReal) (y : ((cfg5.win 3).xblock (grid5.coords t)).Idx) :
    ((cfg5.win 3).blk t).view.read (Elt Ideal) G y = G (((cfg5.win 3).blk t).view.emb y) := rfl

/-- What a point of the last edge block writes back is its block of `scattered5`. -/
theorem flushed5_eq (V : IdealBufs5) (c : Dev nD) (t : Fin cfg5.N) (hfl : (cfg5.win 3).flush t = true) :
    (dat5 (F := Ideal) V c).flushed 3 t = ((cfg5.win 3).blk t).view.read (Elt Ideal) (scattered5 V c) := by
  have ht : t.val % 831 = 830 := (flush5_3 t).mp hfl
  have i0 : win5_3.index t 0 = t.val / 831 := congrFun (index5_3 t) 0
  have i1 : win5_3.index t 1 = 0 := congrFun (index5_3 t) 1
  have hX : ∀ (x : S2000x64.Idx) (i : S100000x64.Idx), (i 0).val = 2000 * (t.val / 831) + (x 0).val → (i 1).val = (x 1).val →
      k5_pay3 (F := Ideal) (acc5 V c t.val t.isLt) (iblk5 V c 2 t) x = scattered5 V c i := by
    intro x i hn hf
    obtain ⟨r, f, rfl⟩ : ∃ (r : Fin 2000) (f : Fin 64), x = ix2 r f := ⟨x 0, x 1, eq_ix2 x⟩
    exact outBlk5_apply V c t ht r f (i 0) (i 1) hn hf
  show (cfg5.win 3).cut (grid5.coords t) ((dat5 (F := Ideal) V c).after 3 t) = _
  rw [after5_3 V c t]
  generalize k5_pay3 (F := Ideal) (acc5 V c t.val t.isLt) (iblk5 V c 2 t) = X at hX ⊢
  generalize scattered5 V c = G at hX ⊢
  funext y
  refine (hX ((cfg5.win 3).xinj (grid5.coords t) y) (((cfg5.win 3).blk t).view.emb y) ?_ ?_).trans (read_blk5 t G y).symm
  · show win5_3.index t 0 * 2000 + 1 * (y 0).val = 2000 * (t.val / 831) + (y 0).val
    rw [i0]; omega
  · show win5_3.index t 1 * 64 + 1 * (y 1).val = (y 1).val
    rw [i1]; omega

/-- The node blocks cover the array: row `n` is written at the last edge block of node block `n / 2000`. -/
theorem cover5 (i : S100000x64.Idx) : ∃ t : Fin cfg5.N, (cfg5.win 3).flush t = true ∧ i ∈ ((cfg5.win 3).blk t).view.set := by
  have h0 : (i 0).val < 100000 := (i 0).isLt
  have h1 : (i 1).val < 64 := (i 1).isLt
  have hlt : 831 * ((i 0).val / 2000) + 830 < cfg5.N := by have hN : cfg5.N = 41550 := N_5; omega
  obtain ⟨t, hv⟩ : ∃ t : Fin cfg5.N, t.val = 831 * ((i 0).val / 2000) + 830 := ⟨⟨_, hlt⟩, rfl⟩
  have i0 : win5_3.index t 0 = t.val / 831 := congrFun (index5_3 t) 0
  have i1 : win5_3.index t 1 = 0 := congrFun (index5_3 t) 1
  refine ⟨t, (flush5_3 t).mpr (by rw [hv]; omega), ?_⟩
  show i ∈ ((View.whole main_v46).slice (win5_3.rect t)).set
  rw [View.set_slice_whole, Rect.mem_set_unit]
  intro a
  match a with
  | ⟨0, _⟩ =>
    show win5_3.index t 0 * 2000 ≤ (i 0).val ∧ (i 0).val < win5_3.index t 0 * 2000 + 2000
    rw [i0, hv]; omega
  | ⟨1, _⟩ =>
    show win5_3.index t 1 * 64 ≤ (i 1).val ∧ (i 1).val < win5_3.index t 1 * 64 + 64
    rw [i1]; omega

/-- So the output array ends holding `scattered5`. -/
theorem final5 (V : IdealBufs5) (c : Dev nD) : (dat5 (F := Ideal) V c).arrAt 3 cfg5.N = scattered5 V c :=
  (dat5 (F := Ideal) V c).arrAt_eq_of_cover 3 (scattered5 V c) (flushed5_eq V c) cover5

-- region-specific: begin
/-- REGION 5'S VALUE: node `n`, feature `f` of its output array is the comparison scatter of the three input arrays as the
    region finds them. -/
theorem sca5_value (V : (c : Dev nD) → (b : Ref sig .tc) → Buf (Elt Ideal) ((c : Thread nD τ).loc b)) (c : Dev nD) (n : Fin 100000) (f : Fin 64) :
    ((dat5 (F := Ideal) V c).arrAt 3 cfg5.N : S100000x64.Idx → EReal) (ValueIdx.ix2 n f)
      = Cert.Spec.scatterCmp (E := 1701888)
          (fun e => (V c (Pipeline.arrRef spec5 0) : S1x1701888.Idx → BitVec 32) (ValueIdx.ix2 0 e))
          (fun e f => (V c (Pipeline.arrRef spec5 1) : S1701888x64.Idx → EReal) (ValueIdx.ix2 e f))
          (fun f => (V c (Pipeline.arrRef spec5 2) : S1x64.Idx → EReal) (ValueIdx.ix2 0 f)) n f :=
  (congrFun (final5 V c) (ix2 n f)).trans rfl
-- region-specific: end

end Cert.KernelIdeal.Hand

end
-- ==== Proof.KI.Host.lean ====
import proofs.«158984_j43568148250937_1_alg».proof.Proof.Gen.KernelIdeal.Regions
import proofs.«158984_j43568148250937_1_alg».proof.Proof.Ref.Read
import Idealize.ShloMosaic.Lib.StableHlo.Run
import Idealize.ShloMosaic.Lib.ValueIdx
import Idealize.ShloMosaic.Lib.ValueLayout
import Idealize.ShloMosaic.Lib.Pipeline.Value
import Idealize.ShloMosaic.Lib.Pipeline.Regions
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The host stretches of the kernel program, read at an index

Before its first kernel the program prepares the graph on the host: from the edge array it takes the source and the
target word of every edge, appends one self loop per node, computes every node's degree, the degrees' inverse roots
and from them every edge's weight; then it pads the three edge vectors to a whole number of blocks (831 · 2048 =
1,701,888 entries: the words by the word 100000, one past the last node, the weights by zero) and views them as
columns and a row. Later stretches view the two bias vectors as rows.

This file reads those arrays at an index, and shows that the words and weights are, stage by stage, the ones the
reference program computes from the same edge array by the same operations.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The padding stretch over any contents before it

The last host stretch pads the edge list from 1,700,000 to 1,701,888 = 831 · 2048 entries: the source and target words
by 1888 copies of the word 100000 (one past the last node), the weights by 1888 zeros; then it views each padded
vector as a column or a row. Stated over ANY contents `W` before the stretch. -/

set_option maxHeartbeats 2000000 in
/-- The edge weights the stretch computes: the product of the two gathered inverse root degrees. -/
theorem stretch2_v29 (W : Valuation τ sig (Elt F)) :
    (StableHlo.after hostOps0_2 W main_v29 : S1700000.Idx → F .f32)
      = mulf
          (Host.gather gather_S100000_S1700000x1_S1700000_n_0_n_n_0_1_1 (W main_v14 : S100000.Idx → F .f32)
            (broadcastInDim S1700000x1 ![0] bcast_S1700000_S1700000x1_0
              (select (cmpi .slt (W main_v5 : S1700000.Idx → BitVec 32) (broadcastInDim S1700000 ![] bcast_S_S1700000 (constantI S_ 32 0#32)))
                (addi (W main_v5 : S1700000.Idx → BitVec 32) (broadcastInDim S1700000 ![] bcast_S_S1700000 (constantI S_ 32 100000#32)))
                (W main_v5 : S1700000.Idx → BitVec 32))))
          (Host.gather gather_S100000_S1700000x1_S1700000_n_0_n_n_0_1_1 (W main_v14 : S100000.Idx → F .f32)
            (broadcastInDim S1700000x1 ![0] bcast_S1700000_S1700000x1_0
              (select (cmpi .slt (W main_v6 : S1700000.Idx → BitVec 32) (broadcastInDim S1700000 ![] bcast_S_S1700000 (constantI S_ 32 0#32)))
                (addi (W main_v6 : S1700000.Idx → BitVec 32) (broadcastInDim S1700000 ![] bcast_S_S1700000 (constantI S_ 32 100000#32)))
                (W main_v6 : S1700000.Idx → BitVec 32)))) := by
  dsimp only [hostOps0_2]; after_results_simp <;> rfl

/-- The padded source words, as a column. -/
theorem stretch2_v36 (W : Valuation τ sig (Elt F)) :
    (StableHlo.after hostOps0_2 W main_v36 : S1701888x1.Idx → BitVec 32)
      = shapeCast _ (concatenate S1701888 0 [⟨S1700000, (W main_v5 : S1700000.Idx → BitVec 32)⟩,
          ⟨S1888, broadcastInDim S1888 ![] bcast_S_S1888 (constantI S_ 32 100000#32)⟩] concatenates_S1700000_S1888_S1701888_d0)
          shapeCasts_S1701888_S1701888x1 := by
  dsimp only [hostOps0_2]; after_results <;> rfl

/-- The padded target words, as a row. -/
theorem stretch2_v37 (W : Valuation τ sig (Elt F)) :
    (StableHlo.after hostOps0_2 W main_v37 : S1x1701888.Idx → BitVec 32)
      = shapeCast _ (concatenate S1701888 0 [⟨S1700000, (W main_v6 : S1700000.Idx → BitVec 32)⟩,
          ⟨S1888, broadcastInDim S1888 ![] bcast_S_S1888 (constantI S_ 32 100000#32)⟩] concatenates_S1700000_S1888_S1701888_d0)
          shapeCasts_S1701888_S1x1701888 := by
  dsimp only [hostOps0_2]; after_results <;> rfl

set_option maxHeartbeats 2000000 in
/-- The padded weights, as a column: the stretch's own weights followed by zeros. -/
theorem stretch2_v38 (W : Valuation τ sig (Elt F)) :
    (StableHlo.after hostOps0_2 W main_v38 : S1701888x1.Idx → F .f32)
      = shapeCast _ (concatenate S1701888 0 [⟨S1700000, (StableHlo.after hostOps0_2 W main_v29 : S1700000.Idx → F .f32)⟩,
          ⟨S1888, broadcastInDim S1888 ![] bcast_S_S1888 (constant S_ .f32 0x00000000#32)⟩] concatenates_S1700000_S1888_S1701888_d0)
          shapeCasts_S1701888_S1701888x1 := by
  dsimp only [hostOps0_2]; after_results_simp <;> rfl

/-! ## The padded vectors read at an index -/

section Pad
variable {α : Type}

/-- A vector of 1,700,000 entries followed by one of 1888, read at an index: the first below 1,700,000, the second
    (1,700,000 less) from there on. -/
theorem pad_apply (x : S1700000.Idx → α) (y : S1888.Idx → α) (e : Fin 1701888) :
    concatenate S1701888 0 [⟨S1700000, x⟩, ⟨S1888, y⟩] concatenates_S1700000_S1888_S1701888_d0 (ValueIdx.ix1 e)
      = if h : e.val < 1700000 then x (ValueIdx.ix1 ⟨e.val, h⟩)
        else y (ValueIdx.ix1 ⟨e.val - 1700000, by have := e.isLt; omega⟩) := by
  by_cases h : e.val < 1700000
  · rw [dif_pos h]
    exact concatenate_pair_apply_left (t := S1701888) (s₁ := S1700000) (s₂ := S1888) 0 x y
      concatenates_S1700000_S1888_S1701888_d0 (ValueIdx.ix1 e) rfl (ValueIdx.ix1 ⟨e.val, h⟩)
      (fun b => match b with | ⟨0, _⟩ => rfl)
  · rw [dif_neg h]
    exact concatenate_pair_apply_right (t := S1701888) (s₁ := S1700000) (s₂ := S1888) 0 x y
      concatenates_S1700000_S1888_S1701888_d0 (ValueIdx.ix1 e) rfl rfl
      (ValueIdx.ix1 ⟨e.val - 1700000, by have := e.isLt; omega⟩)
      (fun b hb => match b, hb with | ⟨0, _⟩, hb => absurd rfl hb)
      (by show e.val - 1700000 + 1700000 = e.val; omega)

/-- The padded vector viewed as a column, read at row `e`. -/
theorem padCol_apply (x : S1700000.Idx → α) (y : S1888.Idx → α) (e : Fin 1701888) :
    shapeCast S1701888x1 (concatenate S1701888 0 [⟨S1700000, x⟩, ⟨S1888, y⟩] concatenates_S1700000_S1888_S1701888_d0)
        shapeCasts_S1701888_S1701888x1 (ValueIdx.ix2 e 0)
      = if h : e.val < 1700000 then x (ValueIdx.ix1 ⟨e.val, h⟩)
        else y (ValueIdx.ix1 ⟨e.val - 1700000, by have := e.isLt; omega⟩) := by
  rw [shapeCast_apply _ shapeCasts_S1701888_S1701888x1 (ValueIdx.ix2 e 0) (ValueIdx.ix1 e)
    (by rw [Shape.rowMajor_val_two, Shape.rowMajor_val_one]; show e.val = e.val * 1 + 0; omega)]
  exact pad_apply x y e

/-- The padded vector viewed as a row, read at column `e`. -/
theorem padRow_apply (x : S1700000.Idx → α) (y : S1888.Idx → α) (e : Fin 1701888) :
    shapeCast S1x1701888 (concatenate S1701888 0 [⟨S1700000, x⟩, ⟨S1888, y⟩] concatenates_S1700000_S1888_S1701888_d0)
        shapeCasts_S1701888_S1x1701888 (ValueIdx.ix2 0 e)
      = if h : e.val < 1700000 then x (ValueIdx.ix1 ⟨e.val, h⟩)
        else y (ValueIdx.ix1 ⟨e.val - 1700000, by have := e.isLt; omega⟩) := by
  rw [ValueIdx.shapeCast_a_1a_apply _ shapeCasts_S1701888_S1x1701888 0 e]
  exact pad_apply x y e

end Pad

/-! ## The first two stretches over any contents before them

The first stretch splits the edge array into its source and target rows, appends the self loops (an iota over the
100,000 nodes), counts every node's incoming edges (a scatter-add of ones at the target words), and takes the
count's inverse root and its positivity; the second selects the inverse root where the count is positive, zero
elsewhere. -/

/-- The source words: the edge array's row 0, then the self loops. -/
theorem stretch0_v5 (W : Valuation τ sig (Elt F)) :
    (StableHlo.after hostOps0 W main_v5 : S1700000.Idx → BitVec 32)
      = concatenate S1700000 0 [⟨S1600000, shapeCast _ (extractStridedSlice S1x1600000 ![0, 0]
            (W main_arg1 : S2x1600000.Idx → BitVec 32) slices_S2x1600000_S1x1600000_0_0) shapeCasts_S1x1600000_S1600000⟩,
          ⟨S100000, iotaInDim S100000 32 0⟩] concatenates_S1600000_S100000_S1700000_d0 := by
  dsimp only [hostOps0]; after_results <;> rfl

/-- The target words: the edge array's row 1, then the self loops. -/
theorem stretch0_v6 (W : Valuation τ sig (Elt F)) :
    (StableHlo.after hostOps0 W main_v6 : S1700000.Idx → BitVec 32)
      = concatenate S1700000 0 [⟨S1600000, shapeCast _ (extractStridedSlice S1x1600000 ![1, 0]
            (W main_arg1 : S2x1600000.Idx → BitVec 32) slices_S2x1600000_S1x1600000_1_0) shapeCasts_S1x1600000_S1600000⟩,
          ⟨S100000, iotaInDim S100000 32 0⟩] concatenates_S1600000_S100000_S1700000_d0 := by
  dsimp only [hostOps0]; after_results <;> rfl

/-- The degrees: ones added at the target words. -/
theorem stretch0_v10 (W : Valuation τ sig (Elt F)) :
    (StableHlo.after hostOps0 W main_v10 : S100000.Idx → F .f32)
      = Host.scatterAdd scatter_S100000_S1700000x1_S1700000_n_0_0_1
          (broadcastInDim S100000 ![] bcast_S_S100000 (constant S_ .f32 0x00000000#32))
          (broadcastInDim S1700000x1 ![0] bcast_S1700000_S1700000x1_0 (StableHlo.after hostOps0 W main_v6 : S1700000.Idx → BitVec 32))
          (broadcastInDim S1700000 ![] bcast_S_S1700000 (constant S_ .f32 0x3F800000#32)) := by
  dsimp only [hostOps0]; after_results <;> rfl

/-- Where the degree is positive. -/
theorem stretch0_v12 (W : Valuation τ sig (Elt F)) :
    (StableHlo.after hostOps0 W main_v12 : S100000.Idx → BitVec 1)
      = cmpf .ogt (StableHlo.after hostOps0 W main_v10 : S100000.Idx → F .f32)
          (broadcastInDim S100000 ![] bcast_S_S100000 (constant S_ .f32 0x00000000#32)) := by
  dsimp only [hostOps0]; after_results <;> rfl

/-- The degrees' inverse roots. -/
theorem stretch0_v13 (W : Valuation τ sig (Elt F)) :
    (StableHlo.after hostOps0 W main_v13 : S100000.Idx → F .f32)
      = Host.rsqrt (StableHlo.after hostOps0 W main_v10 : S100000.Idx → F .f32) := by
  dsimp only [hostOps0]; after_results <;> rfl

/-- The zero the second stretch selects where the degree is not positive. -/
theorem stretch0_cst2 (W : Valuation τ sig (Elt F)) :
    (StableHlo.after hostOps0 W main_cst_2 : S_.Idx → F .f32) = constant S_ .f32 0x00000000#32 := by
  dsimp only [hostOps0]; after_results <;> rfl

/-- The inverse root degrees, zero where the degree is not positive. -/
theorem stretch1_v14 (W : Valuation τ sig (Elt F)) :
    (StableHlo.after hostOps0_1 W main_v14 : S100000.Idx → F .f32)
      = select (W main_v12 : S100000.Idx → BitVec 1) (W main_v13 : S100000.Idx → F .f32)
          (broadcastInDim S100000 ![] bcast_S_S100000 (id (W main_cst_2 : S_.Idx → F .f32))) := by
  dsimp only [hostOps0_1]; after_results <;> rfl

/-! ## The same host chain on both sides

The kernel program computes its edge words and edge weights by the operations the reference computes its own by, in
the same order, from the same edge array: stage by stage the contents are the reference's stages. -/

section Chain
variable (mF : (ℓ : Loc nD τ sig) → Buf (Elt F) ℓ) (c : Dev nD)

theorem V1_v5 : (Gen.V1 mF c main_v5 : S1700000.Idx → BitVec 32)
    = Cert.ReferenceIdeal.Read.val_main_v3 (F := F) (mF ((c.tc : Thread nD τ).loc main_arg1)) :=
  (stretch0_v5 (Gen.V0 mF c)).trans rfl

theorem V1_v6 : (Gen.V1 mF c main_v6 : S1700000.Idx → BitVec 32)
    = Cert.ReferenceIdeal.Read.val_main_v6 (F := F) (mF ((c.tc : Thread nD τ).loc main_arg1)) :=
  (stretch0_v6 (Gen.V0 mF c)).trans rfl

theorem V1_v10 : (Gen.V1 mF c main_v10 : S100000.Idx → F .f32)
    = Cert.ReferenceIdeal.Read.val_main_v10 (F := F) (mF ((c.tc : Thread nD τ).loc main_arg1)) :=
  (stretch0_v10 (Gen.V0 mF c)).trans (by
    rw [show (StableHlo.after hostOps0 (Gen.V0 mF c) main_v6 : S1700000.Idx → BitVec 32) = _ from V1_v6 mF c]; rfl)

theorem V1_v12 : (Gen.V1 mF c main_v12 : S100000.Idx → BitVec 1)
    = Cert.ReferenceIdeal.Read.val_main_v12 (F := F) (mF ((c.tc : Thread nD τ).loc main_arg1)) :=
  (stretch0_v12 (Gen.V0 mF c)).trans (by
    rw [show (StableHlo.after hostOps0 (Gen.V0 mF c) main_v10 : S100000.Idx → F .f32) = _ from V1_v10 mF c]; rfl)

theorem V1_v13 : (Gen.V1 mF c main_v13 : S100000.Idx → F .f32)
    = Cert.ReferenceIdeal.Read.val_main_v13 (F := F) (mF ((c.tc : Thread nD τ).loc main_arg1)) :=
  (stretch0_v13 (Gen.V0 mF c)).trans (by
    rw [show (StableHlo.after hostOps0 (Gen.V0 mF c) main_v10 : S100000.Idx → F .f32) = _ from V1_v10 mF c]; rfl)

theorem V1_cst2 : (Gen.V1 mF c main_cst_2 : S_.Idx → F .f32) = Cert.ReferenceIdeal.Read.val_main_cst_2 (F := F) :=
  (stretch0_cst2 (Gen.V0 mF c)).trans rfl

theorem V2_v14 : (Gen.V2 mF c main_v14 : S100000.Idx → F .f32)
    = Cert.ReferenceIdeal.Read.val_main_v14 (F := F) (mF ((c.tc : Thread nD τ).loc main_arg1)) :=
  (stretch1_v14 (Gen.V1 mF c)).trans (by rw [V1_v12 mF c, V1_v13 mF c, V1_cst2 mF c]; rfl)

theorem V2_v5 : (Gen.V2 mF c main_v5 : S1700000.Idx → BitVec 32)
    = Cert.ReferenceIdeal.Read.val_main_v3 (F := F) (mF ((c.tc : Thread nD τ).loc main_arg1)) :=
  (Gen.V2_of mF c main_v5 (by decide)).trans (V1_v5 mF c)

theorem V2_v6 : (Gen.V2 mF c main_v6 : S1700000.Idx → BitVec 32)
    = Cert.ReferenceIdeal.Read.val_main_v6 (F := F) (mF ((c.tc : Thread nD τ).loc main_arg1)) :=
  (Gen.V2_of mF c main_v6 (by decide)).trans (V1_v6 mF c)

theorem V3_v5 : (Gen.V3 mF c main_v5 : S1700000.Idx → BitVec 32)
    = Cert.ReferenceIdeal.Read.val_main_v3 (F := F) (mF ((c.tc : Thread nD τ).loc main_arg1)) :=
  (Gen.V3_of mF c main_v5 (by decide)).trans (V2_v5 mF c)

theorem V3_v6 : (Gen.V3 mF c main_v6 : S1700000.Idx → BitVec 32)
    = Cert.ReferenceIdeal.Read.val_main_v6 (F := F) (mF ((c.tc : Thread nD τ).loc main_arg1)) :=
  (Gen.V3_of mF c main_v6 (by decide)).trans (V2_v6 mF c)

theorem V3_v29 : (Gen.V3 mF c main_v29 : S1700000.Idx → F .f32)
    = Cert.ReferenceIdeal.Read.val_main_v29 (F := F) (mF ((c.tc : Thread nD τ).loc main_arg1)) :=
  (stretch2_v29 (Gen.V2 mF c)).trans (by rw [V2_v14 mF c, V2_v5 mF c, V2_v6 mF c]; rfl)

end Chain

/-! ## At region 0's entry -/

section Entry
variable (m : (ℓ : Loc nD τ sig) → Buf (Elt Ideal) ℓ)

/-- The padded source words at row `e`: the edge's source word, or the word 100000 on the padding. -/
theorem row2_apply (c : Dev nD) (e : Fin 1701888) :
    (Gen.V3 m c main_v36 : S1701888x1.Idx → BitVec 32) (ValueIdx.ix2 e 0)
      = if h : e.val < 1700000 then (Gen.V3 m c main_v5 : S1700000.Idx → BitVec 32) (ValueIdx.ix1 ⟨e.val, h⟩) else 100000#32 := by
  rw [Gen.V3_of m c main_v5 (by decide)]
  refine (congrFun (stretch2_v36 (Gen.V2 m c)) _).trans ?_
  exact padCol_apply _ _ e

/-- The padded target words at column `e`: the edge's target word, or the word 100000 on the padding. -/
theorem col2_apply (c : Dev nD) (e : Fin 1701888) :
    (Gen.V3 m c main_v37 : S1x1701888.Idx → BitVec 32) (ValueIdx.ix2 0 e)
      = if h : e.val < 1700000 then (Gen.V3 m c main_v6 : S1700000.Idx → BitVec 32) (ValueIdx.ix1 ⟨e.val, h⟩) else 100000#32 := by
  rw [Gen.V3_of m c main_v6 (by decide)]
  refine (congrFun (stretch2_v37 (Gen.V2 m c)) _).trans ?_
  exact padRow_apply _ _ e

/-- The padded weights at row `e`: the edge's weight, or zero on the padding. -/
theorem wt2_apply (c : Dev nD) (e : Fin 1701888) :
    (Gen.V3 m c main_v38 : S1701888x1.Idx → EReal) (ValueIdx.ix2 e 0)
      = if h : e.val < 1700000 then (Gen.V3 m c main_v29 : S1700000.Idx → EReal) (ValueIdx.ix1 ⟨e.val, h⟩) else (0 : EReal) := by
  refine (congrFun (stretch2_v38 (F := Ideal) (Gen.V2 m c)) _).trans ?_
  refine (padCol_apply _ _ e).trans ?_
  by_cases h : e.val < 1700000
  · rw [dif_pos h, dif_pos h]
  · rw [dif_neg h, dif_neg h]
    exact Ideal.ofBits_zero_f32

/-- The source words are the reference's. -/
theorem srcWords_eq (c : Dev nD) :
    (Gen.V3 m c main_v5 : S1700000.Idx → BitVec 32)
      = Cert.ReferenceIdeal.Read.val_main_v3 (F := Ideal) (m ((c.tc : Thread nD τ).loc main_arg1)) :=
  V3_v5 m c

/-- The target words are the reference's. -/
theorem tgtWords_eq (c : Dev nD) :
    (Gen.V3 m c main_v6 : S1700000.Idx → BitVec 32)
      = Cert.ReferenceIdeal.Read.val_main_v6 (F := Ideal) (m ((c.tc : Thread nD τ).loc main_arg1)) :=
  V3_v6 m c

/-- The edge weights are the reference's. -/
theorem weights_eq (c : Dev nD) :
    (Gen.V3 m c main_v29 : S1700000.Idx → EReal)
      = Cert.ReferenceIdeal.Read.val_main_v29 (F := Ideal) (m ((c.tc : Thread nD τ).loc main_arg1)) :=
  V3_v29 m c

/-- The first layer's bias viewed as a row, at any contents before the reshape. -/
theorem bias1_apply (X : Valuation τ sig (Elt Ideal)) (f : Fin 128) :
    (StableHlo.after hostOps2 X main_v41 : S1x128.Idx → EReal) (ValueIdx.ix2 0 f)
      = (X main_arg3 : S128.Idx → EReal) (ValueIdx.ix1 f) := by
  have e : (StableHlo.after hostOps2 X main_v41 : S1x128.Idx → EReal)
      = shapeCast _ (X main_arg3 : S128.Idx → EReal) shapeCasts_S128_S1x128 := by
    dsimp only [hostOps2]; after_results <;> rfl
  rw [e]
  exact ValueIdx.shapeCast_a_1a_apply _ shapeCasts_S128_S1x128 0 f

/-- The second layer's bias viewed as a row, at any contents before the reshape. -/
theorem bias2_apply (X : Valuation τ sig (Elt Ideal)) (f : Fin 64) :
    (StableHlo.after hostOps5 X main_v45 : S1x64.Idx → EReal) (ValueIdx.ix2 0 f)
      = (X main_arg5 : S64.Idx → EReal) (ValueIdx.ix1 f) := by
  have e : (StableHlo.after hostOps5 X main_v45 : S1x64.Idx → EReal)
      = shapeCast _ (X main_arg5 : S64.Idx → EReal) shapeCasts_S64_S1x64 := by
    dsimp only [hostOps5]; after_results <;> rfl
  rw [e]
  exact ValueIdx.shapeCast_a_1a_apply _ shapeCasts_S64_S1x64 0 f

/-- No host stretch before region 0 writes an argument: each is still as launched. -/
theorem V3_arg (c : Dev nD) :
    Gen.V3 m c main_arg0 = m ((c.tc : Thread nD τ).loc main_arg0)
    ∧ Gen.V3 m c main_arg2 = m ((c.tc : Thread nD τ).loc main_arg2)
    ∧ Gen.V3 m c main_arg3 = m ((c.tc : Thread nD τ).loc main_arg3)
    ∧ Gen.V3 m c main_arg4 = m ((c.tc : Thread nD τ).loc main_arg4)
    ∧ Gen.V3 m c main_arg5 = m ((c.tc : Thread nD τ).loc main_arg5) :=
  ⟨(Gen.V3_of m c main_arg0 (by decide)).trans <| (Gen.V2_of m c main_arg0 (by decide)).trans <| (Gen.V1_of m c main_arg0 (by decide)).trans rfl,
   (Gen.V3_of m c main_arg2 (by decide)).trans <| (Gen.V2_of m c main_arg2 (by decide)).trans <| (Gen.V1_of m c main_arg2 (by decide)).trans rfl,
   (Gen.V3_of m c main_arg3 (by decide)).trans <| (Gen.V2_of m c main_arg3 (by decide)).trans <| (Gen.V1_of m c main_arg3 (by decide)).trans rfl,
   (Gen.V3_of m c main_arg4 (by decide)).trans <| (Gen.V2_of m c main_arg4 (by decide)).trans <| (Gen.V1_of m c main_arg4 (by decide)).trans rfl,
   (Gen.V3_of m c main_arg5 (by decide)).trans <| (Gen.V2_of m c main_arg5 (by decide)).trans <| (Gen.V1_of m c main_arg5 (by decide)).trans rfl⟩

end Entry

end Cert.KernelIdeal.Hand

end
-- ==== Proof.KI.Whole.lean ====
import proofs.«158984_j43568148250937_1_alg».proof.Proof.Gen.KernelIdeal.Launch
import proofs.«158984_j43568148250937_1_alg».proof.Proof.Gen.KernelIdeal.Skeleton
import proofs.«158984_j43568148250937_1_alg».proof.Proof.KI.Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«158984_j43568148250937_1_alg».proof.Proof.KI.Run
import proofs.«158984_j43568148250937_1_alg».proof.Proof.KI.LinVal0
import proofs.«158984_j43568148250937_1_alg».proof.Proof.KI.GatVal1
import proofs.«158984_j43568148250937_1_alg».proof.Proof.KI.ScaVal2
import proofs.«158984_j43568148250937_1_alg».proof.Proof.KI.LinVal3
import proofs.«158984_j43568148250937_1_alg».proof.Proof.KI.GatVal4
import proofs.«158984_j43568148250937_1_alg».proof.Proof.KI.ScaVal5
import proofs.«158984_j43568148250937_1_alg».proof.Proof.KI.Host
import proofs.«158984_j43568148250937_1_alg».proof.Proof.Gen.KernelIdeal.Regions
import proofs.«158984_j43568148250937_1_alg».proof.Proof.Math.Spec
import Idealize.ShloMosaic.Lib.ValueIdx
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The program's result in closed form

Each region's closed form reads the region's windows off the contents the region is entered from. Those contents are region 0's
entry contents with the earlier regions' outputs written in and, before each scatter, the bias row the host reshapes. Walking every
window back through these writes leaves the six closed forms composed: dense, gather, scatter (then the rectifier), and again. -/

/-! ## The specification's functions take pointwise equal arguments to equal results -/

theorem lin_congr {N K M : ℕ} {x x' : Fin N → Fin K → EReal} {w w' : Fin K → Fin M → EReal}
    (hx : ∀ n k, x n k = x' n k) (hw : ∀ k f, w k f = w' k f) : Cert.Spec.lin x w = Cert.Spec.lin x' w' := by
  obtain rfl : x = x' := funext fun n => funext (hx n)
  obtain rfl : w = w' := funext fun k => funext (hw k)
  rfl

theorem gatherCmp_congr {E N M : ℕ} {idx idx' : Fin E → BitVec 32} {wt wt' : Fin E → EReal} {tab tab' : Fin N → Fin M → EReal}
    (hi : ∀ e, idx e = idx' e) (hw : ∀ e, wt e = wt' e) (ht : ∀ n f, tab n f = tab' n f) :
    Cert.Spec.gatherCmp idx wt tab = Cert.Spec.gatherCmp idx' wt' tab' := by
  obtain rfl : idx = idx' := funext hi
  obtain rfl : wt = wt' := funext hw
  obtain rfl : tab = tab' := funext fun n => funext (ht n)
  rfl

theorem scatterCmp_congr {E N M : ℕ} {idx idx' : Fin E → BitVec 32} {vals vals' : Fin E → Fin M → EReal} {b b' : Fin M → EReal}
    (hi : ∀ e, idx e = idx' e) (hv : ∀ e f, vals e f = vals' e f) (hb : ∀ f, b f = b' f) :
    Cert.Spec.scatterCmp (N := N) idx vals b = Cert.Spec.scatterCmp idx' vals' b' := by
  obtain rfl : idx = idx' := funext hi
  obtain rfl : vals = vals' := funext fun e => funext (hv e)
  obtain rfl : b = b' := funext hb
  rfl

/-! ## What each region's entry contents hold

A region's output is written at one reference, a host stretch writes only its bias row: every other reference is carried along. -/

section Walk

variable (m : (ℓ : Loc nD τ sig) → Buf (Elt F) ℓ) (c : Dev nD)

theorem E1_of {r : Ref sig .tc} (h : r ≠ main_v39) : E1 m c r = E0 m c r :=
  Function.update_of_ne (StableHlo.devRef_ne_of_ne h) _ _
theorem X2_of {r : Ref sig .tc} (h : r ≠ main_v40) : X2 m c r = E1 m c r :=
  Function.update_of_ne (StableHlo.devRef_ne_of_ne h) _ _
theorem E2_of {r : Ref sig .tc} (h : r ≠ main_v41) : E2 m c r = X2 m c r :=
  StableHlo.after_of_writes_sub hostOps2 _ hostOps2_writes fun hm => h (List.mem_singleton.mp hm)
theorem E3_of {r : Ref sig .tc} (h : r ≠ main_v42) : E3 m c r = E2 m c r :=
  Function.update_of_ne (StableHlo.devRef_ne_of_ne h) _ _
theorem E4_of {r : Ref sig .tc} (h : r ≠ main_v43) : E4 m c r = E3 m c r :=
  Function.update_of_ne (StableHlo.devRef_ne_of_ne h) _ _
theorem X5_of {r : Ref sig .tc} (h : r ≠ main_v44) : X5 m c r = E4 m c r :=
  Function.update_of_ne (StableHlo.devRef_ne_of_ne h) _ _
theorem E5_of {r : Ref sig .tc} (h : r ≠ main_v45) : E5 m c r = X5 m c r :=
  StableHlo.after_of_writes_sub hostOps5 _ hostOps5_writes fun hm => h (List.mem_singleton.mp hm)

/-- Before the first scatter's bias row is made: a reference that is neither of the first two outputs is as at region 0's entry. -/
theorem X2_of_E0 {r : Ref sig .tc} (h39 : r ≠ main_v39) (h40 : r ≠ main_v40) : X2 m c r = E0 m c r :=
  (X2_of m c h40).trans (E1_of m c h39)
theorem E2_of_E0 {r : Ref sig .tc} (h39 : r ≠ main_v39) (h40 : r ≠ main_v40) (h41 : r ≠ main_v41) : E2 m c r = E0 m c r :=
  (E2_of m c h41).trans (X2_of_E0 m c h39 h40)
theorem E3_of_E0 {r : Ref sig .tc} (h39 : r ≠ main_v39) (h40 : r ≠ main_v40) (h41 : r ≠ main_v41) (h42 : r ≠ main_v42) :
    E3 m c r = E0 m c r :=
  (E3_of m c h42).trans (E2_of_E0 m c h39 h40 h41)
theorem E4_of_E0 {r : Ref sig .tc} (h39 : r ≠ main_v39) (h40 : r ≠ main_v40) (h41 : r ≠ main_v41) (h42 : r ≠ main_v42)
    (h43 : r ≠ main_v43) : E4 m c r = E0 m c r :=
  (E4_of m c h43).trans (E3_of_E0 m c h39 h40 h41 h42)
theorem X5_of_E0 {r : Ref sig .tc} (h39 : r ≠ main_v39) (h40 : r ≠ main_v40) (h41 : r ≠ main_v41) (h42 : r ≠ main_v42)
    (h43 : r ≠ main_v43) (h44 : r ≠ main_v44) : X5 m c r = E0 m c r :=
  (X5_of m c h44).trans (E4_of_E0 m c h39 h40 h41 h42 h43)
theorem E5_of_E0 {r : Ref sig .tc} (h39 : r ≠ main_v39) (h40 : r ≠ main_v40) (h41 : r ≠ main_v41) (h42 : r ≠ main_v42)
    (h43 : r ≠ main_v43) (h44 : r ≠ main_v44) (h45 : r ≠ main_v45) : E5 m c r = E0 m c r :=
  (E5_of m c h45).trans (X5_of_E0 m c h39 h40 h41 h42 h43 h44)

/-- Each region finds the output of the region before it where that region wrote it. -/
theorem E1_v39 : E1 m c main_v39 = out0 m c := Function.update_self _ _ _
theorem E2_v40 : E2 m c main_v40 = out1 m c := (E2_of m c (by decide)).trans (Function.update_self _ _ _)
theorem E3_v42 : E3 m c main_v42 = out2 m c := Function.update_self _ _ _
theorem E4_v43 : E4 m c main_v43 = out3 m c := Function.update_self _ _ _
theorem E5_v44 : E5 m c main_v44 = out4 m c := (E5_of m c (by decide)).trans (Function.update_self _ _ _)

/-- Region 0's entry contents hold the program's arguments as launched: no host stretch before it writes one. -/
theorem E0_arg0 : E0 m c main_arg0 = m ((c : Thread nD τ).loc main_arg0) :=
  (V3_of m c main_arg0 (by decide)).trans <| (V2_of m c main_arg0 (by decide)).trans <| (V1_of m c main_arg0 (by decide)).trans rfl
theorem E0_arg2 : E0 m c main_arg2 = m ((c : Thread nD τ).loc main_arg2) :=
  (V3_of m c main_arg2 (by decide)).trans <| (V2_of m c main_arg2 (by decide)).trans <| (V1_of m c main_arg2 (by decide)).trans rfl
theorem E0_arg3 : E0 m c main_arg3 = m ((c : Thread nD τ).loc main_arg3) :=
  (V3_of m c main_arg3 (by decide)).trans <| (V2_of m c main_arg3 (by decide)).trans <| (V1_of m c main_arg3 (by decide)).trans rfl
theorem E0_arg4 : E0 m c main_arg4 = m ((c : Thread nD τ).loc main_arg4) :=
  (V3_of m c main_arg4 (by decide)).trans <| (V2_of m c main_arg4 (by decide)).trans <| (V1_of m c main_arg4 (by decide)).trans rfl
theorem E0_arg5 : E0 m c main_arg5 = m ((c : Thread nD τ).loc main_arg5) :=
  (V3_of m c main_arg5 (by decide)).trans <| (V2_of m c main_arg5 (by decide)).trans <| (V1_of m c main_arg5 (by decide)).trans rfl

end Walk

/-! ## The padded edge data and the layers' stages, over region 0's entry contents and the launch memory -/

section Value

variable (m : (ℓ : Loc nD τ sig) → Buf (Elt Ideal) ℓ) (c : Dev nD)

/-- The padded edges' source words. -/
abbrev srcP (e : Fin 1701888) : BitVec 32 := (Gen.V3 m c main_v36 : S1701888x1.Idx → BitVec 32) (ValueIdx.ix2 e 0)
/-- The padded edges' target words. -/
abbrev tgtP (e : Fin 1701888) : BitVec 32 := (Gen.V3 m c main_v37 : S1x1701888.Idx → BitVec 32) (ValueIdx.ix2 0 e)
/-- The padded edges' weights. -/
abbrev wtP (e : Fin 1701888) : EReal := (Gen.V3 m c main_v38 : S1701888x1.Idx → EReal) (ValueIdx.ix2 e 0)

/-- The first dense layer: the node features against the first weight. -/
abbrev kLin1 : Fin 100000 → Fin 128 → EReal :=
  Cert.Spec.lin (fun n k => (m ((c.tc : Thread nD τ).loc main_arg0) : S100000x256.Idx → EReal) (ValueIdx.ix2 n k))
    (fun k f => (m ((c.tc : Thread nD τ).loc main_arg2) : S256x128.Idx → EReal) (ValueIdx.ix2 k f))
/-- The first gather: every padded edge's source row of it, weighted. -/
abbrev kGat1 : Fin 1701888 → Fin 128 → EReal := Cert.Spec.gatherCmp (N := 100000) (srcP m c) (wtP m c) (kLin1 m c)
/-- The first layer: the edges' rows summed onto their targets, the first bias added, rectified. -/
abbrev kAct1 : Fin 100000 → Fin 128 → EReal :=
  Cert.Spec.relu (Cert.Spec.scatterCmp (tgtP m c) (kGat1 m c)
    (fun f => (m ((c.tc : Thread nD τ).loc main_arg3) : S128.Idx → EReal) (ValueIdx.ix1 f)))
/-- The second dense layer: the first layer against the second weight. -/
abbrev kLin2 : Fin 100000 → Fin 64 → EReal :=
  Cert.Spec.lin (kAct1 m c) (fun k f => (m ((c.tc : Thread nD τ).loc main_arg4) : S128x64.Idx → EReal) (ValueIdx.ix2 k f))
/-- The second gather. -/
abbrev kGat2 : Fin 1701888 → Fin 64 → EReal := Cert.Spec.gatherCmp (N := 100000) (srcP m c) (wtP m c) (kLin2 m c)

/-! ## The regions' outputs, one after the other -/

/-- Region 0 leaves the first dense layer. -/
theorem out0_value (n : Fin 100000) (f : Fin 128) :
    (out0 m c : S100000x128.Idx → EReal) (ValueIdx.ix2 n f) = kLin1 m c n f :=
  (lin0_value (fun c b => E0 m c b) c n f).trans <| congrFun (congrFun (lin_congr
    (fun n k => congrFun (E0_arg0 m c) (ValueIdx.ix2 n k))
    (fun k f => congrFun (E0_arg2 m c) (ValueIdx.ix2 k f))) n) f

/-- Region 1 reads the edge words and weights as region 0 found them, and region 0's output: it leaves the first gather. -/
theorem out1_value (e : Fin 1701888) (f : Fin 128) :
    (out1 m c : S1701888x128.Idx → EReal) (ValueIdx.ix2 e f) = kGat1 m c e f :=
  (gat1_value (fun c b => E1 m c b) c e f).trans <| congrFun (congrFun (gatherCmp_congr
    (fun e => congrFun (E1_of m c (r := main_v36) (by decide)) (ValueIdx.ix2 e 0))
    (fun e => congrFun (E1_of m c (r := main_v38) (by decide)) (ValueIdx.ix2 e 0))
    (fun n f => (congrFun (E1_v39 m c) (ValueIdx.ix2 n f)).trans (out0_value m c n f))) e) f

/-- Region 2 reads the target words as region 0 found them, region 1's output, and the first bias as the host reshaped it:
    it leaves the first layer. -/
theorem out2_value (n : Fin 100000) (f : Fin 128) :
    (out2 m c : S100000x128.Idx → EReal) (ValueIdx.ix2 n f) = kAct1 m c n f :=
  (sca2_value (fun c b => E2 m c b) c n f).trans <| congrArg (fun a : EReal => max a 0) <| congrFun (congrFun (scatterCmp_congr
    (fun e => congrFun (E2_of_E0 m c (r := main_v37) (by decide) (by decide) (by decide)) (ValueIdx.ix2 0 e))
    (fun e f => (congrFun (E2_v40 m c) (ValueIdx.ix2 e f)).trans (out1_value m c e f))
    (fun f => (bias1_apply (X2 m c) f).trans <|
      (congrFun (X2_of_E0 m c (r := main_arg3) (by decide) (by decide)) (ValueIdx.ix1 f)).trans
        (congrFun (E0_arg3 m c) (ValueIdx.ix1 f)))) n) f

/-- Region 3 reads region 2's output and the second weight as launched: it leaves the second dense layer. -/
theorem out3_value (n : Fin 100000) (f : Fin 64) :
    (out3 m c : S100000x64.Idx → EReal) (ValueIdx.ix2 n f) = kLin2 m c n f :=
  (lin3_value (fun c b => E3 m c b) c n f).trans <| congrFun (congrFun (lin_congr
    (fun n k => (congrFun (E3_v42 m c) (ValueIdx.ix2 n k)).trans (out2_value m c n k))
    (fun k f => (congrFun (E3_of_E0 m c (r := main_arg4) (by decide) (by decide) (by decide) (by decide)) (ValueIdx.ix2 k f)).trans
      (congrFun (E0_arg4 m c) (ValueIdx.ix2 k f)))) n) f

/-- Region 4 reads the same edge words and weights, and region 3's output: it leaves the second gather. -/
theorem out4_value (e : Fin 1701888) (f : Fin 64) :
    (out4 m c : S1701888x64.Idx → EReal) (ValueIdx.ix2 e f) = kGat2 m c e f :=
  (gat4_value (fun c b => E4 m c b) c e f).trans <| congrFun (congrFun (gatherCmp_congr
    (fun e => congrFun (E4_of_E0 m c (r := main_v36) (by decide) (by decide) (by decide) (by decide) (by decide)) (ValueIdx.ix2 e 0))
    (fun e => congrFun (E4_of_E0 m c (r := main_v38) (by decide) (by decide) (by decide) (by decide) (by decide)) (ValueIdx.ix2 e 0))
    (fun n f => (congrFun (E4_v43 m c) (ValueIdx.ix2 n f)).trans (out3_value m c n f))) e) f

/-- THE KERNEL PROGRAM'S RESULT. Region 5 reads the target words as region 0 found them, region 4's output, and the second bias
    as the host reshaped it: what it leaves is the two layers composed over the padded edge data and the launched arguments. -/
theorem kernel_value (n : Fin 100000) (f : Fin 64) :
    (out5 m c : S100000x64.Idx → EReal) (ValueIdx.ix2 n f)
      = Cert.Spec.scatterCmp (tgtP m c)
          (Cert.Spec.gatherCmp (N := 100000) (srcP m c) (wtP m c)
            (Cert.Spec.lin
              (Cert.Spec.relu (Cert.Spec.scatterCmp (tgtP m c)
                (Cert.Spec.gatherCmp (N := 100000) (srcP m c) (wtP m c)
                  (Cert.Spec.lin (fun n k => (m ((c.tc : Thread nD τ).loc main_arg0) : S100000x256.Idx → EReal) (ValueIdx.ix2 n k))
                                 (fun k f => (m ((c.tc : Thread nD τ).loc main_arg2) : S256x128.Idx → EReal) (ValueIdx.ix2 k f))))
                (fun f => (m ((c.tc : Thread nD τ).loc main_arg3) : S128.Idx → EReal) (ValueIdx.ix1 f))))
              (fun k f => (m ((c.tc : Thread nD τ).loc main_arg4) : S128x64.Idx → EReal) (ValueIdx.ix2 k f))))
          (fun f => (m ((c.tc : Thread nD τ).loc main_arg5) : S64.Idx → EReal) (ValueIdx.ix1 f)) n f :=
  (sca5_value (fun c b => E5 m c b) c n f).trans <| congrFun (congrFun (scatterCmp_congr
    (fun e => congrFun (E5_of_E0 m c (r := main_v37) (by decide) (by decide) (by decide) (by decide) (by decide) (by decide) (by decide))
      (ValueIdx.ix2 0 e))
    (fun e f => (congrFun (E5_v44 m c) (ValueIdx.ix2 e f)).trans (out4_value m c e f))
    (fun f => (bias2_apply (X5 m c) f).trans <|
      (congrFun (X5_of_E0 m c (r := main_arg5) (by decide) (by decide) (by decide) (by decide) (by decide) (by decide)) (ValueIdx.ix1 f)).trans
        (congrFun (E0_arg5 m c) (ValueIdx.ix1 f)))) n) f

end Value

end Cert.KernelIdeal.Hand

end
-- ==== Proof.Ref.RefWords.lean ====
import proofs.«158984_j43568148250937_1_alg».proof.Proof.Ref.Read
import proofs.«158984_j43568148250937_1_alg».proof.Proof.Math.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem

/-! The reference's edge words read at an index. The edge list has 1,600,000 given edges, then one self loop per node:
    the source words are row 0 of the edge array followed by the node numbers 0 … 99999, the target words row 1
    followed by the same node numbers. -/

/-- The source word of edge `e` (the reference's own stage read at `e`). -/
abbrev rowWord (x1 : (⟨S2x1600000, .i32⟩ : BufTy).Contents (Elt Ideal)) (e : Fin 1700000) : BitVec 32 :=
  val_main_v3 (F := Ideal) x1 (ValueIdx.ix1 e)

section Words
variable {α : Type}

/-- A vector of 1,600,000 entries followed by one of 100,000, read at an index: the first below 1,600,000, the
    second (1,600,000 less) from there on. -/
theorem loops_apply (x : S1600000.Idx → α) (y : S100000.Idx → α) (e : Fin 1700000) :
    concatenate S1700000 0 [⟨S1600000, x⟩, ⟨S100000, y⟩] concatenates_S1600000_S100000_S1700000_d0 (ValueIdx.ix1 e)
      = if h : e.val < 1600000 then x (ValueIdx.ix1 ⟨e.val, h⟩)
        else y (ValueIdx.ix1 ⟨e.val - 1600000, by have := e.isLt; omega⟩) := by
  by_cases h : e.val < 1600000
  · rw [dif_pos h]
    exact concatenate_pair_apply_left (t := S1700000) (s₁ := S1600000) (s₂ := S100000) 0 x y
      concatenates_S1600000_S100000_S1700000_d0 (ValueIdx.ix1 e) rfl (ValueIdx.ix1 ⟨e.val, h⟩)
      (fun b => match b with | ⟨0, _⟩ => rfl)
  · rw [dif_neg h]
    exact concatenate_pair_apply_right (t := S1700000) (s₁ := S1600000) (s₂ := S100000) 0 x y
      concatenates_S1600000_S100000_S1700000_d0 (ValueIdx.ix1 e) rfl rfl
      (ValueIdx.ix1 ⟨e.val - 1600000, by have := e.isLt; omega⟩)
      (fun b hb => match b, hb with | ⟨0, _⟩, hb => absurd rfl hb)
      (by show e.val - 1600000 + 1600000 = e.val; omega)

end Words

/-- The source word of a given edge is its entry in row 0 of the edge array; of a self loop, the node's number. -/
theorem rowWord_eq (x1 : (⟨S2x1600000, .i32⟩ : BufTy).Contents (Elt Ideal)) (e : Fin 1700000) :
    rowWord x1 e = if h : e.val < 1600000 then x1 (ValueIdx.ix2 (0 : Fin 2) ⟨e.val, h⟩)
      else BitVec.ofNat 32 (e.val - 1600000) := by
  show val_main_v3 (F := Ideal) x1 (ValueIdx.ix1 e) = _
  unfold val_main_v3
  refine (loops_apply _ _ e).trans ?_
  by_cases h : e.val < 1600000
  · rw [dif_pos h, dif_pos h]
    unfold val_main_v2
    rw [ValueIdx.shapeCast_1a_a_apply _ shapeCasts_S1x1600000_S1600000 ⟨e.val, h⟩]
    unfold val_main_v1
    exact extractStridedSlice_apply ![0, 0] x1 slices_S2x1600000_S1x1600000_0_0 _ (ValueIdx.ix2 (0 : Fin 2) ⟨e.val, h⟩)
      (fun a => match a with
        | ⟨0, _⟩ => by show 0 = 0 + 0; rfl
        | ⟨1, _⟩ => by show e.val = 0 + e.val; omega)
  · rw [dif_neg h, dif_neg h]
    rfl

/-- The target word of a given edge is its entry in row 1 of the edge array; of a self loop, the node's number. -/
theorem colWordAt_eq (x1 : (⟨S2x1600000, .i32⟩ : BufTy).Contents (Elt Ideal)) (e : Fin 1700000) :
    val_main_v6 (F := Ideal) x1 (ValueIdx.ix1 e) = if h : e.val < 1600000 then x1 (ValueIdx.ix2 (1 : Fin 2) ⟨e.val, h⟩)
      else BitVec.ofNat 32 (e.val - 1600000) := by
  unfold val_main_v6
  refine (loops_apply _ _ e).trans ?_
  by_cases h : e.val < 1600000
  · rw [dif_pos h, dif_pos h]
    unfold val_main_v5
    rw [ValueIdx.shapeCast_1a_a_apply _ shapeCasts_S1x1600000_S1600000 ⟨e.val, h⟩]
    unfold val_main_v4
    exact extractStridedSlice_apply ![1, 0] x1 slices_S2x1600000_S1x1600000_1_0 _ (ValueIdx.ix2 (1 : Fin 2) ⟨e.val, h⟩)
      (fun a => match a with
        | ⟨0, _⟩ => by show 1 = 1 + 0; rfl
        | ⟨1, _⟩ => by show e.val = 0 + e.val; omega)
  · rw [dif_neg h, dif_neg h]
    rfl

end Cert.ReferenceIdeal.RefValue

end
-- ==== Proof.Ref.RefScatter.lean ====
import proofs.«158984_j43568148250937_1_alg».proof.Proof.Ref.Read
import proofs.«158984_j43568148250937_1_alg».proof.Proof.Math.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem

/-! ## A scatter of rows, read at an entry

The reference's two scatters add `E` update rows of width `M` into an `N × M` table: update row `e` goes to the table row
named by the `e`-th word of an `E × 1` column of words, read as a SIGNED number and not clamped; column `f'` of the update
goes to column `f'` of the table. A row whose word names no table row is dropped. So entry `(n, f)` of the result is the
table's entry plus the sum, over the rows `e` whose word read signed is `n`, of the update's entry `(e, f)`: the pairs
`(e, f')` landing on `(n, f)` are exactly those with that word and `f' = f`, and `e ↦ (e, f)` is a bijection onto them. -/

section RowScatter

variable {N M E w : Nat} (d : ScatterDims ⟨2, ![N, M]⟩ ⟨2, ![E, 1]⟩ ⟨2, ![E, M]⟩)
    (hwin : d.updateWindowDims = [1]) (hins : d.insertedWindowDims = [0])
    (hmap : d.scatterDimsToOperandDims = [0]) (hvec : d.indexVectorDim = 1)

include hwin hins hmap hvec

/-- On the table's row axis the window of update `(e, f')` starts at the `e`-th word, read signed. -/
theorem rowScatter_start_row (idx : IVec ⟨2, ![E, 1]⟩ w) (e : Fin E) (f' : Fin M) (a : Fin 2) (ha : a.val = 0) :
    d.start (ValueIdx.ix2 e f') idx a = (idx (ValueIdx.ix2 e (0 : Fin 1))).toInt := by
  obtain rfl : a = 0 := Fin.ext ha
  have hm : (0 : Fin 2) ∈ d.scatterDimsToOperandDims := by rw [hmap]; exact List.mem_singleton.mpr rfl
  have hus : ∀ X ∈ d.uScatter, X = (0 : Fin 2) := by
    intro X hX
    have hX' : X ∈ (⟨2, ![E, M]⟩ : Shape).kept [1] := by rw [← hwin]; exact hX
    simp only [Shape.kept, List.mem_filter, List.mem_finRange, true_and, List.mem_singleton, decide_not,
      Bool.not_eq_eq_eq_not, Bool.not_true, decide_eq_false_iff_not] at hX'
    apply Fin.ext
    have hlt : X.val < 2 := X.isLt
    have h1 : X.val ≠ 1 := fun h => hX' (Fin.ext h)
    show X.val = 0
    omega
  unfold ScatterDims.start
  rw [dif_pos hm]
  congr 2
  funext b
  match b with
  | ⟨0, _⟩ =>
    unfold ScatterDims.siIdx
    rw [dif_neg (by rw [hvec]; simp)]
    unfold ScatterDims.siCoord
    apply Fin.ext
    simp only [Fin.val_cast]
    have e' : ∀ X : Fin 2, X = 0 → ((ValueIdx.ix2 e f' : (⟨2, ![E, M]⟩ : Shape).Idx) X).val = e.val := fun X hX => by
      subst hX; rfl
    exact e' _ (hus _ (List.getElem_mem _))
  | ⟨1, _⟩ =>
    unfold ScatterDims.siIdx
    rw [dif_pos (by rw [hvec])]
    apply Fin.ext
    show List.idxOf (0 : Fin 2) d.scatterDimsToOperandDims = 0
    rw [hmap]; simp

/-- On the table's column axis the window starts at `0`: no word names a column. -/
theorem rowScatter_start_col (idx : IVec ⟨2, ![E, 1]⟩ w) (j : (⟨2, ![E, M]⟩ : Shape).Idx) (a : Fin 2) (ha : a.val = 1) :
    d.start j idx a = 0 := by
  obtain rfl : a = 1 := Fin.ext ha
  unfold ScatterDims.start
  rw [dif_neg (by rw [hmap]; simp)]

/-- The row axis is inserted: an update has no coordinate inside the window there. -/
theorem rowScatter_window_row (j : (⟨2, ![E, M]⟩ : Shape).Idx) (a : Fin 2) (ha : a.val = 0) :
    d.window j a = 0 := by
  obtain rfl : a = 0 := Fin.ext ha
  unfold ScatterDims.window
  rw [dif_neg]
  show (0 : Fin 2) ∉ (⟨2, ![N, M]⟩ : Shape).kept d.insertedWindowDims
  rw [hins]
  simp [Shape.kept]

/-- On the column axis the coordinate inside the window is the update's column. -/
theorem rowScatter_window_col (j : (⟨2, ![E, M]⟩ : Shape).Idx) (a : Fin 2) (ha : a.val = 1) :
    d.window j a = (j 1).val := by
  obtain rfl : a = 1 := Fin.ext ha
  have hk : (1 : Fin 2) ∈ d.sKept := by
    show (1 : Fin 2) ∈ (⟨2, ![N, M]⟩ : Shape).kept d.insertedWindowDims
    rw [hins]
    simp [Shape.kept, List.mem_finRange]
  have huwd : ∀ X ∈ d.updateWindowDims, X = (1 : Fin 2) := by
    intro X hX; rw [hwin] at hX; exact List.mem_singleton.mp hX
  unfold ScatterDims.window
  rw [dif_pos hk]
  have e' : ∀ X : Fin 2, X = 1 → (j X).val = (j 1).val := fun X hX => by subst hX; rfl
  exact e' _ (huwd _ (List.getElem_mem _))

/-- Update `(e, f')` lands on `(n, f)` exactly when the `e`-th word read signed is `n` and `f' = f`. -/
theorem rowScatter_lands_iff (idx : IVec ⟨2, ![E, 1]⟩ w) (e : Fin E) (f' : Fin M) (n : Fin N) (f : Fin M) :
    d.resultIdx? (ValueIdx.ix2 e f') idx = some (ValueIdx.ix2 n f)
      ↔ (idx (ValueIdx.ix2 e (0 : Fin 1))).toInt = (n.val : ℤ) ∧ f' = f := by
  have s0 := rowScatter_start_row d hwin hins hmap hvec idx e f' 0 rfl
  have s1 := rowScatter_start_col d hwin hins hmap hvec idx (ValueIdx.ix2 e f') 1 rfl
  have w0 := rowScatter_window_row d hwin hins hmap hvec (ValueIdx.ix2 e f') 0 rfl
  have w1 := rowScatter_window_col d hwin hins hmap hvec (ValueIdx.ix2 e f') 1 rfl
  have w1' : d.window (ValueIdx.ix2 e f') 1 = f'.val := w1
  have hn := n.isLt
  have hf := f.isLt
  have hf' := f'.isLt
  unfold ScatterDims.resultIdx?
  split
  · next h =>
    have h0 := h 0
    have h1 := h 1
    rw [s0, w0] at h0
    rw [s1, w1'] at h1
    constructor
    · intro hs
      have hs' := Option.some.inj hs
      have e0 := congrArg (fun g => (g 0).val) hs'
      have e1 := congrArg (fun g => (g 1).val) hs'
      simp only [s0, w0, s1, w1'] at e0 e1
      have e0' : ((idx (ValueIdx.ix2 e (0 : Fin 1))).toInt + ((0 : ℕ) : ℤ)).toNat = n.val := e0
      have e1' : ((0 : ℤ) + (f'.val : ℤ)).toNat = f.val := e1
      refine ⟨by omega, Fin.ext (by omega)⟩
    · rintro ⟨hi, rfl⟩
      congr 1
      funext a
      apply Fin.ext
      match a with
      | ⟨0, _⟩ =>
        show (d.start (ValueIdx.ix2 e f') idx 0 + (d.window (ValueIdx.ix2 e f') 0 : ℤ)).toNat = n.val
        rw [s0, w0]; omega
      | ⟨1, _⟩ =>
        show (d.start (ValueIdx.ix2 e f') idx 1 + (d.window (ValueIdx.ix2 e f') 1 : ℤ)).toNat = f'.val
        rw [s1, w1']; omega
  · next h =>
    constructor
    · intro hs; exact absurd hs (by simp)
    · rintro ⟨hi, rfl⟩
      exfalso
      apply h
      intro a
      match a with
      | ⟨0, _⟩ =>
        show 0 ≤ d.start (ValueIdx.ix2 e f') idx 0 + (d.window (ValueIdx.ix2 e f') 0 : ℤ) ∧
          d.start (ValueIdx.ix2 e f') idx 0 + (d.window (ValueIdx.ix2 e f') 0 : ℤ) < ((N : ℕ) : ℤ)
        rw [s0, w0]; omega
      | ⟨1, _⟩ =>
        show 0 ≤ d.start (ValueIdx.ix2 e f') idx 1 + (d.window (ValueIdx.ix2 e f') 1 : ℤ) ∧
          d.start (ValueIdx.ix2 e f') idx 1 + (d.window (ValueIdx.ix2 e f') 1 : ℤ) < ((M : ℕ) : ℤ)
        rw [s1, w1']; omega

/-- THE ROW SCATTER AT `(n, f)`: the table's entry plus the sum, over the rows selected by `P` (those whose word read
    signed is `n`), of the update's column `f`. -/
theorem rowScatter_apply (x : (⟨2, ![N, M]⟩ : Shape).Idx → EReal) (idx : IVec ⟨2, ![E, 1]⟩ w)
    (upd : (⟨2, ![E, M]⟩ : Shape).Idx → EReal) (n : Fin N) (f : Fin M)
    (P : Fin E → Prop) [DecidablePred P] (hP : ∀ e, P e ↔ (idx (ValueIdx.ix2 e (0 : Fin 1))).toInt = (n.val : ℤ)) :
    Ideal.hostScatterAdd d x idx upd (ValueIdx.ix2 n f)
      = x (ValueIdx.ix2 n f) + ∑ e ∈ Finset.univ.filter P, upd (ValueIdx.ix2 e f) := by
  unfold Ideal.hostScatterAdd
  congr 1
  have key : ∀ j : (⟨2, ![E, M]⟩ : Shape).Idx,
      d.resultIdx? j idx = some (ValueIdx.ix2 n f) ↔ P (j 0) ∧ j 1 = f := by
    intro j
    have hj : d.resultIdx? j idx = d.resultIdx? (ValueIdx.ix2 (j 0) (j 1)) idx :=
      congrArg (fun k => d.resultIdx? k idx) (ValueIdx.eq_ix2 j)
    rw [hj]
    exact (rowScatter_lands_iff d hwin hins hmap hvec idx (j 0) (j 1) n f).trans (and_congr_left' (hP (j 0)).symm)
  refine Finset.sum_bij' (fun j _ => j 0) (fun e _ => ValueIdx.ix2 e f) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ValueIdx.ix2 e f)).2 ⟨(Finset.mem_filter.1 he).2, rfl⟩⟩
  · intro j hj
    have h1 := ((key j).1 (Finset.mem_filter.1 hj).2).2
    subst h1
    exact (ValueIdx.eq_ix2 j).symm
  · intro e he; rfl
  · intro j hj
    have h1 := ((key j).1 (Finset.mem_filter.1 hj).2).2
    subst h1
    exact congrArg upd (ValueIdx.eq_ix2 j)

end RowScatter

/-! ## The reference's two scatters -/

/-- The target word of edge `e`. -/
abbrev colWord (x1 : (⟨S2x1600000, .i32⟩ : BufTy).Contents (Elt Ideal)) (e : Fin 1700000) : BitVec 32 :=
  val_main_v6 (F := Ideal) x1 (ValueIdx.ix1 e)

/-- Edge `e` lands on node `n`: its target word read signed is `n`. -/
def landsRef (x1 : (⟨S2x1600000, .i32⟩ : BufTy).Contents (Elt Ideal)) (e : Fin 1700000) (n : Fin 100000) : Prop :=
  (colWord x1 e).toInt = (n.val : ℤ)

instance (x1 : (⟨S2x1600000, .i32⟩ : BufTy).Contents (Elt Ideal)) (e : Fin 1700000) (n : Fin 100000) :
    Decidable (landsRef x1 e n) := by unfold landsRef; infer_instance

/-- The first scatter's column of words at row `e` is the edge's target word. -/
theorem tgt1_at (x1 : (⟨S2x1600000, .i32⟩ : BufTy).Contents (Elt Ideal)) (e : Fin 1700000) :
    val_main_v42 (F := Ideal) x1 (ValueIdx.ix2 e (0 : Fin 1)) = colWord x1 e := by
  rw [val_main_v42_apply]
  exact congrArg (val_main_v6 (F := Ideal) x1) (funext fun a => by
    match a with
    | ⟨0, _⟩ => rfl)

/-- The second scatter's column of words at row `e` is the edge's target word. -/
theorem tgt2_at (x1 : (⟨S2x1600000, .i32⟩ : BufTy).Contents (Elt Ideal)) (e : Fin 1700000) :
    val_main_v60 (F := Ideal) x1 (ValueIdx.ix2 e (0 : Fin 1)) = colWord x1 e := by
  rw [val_main_v60_apply]
  exact congrArg (val_main_v6 (F := Ideal) x1) (funext fun a => by
    match a with
    | ⟨0, _⟩ => rfl)

/-- The first scatter's table is the zero splat. -/
theorem zero1_at (n : Fin 100000) (f : Fin 128) : val_main_v41 (F := Ideal) (ValueIdx.ix2 n f) = (0 : EReal) := by
  rw [val_main_v41_apply, val_main_cst_8_apply]
  exact Ideal.ofBits_zero_f32

/-- The second scatter's table is the zero splat. -/
theorem zero2_at (n : Fin 100000) (f : Fin 64) : val_main_v59 (F := Ideal) (ValueIdx.ix2 n f) = (0 : EReal) := by
  rw [val_main_v59_apply, val_main_cst_11_apply]
  exact Ideal.ofBits_zero_f32

/-- The 128-wide scatter over any table `x` and any column of words `idx`, at `(n, f)`. -/
theorem scatter128_of (x : S100000x128.Idx → EReal) (idx : IVec S1700000x1 32) (upd : S1700000x128.Idx → EReal)
    (n : Fin 100000) (f : Fin 128) (P : Fin 1700000 → Prop) [DecidablePred P]
    (hP : ∀ e, P e ↔ (idx (ValueIdx.ix2 e (0 : Fin 1))).toInt = (n.val : ℤ)) :
    Host.scatterAdd (F := Ideal) (φ := .f32) scatter_S100000x128_S1700000x1_S1700000x128_1_0_0_1 x idx upd (ValueIdx.ix2 n f)
      = x (ValueIdx.ix2 n f) + ∑ e ∈ Finset.univ.filter P, upd (ValueIdx.ix2 e f) := by
  unfold Host.scatterAdd
  rw [Ideal.hostScatterAdd_def]
  exact rowScatter_apply scatter_S100000x128_S1700000x1_S1700000x128_1_0_0_1 rfl rfl rfl rfl x idx upd n f P hP

/-- The 128-wide scatter at node `n`, feature `f`: `0` plus the updates of the edges landing on `n`. -/
theorem scatter128_apply (x1 : (⟨S2x1600000, .i32⟩ : BufTy).Contents (Elt Ideal)) (upd : S1700000x128.Idx → EReal)
    (n : Fin 100000) (f : Fin 128) :
    Host.scatterAdd (F := Ideal) (φ := .f32) scatter_S100000x128_S1700000x1_S1700000x128_1_0_0_1 (val_main_v41 (F := Ideal))
        (val_main_v42 (F := Ideal) x1) upd (ValueIdx.ix2 n f)
      = 0 + ∑ e ∈ Finset.univ.filter (fun e : Fin 1700000 => landsRef x1 e n), upd (ValueIdx.ix2 e f) := by
  refine (scatter128_of (val_main_v41 (F := Ideal)) (val_main_v42 (F := Ideal) x1) upd n f
    (fun e => landsRef x1 e n) (fun e => ?_)).trans ?_
  · show landsRef x1 e n ↔ _
    unfold landsRef
    rw [tgt1_at]
  · rw [zero1_at]

/-- The 64-wide scatter over any table `x` and any column of words `idx`, at `(n, f)`. -/
theorem scatter64_of (x : S100000x64.Idx → EReal) (idx : IVec S1700000x1 32) (upd : S1700000x64.Idx → EReal)
    (n : Fin 100000) (f : Fin 64) (P : Fin 1700000 → Prop) [DecidablePred P]
    (hP : ∀ e, P e ↔ (idx (ValueIdx.ix2 e (0 : Fin 1))).toInt = (n.val : ℤ)) :
    Host.scatterAdd (F := Ideal) (φ := .f32) scatter_S100000x64_S1700000x1_S1700000x64_1_0_0_1 x idx upd (ValueIdx.ix2 n f)
      = x (ValueIdx.ix2 n f) + ∑ e ∈ Finset.univ.filter P, upd (ValueIdx.ix2 e f) := by
  unfold Host.scatterAdd
  rw [Ideal.hostScatterAdd_def]
  exact rowScatter_apply scatter_S100000x64_S1700000x1_S1700000x64_1_0_0_1 rfl rfl rfl rfl x idx upd n f P hP

/-- The 64-wide scatter at node `n`, feature `f`. -/
theorem scatter64_apply (x1 : (⟨S2x1600000, .i32⟩ : BufTy).Contents (Elt Ideal)) (upd : S1700000x64.Idx → EReal)
    (n : Fin 100000) (f : Fin 64) :
    Host.scatterAdd (F := Ideal) (φ := .f32) scatter_S100000x64_S1700000x1_S1700000x64_1_0_0_1 (val_main_v59 (F := Ideal))
        (val_main_v60 (F := Ideal) x1) upd (ValueIdx.ix2 n f)
      = 0 + ∑ e ∈ Finset.univ.filter (fun e : Fin 1700000 => landsRef x1 e n), upd (ValueIdx.ix2 e f) := by
  refine (scatter64_of (val_main_v59 (F := Ideal)) (val_main_v60 (F := Ideal) x1) upd n f
    (fun e => landsRef x1 e n) (fun e => ?_)).trans ?_
  · show landsRef x1 e n ↔ _
    unfold landsRef
    rw [tgt2_at]
  · rw [zero2_at]

end Cert.ReferenceIdeal.RefValue

end
-- ==== Proof.Ref.RefStages.lean ====
import proofs.«158984_j43568148250937_1_alg».proof.Proof.Ref.Read
import proofs.«158984_j43568148250937_1_alg».proof.Proof.Math.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws
import proofs.«158984_j43568148250937_1_alg».proof.Proof.Ref.RefWords
import proofs.«158984_j43568148250937_1_alg».proof.Proof.Ref.RefScatter

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem

/-! The reference's gathers read at an index: the table row a gather reads for an edge is the edge's source word,
    wrapped by the table's length if negative, read signed and clamped into the table; for a source word that is a
    node number it is that node's row. -/

section RowGather

/-- A gather of whole rows of an [N × M] table at an [E × 1] column of start indices: result element (e, f) reads
    the table at row `p`, the column's word at `e` read signed and clamped into the table, column `f`. -/
theorem gatherRows_idx {N M E w : Nat} (d : GatherDims ⟨2, ![N, M]⟩ ⟨2, ![E, 1]⟩ ⟨2, ![E, M]⟩)
    (hoff : d.offsetDims = [1]) (hcoll : d.collapsedSliceDims = [0]) (hob : d.operandBatchingDims = [])
    (hsim : d.startIndexMap = [0]) (hivd : d.indexVectorDim = 1)
    (idx : IVec ⟨2, ![E, 1]⟩ w) (e : Fin E) (f : Fin M) (p : Fin N)
    (hp : p.val = min (idx (ValueIdx.ix2 e (0 : Fin 1))).toInt.toNat (N - 1)) :
    d.operandIdx (ValueIdx.ix2 e f) idx = ValueIdx.ix2 p f := by
  have hb : ∀ a : Fin 2, a ∉ d.operandBatchingDims := fun a => by rw [hob]; exact List.not_mem_nil
  have hbd : ∀ X ∈ d.batchDims, X = (0 : Fin 2) := by
    intro X hX
    have hX' : X ∈ (⟨2, ![E, M]⟩ : Shape).kept [1] := by rw [← hoff]; exact hX
    simp only [Shape.kept, List.mem_filter, List.mem_finRange, true_and, List.mem_singleton, decide_not,
      Bool.not_eq_eq_eq_not, Bool.not_true, decide_eq_false_iff_not] at hX'
    apply Fin.ext
    have hlt : X.val < 2 := X.isLt
    have h1 : X.val ≠ 1 := fun h => hX' (Fin.ext h)
    show X.val = 0
    omega
  have hod : ∀ X ∈ d.offsetDims, X = (1 : Fin 2) := by
    intro X hX; rw [hoff] at hX; exact List.mem_singleton.mp hX
  funext a
  apply Fin.ext
  match a with
  | ⟨0, h0⟩ =>
    have hk : (⟨0, h0⟩ : Fin 2) ∉ d.sKept := by
      rw [GatherDims.mem_sKept, hcoll]; intro h; exact h.1 (List.mem_singleton.mpr rfl)
    have hm : (⟨0, h0⟩ : Fin 2) ∈ d.startIndexMap := by rw [hsim]; exact List.mem_singleton.mpr rfl
    have hsl : d.sliceSizes ⟨0, h0⟩ = 1 := d.slice_collapsed _ (by rw [hcoll]; exact List.mem_singleton.mpr rfl)
    simp only [GatherDims.operandIdx, GatherDims.batchCoord_eq_zero _ _ _ (hb _), GatherDims.offCoord_eq_zero _ _ _ hk,
      Nat.add_zero, GatherDims.start, dif_pos hm]
    show min (idx _).toInt.toNat (N - d.sliceSizes ⟨0, h0⟩) = p.val
    rw [hsl, hp]
    congr 3
    congr 1
    funext b
    match b with
    | ⟨0, _⟩ =>
      unfold GatherDims.siIdx
      rw [dif_neg (by rw [hivd]; simp)]
      unfold GatherDims.siCoord
      apply Fin.ext
      simp only [Fin.val_cast]
      have e' : ∀ X : Fin 2, X = 0 → ((ValueIdx.ix2 e f : (⟨2, ![E, M]⟩ : Shape).Idx) X).val = e.val := fun X hX => by
        subst hX; rfl
      exact e' _ (hbd _ (List.getElem_mem _))
    | ⟨1, _⟩ =>
      unfold GatherDims.siIdx
      rw [dif_pos (by rw [hivd])]
      apply Fin.ext
      show List.idxOf (⟨0, h0⟩ : Fin 2) d.startIndexMap = 0
      rw [hsim]; simp
  | ⟨1, h1⟩ =>
    have hk : (⟨1, h1⟩ : Fin 2) ∈ d.sKept := by
      rw [GatherDims.mem_sKept, hcoll]; exact ⟨by simp, hb _⟩
    have hm : (⟨1, h1⟩ : Fin 2) ∉ d.startIndexMap := by rw [hsim]; simp
    simp only [GatherDims.operandIdx, GatherDims.batchCoord_eq_zero _ _ _ (hb _), Nat.add_zero, GatherDims.start,
      dif_neg hm, Nat.zero_add, GatherDims.offCoord, dif_pos hk]
    have e' : ∀ X : Fin 2, X = 1 → ((ValueIdx.ix2 e f : (⟨2, ![E, M]⟩ : Shape).Idx) X).val = f.val := fun X hX => by
      subst hX; rfl
    exact e' _ (hod _ (List.getElem_mem _))

theorem gatherRows_apply {α : Type} {N M E w : Nat} (d : GatherDims ⟨2, ![N, M]⟩ ⟨2, ![E, 1]⟩ ⟨2, ![E, M]⟩)
    (hoff : d.offsetDims = [1]) (hcoll : d.collapsedSliceDims = [0]) (hob : d.operandBatchingDims = [])
    (hsim : d.startIndexMap = [0]) (hivd : d.indexVectorDim = 1)
    (x : (⟨2, ![N, M]⟩ : Shape).Idx → α) (idx : IVec ⟨2, ![E, 1]⟩ w) (e : Fin E) (f : Fin M) (p : Fin N)
    (hp : p.val = min (idx (ValueIdx.ix2 e (0 : Fin 1))).toInt.toNat (N - 1)) :
    Host.gather d x idx (ValueIdx.ix2 e f) = x (ValueIdx.ix2 p f) := by
  unfold Host.gather
  rw [gatherRows_idx d hoff hcoll hob hsim hivd idx e f p hp]

end RowGather

/-! The reference's own stages. -/

/-- The weight of edge `e`: the product of the two degree factors. -/
def wtRef (x1 : (⟨S2x1600000, .i32⟩ : BufTy).Contents (Elt Ideal)) (e : Fin 1700000) : EReal :=
  val_main_v29 (F := Ideal) x1 (ValueIdx.ix1 e)

/-- A negative index word wrapped by the table's length, 100000, as the reference does before it gathers. -/
def wrapWord (w : BitVec 32) : BitVec 32 :=
  Scalar.select (IntOp.cmpi .slt w 0#32) (IntOp.addi w 100000#32) w

/-- A word that is not negative is not wrapped. -/
theorem wrapWord_of_nonneg (w : BitVec 32) (h0 : 0 ≤ w.toInt) : wrapWord w = w := by
  have hc : IntOp.cmpi .slt w 0#32 = 0#1 := by
    show BitVec.ofBool (w.slt 0#32) = 0#1
    rw [BitVec.slt_eq_decide, BitVec.toInt_zero, decide_eq_false (by omega)]
    rfl
  unfold wrapWord
  rw [hc]
  exact ValueIdx.select_zero _ _

/-- The table row the reference's gather reads for edge `e`: the source word, wrapped if negative, read signed and
    clamped into the table. -/
def posRef (x1 : (⟨S2x1600000, .i32⟩ : BufTy).Contents (Elt Ideal)) (e : Fin 1700000) : Fin 100000 :=
  ⟨min (wrapWord (rowWord x1 e)).toInt.toNat (100000 - 1), by omega⟩

/-- The target word of a given edge is its entry in row 1 of the edge array; of a self loop, the node's number. -/
theorem colWord_eq (x1 : (⟨S2x1600000, .i32⟩ : BufTy).Contents (Elt Ideal)) (e : Fin 1700000) :
    colWord x1 e = if h : e.val < 1600000 then x1 (ValueIdx.ix2 (1 : Fin 2) ⟨e.val, h⟩)
      else BitVec.ofNat 32 (e.val - 1600000) :=
  colWordAt_eq x1 e

/-- A word in the table's range is the word of the row it is clamped to. -/
theorem word_of_clamp (w : BitVec 32) (h0 : 0 ≤ w.toInt) (h1 : w.toInt < 100000) :
    w = BitVec.ofNat 32 (min (wrapWord w).toInt.toNat (100000 - 1)) := by
  rw [wrapWord_of_nonneg w h0]
  have hc := BitVec.toInt_eq_toNat_cond w
  have hlt : w.toNat < 2 ^ 32 := w.isLt
  apply BitVec.eq_of_toNat_eq
  rw [BitVec.toNat_ofNat]
  split at hc <;> omega

theorem posRef_word (x1 : (⟨S2x1600000, .i32⟩ : BufTy).Contents (Elt Ideal)) (e : Fin 1700000)
    (h0 : 0 ≤ (rowWord x1 e).toInt) (h1 : (rowWord x1 e).toInt < 100000) :
    rowWord x1 e = Cert.Spec.word (posRef x1 e).val :=
  word_of_clamp (rowWord x1 e) h0 h1

/-- The first layer's start-index column at edge `e`: the source word, wrapped. -/
theorem startCol37 (x1 : (⟨S2x1600000, .i32⟩ : BufTy).Contents (Elt Ideal)) (e : Fin 1700000) :
    val_main_v37 (F := Ideal) x1 (ValueIdx.ix2 e (0 : Fin 1)) = wrapWord (rowWord x1 e) := by
  have hi : idx_main_v37 (ValueIdx.ix2 e (0 : Fin 1)) = ValueIdx.ix1 e := by
    funext a; match a with | ⟨0, _⟩ => rfl
  rw [val_main_v37_apply, hi, val_main_v36_apply, val_main_v33_apply, val_main_v35_apply, val_main_v32_apply,
    val_main_v34_apply, val_main_c_6_apply, val_main_c_7_apply]
  rfl

/-- The second layer's start-index column at edge `e`: the same wrapped source word. -/
theorem startCol55 (x1 : (⟨S2x1600000, .i32⟩ : BufTy).Contents (Elt Ideal)) (e : Fin 1700000) :
    val_main_v55 (F := Ideal) x1 (ValueIdx.ix2 e (0 : Fin 1)) = wrapWord (rowWord x1 e) := by
  have hi : idx_main_v55 (ValueIdx.ix2 e (0 : Fin 1)) = ValueIdx.ix1 e := by
    funext a; match a with | ⟨0, _⟩ => rfl
  rw [val_main_v55_apply, hi, val_main_v54_apply, val_main_v51_apply, val_main_v53_apply, val_main_v50_apply,
    val_main_v52_apply, val_main_c_9_apply, val_main_c_10_apply]
  rfl

theorem gather128_apply (x1 : (⟨S2x1600000, .i32⟩ : BufTy).Contents (Elt Ideal)) (tab : S100000x128.Idx → EReal)
    (e : Fin 1700000) (f : Fin 128) :
    Host.gather gather_S100000x128_S1700000x1_S1700000x128_1_0_n_n_0_1_1128 tab (val_main_v37 (F := Ideal) x1)
        (ValueIdx.ix2 e f) = tab (ValueIdx.ix2 (posRef x1 e) f) :=
  gatherRows_apply (w := 32) gather_S100000x128_S1700000x1_S1700000x128_1_0_n_n_0_1_1128 rfl rfl rfl rfl rfl tab
    (val_main_v37 (F := Ideal) x1) e f (posRef x1 e)
    (by show min _ _ = min _ _; rw [startCol37])

theorem gather64_apply (x1 : (⟨S2x1600000, .i32⟩ : BufTy).Contents (Elt Ideal)) (tab : S100000x64.Idx → EReal)
    (e : Fin 1700000) (f : Fin 64) :
    Host.gather gather_S100000x64_S1700000x1_S1700000x64_1_0_n_n_0_1_164 tab (val_main_v55 (F := Ideal) x1)
        (ValueIdx.ix2 e f) = tab (ValueIdx.ix2 (posRef x1 e) f) :=
  gatherRows_apply (w := 32) gather_S100000x64_S1700000x1_S1700000x64_1_0_n_n_0_1_164 rfl rfl rfl rfl rfl tab
    (val_main_v55 (F := Ideal) x1) e f (posRef x1 e)
    (by show min _ _ = min _ _; rw [startCol55])

end Cert.ReferenceIdeal.RefValue

end
-- ==== Proof.Ref.RefVal.lean ====
import proofs.«158984_j43568148250937_1_alg».proof.Proof.Ref.Read
import proofs.«158984_j43568148250937_1_alg».proof.Proof.Math.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws
import proofs.«158984_j43568148250937_1_alg».proof.Proof.Ref.RefStages

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem

/-! ## The layers of the reference, over the specification's functions

The reference computes, for node features `x`, two rounds of: a dense map `h = a · W`; per edge `e` the row of `h` at the
edge's source position scaled by the edge's weight; per node the sum of the rows of the edges that land on it, plus a
bias. Between the rounds every entry is replaced by its maximum with `0`. Each lemma below reads one stage of the
reference at one entry and identifies it with the corresponding function of the specification. -/

section Layers

variable (x0 : (⟨S100000x256, .f32⟩ : BufTy).Contents (Elt Ideal)) (x1 : (⟨S2x1600000, .i32⟩ : BufTy).Contents (Elt Ideal))
  (x2 : (⟨S256x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-- The first dense layer: node features against the first weight matrix. -/
abbrev dense1 : Fin 100000 → Fin 128 → EReal :=
  Cert.Spec.lin (fun n k => x0 (ValueIdx.ix2 n k)) (fun k f => x2 (ValueIdx.ix2 k f))

/-- The first round's messages: per edge, the weighted row of the dense output at the edge's source position. -/
abbrev msg1 : Fin 1700000 → Fin 128 → EReal :=
  Cert.Spec.gatherAt (posRef x1) (wtRef x1) (dense1 x0 x2)

/-- The first round's aggregate: per node, the messages landing on it summed, plus the first bias. -/
abbrev agg1 : Fin 100000 → Fin 128 → EReal :=
  Cert.Spec.scatterOn (landsRef x1) (msg1 x0 x1 x2) (fun f => x3 (ValueIdx.ix1 f))

/-- The activation between the rounds. -/
abbrev act1 : Fin 100000 → Fin 128 → EReal := Cert.Spec.relu (agg1 x0 x1 x2 x3)

/-- The second dense layer. -/
abbrev dense2 : Fin 100000 → Fin 64 → EReal :=
  Cert.Spec.lin (act1 x0 x1 x2 x3) (fun k f => x4 (ValueIdx.ix2 k f))

/-- The second round's messages. -/
abbrev msg2 : Fin 1700000 → Fin 64 → EReal :=
  Cert.Spec.gatherAt (posRef x1) (wtRef x1) (dense2 x0 x1 x2 x3 x4)

/-! ### Round one -/

/-- Entry `(n, f)` of the first matrix product is the sum over `k` of `x[n, k] · W₁[k, f]`. -/
theorem dense1_at (n : Fin 100000) (f : Fin 128) :
    val_main_v30 (F := Ideal) x0 x2 (ValueIdx.ix2 n f) = dense1 x0 x2 n f := by
  rw [val_main_v30_apply]
  unfold dense1 Cert.Spec.lin
  refine Finset.sum_congr rfl fun k _ => ?_
  have el : lidx_main_v30 (ValueIdx.ix2 n f) k = ValueIdx.ix2 n k := funext fun a => by
    match a with
    | ⟨0, _⟩ => rfl
    | ⟨1, _⟩ => rfl
  have er : ridx_main_v30 (ValueIdx.ix2 n f) k = ValueIdx.ix2 k f := funext fun a => by
    match a with
    | ⟨0, _⟩ => rfl
    | ⟨1, _⟩ => rfl
  rw [el, er]

/-- The gathered row of edge `e` is the dense output's row at the edge's source position. -/
theorem gath1_at (e : Fin 1700000) (f : Fin 128) :
    val_main_v38 (F := Ideal) x0 x1 x2 (ValueIdx.ix2 e f) = dense1 x0 x2 (posRef x1 e) f := by
  unfold val_main_v38
  exact (gather128_apply x1 (val_main_v30 (F := Ideal) x0 x2) e f).trans (dense1_at x0 x2 (posRef x1 e) f)

/-- The weight column spread over the 128 features reads the edge's weight. -/
theorem wt1_at (e : Fin 1700000) (f : Fin 128) :
    val_main_v39 (F := Ideal) x1 (ValueIdx.ix2 e f) = wtRef x1 e := by
  rw [val_main_v39_apply, val_main_v31_apply]
  unfold wtRef
  exact congrArg (val_main_v29 (F := Ideal) x1) (funext fun a => by
    match a with
    | ⟨0, _⟩ => rfl)

/-- The first round's message of edge `e`: weight times gathered row. -/
theorem msg1_at (e : Fin 1700000) (f : Fin 128) :
    val_main_v40 (F := Ideal) x0 x1 x2 (ValueIdx.ix2 e f) = msg1 x0 x1 x2 e f := by
  rw [val_main_v40_apply, wt1_at, gath1_at]
  rfl

/-- The first scatter: node `n` receives `0` plus the messages of the edges landing on it. -/
theorem scat1_at (n : Fin 100000) (f : Fin 128) :
    val_main_v43 (F := Ideal) x0 x1 x2 (ValueIdx.ix2 n f)
      = 0 + ∑ e ∈ Finset.univ.filter (fun e : Fin 1700000 => landsRef x1 e n), msg1 x0 x1 x2 e f := by
  unfold val_main_v43
  refine (scatter128_apply x1 (val_main_v40 (F := Ideal) x0 x1 x2) n f).trans ?_
  exact congrArg (fun s : EReal => 0 + s) (Finset.sum_congr rfl fun e _ => msg1_at x0 x1 x2 e f)

/-- The first bias spread over the nodes reads the bias at the feature. -/
theorem bias1_at (n : Fin 100000) (f : Fin 128) :
    val_main_v45 (F := Ideal) x3 (ValueIdx.ix2 n f) = x3 (ValueIdx.ix1 f) := by
  rw [val_main_v45_apply, val_main_v44_apply]
  exact congrArg x3 (funext fun a => by
    match a with
    | ⟨0, _⟩ => rfl)

/-- The first round's aggregate. -/
theorem agg1_at (n : Fin 100000) (f : Fin 128) :
    val_main_v46 (F := Ideal) x0 x1 x2 x3 (ValueIdx.ix2 n f) = agg1 x0 x1 x2 x3 n f := by
  rw [val_main_v46_apply, scat1_at, bias1_at]
  rfl

/-- The activation: the maximum of the aggregate with the constant `0`. -/
theorem act1_at (n : Fin 100000) (f : Fin 128) :
    val_main_v47 (F := Ideal) x0 x1 x2 x3 (ValueIdx.ix2 n f) = act1 x0 x1 x2 x3 n f := by
  rw [val_main_v47_apply, agg1_at, val_main_call1_v0_apply, val_main_call1_cst_apply]
  show max (agg1 x0 x1 x2 x3 n f) (Ideal.ofBits .f32 0x00000000#32) = max (agg1 x0 x1 x2 x3 n f) 0
  rw [Ideal.ofBits_zero_f32]

/-! ### Round two -/

/-- Entry `(n, f)` of the second matrix product is the sum over `k` of `a[n, k] · W₂[k, f]`. -/
theorem dense2_at (n : Fin 100000) (f : Fin 64) :
    val_main_v48 (F := Ideal) x0 x1 x2 x3 x4 (ValueIdx.ix2 n f) = dense2 x0 x1 x2 x3 x4 n f := by
  rw [val_main_v48_apply]
  unfold dense2 Cert.Spec.lin
  refine Finset.sum_congr rfl fun k _ => ?_
  have el : lidx_main_v48 (ValueIdx.ix2 n f) k = ValueIdx.ix2 n k := funext fun a => by
    match a with
    | ⟨0, _⟩ => rfl
    | ⟨1, _⟩ => rfl
  have er : ridx_main_v48 (ValueIdx.ix2 n f) k = ValueIdx.ix2 k f := funext fun a => by
    match a with
    | ⟨0, _⟩ => rfl
    | ⟨1, _⟩ => rfl
  rw [el, er, act1_at]

/-- The gathered row of edge `e` in round two. -/
theorem gath2_at (e : Fin 1700000) (f : Fin 64) :
    val_main_v56 (F := Ideal) x0 x1 x2 x3 x4 (ValueIdx.ix2 e f) = dense2 x0 x1 x2 x3 x4 (posRef x1 e) f := by
  unfold val_main_v56
  exact (gather64_apply x1 (val_main_v48 (F := Ideal) x0 x1 x2 x3 x4) e f).trans
    (dense2_at x0 x1 x2 x3 x4 (posRef x1 e) f)

/-- The weight column spread over the 64 features reads the edge's weight. -/
theorem wt2_at (e : Fin 1700000) (f : Fin 64) :
    val_main_v57 (F := Ideal) x1 (ValueIdx.ix2 e f) = wtRef x1 e := by
  rw [val_main_v57_apply, val_main_v49_apply]
  unfold wtRef
  exact congrArg (val_main_v29 (F := Ideal) x1) (funext fun a => by
    match a with
    | ⟨0, _⟩ => rfl)

/-- The second round's message of edge `e`. -/
theorem msg2_at (e : Fin 1700000) (f : Fin 64) :
    val_main_v58 (F := Ideal) x0 x1 x2 x3 x4 (ValueIdx.ix2 e f) = msg2 x0 x1 x2 x3 x4 e f := by
  rw [val_main_v58_apply, wt2_at, gath2_at]
  rfl

/-- The second scatter. -/
theorem scat2_at (n : Fin 100000) (f : Fin 64) :
    val_main_v61 (F := Ideal) x0 x1 x2 x3 x4 (ValueIdx.ix2 n f)
      = 0 + ∑ e ∈ Finset.univ.filter (fun e : Fin 1700000 => landsRef x1 e n), msg2 x0 x1 x2 x3 x4 e f := by
  unfold val_main_v61
  refine (scatter64_apply x1 (val_main_v58 (F := Ideal) x0 x1 x2 x3 x4) n f).trans ?_
  exact congrArg (fun s : EReal => 0 + s) (Finset.sum_congr rfl fun e _ => msg2_at x0 x1 x2 x3 x4 e f)

/-- The second bias spread over the nodes reads the bias at the feature. -/
theorem bias2_at (n : Fin 100000) (f : Fin 64) :
    val_main_v63 (F := Ideal) x5 (ValueIdx.ix2 n f) = x5 (ValueIdx.ix1 f) := by
  rw [val_main_v63_apply, val_main_v62_apply]
  exact congrArg x5 (funext fun a => by
    match a with
    | ⟨0, _⟩ => rfl)

end Layers

/-- THE REFERENCE'S RESULT: entry `(n, f)` is the second round's aggregate — the landing sum of the weighted rows of the
    second dense layer applied to the activated first aggregate, plus the second bias. -/
theorem ref_value (x0 : (⟨S100000x256, .f32⟩ : BufTy).Contents (Elt Ideal)) (x1 : (⟨S2x1600000, .i32⟩ : BufTy).Contents (Elt Ideal)) (x2 : (⟨S256x128, .f32⟩ : BufTy).Contents (Elt Ideal))
      (x3 : (⟨S128, .f32⟩ : BufTy).Contents (Elt Ideal)) (x4 : (⟨S128x64, .f32⟩ : BufTy).Contents (Elt Ideal)) (x5 : (⟨S64, .f32⟩ : BufTy).Contents (Elt Ideal)) (n : Fin 100000) (f : Fin 64) :
      val_main_v64 (F := Ideal) x0 x1 x2 x3 x4 x5 (ValueIdx.ix2 n f)
        = Cert.Spec.scatterOn (landsRef x1)
            (Cert.Spec.gatherAt (posRef x1) (wtRef x1)
              (Cert.Spec.lin
                (Cert.Spec.relu (Cert.Spec.scatterOn (landsRef x1)
                  (Cert.Spec.gatherAt (posRef x1) (wtRef x1)
                    (Cert.Spec.lin (fun n k => x0 (ValueIdx.ix2 n k)) (fun k f => x2 (ValueIdx.ix2 k f))))
                  (fun f => x3 (ValueIdx.ix1 f))))
                (fun k f => x4 (ValueIdx.ix2 k f))))
            (fun f => x5 (ValueIdx.ix1 f)) n f := by
  rw [val_main_v64_apply, scat2_at, bias2_at]
  rfl

end Cert.ReferenceIdeal.RefValue

end
-- ==== Proof.Pre.EdgeRange.lean ====
/- The precondition's last conjunct, decoded: every source word of the 1,600,000 given edges, read signed, is a node number
   (0 ≤ w < 100000). The predicate's result is an `and` of the finiteness tests with a reduce-by-`and` over the edges of
   (w ≥ 0) and (w < 100000), where w is row 0 of the edge array, sliced and reshaped to a vector. -/
import proofs.«158984_j43568148250937_1_alg».proof.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.PureOps.Ideal

noncomputable section

namespace Cert.Pre_finite_inputs.Hand

open Idealize.ShloMosaic Cert.Pre_finite_inputs

variable [Cert.Pre_finite_inputs.Facts]
open Cert.Pre_finite_inputs.Facts

/-- Row 0 of the edge array, sliced out and reshaped to a vector, read at edge `e`. -/
theorem srcRow_apply (a1 : IVec S2x1600000 32) (e : Fin 1600000) :
    shapeCast S1600000 (extractStridedSlice S1x1600000 ![0, 0] a1 slices_S2x1600000_S1x1600000_0_0) shapeCasts_S1x1600000_S1600000
        (ValueIdx.ix1 e) = a1 (ValueIdx.ix2 (0 : Fin 2) e) := by
  rw [shapeCast_apply _ _ (ValueIdx.ix1 e) (ValueIdx.ix2 (0 : Fin 1) e) (by
        rw [Shape.rowMajor_val_two, Shape.rowMajor_val_one]; simp [ValueIdx.ix2, ValueIdx.ix1])]
  exact extractStridedSlice_apply _ _ _ _ (ValueIdx.ix2 (0 : Fin 2) e) (fun a => by
    match a with
    | ⟨0, _⟩ => rfl
    | ⟨1, _⟩ => simp [ValueIdx.ix2])

/-- Under the precondition every source word of a given edge is a node number. -/
theorem src_in_range (a0 : FVec Ideal S100000x256 .f32) (a1 : IVec S2x1600000 32) (a2 : FVec Ideal S256x128 .f32)
    (a3 : FVec Ideal S128 .f32) (a4 : FVec Ideal S128x64 .f32) (a5 : FVec Ideal S64 .f32)
    (h : fn (F := Ideal) a0 a1 a2 a3 a4 a5 = fun _ => 1#1) (e : Fin 1600000) :
    0 ≤ (a1 (ValueIdx.ix2 (0 : Fin 2) e)).toInt ∧ (a1 (ValueIdx.ix2 (0 : Fin 2) e)).toInt < 100000 := by
  haveI : Subsingleton S_.Idx := ⟨fun a b => funext fun d => d.elim0⟩
  have h0 := congrFun h ValueIdx.ix0
  dsimp only [fn, fn_part1] at h0
  have h33 := (IntOp.andi_eq_one.mp h0).2
  have h32 := Host.reduce_andi_all _ _ _ _ _ h33 (ValueIdx.ix1 e)
  obtain ⟨hge, hlt⟩ := IntOp.andi_eq_one.mp h32
  have hge' := IntOp.cmpi_sge.mp hge
  have hlt' := IntOp.cmpi_slt.mp hlt
  rw [srcRow_apply] at hge' hlt'
  simp only [broadcastInDim, constantI] at hge' hlt'
  constructor
  · simpa using hge'
  · simpa using hlt'

end Cert.Pre_finite_inputs.Hand

end
-- ==== Proof.Bridge.lean ====
import proofs.«158984_j43568148250937_1_alg».proof.Defs
import proofs.«158984_j43568148250937_1_alg».proof.Proof.KI.Whole
import proofs.«158984_j43568148250937_1_alg».proof.Proof.KI.Host
import proofs.«158984_j43568148250937_1_alg».proof.Proof.Ref.RefVal
import proofs.«158984_j43568148250937_1_alg».proof.Proof.Pre.EdgeRange
import proofs.«158984_j43568148250937_1_alg».proof.Proof.Math.Spec
import Idealize.ShloMosaic.Lib.StableHlo.Predicate
import Idealize.ShloMosaic.Lib.ValueIdx

set_option maxRecDepth 16384

noncomputable section

namespace Cert.Proof.Bridge

open Idealize.ShloMosaic Idealize.ShloMosaic.TcCoe Idealize.SL.Sem
open Idealize.ShloMosaic.ValueIdx
open Cert.ReferenceIdeal.RefValue Cert.KernelIdeal.Hand
open scoped BigOperators

/-! # The two programs compute one function

The reference reads an edge's table row at the position its source word names and sums, at a node, the edges whose target
word is the node's number. The kernel program compares every node number with every index word, over an edge list
padded to whole blocks by edges that point one past the last node. Under the precondition every source word is a node
number, so the comparison picks exactly the row the reference reads; a padding edge's target equals no node number, so
it adds nothing anywhere. The two programs compute their index words and weights by the same host operations from the
same edge array, so layer by layer their results are equal. -/

/-- A node number's word is `w` exactly when `w`, read signed, is that number. -/
theorem word_eq_iff (n : ℕ) (hn : n < 100000) (w : BitVec 32) : Cert.Spec.word n = w ↔ w.toInt = (n : ℤ) := by
  constructor
  · intro h
    rw [← h]
    exact StableHlo.Predicate.toInt_ofNat_small n (by omega)
  · intro h
    apply BitVec.eq_of_toInt_eq
    rw [h]
    exact StableHlo.Predicate.toInt_ofNat_small n (by omega)

section Edges

variable [Cert.Pre_finite_inputs.Facts]
variable (m : (ℓ : Loc Cert.KernelIdeal.nD Cert.KernelIdeal.τ Cert.KernelIdeal.sig) → Buf (Elt Ideal) ℓ)
  (c : Dev Cert.KernelIdeal.nD)

/-- The edge array the kernel program is launched with. -/
abbrev edges : (⟨Cert.ReferenceIdeal.S2x1600000, .i32⟩ : BufTy).Contents (Elt Ideal) :=
  m ((c.tc : Thread Cert.KernelIdeal.nD Cert.KernelIdeal.τ).loc Cert.KernelIdeal.main_arg1)

/-- Every edge's source word, read signed, is a node number: a given edge's by the precondition, a self loop's because
    it is the loop's own node number. -/
theorem rowWord_range (hpre : Cert.Pre_KernelIdeal m) (e : Fin 1700000) :
    0 ≤ (rowWord (edges m c) e).toInt ∧ (rowWord (edges m c) e).toInt < 100000 := by
  rw [rowWord_eq]
  by_cases h : e.val < 1600000
  · rw [dif_pos h]
    exact Cert.Pre_finite_inputs.Hand.src_in_range _ _ _ _ _ _ (hpre c) ⟨e.val, h⟩
  · rw [dif_neg h]
    have he := e.isLt
    rw [StableHlo.Predicate.toInt_ofNat_small _ (by omega)]
    omega

/-- A true edge's padded source word is the word of the position the reference reads. -/
theorem src_word (hpre : Cert.Pre_KernelIdeal m) (e : Fin 1700000) :
    srcP m c (Fin.castAdd 1888 e) = Cert.Spec.word (posRef (edges m c) e).val := by
  obtain ⟨h0, h1⟩ := rowWord_range m c hpre e
  refine Eq.trans ?_ (posRef_word (edges m c) e h0 h1)
  have he : (Fin.castAdd 1888 e).val < 1700000 := e.isLt
  refine (row2_apply m c (Fin.castAdd 1888 e)).trans ?_
  rw [dif_pos he, srcWords_eq]
  rfl

/-- A true edge's padded weight is the reference's weight. -/
theorem wt_eq (e : Fin 1700000) : wtP m c (Fin.castAdd 1888 e) = wtRef (edges m c) e := by
  have he : (Fin.castAdd 1888 e).val < 1700000 := e.isLt
  refine (wt2_apply m c (Fin.castAdd 1888 e)).trans ?_
  rw [dif_pos he, weights_eq]
  rfl

/-- A padding edge's target word is the number one past the last node. -/
theorem pad_word (p : Fin 1888) : tgtP m c (Fin.natAdd 1700000 p) = Cert.Spec.word 100000 := by
  have hp : ¬ (Fin.natAdd 1700000 p).val < 1700000 := by rw [Fin.coe_natAdd]; omega
  refine (col2_apply m c (Fin.natAdd 1700000 p)).trans ?_
  rw [dif_neg hp]

/-- Node `n`'s word is a true edge's padded target word exactly when the edge lands on `n`. -/
theorem lands_iff (e : Fin 1700000) (n : Fin 100000) :
    Cert.Spec.word n.val = tgtP m c (Fin.castAdd 1888 e) ↔ landsRef (edges m c) e n := by
  have he : (Fin.castAdd 1888 e).val < 1700000 := e.isLt
  have ht : tgtP m c (Fin.castAdd 1888 e) = colWord (edges m c) e := by
    refine (col2_apply m c (Fin.castAdd 1888 e)).trans ?_
    rw [dif_pos he, tgtWords_eq]
    rfl
  rw [ht]
  exact word_eq_iff n.val n.isLt _

/-- One layer's aggregation: comparing over the padded edge list is reading by position and summing by landing. -/
theorem layer (hpre : Cert.Pre_KernelIdeal m) {M : ℕ} (tab : Fin 100000 → Fin M → EReal) (b : Fin M → EReal) :
    Cert.Spec.scatterCmp (N := 100000) (tgtP m c) (Cert.Spec.gatherCmp (srcP m c) (wtP m c) tab) b
      = Cert.Spec.scatterOn (landsRef (edges m c))
          (Cert.Spec.gatherAt (posRef (edges m c)) (wtRef (edges m c)) tab) b :=
  Cert.Spec.aggregate_padded (E := 1700000) (P := 1888) (N := 100000) (by decide) (srcP m c) (tgtP m c) (wtP m c)
    (posRef (edges m c)) (landsRef (edges m c)) (wtRef (edges m c))
    (src_word m c hpre) (wt_eq m c) (pad_word m c) (lands_iff m c) tab b

end Edges

/-- THE JOIN: under the precondition, from memories that agree on the arguments, the reference's result is the kernel
    program's. -/
theorem result_eq [Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (c : Dev Cert.KernelIdeal.nD) :
    Cert.ReferenceIdeal.Value.res_main_v64 (F := Ideal) m' c = Cert.KernelIdeal.Hand.out5 m c := by
  obtain ⟨h0, h1, h2, h3, h4, h5⟩ := hag c
  refine funext fun (i : Cert.ReferenceIdeal.S100000x64.Idx) => ?_
  obtain ⟨n, f, rfl⟩ : ∃ (n : Fin 100000) (f : Fin 64), i = ix2 n f := ⟨i 0, i 1, eq_ix2 i⟩
  refine (congrFun (Cert.ReferenceIdeal.Read.val_main_v64_eq (F := Ideal) m' c) (ix2 n f)).trans ?_
  rw [h0, h1, h2, h3, h4, h5]
  refine (ref_value _ _ _ _ _ _ n f).trans ?_
  refine Eq.trans ?_ (kernel_value m c n f).symm
  rw [layer m c hpre, layer m c hpre]

end Cert.Proof.Bridge

end
-- ==== Proof.lean ====
/- A two-layer graph convolution, computed two ways, is one function of its inputs on the extended reals.

   Each layer is  h = x · W  (a dense map), then for every edge (s → t, weight w) the row  w · h[s]  (a gather), then for every
   node the sum of the rows of the edges that end at it, plus a bias (a scatter); between the layers a rectifier. The edges
   are the given ones followed by one self loop per node; the weight of an edge is the product of the inverse square roots of
   its end points' in-degrees, computed by the same host operations on both sides.

   The kernel program pads the edge list to a multiple of its edge block with edges whose words are the number of nodes
   itself (no node), and writes the gather and the scatter as products with 0/1 matrices made by comparing every node number
   with an edge's index word, accumulated block by block over a grid: a gather over the node blocks, a scatter over the edge
   blocks. The reference reads the row at the index (wrapped and clamped into the table) and adds the updates that land on a
   row. A sum of 0/1 multiples with exactly one 1 is the selected term, a sum of 0/1 multiples is the sum of the selected
   terms, a padding edge is selected by no node: so where every edge's SOURCE word is a node number — the precondition's
   conjunct on the first row of the edge array; a target word that is no node is dropped by both sides — the two agree.
   Only 0 · a = 0, 1 · a = a and the commutative-monoid laws of + are used, which hold at ±∞ too: finiteness is not needed.

   The frames: each of the six kernel regions runs to completion and leaves the arguments alone (the regions' records over the
   host side of the run); the reference's is its run with the result dropped. The idealization changed nothing but float
   formats, so there is no ledger entry to account for. -/
import proofs.«158984_j43568148250937_1_alg».proof.Defs
import proofs.«158984_j43568148250937_1_alg».proof.Proof.Gen.Kernel
import proofs.«158984_j43568148250937_1_alg».proof.Proof.Gen.KernelIdeal
import proofs.«158984_j43568148250937_1_alg».proof.Proof.Gen.ReferenceIdeal
import proofs.«158984_j43568148250937_1_alg».proof.Proof.Gen.Pre_finite_inputs
import proofs.«158984_j43568148250937_1_alg».proof.Proof.KB.RunPost
import proofs.«158984_j43568148250937_1_alg».proof.Proof.KI.RunPost
import proofs.«158984_j43568148250937_1_alg».proof.Proof.Ref.Run
import proofs.«158984_j43568148250937_1_alg».proof.Proof.Bridge
import Idealize.ShloMosaic.Adequacy
import Idealize.ShloMosaic.Init

noncomputable section

namespace Cert.Proof

open Idealize.ShloMosaic Idealize.SL.Sem

/-- The word-level kernel program runs to the end and leaves its arguments as launched. -/
theorem frame_kernel : Cert.frame_Kernel := fun m ρ _ => Cert.Kernel.Hand.frame_main (F := Bits) m ρ

/-- So does the idealized kernel program. -/
theorem frame_kernelIdeal : Cert.frame_KernelIdeal := fun m ρ _ => Cert.KernelIdeal.Hand.frame_main (F := Ideal) m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, under the precondition, the two idealized programs end with one result:
    the kernel program's run names its result, the reference's run names its own, and the two are equal index by index. -/
theorem algebraic : Cert.algebraic_KernelIdeal_ReferenceIdeal := by
  intro m ρ m' ρ' hpre hag
  refine ⟨fun c => Cert.KernelIdeal.Hand.out5 m c, Cert.KernelIdeal.Hand.run_main (F := Ideal) m ρ, ?_⟩
  exact (θ_run Cert.ReferenceIdeal.defs _ _).mono
    (fun _ h c => ⟨(h c).1.trans (Cert.Proof.Bridge.result_eq m m' hpre hag c), (h c).2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
